-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v57)) (v1 : (c : Dev Cert.KernelIdeal.nD) → Buf (Elt Ideal) ((c.tc : Thread Cert.KernelIdeal.nD Cert.KernelIdeal.τ).loc Cert.KernelIdeal.main_v49_0)) (v2 : (c : Dev Cert.KernelIdeal.nD) → Buf (Elt Ideal) ((c.tc : Thread Cert.KernelIdeal.nD Cert.KernelIdeal.τ).loc Cert.KernelIdeal.main_v49_1)) (v3 : (c : Dev Cert.KernelIdeal.nD) → Buf (Elt Ideal) ((c.tc : Thread Cert.KernelIdeal.nD Cert.KernelIdeal.τ).loc Cert.KernelIdeal.main_v65)) (v4 : (c : Dev Cert.KernelIdeal.nD) → Buf (Elt Ideal) ((c.tc : Thread Cert.KernelIdeal.nD Cert.KernelIdeal.τ).loc Cert.KernelIdeal.main_v49_2)) (v5 : (c : Dev Cert.KernelIdeal.nD) → Buf (Elt Ideal) ((c.tc : Thread Cert.KernelIdeal.nD Cert.KernelIdeal.τ).loc Cert.KernelIdeal.main_v49_3)) (v6 : (c : Dev Cert.KernelIdeal.nD) → Buf (Elt Ideal) ((c.tc : Thread Cert.KernelIdeal.nD Cert.KernelIdeal.τ).loc Cert.KernelIdeal.main_v73)) (v7 : (c : Dev Cert.KernelIdeal.nD) → Buf (Elt Ideal) ((c.tc : Thread Cert.KernelIdeal.nD Cert.KernelIdeal.τ).loc Cert.KernelIdeal.main_v49_4)) (v8 : (c : Dev Cert.KernelIdeal.nD) → Buf (Elt Ideal) ((c.tc : Thread Cert.KernelIdeal.nD Cert.KernelIdeal.τ).loc Cert.KernelIdeal.main_v49_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_v49_0) = v1 c
          ∧ r.2.mem ((c.tc : Thread Cert.KernelIdeal.nD Cert.KernelIdeal.τ).loc Cert.KernelIdeal.main_v49_1) = v2 c
          ∧ r.2.mem ((c.tc : Thread Cert.KernelIdeal.nD Cert.KernelIdeal.τ).loc Cert.KernelIdeal.main_v65) = v3 c
          ∧ r.2.mem ((c.tc : Thread Cert.KernelIdeal.nD Cert.KernelIdeal.τ).loc Cert.KernelIdeal.main_v49_2) = v4 c
          ∧ r.2.mem ((c.tc : Thread Cert.KernelIdeal.nD Cert.KernelIdeal.τ).loc Cert.KernelIdeal.main_v49_3) = v5 c
          ∧ r.2.mem ((c.tc : Thread Cert.KernelIdeal.nD Cert.KernelIdeal.τ).loc Cert.KernelIdeal.main_v73) = v6 c
          ∧ r.2.mem ((c.tc : Thread Cert.KernelIdeal.nD Cert.KernelIdeal.τ).loc Cert.KernelIdeal.main_v49_4) = v7 c
          ∧ r.2.mem ((c.tc : Thread Cert.KernelIdeal.nD Cert.KernelIdeal.τ).loc Cert.KernelIdeal.main_v49_5) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_v92) = v3 c
          ∧ r.2.mem ((c.tc : Thread Cert.ReferenceIdeal.nD Cert.ReferenceIdeal.τ).loc Cert.ReferenceIdeal.main_v85) = v4 c
          ∧ r.2.mem ((c.tc : Thread Cert.ReferenceIdeal.nD Cert.ReferenceIdeal.τ).loc Cert.ReferenceIdeal.main_v81) = v5 c
          ∧ r.2.mem ((c.tc : Thread Cert.ReferenceIdeal.nD Cert.ReferenceIdeal.τ).loc Cert.ReferenceIdeal.main_v135) = v6 c
          ∧ r.2.mem ((c.tc : Thread Cert.ReferenceIdeal.nD Cert.ReferenceIdeal.τ).loc Cert.ReferenceIdeal.main_v128) = v7 c
          ∧ r.2.mem ((c.tc : Thread Cert.ReferenceIdeal.nD Cert.ReferenceIdeal.τ).loc Cert.ReferenceIdeal.main_v124) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S3 : Shape := ⟨1, ![3]⟩
abbrev S512x1024 : Shape := ⟨2, ![512, 1024]⟩
abbrev S512 : Shape := ⟨1, ![512]⟩
abbrev S512x512 : Shape := ⟨2, ![512, 512]⟩
abbrev S1024x512 : Shape := ⟨2, ![1024, 512]⟩
abbrev S1024 : Shape := ⟨1, ![1024]⟩
abbrev S256x1024 : Shape := ⟨2, ![256, 1024]⟩
abbrev S256 : Shape := ⟨1, ![256]⟩
abbrev S1x256 : Shape := ⟨2, ![1, 256]⟩
abbrev S1 : Shape := ⟨1, ![1]⟩
abbrev S20x1024 : Shape := ⟨2, ![20, 1024]⟩
abbrev S20 : Shape := ⟨1, ![20]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_
  bcast_S_S256x1024 : S_.BroadcastsInDim S256x1024 (![] : Fin 0 → Fin S256x1024.rank)
  reducesTo_S256x1024_S_d0_1 : S256x1024.ReducesTo [0, 1] S_
  bcast_S_S256 : S_.BroadcastsInDim S256 (![] : Fin 0 → Fin S256.rank)
  reducesTo_S256_S_d0 : S256.ReducesTo [0] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_
  bcast_S_S20x1024 : S_.BroadcastsInDim S20x1024 (![] : Fin 0 → Fin S20x1024.rank)
  reducesTo_S20x1024_S_d0_1 : S20x1024.ReducesTo [0, 1] S_
  bcast_S_S20 : S_.BroadcastsInDim S20 (![] : Fin 0 → Fin S20.rank)
  reducesTo_S20_S_d0 : S20.ReducesTo [0] S_
  bcast_S_S3 : S_.BroadcastsInDim S3 (![] : Fin 0 → Fin S3.rank)
  reducesTo_S3_S_d0 : S3.ReducesTo [0] S_

variable [Facts]

def fn_part5 {F : FTy → Type} [FloatOps F] (main_arg1 : IVec S3 32) (main_arg19 : FVec F S20x1024 .f32) (main_v83 : IVec S_ 1) (main_v84 : FVec F S1x256 .f32) (main_cst_32 : FVec F S_ .f32) : IVec S_ 1 :=
  let main_v85 : FVec F S1x256 .f32 := broadcastInDim S1x256 ![] bcast_S_S1x256 main_cst_32
  let main_v86 : IVec S1x256 1 := cmpf .olt main_v84 main_v85
  let main_c_33 : IVec S_ 1 := constantI S_ 1 1#1
  let main_v87 : IVec S_ 1 := (fun x v => Host.reduce IntOp.andi x v reducesTo_S1x256_S_d0_1 h_S_) main_v86 main_c_33
  let main_v88 : IVec S_ 1 := andi main_v83 main_v87
  let main_v89 : FVec F S20x1024 .f32 := Host.absf main_arg19
  let main_cst_34 : FVec F S_ .f32 := constant S_ .f32 0x7F800000#32
  let main_v90 : FVec F S20x1024 .f32 := broadcastInDim S20x1024 ![] bcast_S_S20x1024 main_cst_34
  let main_v91 : IVec S20x1024 1 := cmpf .olt main_v89 main_v90
  let main_c_35 : IVec S_ 1 := constantI S_ 1 1#1
  let main_v92 : IVec S_ 1 := (fun x v => Host.reduce IntOp.andi x v reducesTo_S20x1024_S_d0_1 h_S_) main_v91 main_c_35
  let main_v93 : IVec S_ 1 := andi main_v88 main_v92
  let main_c_36 : IVec S_ 32 := constantI S_ 32 0#32
  let main_v94 : IVec S3 32 := broadcastInDim S3 ![] bcast_S_S3 main_c_36
  let main_v95 : IVec S3 1 := cmpi .sge main_arg1 main_v94
  let main_c_37 : IVec S_ 1 := constantI S_ 1 1#1
  let main_v96 : IVec S_ 1 := (fun x v => Host.reduce IntOp.andi x v reducesTo_S3_S_d0 h_S_) main_v95 main_c_37
  let main_v97 : IVec S_ 1 := andi main_v93 main_v96
  main_v97

def fn_part4 {F : FTy → Type} [FloatOps F] (main_arg1 : IVec S3 32) (main_arg15 : FVec F S1x256 .f32) (main_arg16 : FVec F S20x1024 .f32) (main_arg17 : FVec F S256x1024 .f32) (main_arg18 : FVec F S1x256 .f32) (main_arg19 : FVec F S20x1024 .f32) (main_v63 : IVec S_ 1) (main_v67 : IVec S_ 1) : IVec S_ 1 :=
  let main_v68 : IVec S_ 1 := andi main_v63 main_v67
  let main_v69 : FVec F S1x256 .f32 := Host.absf main_arg15
  let main_cst_26 : FVec F S_ .f32 := constant S_ .f32 0x7F800000#32
  let main_v70 : FVec F S1x256 .f32 := broadcastInDim S1x256 ![] bcast_S_S1x256 main_cst_26
  let main_v71 : IVec S1x256 1 := cmpf .olt main_v69 main_v70
  let main_c_27 : IVec S_ 1 := constantI S_ 1 1#1
  let main_v72 : IVec S_ 1 := (fun x v => Host.reduce IntOp.andi x v reducesTo_S1x256_S_d0_1 h_S_) main_v71 main_c_27
  let main_v73 : IVec S_ 1 := andi main_v68 main_v72
  let main_v74 : FVec F S20x1024 .f32 := Host.absf main_arg16
  let main_cst_28 : FVec F S_ .f32 := constant S_ .f32 0x7F800000#32
  let main_v75 : FVec F S20x1024 .f32 := broadcastInDim S20x1024 ![] bcast_S_S20x1024 main_cst_28
  let main_v76 : IVec S20x1024 1 := cmpf .olt main_v74 main_v75
  let main_c_29 : IVec S_ 1 := constantI S_ 1 1#1
  let main_v77 : IVec S_ 1 := (fun x v => Host.reduce IntOp.andi x v reducesTo_S20x1024_S_d0_1 h_S_) main_v76 main_c_29
  let main_v78 : IVec S_ 1 := andi main_v73 main_v77
  let main_v79 : FVec F S256x1024 .f32 := Host.absf main_arg17
  let main_cst_30 : FVec F S_ .f32 := constant S_ .f32 0x7F800000#32
  let main_v80 : FVec F S256x1024 .f32 := broadcastInDim S256x1024 ![] bcast_S_S256x1024 main_cst_30
  let main_v81 : IVec S256x1024 1 := cmpf .olt main_v79 main_v80
  let main_c_31 : IVec S_ 1 := constantI S_ 1 1#1
  let main_v82 : IVec S_ 1 := (fun x v => Host.reduce IntOp.andi x v reducesTo_S256x1024_S_d0_1 h_S_) main_v81 main_c_31
  let main_v83 : IVec S_ 1 := andi main_v78 main_v82
  let main_v84 : FVec F S1x256 .f32 := Host.absf main_arg18
  let main_cst_32 : FVec F S_ .f32 := constant S_ .f32 0x7F800000#32
  fn_part5 (F := F) main_arg1 main_arg19 main_v83 main_v84 main_cst_32

def fn_part3 {F : FTy → Type} [FloatOps F] (main_arg1 : IVec S3 32) (main_arg12 : FVec F S20x1024 .f32) (main_arg13 : FVec F S20 .f32) (main_arg14 : FVec F S256x1024 .f32) (main_arg15 : FVec F S1x256 .f32) (main_arg16 : FVec F S20x1024 .f32) (main_arg17 : FVec F S256x1024 .f32) (main_arg18 : FVec F S1x256 .f32) (main_arg19 : FVec F S20x1024 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S20x1024 .f32 := Host.absf main_arg12
  let main_cst_20 : FVec F S_ .f32 := constant S_ .f32 0x7F800000#32
  let main_v55 : FVec F S20x1024 .f32 := broadcastInDim S20x1024 ![] bcast_S_S20x1024 main_cst_20
  let main_v56 : IVec S20x1024 1 := cmpf .olt main_v54 main_v55
  let main_c_21 : IVec S_ 1 := constantI S_ 1 1#1
  let main_v57 : IVec S_ 1 := (fun x v => Host.reduce IntOp.andi x v reducesTo_S20x1024_S_d0_1 h_S_) main_v56 main_c_21
  let main_v58 : IVec S_ 1 := andi main_v53 main_v57
  let main_v59 : FVec F S20 .f32 := Host.absf main_arg13
  let main_cst_22 : FVec F S_ .f32 := constant S_ .f32 0x7F800000#32
  let main_v60 : FVec F S20 .f32 := broadcastInDim S20 ![] bcast_S_S20 main_cst_22
  let main_v61 : IVec S20 1 := cmpf .olt main_v59 main_v60
  let main_c_23 : IVec S_ 1 := constantI S_ 1 1#1
  let main_v62 : IVec S_ 1 := (fun x v => Host.reduce IntOp.andi x v reducesTo_S20_S_d0 h_S_) main_v61 main_c_23
  let main_v63 : IVec S_ 1 := andi main_v58 main_v62
  let main_v64 : FVec F S256x1024 .f32 := Host.absf main_arg14
  let main_cst_24 : FVec F S_ .f32 := constant S_ .f32 0x7F800000#32
  let main_v65 : FVec F S256x1024 .f32 := broadcastInDim S256x1024 ![] bcast_S_S256x1024 main_cst_24
  let main_v66 : IVec S256x1024 1 := cmpf .olt main_v64 main_v65
  let main_c_25 : IVec S_ 1 := constantI S_ 1 1#1
  let main_v67 : IVec S_ 1 := (fun x v => Host.reduce IntOp.andi x v reducesTo_S256x1024_S_d0_1 h_S_) main_v66 main_c_25
  fn_part4 (F := F) main_arg1 main_arg15 main_arg16 main_arg17 main_arg18 main_arg19 main_v63 main_v67

def fn_part2 {F : FTy → Type} [FloatOps F] (main_arg1 : IVec S3 32) (main_arg8 : FVec F S256x1024 .f32) (main_arg9 : FVec F S256 .f32) (main_arg10 : FVec F S1x256 .f32) (main_arg11 : FVec F S1 .f32) (main_arg12 : FVec F S20x1024 .f32) (main_arg13 : FVec F S20 .f32) (main_arg14 : FVec F S256x1024 .f32) (main_arg15 : FVec F S1x256 .f32) (main_arg16 : FVec F S20x1024 .f32) (main_arg17 : FVec F S256x1024 .f32) (main_arg18 : FVec F S1x256 .f32) (main_arg19 : FVec F S20x1024 .f32) (main_v33 : IVec S_ 1) : IVec S_ 1 :=
  let main_v34 : FVec F S256x1024 .f32 := Host.absf main_arg8
  let main_cst_12 : FVec F S_ .f32 := constant S_ .f32 0x7F800000#32
  let main_v35 : FVec F S256x1024 .f32 := broadcastInDim S256x1024 ![] bcast_S_S256x1024 main_cst_12
  let main_v36 : IVec S256x1024 1 := cmpf .olt main_v34 main_v35
  let main_c_13 : IVec S_ 1 := constantI S_ 1 1#1
  let main_v37 : IVec S_ 1 := (fun x v => Host.reduce IntOp.andi x v reducesTo_S256x1024_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S1x256 .f32 := Host.absf main_arg10
  let main_cst_16 : FVec F S_ .f32 := constant S_ .f32 0x7F800000#32
  let main_v45 : FVec F S1x256 .f32 := broadcastInDim S1x256 ![] bcast_S_S1x256 main_cst_16
  let main_v46 : IVec S1x256 1 := cmpf .olt main_v44 main_v45
  let main_c_17 : IVec S_ 1 := constantI S_ 1 1#1
  let main_v47 : IVec S_ 1 := (fun x v => Host.reduce IntOp.andi x v reducesTo_S1x256_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_arg1 main_arg12 main_arg13 main_arg14 main_arg15 main_arg16 main_arg17 main_arg18 main_arg19 main_v48 main_v49 main_v50

def fn_part1 {F : FTy → Type} [FloatOps F] (main_arg1 : IVec S3 32) (main_arg5 : FVec F S512 .f32) (main_arg6 : FVec F S1024x512 .f32) (main_arg7 : FVec F S1024 .f32) (main_arg8 : FVec F S256x1024 .f32) (main_arg9 : FVec F S256 .f32) (main_arg10 : FVec F S1x256 .f32) (main_arg11 : FVec F S1 .f32) (main_arg12 : FVec F S20x1024 .f32) (main_arg13 : FVec F S20 .f32) (main_arg14 : FVec F S256x1024 .f32) (main_arg15 : FVec F S1x256 .f32) (main_arg16 : FVec F S20x1024 .f32) (main_arg17 : FVec F S256x1024 .f32) (main_arg18 : FVec F S1x256 .f32) (main_arg19 : FVec F S20x1024 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S1024x512 .f32 := Host.absf main_arg6
  let main_cst_8 : FVec F S_ .f32 := constant S_ .f32 0x7F800000#32
  let main_v25 : FVec F S1024x512 .f32 := broadcastInDim S1024x512 ![] bcast_S_S1024x512 main_cst_8
  let main_v26 : IVec S1024x512 1 := cmpf .olt main_v24 main_v25
  let main_c_9 : IVec S_ 1 := constantI S_ 1 1#1
  let main_v27 : IVec S_ 1 := (fun x v => Host.reduce IntOp.andi x v reducesTo_S1024x512_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg1 main_arg8 main_arg9 main_arg10 main_arg11 main_arg12 main_arg13 main_arg14 main_arg15 main_arg16 main_arg17 main_arg18 main_arg19 main_v33

def fn {F : FTy → Type} [FloatOps F] (main_arg0 : FVec F S32768x1024 .f32) (main_arg1 : IVec S3 32) (main_arg2 : FVec F S512x1024 .f32) (main_arg3 : FVec F S512 .f32) (main_arg4 : FVec F S512x512 .f32) (main_arg5 : FVec F S512 .f32) (main_arg6 : FVec F S1024x512 .f32) (main_arg7 : FVec F S1024 .f32) (main_arg8 : FVec F S256x1024 .f32) (main_arg9 : FVec F S256 .f32) (main_arg10 : FVec F S1x256 .f32) (main_arg11 : FVec F S1 .f32) (main_arg12 : FVec F S20x1024 .f32) (main_arg13 : FVec F S20 .f32) (main_arg14 : FVec F S256x1024 .f32) (main_arg15 : FVec F S1x256 .f32) (main_arg16 : FVec F S20x1024 .f32) (main_arg17 : FVec F S256x1024 .f32) (main_arg18 : FVec F S1x256 .f32) (main_arg19 : FVec F S20x1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S512x1024 .f32 := Host.absf main_arg2
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg4
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg1 main_arg5 main_arg6 main_arg7 main_arg8 main_arg9 main_arg10 main_arg11 main_arg12 main_arg13 main_arg14 main_arg15 main_arg16 main_arg17 main_arg18 main_arg19 main_v13 main_v16
-- ==== Kernel.lean ====
abbrev S32768x1024 : Shape := ⟨2, ![32768, 1024]⟩
abbrev S3 : Shape := ⟨1, ![3]⟩
abbrev S512x1024 : Shape := ⟨2, ![512, 1024]⟩
abbrev S512 : Shape := ⟨1, ![512]⟩
abbrev S512x512 : Shape := ⟨2, ![512, 512]⟩
abbrev S1024x512 : Shape := ⟨2, ![1024, 512]⟩
abbrev S1024 : Shape := ⟨1, ![1024]⟩
abbrev S256x1024 : Shape := ⟨2, ![256, 1024]⟩
abbrev S256 : Shape := ⟨1, ![256]⟩
abbrev S1x256 : Shape := ⟨2, ![1, 256]⟩
abbrev S1 : Shape := ⟨1, ![1]⟩
abbrev S20x1024 : Shape := ⟨2, ![20, 1024]⟩
abbrev S20 : Shape := ⟨1, ![20]⟩
abbrev S1024x256 : Shape := ⟨2, ![1024, 256]⟩
abbrev S1024x20 : Shape := ⟨2, ![1024, 20]⟩
abbrev S1x512 : Shape := ⟨2, ![1, 512]⟩
abbrev S1x1024 : Shape := ⟨2, ![1, 1024]⟩
abbrev S1x1 : Shape := ⟨2, ![1, 1]⟩
abbrev S1x20 : Shape := ⟨2, ![1, 20]⟩
abbrev S_ : Shape := ⟨0, ![]⟩
abbrev S32768x20 : Shape := ⟨2, ![32768, 20]⟩
abbrev S32768x1 : Shape := ⟨2, ![32768, 1]⟩
abbrev S128x1x20 : Shape := ⟨3, ![128, 1, 20]⟩
abbrev S256x20 : Shape := ⟨2, ![256, 20]⟩
abbrev S256x1 : Shape := ⟨2, ![256, 1]⟩
abbrev S1x1x20 : Shape := ⟨3, ![1, 1, 20]⟩
abbrev S256x512 : Shape := ⟨2, ![256, 512]⟩
abbrev S256x256 : Shape := ⟨2, ![256, 256]⟩
abbrev S128x20 : Shape := ⟨2, ![128, 20]⟩

abbrev nBuf : Space → Nat
  | .hbm => 274
  | .vmem => 47
  | .smem => 0
  | _ => 0

abbrev hbmTy0_0 (i : Nat) : BufTy := match i % 128 with
  | 0 => ⟨S32768x1024, .f32⟩
  | 1 => ⟨S3, .i32⟩
  | 2 => ⟨S512x1024, .f32⟩
  | 3 => ⟨S512, .f32⟩
  | 4 => ⟨S512x512, .f32⟩
  | 5 => ⟨S512, .f32⟩
  | 6 => ⟨S1024x512, .f32⟩
  | 7 => ⟨S1024, .f32⟩
  | 8 => ⟨S256x1024, .f32⟩
  | 9 => ⟨S256, .f32⟩
  | 10 => ⟨S1x256, .f32⟩
  | 11 => ⟨S1, .f32⟩
  | 12 => ⟨S20x1024, .f32⟩
  | 13 => ⟨S20, .f32⟩
  | 14 => ⟨S256x1024, .f32⟩
  | 15 => ⟨S1x256, .f32⟩
  | 16 => ⟨S20x1024, .f32⟩
  | 17 => ⟨S256x1024, .f32⟩
  | 18 => ⟨S1x256, .f32⟩
  | 19 => ⟨S20x1024, .f32⟩
  | 20 => ⟨S1024x512, .f32⟩
  | 21 => ⟨S1024x512, .bf16⟩
  | 22 => ⟨S512x512, .f32⟩
  | 23 => ⟨S512x512, .bf16⟩
  | 24 => ⟨S512x1024, .f32⟩
  | 25 => ⟨S512x1024, .bf16⟩
  | 26 => ⟨S1024x256, .f32⟩
  | 27 => ⟨S1024x256, .bf16⟩
  | 28 => ⟨S1024x20, .f32⟩
  | 29 => ⟨S1024x20, .bf16⟩
  | 30 => ⟨S1024x256, .f32⟩
  | 31 => ⟨S1024x256, .bf16⟩
  | 32 => ⟨S1024x20, .f32⟩
  | 33 => ⟨S1024x20, .bf16⟩
  | 34 => ⟨S1024x256, .f32⟩
  | 35 => ⟨S1024x256, .bf16⟩
  | 36 => ⟨S1024x20, .f32⟩
  | 37 => ⟨S1024x20, .bf16⟩
  | 38 => ⟨S1x512, .f32⟩
  | 39 => ⟨S1x512, .f32⟩
  | 40 => ⟨S1x1024, .f32⟩
  | 41 => ⟨S1x256, .f32⟩
  | 42 => ⟨S1x1, .f32⟩
  | 43 => ⟨S1x20, .f32⟩
  | 44 => ⟨S_, .i32⟩
  | 45 => ⟨S_, .i32⟩
  | 46 => ⟨S_, .i32⟩
  | 47 => ⟨S3, .i32⟩
  | 48 => ⟨S3, .i32⟩
  | 49 => ⟨S_, .i32⟩
  | 50 => ⟨S3, .i32⟩
  | 51 => ⟨S3, .i32⟩
  | 52 => ⟨S1, .i32⟩
  | 53 => ⟨S_, .i32⟩
  | 54 => ⟨S_, .i32⟩
  | 55 => ⟨S_, .i1⟩
  | 56 => ⟨S_, .i32⟩
  | 57 => ⟨S_, .i32⟩
  | 58 => ⟨S_, .i32⟩
  | 59 => ⟨S1, .i32⟩
  | 60 => ⟨S1, .i32⟩
  | 61 => ⟨S_, .i32⟩
  | 62 => ⟨S1, .i32⟩
  | 63 => ⟨S1, .i1⟩
  | 64 => ⟨S1, .i1⟩
  | 65 => ⟨S1, .i1⟩
  | 66 => ⟨S_, .i1⟩
  | 67 => ⟨S_, .i1⟩
  | 68 => ⟨S1024, .f32⟩
  | 69 => ⟨S1024, .i1⟩
  | 70 => ⟨S_, .f32⟩
  | 71 => ⟨S1024, .f32⟩
  | 72 => ⟨S1024, .f32⟩
  | 73 => ⟨S1x1024, .f32⟩
  | 74 => ⟨S_, .i32⟩
  | 75 => ⟨S_, .i1⟩
  | 76 => ⟨S_, .i32⟩
  | 77 => ⟨S_, .i32⟩
  | 78 => ⟨S_, .i32⟩
  | 79 => ⟨S1, .i32⟩
  | 80 => ⟨S1, .i32⟩
  | 81 => ⟨S_, .i32⟩
  | 82 => ⟨S1, .i32⟩
  | 83 => ⟨S1, .i1⟩
  | 84 => ⟨S1, .i1⟩
  | 85 => ⟨S1, .i1⟩
  | 86 => ⟨S_, .i1⟩
  | 87 => ⟨S_, .i1⟩
  | 88 => ⟨S_, .f32⟩
  | 89 => ⟨S_, .f32⟩
  | 90 => ⟨S_, .f32⟩
  | 91 => ⟨S1x1, .f32⟩
  | 92 => ⟨S_, .i32⟩
  | 93 => ⟨S_, .i1⟩
  | 94 => ⟨S_, .i32⟩
  | 95 => ⟨S_, .i32⟩
  | 96 => ⟨S_, .i32⟩
  | 97 => ⟨S1, .i32⟩
  | 98 => ⟨S1, .i32⟩
  | 99 => ⟨S_, .i32⟩
  | 100 => ⟨S1, .i32⟩
  | 101 => ⟨S1, .i1⟩
  | 102 => ⟨S1, .i1⟩
  | 103 => ⟨S1, .i1⟩
  | 104 => ⟨S_, .i1⟩
  | 105 => ⟨S_, .i1⟩
  | 106 => ⟨S1024, .f32⟩
  | 107 => ⟨S1024, .i1⟩
  | 108 => ⟨S_, .f32⟩
  | 109 => ⟨S1024, .f32⟩
  | 110 => ⟨S1024, .f32⟩
  | 111 => ⟨S1x1024, .f32⟩
  | 112 => ⟨S1, .i32⟩
  | 113 => ⟨S_, .i32⟩
  | 114 => ⟨S_, .i32⟩
  | 115 => ⟨S_, .i1⟩
  | 116 => ⟨S_, .i32⟩
  | 117 => ⟨S_, .i32⟩
  | 118 => ⟨S_, .i32⟩
  | 119 => ⟨S1, .i32⟩
  | 120 => ⟨S1, .i32⟩
  | 121 => ⟨S_, .i32⟩
  | 122 => ⟨S1, .i32⟩
  | 123 => ⟨S1, .i1⟩
  | 124 => ⟨S1, .i1⟩
  | 125 => ⟨S1, .i1⟩
  | 126 => ⟨S_, .i1⟩
  | 127 => ⟨S_, .i1⟩
  | _ => ⟨S32768x1024, .f32⟩

abbrev hbmTy0_1 (i : Nat) : BufTy := match i % 128 with
  | 0 => ⟨S1024, .f32⟩
  | 1 => ⟨S1024, .i1⟩
  | 2 => ⟨S_, .f32⟩
  | 3 => ⟨S1024, .f32⟩
  | 4 => ⟨S1024, .f32⟩
  | 5 => ⟨S1x1024, .f32⟩
  | 6 => ⟨S_, .i32⟩
  | 7 => ⟨S_, .i1⟩
  | 8 => ⟨S_, .i32⟩
  | 9 => ⟨S_, .i32⟩
  | 10 => ⟨S_, .i32⟩
  | 11 => ⟨S1, .i32⟩
  | 12 => ⟨S1, .i32⟩
  | 13 => ⟨S_, .i32⟩
  | 14 => ⟨S1, .i32⟩
  | 15 => ⟨S1, .i1⟩
  | 16 => ⟨S1, .i1⟩
  | 17 => ⟨S1, .i1⟩
  | 18 => ⟨S_, .i1⟩
  | 19 => ⟨S_, .i1⟩
  | 20 => ⟨S_, .f32⟩
  | 21 => ⟨S_, .f32⟩
  | 22 => ⟨S_, .f32⟩
  | 23 => ⟨S1x1, .f32⟩
  | 24 => ⟨S_, .i32⟩
  | 25 => ⟨S_, .i1⟩
  | 26 => ⟨S_, .i32⟩
  | 27 => ⟨S_, .i32⟩
  | 28 => ⟨S_, .i32⟩
  | 29 => ⟨S1, .i32⟩
  | 30 => ⟨S1, .i32⟩
  | 31 => ⟨S_, .i32⟩
  | 32 => ⟨S1, .i32⟩
  | 33 => ⟨S1, .i1⟩
  | 34 => ⟨S1, .i1⟩
  | 35 => ⟨S1, .i1⟩
  | 36 => ⟨S_, .i1⟩
  | 37 => ⟨S_, .i1⟩
  | 38 => ⟨S1024, .f32⟩
  | 39 => ⟨S1024, .i1⟩
  | 40 => ⟨S_, .f32⟩
  | 41 => ⟨S1024, .f32⟩
  | 42 => ⟨S1024, .f32⟩
  | 43 => ⟨S1x1024, .f32⟩
  | 44 => ⟨S1, .i32⟩
  | 45 => ⟨S_, .i32⟩
  | 46 => ⟨S_, .i32⟩
  | 47 => ⟨S_, .i1⟩
  | 48 => ⟨S_, .i32⟩
  | 49 => ⟨S_, .i32⟩
  | 50 => ⟨S_, .i32⟩
  | 51 => ⟨S1, .i32⟩
  | 52 => ⟨S1, .i32⟩
  | 53 => ⟨S_, .i32⟩
  | 54 => ⟨S1, .i32⟩
  | 55 => ⟨S1, .i1⟩
  | 56 => ⟨S1, .i1⟩
  | 57 => ⟨S1, .i1⟩
  | 58 => ⟨S_, .i1⟩
  | 59 => ⟨S_, .i1⟩
  | 60 => ⟨S1024, .f32⟩
  | 61 => ⟨S1024, .i1⟩
  | 62 => ⟨S_, .f32⟩
  | 63 => ⟨S1024, .f32⟩
  | 64 => ⟨S1024, .f32⟩
  | 65 => ⟨S1x1024, .f32⟩
  | 66 => ⟨S_, .i32⟩
  | 67 => ⟨S_, .i1⟩
  | 68 => ⟨S_, .i32⟩
  | 69 => ⟨S_, .i32⟩
  | 70 => ⟨S_, .i32⟩
  | 71 => ⟨S1, .i32⟩
  | 72 => ⟨S1, .i32⟩
  | 73 => ⟨S_, .i32⟩
  | 74 => ⟨S1, .i32⟩
  | 75 => ⟨S1, .i1⟩
  | 76 => ⟨S1, .i1⟩
  | 77 => ⟨S1, .i1⟩
  | 78 => ⟨S_, .i1⟩
  | 79 => ⟨S_, .i1⟩
  | 80 => ⟨S_, .f32⟩
  | 81 => ⟨S_, .f32⟩
  | 82 => ⟨S_, .f32⟩
  | 83 => ⟨S1x1, .f32⟩
  | 84 => ⟨S_, .i32⟩
  | 85 => ⟨S_, .i1⟩
  | 86 => ⟨S_, .i32⟩
  | 87 => ⟨S_, .i32⟩
  | 88 => ⟨S_, .i32⟩
  | 89 => ⟨S1, .i32⟩
  | 90 => ⟨S1, .i32⟩
  | 91 => ⟨S_, .i32⟩
  | 92 => ⟨S1, .i32⟩
  | 93 => ⟨S1, .i1⟩
  | 94 => ⟨S1, .i1⟩
  | 95 => ⟨S1, .i1⟩
  | 96 => ⟨S_, .i1⟩
  | 97 => ⟨S_, .i1⟩
  | 98 => ⟨S1024, .f32⟩
  | 99 => ⟨S1024, .i1⟩
  | 100 => ⟨S_, .f32⟩
  | 101 => ⟨S1024, .f32⟩
  | 102 => ⟨S1024, .f32⟩
  | 103 => ⟨S1x1024, .f32⟩
  | 104 => ⟨S32768x1024, .f32⟩
  | 105 => ⟨S32768x20, .f32⟩
  | 106 => ⟨S32768x20, .f32⟩
  | 107 => ⟨S32768x1, .f32⟩
  | 108 => ⟨S32768x20, .f32⟩
  | 109 => ⟨S32768x1, .f32⟩
  | 110 => ⟨S128x1x20, .f32⟩
  | 111 => ⟨S128x1x20, .f32⟩
  | 112 => ⟨S128x1x20, .f32⟩
  | 113 => ⟨S128x20, .f32⟩
  | 114 => ⟨S_, .f32⟩
  | 115 => ⟨S20, .f32⟩
  | 116 => ⟨S20, .f32⟩
  | 117 => ⟨S20, .f32⟩
  | 118 => ⟨S_, .f32⟩
  | 119 => ⟨S20, .f32⟩
  | 120 => ⟨S20, .f32⟩
  | 121 => ⟨S_, .f32⟩
  | 122 => ⟨S20, .f32⟩
  | 123 => ⟨S20, .f32⟩
  | 124 => ⟨S128x20, .f32⟩
  | 125 => ⟨S_, .f32⟩
  | 126 => ⟨S20, .f32⟩
  | 127 => ⟨S20, .f32⟩
  | _ => ⟨S32768x1024, .f32⟩

abbrev hbmTy0_2 (i : Nat) : BufTy := match i % 128 with
  | 0 => ⟨S20, .f32⟩
  | 1 => ⟨S_, .f32⟩
  | 2 => ⟨S20, .f32⟩
  | 3 => ⟨S20, .f32⟩
  | 4 => ⟨S_, .f32⟩
  | 5 => ⟨S20, .f32⟩
  | 6 => ⟨S20, .f32⟩
  | 7 => ⟨S128x20, .f32⟩
  | 8 => ⟨S_, .f32⟩
  | 9 => ⟨S20, .f32⟩
  | 10 => ⟨S20, .f32⟩
  | 11 => ⟨S20, .f32⟩
  | 12 => ⟨S_, .f32⟩
  | 13 => ⟨S20, .f32⟩
  | 14 => ⟨S20, .f32⟩
  | 15 => ⟨S_, .f32⟩
  | 16 => ⟨S20, .f32⟩
  | 17 => ⟨S20, .f32⟩
  | _ => ⟨S32768x1024, .f32⟩

abbrev hbmTy (i : Nat) : BufTy := match i / 128 with
  | 0 => hbmTy0_0 i
  | 1 => hbmTy0_1 i
  | 2 => hbmTy0_2 i
  | _ => ⟨S32768x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S1024x512, .bf16⟩
  | .local _ .vmem, ⟨3, _⟩ => ⟨S1x512, .f32⟩
  | .local _ .vmem, ⟨4, _⟩ => ⟨S512x512, .bf16⟩
  | .local _ .vmem, ⟨5, _⟩ => ⟨S1x512, .f32⟩
  | .local _ .vmem, ⟨6, _⟩ => ⟨S512x1024, .bf16⟩
  | .local _ .vmem, ⟨7, _⟩ => ⟨S1x1024, .f32⟩
  | .local _ .vmem, ⟨8, _⟩ => ⟨S1024x256, .bf16⟩
  | .local _ .vmem, ⟨9, _⟩ => ⟨S1x256, .f32⟩
  | .local _ .vmem, ⟨10, _⟩ => ⟨S1x256, .f32⟩
  | .local _ .vmem, ⟨11, _⟩ => ⟨S1x1, .f32⟩
  | .local _ .vmem, ⟨12, _⟩ => ⟨S1024x20, .bf16⟩
  | .local _ .vmem, ⟨13, _⟩ => ⟨S1x20, .f32⟩
  | .local _ .vmem, ⟨14, _⟩ => ⟨S1024x256, .bf16⟩
  | .local _ .vmem, ⟨15, _⟩ => ⟨S1x256, .f32⟩
  | .local _ .vmem, ⟨16, _⟩ => ⟨S1024x20, .bf16⟩
  | .local _ .vmem, ⟨17, _⟩ => ⟨S1024x256, .bf16⟩
  | .local _ .vmem, ⟨18, _⟩ => ⟨S1x256, .f32⟩
  | .local _ .vmem, ⟨19, _⟩ => ⟨S1024x20, .bf16⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S1x1, .f32⟩
  | .local _ .vmem, ⟨24, _⟩ => ⟨S1x1, .f32⟩
  | .local _ .vmem, ⟨25, _⟩ => ⟨S1x1, .f32⟩
  | .local _ .vmem, ⟨26, _⟩ => ⟨S1x1024, .f32⟩
  | .local _ .vmem, ⟨27, _⟩ => ⟨S1x1024, .f32⟩
  | .local _ .vmem, ⟨28, _⟩ => ⟨S1x1024, .f32⟩
  | .local _ .vmem, ⟨29, _⟩ => ⟨S256x1024, .f32⟩
  | .local _ .vmem, ⟨30, _⟩ => ⟨S256x1024, .f32⟩
  | .local _ .vmem, ⟨31, _⟩ => ⟨S256x20, .f32⟩
  | .local _ .vmem, ⟨32, _⟩ => ⟨S256x20, .f32⟩
  | .local _ .vmem, ⟨33, _⟩ => ⟨S256x20, .f32⟩
  | .local _ .vmem, ⟨34, _⟩ => ⟨S256x20, .f32⟩
  | .local _ .vmem, ⟨35, _⟩ => ⟨S256x1, .f32⟩
  | .local _ .vmem, ⟨36, _⟩ => ⟨S256x1, .f32⟩
  | .local _ .vmem, ⟨37, _⟩ => ⟨S256x20, .f32⟩
  | .local _ .vmem, ⟨38, _⟩ => ⟨S256x20, .f32⟩
  | .local _ .vmem, ⟨39, _⟩ => ⟨S256x1, .f32⟩
  | .local _ .vmem, ⟨40, _⟩ => ⟨S256x1, .f32⟩
  | .local _ .vmem, ⟨41, _⟩ => ⟨S1x1x20, .f32⟩
  | .local _ .vmem, ⟨42, _⟩ => ⟨S1x1x20, .f32⟩
  | .local _ .vmem, ⟨43, _⟩ => ⟨S1x1x20, .f32⟩
  | .local _ .vmem, ⟨44, _⟩ => ⟨S1x1x20, .f32⟩
  | .local _ .vmem, ⟨45, _⟩ => ⟨S1x1x20, .f32⟩
  | .local _ .vmem, ⟨46, _⟩ => ⟨S1x1x20, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c : Ref sig .tc := ⟨.hbm, 44, rfl⟩
abbrev main_c_0 : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_call1_c : Ref sig .tc := ⟨.hbm, 54, rfl⟩
abbrev main_call1_v0 : Ref sig .tc := ⟨.hbm, 55, rfl⟩
abbrev main_call1_c_0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_c_1 : Ref sig .tc := ⟨.hbm, 60, rfl⟩
abbrev main_call1_c_2 : Ref sig .tc := ⟨.hbm, 61, rfl⟩
abbrev main_call1_v4 : Ref sig .tc := ⟨.hbm, 62, rfl⟩
abbrev main_call1_v5 : Ref sig .tc := ⟨.hbm, 63, rfl⟩
abbrev main_call1_v6 : Ref sig .tc := ⟨.hbm, 64, rfl⟩
abbrev main_call1_v7 : Ref sig .tc := ⟨.hbm, 65, rfl⟩
abbrev main_call1_c_3 : Ref sig .tc := ⟨.hbm, 66, rfl⟩
abbrev main_call1_v8 : Ref sig .tc := ⟨.hbm, 67, rfl⟩
abbrev main_call1_v9 : Ref sig .tc := ⟨.hbm, 68, rfl⟩
abbrev main_call1_v10 : Ref sig .tc := ⟨.hbm, 69, rfl⟩
abbrev main_call1_cst : Ref sig .tc := ⟨.hbm, 70, rfl⟩
abbrev main_call1_v11 : Ref sig .tc := ⟨.hbm, 71, rfl⟩
abbrev main_v27 : Ref sig .tc := ⟨.hbm, 72, rfl⟩
abbrev main_v28 : Ref sig .tc := ⟨.hbm, 73, rfl⟩
abbrev main_call2_c : Ref sig .tc := ⟨.hbm, 74, rfl⟩
abbrev main_call2_v0 : Ref sig .tc := ⟨.hbm, 75, rfl⟩
abbrev main_call2_c_0 : Ref sig .tc := ⟨.hbm, 76, rfl⟩
abbrev main_call2_v1 : Ref sig .tc := ⟨.hbm, 77, rfl⟩
abbrev main_call2_v2 : Ref sig .tc := ⟨.hbm, 78, rfl⟩
abbrev main_call2_v3 : Ref sig .tc := ⟨.hbm, 79, rfl⟩
abbrev main_call2_c_1 : Ref sig .tc := ⟨.hbm, 80, rfl⟩
abbrev main_call2_c_2 : Ref sig .tc := ⟨.hbm, 81, rfl⟩
abbrev main_call2_v4 : Ref sig .tc := ⟨.hbm, 82, rfl⟩
abbrev main_call2_v5 : Ref sig .tc := ⟨.hbm, 83, rfl⟩
abbrev main_call2_v6 : Ref sig .tc := ⟨.hbm, 84, rfl⟩
abbrev main_call2_v7 : Ref sig .tc := ⟨.hbm, 85, rfl⟩
abbrev main_call2_c_3 : Ref sig .tc := ⟨.hbm, 86, rfl⟩
abbrev main_call2_v8 : Ref sig .tc := ⟨.hbm, 87, rfl⟩
abbrev main_call2_v9 : Ref sig .tc := ⟨.hbm, 88, rfl⟩
abbrev main_call2_cst : Ref sig .tc := ⟨.hbm, 89, rfl⟩
abbrev main_v29 : Ref sig .tc := ⟨.hbm, 90, rfl⟩
abbrev main_v30 : Ref sig .tc := ⟨.hbm, 91, rfl⟩
abbrev main_call3_c : Ref sig .tc := ⟨.hbm, 92, rfl⟩
abbrev main_call3_v0 : Ref sig .tc := ⟨.hbm, 93, rfl⟩
abbrev main_call3_c_0 : Ref sig .tc := ⟨.hbm, 94, rfl⟩
abbrev main_call3_v1 : Ref sig .tc := ⟨.hbm, 95, rfl⟩
abbrev main_call3_v2 : Ref sig .tc := ⟨.hbm, 96, rfl⟩
abbrev main_call3_v3 : Ref sig .tc := ⟨.hbm, 97, rfl⟩
abbrev main_call3_c_1 : Ref sig .tc := ⟨.hbm, 98, rfl⟩
abbrev main_call3_c_2 : Ref sig .tc := ⟨.hbm, 99, rfl⟩
abbrev main_call3_v4 : Ref sig .tc := ⟨.hbm, 100, rfl⟩
abbrev main_call3_v5 : Ref sig .tc := ⟨.hbm, 101, rfl⟩
abbrev main_call3_v6 : Ref sig .tc := ⟨.hbm, 102, rfl⟩
abbrev main_call3_v7 : Ref sig .tc := ⟨.hbm, 103, rfl⟩
abbrev main_call3_c_3 : Ref sig .tc := ⟨.hbm, 104, rfl⟩
abbrev main_call3_v8 : Ref sig .tc := ⟨.hbm, 105, rfl⟩
abbrev main_call3_v9 : Ref sig .tc := ⟨.hbm, 106, rfl⟩
abbrev main_call3_v10 : Ref sig .tc := ⟨.hbm, 107, rfl⟩
abbrev main_call3_cst : Ref sig .tc := ⟨.hbm, 108, rfl⟩
abbrev main_call3_v11 : Ref sig .tc := ⟨.hbm, 109, rfl⟩
abbrev main_v31 : Ref sig .tc := ⟨.hbm, 110, rfl⟩
abbrev main_v32 : Ref sig .tc := ⟨.hbm, 111, rfl⟩
abbrev main_v33 : Ref sig .tc := ⟨.hbm, 112, rfl⟩
abbrev main_v34 : Ref sig .tc := ⟨.hbm, 113, rfl⟩
abbrev main_call4_c : Ref sig .tc := ⟨.hbm, 114, rfl⟩
abbrev main_call4_v0 : Ref sig .tc := ⟨.hbm, 115, rfl⟩
abbrev main_call4_c_0 : Ref sig .tc := ⟨.hbm, 116, rfl⟩
abbrev main_call4_v1 : Ref sig .tc := ⟨.hbm, 117, rfl⟩
abbrev main_call4_v2 : Ref sig .tc := ⟨.hbm, 118, rfl⟩
abbrev main_call4_v3 : Ref sig .tc := ⟨.hbm, 119, rfl⟩
abbrev main_call4_c_1 : Ref sig .tc := ⟨.hbm, 120, rfl⟩
abbrev main_call4_c_2 : Ref sig .tc := ⟨.hbm, 121, rfl⟩
abbrev main_call4_v4 : Ref sig .tc := ⟨.hbm, 122, rfl⟩
abbrev main_call4_v5 : Ref sig .tc := ⟨.hbm, 123, rfl⟩
abbrev main_call4_v6 : Ref sig .tc := ⟨.hbm, 124, rfl⟩
abbrev main_call4_v7 : Ref sig .tc := ⟨.hbm, 125, rfl⟩
abbrev main_call4_c_3 : Ref sig .tc := ⟨.hbm, 126, rfl⟩
abbrev main_call4_v8 : Ref sig .tc := ⟨.hbm, 127, rfl⟩
abbrev main_call4_v9 : Ref sig .tc := ⟨.hbm, 128, rfl⟩
abbrev main_call4_v10 : Ref sig .tc := ⟨.hbm, 129, rfl⟩
abbrev main_call4_cst : Ref sig .tc := ⟨.hbm, 130, rfl⟩
abbrev main_call4_v11 : Ref sig .tc := ⟨.hbm, 131, rfl⟩
abbrev main_v35 : Ref sig .tc := ⟨.hbm, 132, rfl⟩
abbrev main_v36 : Ref sig .tc := ⟨.hbm, 133, rfl⟩
abbrev main_call5_c : Ref sig .tc := ⟨.hbm, 134, rfl⟩
abbrev main_call5_v0 : Ref sig .tc := ⟨.hbm, 135, rfl⟩
abbrev main_call5_c_0 : Ref sig .tc := ⟨.hbm, 136, rfl⟩
abbrev main_call5_v1 : Ref sig .tc := ⟨.hbm, 137, rfl⟩
abbrev main_call5_v2 : Ref sig .tc := ⟨.hbm, 138, rfl⟩
abbrev main_call5_v3 : Ref sig .tc := ⟨.hbm, 139, rfl⟩
abbrev main_call5_c_1 : Ref sig .tc := ⟨.hbm, 140, rfl⟩
abbrev main_call5_c_2 : Ref sig .tc := ⟨.hbm, 141, rfl⟩
abbrev main_call5_v4 : Ref sig .tc := ⟨.hbm, 142, rfl⟩
abbrev main_call5_v5 : Ref sig .tc := ⟨.hbm, 143, rfl⟩
abbrev main_call5_v6 : Ref sig .tc := ⟨.hbm, 144, rfl⟩
abbrev main_call5_v7 : Ref sig .tc := ⟨.hbm, 145, rfl⟩
abbrev main_call5_c_3 : Ref sig .tc := ⟨.hbm, 146, rfl⟩
abbrev main_call5_v8 : Ref sig .tc := ⟨.hbm, 147, rfl⟩
abbrev main_call5_v9 : Ref sig .tc := ⟨.hbm, 148, rfl⟩
abbrev main_call5_cst : Ref sig .tc := ⟨.hbm, 149, rfl⟩
abbrev main_v37 : Ref sig .tc := ⟨.hbm, 150, rfl⟩
abbrev main_v38 : Ref sig .tc := ⟨.hbm, 151, rfl⟩
abbrev main_call6_c : Ref sig .tc := ⟨.hbm, 152, rfl⟩
abbrev main_call6_v0 : Ref sig .tc := ⟨.hbm, 153, rfl⟩
abbrev main_call6_c_0 : Ref sig .tc := ⟨.hbm, 154, rfl⟩
abbrev main_call6_v1 : Ref sig .tc := ⟨.hbm, 155, rfl⟩
abbrev main_call6_v2 : Ref sig .tc := ⟨.hbm, 156, rfl⟩
abbrev main_call6_v3 : Ref sig .tc := ⟨.hbm, 157, rfl⟩
abbrev main_call6_c_1 : Ref sig .tc := ⟨.hbm, 158, rfl⟩
abbrev main_call6_c_2 : Ref sig .tc := ⟨.hbm, 159, rfl⟩
abbrev main_call6_v4 : Ref sig .tc := ⟨.hbm, 160, rfl⟩
abbrev main_call6_v5 : Ref sig .tc := ⟨.hbm, 161, rfl⟩
abbrev main_call6_v6 : Ref sig .tc := ⟨.hbm, 162, rfl⟩
abbrev main_call6_v7 : Ref sig .tc := ⟨.hbm, 163, rfl⟩
abbrev main_call6_c_3 : Ref sig .tc := ⟨.hbm, 164, rfl⟩
abbrev main_call6_v8 : Ref sig .tc := ⟨.hbm, 165, rfl⟩
abbrev main_call6_v9 : Ref sig .tc := ⟨.hbm, 166, rfl⟩
abbrev main_call6_v10 : Ref sig .tc := ⟨.hbm, 167, rfl⟩
abbrev main_call6_cst : Ref sig .tc := ⟨.hbm, 168, rfl⟩
abbrev main_call6_v11 : Ref sig .tc := ⟨.hbm, 169, rfl⟩
abbrev main_v39 : Ref sig .tc := ⟨.hbm, 170, rfl⟩
abbrev main_v40 : Ref sig .tc := ⟨.hbm, 171, rfl⟩
abbrev main_v41 : Ref sig .tc := ⟨.hbm, 172, rfl⟩
abbrev main_v42 : Ref sig .tc := ⟨.hbm, 173, rfl⟩
abbrev main_call7_c : Ref sig .tc := ⟨.hbm, 174, rfl⟩
abbrev main_call7_v0 : Ref sig .tc := ⟨.hbm, 175, rfl⟩
abbrev main_call7_c_0 : Ref sig .tc := ⟨.hbm, 176, rfl⟩
abbrev main_call7_v1 : Ref sig .tc := ⟨.hbm, 177, rfl⟩
abbrev main_call7_v2 : Ref sig .tc := ⟨.hbm, 178, rfl⟩
abbrev main_call7_v3 : Ref sig .tc := ⟨.hbm, 179, rfl⟩
abbrev main_call7_c_1 : Ref sig .tc := ⟨.hbm, 180, rfl⟩
abbrev main_call7_c_2 : Ref sig .tc := ⟨.hbm, 181, rfl⟩
abbrev main_call7_v4 : Ref sig .tc := ⟨.hbm, 182, rfl⟩
abbrev main_call7_v5 : Ref sig .tc := ⟨.hbm, 183, rfl⟩
abbrev main_call7_v6 : Ref sig .tc := ⟨.hbm, 184, rfl⟩
abbrev main_call7_v7 : Ref sig .tc := ⟨.hbm, 185, rfl⟩
abbrev main_call7_c_3 : Ref sig .tc := ⟨.hbm, 186, rfl⟩
abbrev main_call7_v8 : Ref sig .tc := ⟨.hbm, 187, rfl⟩
abbrev main_call7_v9 : Ref sig .tc := ⟨.hbm, 188, rfl⟩
abbrev main_call7_v10 : Ref sig .tc := ⟨.hbm, 189, rfl⟩
abbrev main_call7_cst : Ref sig .tc := ⟨.hbm, 190, rfl⟩
abbrev main_call7_v11 : Ref sig .tc := ⟨.hbm, 191, rfl⟩
abbrev main_v43 : Ref sig .tc := ⟨.hbm, 192, rfl⟩
abbrev main_v44 : Ref sig .tc := ⟨.hbm, 193, rfl⟩
abbrev main_call8_c : Ref sig .tc := ⟨.hbm, 194, rfl⟩
abbrev main_call8_v0 : Ref sig .tc := ⟨.hbm, 195, rfl⟩
abbrev main_call8_c_0 : Ref sig .tc := ⟨.hbm, 196, rfl⟩
abbrev main_call8_v1 : Ref sig .tc := ⟨.hbm, 197, rfl⟩
abbrev main_call8_v2 : Ref sig .tc := ⟨.hbm, 198, rfl⟩
abbrev main_call8_v3 : Ref sig .tc := ⟨.hbm, 199, rfl⟩
abbrev main_call8_c_1 : Ref sig .tc := ⟨.hbm, 200, rfl⟩
abbrev main_call8_c_2 : Ref sig .tc := ⟨.hbm, 201, rfl⟩
abbrev main_call8_v4 : Ref sig .tc := ⟨.hbm, 202, rfl⟩
abbrev main_call8_v5 : Ref sig .tc := ⟨.hbm, 203, rfl⟩
abbrev main_call8_v6 : Ref sig .tc := ⟨.hbm, 204, rfl⟩
abbrev main_call8_v7 : Ref sig .tc := ⟨.hbm, 205, rfl⟩
abbrev main_call8_c_3 : Ref sig .tc := ⟨.hbm, 206, rfl⟩
abbrev main_call8_v8 : Ref sig .tc := ⟨.hbm, 207, rfl⟩
abbrev main_call8_v9 : Ref sig .tc := ⟨.hbm, 208, rfl⟩
abbrev main_call8_cst : Ref sig .tc := ⟨.hbm, 209, rfl⟩
abbrev main_v45 : Ref sig .tc := ⟨.hbm, 210, rfl⟩
abbrev main_v46 : Ref sig .tc := ⟨.hbm, 211, rfl⟩
abbrev main_call9_c : Ref sig .tc := ⟨.hbm, 212, rfl⟩
abbrev main_call9_v0 : Ref sig .tc := ⟨.hbm, 213, rfl⟩
abbrev main_call9_c_0 : Ref sig .tc := ⟨.hbm, 214, rfl⟩
abbrev main_call9_v1 : Ref sig .tc := ⟨.hbm, 215, rfl⟩
abbrev main_call9_v2 : Ref sig .tc := ⟨.hbm, 216, rfl⟩
abbrev main_call9_v3 : Ref sig .tc := ⟨.hbm, 217, rfl⟩
abbrev main_call9_c_1 : Ref sig .tc := ⟨.hbm, 218, rfl⟩
abbrev main_call9_c_2 : Ref sig .tc := ⟨.hbm, 219, rfl⟩
abbrev main_call9_v4 : Ref sig .tc := ⟨.hbm, 220, rfl⟩
abbrev main_call9_v5 : Ref sig .tc := ⟨.hbm, 221, rfl⟩
abbrev main_call9_v6 : Ref sig .tc := ⟨.hbm, 222, rfl⟩
abbrev main_call9_v7 : Ref sig .tc := ⟨.hbm, 223, rfl⟩
abbrev main_call9_c_3 : Ref sig .tc := ⟨.hbm, 224, rfl⟩
abbrev main_call9_v8 : Ref sig .tc := ⟨.hbm, 225, rfl⟩
abbrev main_call9_v9 : Ref sig .tc := ⟨.hbm, 226, rfl⟩
abbrev main_call9_v10 : Ref sig .tc := ⟨.hbm, 227, rfl⟩
abbrev main_call9_cst : Ref sig .tc := ⟨.hbm, 228, rfl⟩
abbrev main_call9_v11 : Ref sig .tc := ⟨.hbm, 229, rfl⟩
abbrev main_v47 : Ref sig .tc := ⟨.hbm, 230, rfl⟩
abbrev main_v48 : Ref sig .tc := ⟨.hbm, 231, rfl⟩
abbrev main_v49_0 : Ref sig .tc := ⟨.hbm, 232, rfl⟩
abbrev main_v49_1 : Ref sig .tc := ⟨.hbm, 233, rfl⟩
abbrev main_v49_2 : Ref sig .tc := ⟨.hbm, 234, rfl⟩
abbrev main_v49_3 : Ref sig .tc := ⟨.hbm, 235, rfl⟩
abbrev main_v49_4 : Ref sig .tc := ⟨.hbm, 236, rfl⟩
abbrev main_v49_5 : Ref sig .tc := ⟨.hbm, 237, rfl⟩
abbrev main_v49_6 : Ref sig .tc := ⟨.hbm, 238, rfl⟩
abbrev main_v49_7 : Ref sig .tc := ⟨.hbm, 239, rfl⟩
abbrev main_v49_8 : Ref sig .tc := ⟨.hbm, 240, rfl⟩
abbrev main_v50 : Ref sig .tc := ⟨.hbm, 241, rfl⟩
abbrev main_cst : Ref sig .tc := ⟨.hbm, 242, rfl⟩
abbrev main_v51 : Ref sig .tc := ⟨.hbm, 243, rfl⟩
abbrev main_v52 : Ref sig .tc := ⟨.hbm, 244, rfl⟩
abbrev main_v53 : Ref sig .tc := ⟨.hbm, 245, rfl⟩
abbrev main_cst_1 : Ref sig .tc := ⟨.hbm, 246, rfl⟩
abbrev main_v54 : Ref sig .tc := ⟨.hbm, 247, rfl⟩
abbrev main_v55 : Ref sig .tc := ⟨.hbm, 248, rfl⟩
abbrev main_cst_2 : Ref sig .tc := ⟨.hbm, 249, rfl⟩
abbrev main_v56 : Ref sig .tc := ⟨.hbm, 250, rfl⟩
abbrev main_v57 : Ref sig .tc := ⟨.hbm, 251, rfl⟩
abbrev main_v58 : Ref sig .tc := ⟨.hbm, 252, rfl⟩
abbrev main_cst_3 : Ref sig .tc := ⟨.hbm, 253, rfl⟩
abbrev main_v59 : Ref sig .tc := ⟨.hbm, 254, rfl⟩
abbrev main_v60 : Ref sig .tc := ⟨.hbm, 255, rfl⟩
abbrev main_v61 : Ref sig .tc := ⟨.hbm, 256, rfl⟩
abbrev main_cst_4 : Ref sig .tc := ⟨.hbm, 257, rfl⟩
abbrev main_v62 : Ref sig .tc := ⟨.hbm, 258, rfl⟩
abbrev main_v63 : Ref sig .tc := ⟨.hbm, 259, rfl⟩
abbrev main_cst_5 : Ref sig .tc := ⟨.hbm, 260, rfl⟩
abbrev main_v64 : Ref sig .tc := ⟨.hbm, 261, rfl⟩
abbrev main_v65 : Ref sig .tc := ⟨.hbm, 262, rfl⟩
abbrev main_v66 : Ref sig .tc := ⟨.hbm, 263, rfl⟩
abbrev main_cst_6 : Ref sig .tc := ⟨.hbm, 264, rfl⟩
abbrev main_v67 : Ref sig .tc := ⟨.hbm, 265, rfl⟩
abbrev main_v68 : Ref sig .tc := ⟨.hbm, 266, rfl⟩
abbrev main_v69 : Ref sig .tc := ⟨.hbm, 267, rfl⟩
abbrev main_cst_7 : Ref sig .tc := ⟨.hbm, 268, rfl⟩
abbrev main_v70 : Ref sig .tc := ⟨.hbm, 269, rfl⟩
abbrev main_v71 : Ref sig .tc := ⟨.hbm, 270, rfl⟩
abbrev main_cst_8 : Ref sig .tc := ⟨.hbm, 271, rfl⟩
abbrev main_v72 : Ref sig .tc := ⟨.hbm, 272, rfl⟩
abbrev main_v73 : Ref sig .tc := ⟨.hbm, 273, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg24_0 : Ref sig .tc := ⟨.vmem, 25, rfl⟩
abbrev cc0_stg25_0 : Ref sig .tc := ⟨.vmem, 26, rfl⟩
abbrev cc0_stg26_0 : Ref sig .tc := ⟨.vmem, 27, rfl⟩
abbrev cc0_stg27_0 : Ref sig .tc := ⟨.vmem, 28, rfl⟩
abbrev cc0_stg28_0 : Ref sig .tc := ⟨.vmem, 29, rfl⟩
abbrev cc0_stg28_1 : Ref sig .tc := ⟨.vmem, 30, rfl⟩
abbrev cc0_stg29_0 : Ref sig .tc := ⟨.vmem, 31, rfl⟩
abbrev cc0_stg29_1 : Ref sig .tc := ⟨.vmem, 32, rfl⟩
abbrev cc0_stg30_0 : Ref sig .tc := ⟨.vmem, 33, rfl⟩
abbrev cc0_stg30_1 : Ref sig .tc := ⟨.vmem, 34, rfl⟩
abbrev cc0_stg31_0 : Ref sig .tc := ⟨.vmem, 35, rfl⟩
abbrev cc0_stg31_1 : Ref sig .tc := ⟨.vmem, 36, rfl⟩
abbrev cc0_stg32_0 : Ref sig .tc := ⟨.vmem, 37, rfl⟩
abbrev cc0_stg32_1 : Ref sig .tc := ⟨.vmem, 38, rfl⟩
abbrev cc0_stg33_0 : Ref sig .tc := ⟨.vmem, 39, rfl⟩
abbrev cc0_stg33_1 : Ref sig .tc := ⟨.vmem, 40, rfl⟩
abbrev cc0_stg34_0 : Ref sig .tc := ⟨.vmem, 41, rfl⟩
abbrev cc0_stg34_1 : Ref sig .tc := ⟨.vmem, 42, rfl⟩
abbrev cc0_stg35_0 : Ref sig .tc := ⟨.vmem, 43, rfl⟩
abbrev cc0_stg35_1 : Ref sig .tc := ⟨.vmem, 44, rfl⟩
abbrev cc0_stg36_0 : Ref sig .tc := ⟨.vmem, 45, rfl⟩
abbrev cc0_stg36_1 : Ref sig .tc := ⟨.vmem, 46, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem24_0 : DmaSem sig := 25
abbrev cc0_sem25_0 : DmaSem sig := 26
abbrev cc0_sem26_0 : DmaSem sig := 27
abbrev cc0_sem27_0 : DmaSem sig := 28
abbrev cc0_sem28_0 : DmaSem sig := 29
abbrev cc0_sem28_1 : DmaSem sig := 30
abbrev cc0_sem29_0 : DmaSem sig := 31
abbrev cc0_sem29_1 : DmaSem sig := 32
abbrev cc0_sem30_0 : DmaSem sig := 33
abbrev cc0_sem30_1 : DmaSem sig := 34
abbrev cc0_sem31_0 : DmaSem sig := 35
abbrev cc0_sem31_1 : DmaSem sig := 36
abbrev cc0_sem32_0 : DmaSem sig := 37
abbrev cc0_sem32_1 : DmaSem sig := 38
abbrev cc0_sem33_0 : DmaSem sig := 39
abbrev cc0_sem33_1 : DmaSem sig := 40
abbrev cc0_sem34_0 : DmaSem sig := 41
abbrev cc0_sem34_1 : DmaSem sig := 42
abbrev cc0_sem35_0 : DmaSem sig := 43
abbrev cc0_sem35_1 : DmaSem sig := 44
abbrev cc0_sem36_0 : DmaSem sig := 45
abbrev cc0_sem36_1 : DmaSem sig := 46

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_29 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_30 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_31 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_32 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_33 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_34 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_35 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_36 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x20 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x20 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x20 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x256 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1024x20 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x1 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x1 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x1 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 2 → Memref sig .tc .vmem S256x1024 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S256x20 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S256x20 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S256x1 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 2 → Memref sig .tc .vmem S256x20 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]

abbrev stage0_33 : Fin 2 → Memref sig .tc .vmem S256x1 .f32 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true]

abbrev stage0_34 : Fin 2 → Memref sig .tc .vmem S1x1x20 .f32 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true]

abbrev stage0_35 : Fin 2 → Memref sig .tc .vmem S1x1x20 .f32 := fun | 0 => Memref.whole cc0_stg35_0 | 1 => Memref.whole cc0_stg35_1 | ⟨_ + 2, h⟩ => absurd h (Nat.not_lt.2 (Nat.le_add_left _ _))
abbrev sem0_35 : Fin 2 → DmaSem sig := fun | 0 => cc0_sem35_0 | 1 => cc0_sem35_1 | ⟨_ + 2, h⟩ => absurd h (Nat.not_lt.2 (Nat.le_add_left _ _))
abbrev reads0_35 : Fin grid0.rank → Bool := ![true]

abbrev stage0_36 : Fin 2 → Memref sig .tc .vmem S1x1x20 .f32 := fun | 0 => Memref.whole cc0_stg36_0 | 1 => Memref.whole cc0_stg36_1 | ⟨_ + 2, h⟩ => absurd h (Nat.not_lt.2 (Nat.le_add_left _ _))
abbrev sem0_36 : Fin 2 → DmaSem sig := fun | 0 => cc0_sem36_0 | 1 => cc0_sem36_1 | ⟨_ + 2, h⟩ => absurd h (Nat.not_lt.2 (Nat.le_add_left _ _))
abbrev reads0_36 : Fin grid0.rank → Bool := ![true]

class Facts₀ : Prop where
  transposes_S512x1024_S1024x512_1_0 : S512x1024.Transposes [1, 0] S1024x512
  bitsLt_bf16_f32 : FTy.bits .bf16 < FTy.bits .f32
  transposes_S512x512_S512x512_1_0 : S512x512.Transposes [1, 0] S512x512
  transposes_S1024x512_S512x1024_1_0 : S1024x512.Transposes [1, 0] S512x1024
  transposes_S256x1024_S1024x256_1_0 : S256x1024.Transposes [1, 0] S1024x256
  transposes_S20x1024_S1024x20_1_0 : S20x1024.Transposes [1, 0] S1024x20
  shapeCasts_S512_S1x512 : S512.ShapeCasts S1x512
  shapeCasts_S1024_S1x1024 : S1024.ShapeCasts S1x1024
  shapeCasts_S256_S1x256 : S256.ShapeCasts S1x256
  shapeCasts_S1_S1x1 : S1.ShapeCasts S1x1
  shapeCasts_S20_S1x20 : S20.ShapeCasts S1x20
  bcast_S_S3 : S_.BroadcastsInDim S3 (![] : Fin 0 → Fin S3.rank)
  slices_S3_S1_0 : S3.Slices ![0] S1
  shapeCasts_S1_S_ : S1.ShapeCasts S_
  bcast_S_S1 : S_.BroadcastsInDim S1 (![] : Fin 0 → Fin S1.rank)
  reducesTo_S1_S_d0 : S1.ReducesTo [0] S_
  h_S_ : 0 < S_.numel
  bcast_S_S1024 : S_.BroadcastsInDim S1024 (![] : Fin 0 → Fin S1024.rank)
  shapeCasts_S_S1x1 : S_.ShapeCasts S1x1
  slices_S3_S1_1 : S3.Slices ![1] S1
  slices_S3_S1_2 : S3.Slices ![2] S1
  inb_S256x1024_S256x1024_0_0 : ∀ a, (![0, 0] : Fin 2 → Nat) a + S256x1024.size a ≤ S256x1024.size a
  h_S256x1024 : 0 < S256x1024.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  reduces_S256x256_S256 : S256x256.Reduces [1] S256
  shapeCasts_S256_S256x1 : S256.ShapeCasts S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  broadcasts_S256x1_S256x1024 : S256x1.Broadcasts S256x1024
  inb_S1024x20_S1024x20_0_0 : ∀ a, (![0, 0] : Fin 2 → Nat) a + S1024x20.size a ≤ S1024x20.size a
  h_S1024x20 : 0 < S1024x20.numel
  shapeCasts_S1024x20_S1024x20 : S1024x20.ShapeCasts S1024x20
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S1x20_S256x20 : S1x20.Broadcasts S256x20
  inb_S256x20_S256x20_0_0 : ∀ a, (![0, 0] : Fin 2 → Nat) a + S256x20.size a ≤ S256x20.size a
  h_S256x20 : 0 < S256x20.numel
  reduces_S256x20_S20 : S256x20.Reduces [0] S20
  shapeCasts_S1x20_S1x1x20 : S1x20.ShapeCasts S1x1x20
  inb_S1x1x20_S1x1x20_0_0_0 : ∀ a, (![0, 0, 0] : Fin 3 → Nat) a + S1x1x20.size a ≤ S1x1x20.size a
  h_S1x1x20 : 0 < S1x1x20.numel
  reduces_S256x1024_S256 : S256x1024.Reduces [1] S256
  inb_S256x1_S256x1_0_0 : ∀ a, (![0, 0] : Fin 2 → Nat) a + S256x1.size a ≤ S256x1.size a
  h_S256x1 : 0 < S256x1.numel
  shapeCasts_S128x1x20_S128x20 : S128x1x20.ShapeCasts S128x20
  reducesTo_S128x20_S20_d0 : S128x20.ReducesTo [0] S20
  bcast_S_S20 : S_.BroadcastsInDim S20 (![] : Fin 0 → Fin S20.rank)
  gather_S20x1024_S1_S1024_0_0_n_n_0_0_11024_wf : GatherDims.WF S20x1024 S1 S1024 [0] [0] [] [0] [] 0 ![1, 1024]
  gather_S20_S1_S__n_0_n_n_0_0_1_wf : GatherDims.WF S20 S1 S_ [] [0] [] [0] [] 0 ![1]
  dot_S256x1024_S1024x512_S256x512_1_0_0_1_n_n_wf : DotDims.WF S256x1024 S1024x512 S256x512 [1] [0] [0] [1] [] []
  dot_S256x512_S512x512_S256x512_1_0_0_1_n_n_wf : DotDims.WF S256x512 S512x512 S256x512 [1] [0] [0] [1] [] []
  dot_S256x512_S512x1024_S256x1024_1_0_0_1_n_n_wf : DotDims.WF S256x512 S512x1024 S256x1024 [1] [0] [0] [1] [] []
  dot_S256x1024_S1024x256_S256x256_1_0_0_1_n_n_wf : DotDims.WF S256x1024 S1024x256 S256x256 [1] [0] [0] [1] [] []
  dot_S256x1024_S1024x20_S256x20_1_0_0_1_n_n_wf : DotDims.WF S256x1024 S1024x20 S256x20 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S32768x1024.size a
  hwx0_0 : ∀ i : grid0.Coords, EltTy.bits .f32 = 32 ∨ (Rect.block (s := S32768x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .bf16 = 32 ∨ (Rect.block (s := S1024x512) S1024x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S512x1024.size a
  hwx0_5 : ∀ i : grid0.Coords, EltTy.bits .bf16 = 32 ∨ (Rect.block (s := S512x1024) S512x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x256.size a ≤ S1024x256.size a
  hwx0_7 : ∀ i : grid0.Coords, EltTy.bits .bf16 = 32 ∨ (Rect.block (s := S1024x256) S1024x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1024x20.size a ≤ S1024x20.size a
  hwx0_11 : ∀ i : grid0.Coords, EltTy.bits .bf16 = 32 ∨ (Rect.block (s := S1024x20) S1024x20.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x20.size a ≤ S1x20.size a
  hwx0_12 : ∀ i : grid0.Coords, EltTy.bits .f32 = 32 ∨ (Rect.block (s := S1x20) S1x20.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1024x256.size a ≤ S1024x256.size a
  hwx0_13 : ∀ i : grid0.Coords, EltTy.bits .bf16 = 32 ∨ (Rect.block (s := S1024x256) S1024x256.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x256.size a ≤ S1x256.size a
  hwx0_14 : ∀ i : grid0.Coords, EltTy.bits .f32 = 32 ∨ (Rect.block (s := S1x256) S1x256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1024x20.size a ≤ S1024x20.size a
  hwx0_15 : ∀ i : grid0.Coords, EltTy.bits .bf16 = 32 ∨ (Rect.block (s := S1024x20) S1024x20.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1024x256.size a ≤ S1024x256.size a
  hwx0_16 : ∀ i : grid0.Coords, EltTy.bits .bf16 = 32 ∨ (Rect.block (s := S1024x256) S1024x256.size (cc0_transform_16 i) (hinb0_16 i)).WholeWords (EltTy.packing .bf16)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x256.size a ≤ S1x256.size a
  hwx0_17 : ∀ i : grid0.Coords, EltTy.bits .f32 = 32 ∨ (Rect.block (s := S1x256) S1x256.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1024x20.size a ≤ S1024x20.size a
  hwx0_18 : ∀ i : grid0.Coords, EltTy.bits .bf16 = 32 ∨ (Rect.block (s := S1024x20) S1024x20.size (cc0_transform_18 i) (hinb0_18 i)).WholeWords (EltTy.packing .bf16)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1x1024.size a ≤ S1x1024.size a
  hwx0_19 : ∀ i : grid0.Coords, EltTy.bits .f32 = 32 ∨ (Rect.block (s := S1x1024) S1x1024.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1x1024.size a ≤ S1x1024.size a
  hwx0_20 : ∀ i : grid0.Coords, EltTy.bits .f32 = 32 ∨ (Rect.block (s := S1x1024) S1x1024.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S1x1024.size a ≤ S1x1024.size a
  hwx0_21 : ∀ i : grid0.Coords, EltTy.bits .f32 = 32 ∨ (Rect.block (s := S1x1024) S1x1024.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S1x1.size a ≤ S1x1.size a
  hwx0_22 : ∀ i : grid0.Coords, EltTy.bits .f32 = 32 ∨ (Rect.block (s := S1x1) S1x1.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S1x1.size a ≤ S1x1.size a
  hwx0_23 : ∀ i : grid0.Coords, EltTy.bits .f32 = 32 ∨ (Rect.block (s := S1x1) S1x1.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S1x1.size a ≤ S1x1.size a
  hwx0_24 : ∀ i : grid0.Coords, EltTy.bits .f32 = 32 ∨ (Rect.block (s := S1x1) S1x1.size (cc0_transform_24 i) (hinb0_24 i)).WholeWords (EltTy.packing .f32)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S1x1024.size a ≤ S1x1024.size a
  hwx0_25 : ∀ i : grid0.Coords, EltTy.bits .f32 = 32 ∨ (Rect.block (s := S1x1024) S1x1024.size (cc0_transform_25 i) (hinb0_25 i)).WholeWords (EltTy.packing .f32)
  hstage0_26 : ∀ j, (stage0_26 j).IsWhole
  nbuf0_26 : grid0.bufCount reads0_26 true = 1
  hreads0_26 : ∀ i i' : grid0.Coords, (∀ a, reads0_26 a = true → i a = i' a) → cc0_transform_26 i = cc0_transform_26 i'
  hinb0_26 : ∀ (i : grid0.Coords) a, (cc0_transform_26 i a + 1) * S1x1024.size a ≤ S1x1024.size a
  hwx0_26 : ∀ i : grid0.Coords, EltTy.bits .f32 = 32 ∨ (Rect.block (s := S1x1024) S1x1024.size (cc0_transform_26 i) (hinb0_26 i)).WholeWords (EltTy.packing .f32)
  hstage0_27 : ∀ j, (stage0_27 j).IsWhole
  nbuf0_27 : grid0.bufCount reads0_27 true = 1
  hreads0_27 : ∀ i i' : grid0.Coords, (∀ a, reads0_27 a = true → i a = i' a) → cc0_transform_27 i = cc0_transform_27 i'
  hinb0_27 : ∀ (i : grid0.Coords) a, (cc0_transform_27 i a + 1) * S1x1024.size a ≤ S1x1024.size a
  hwx0_27 : ∀ i : grid0.Coords, EltTy.bits .f32 = 32 ∨ (Rect.block (s := S1x1024) S1x1024.size (cc0_transform_27 i) (hinb0_27 i)).WholeWords (EltTy.packing .f32)
  hstage0_28 : ∀ j, (stage0_28 j).IsWhole
  nbuf0_28 : grid0.bufCount reads0_28 false = 2
  hreads0_28 : ∀ i i' : grid0.Coords, (∀ a, reads0_28 a = true → i a = i' a) → cc0_transform_28 i = cc0_transform_28 i'
  hinb0_28 : ∀ (i : grid0.Coords) a, (cc0_transform_28 i a + 1) * S256x1024.size a ≤ S32768x1024.size a
  hwx0_28 : ∀ i : grid0.Coords, EltTy.bits .f32 = 32 ∨ (Rect.block (s := S32768x1024) S256x1024.size (cc0_transform_28 i) (hinb0_28 i)).WholeWords (EltTy.packing .f32)
  hstage0_29 : ∀ j, (stage0_29 j).IsWhole
  nbuf0_29 : grid0.bufCount reads0_29 false = 2
  hreads0_29 : ∀ i i' : grid0.Coords, (∀ a, reads0_29 a = true → i a = i' a) → cc0_transform_29 i = cc0_transform_29 i'
  hinb0_29 : ∀ (i : grid0.Coords) a, (cc0_transform_29 i a + 1) * S256x20.size a ≤ S32768x20.size a
  hwx0_29 : ∀ i : grid0.Coords, EltTy.bits .f32 = 32 ∨ (Rect.block (s := S32768x20) S256x20.size (cc0_transform_29 i) (hinb0_29 i)).WholeWords (EltTy.packing .f32)
  hstage0_30 : ∀ j, (stage0_30 j).IsWhole
  nbuf0_30 : grid0.bufCount reads0_30 false = 2
  hreads0_30 : ∀ i i' : grid0.Coords, (∀ a, reads0_30 a = true → i a = i' a) → cc0_transform_30 i = cc0_transform_30 i'
  hinb0_30 : ∀ (i : grid0.Coords) a, (cc0_transform_30 i a + 1) * S256x20.size a ≤ S32768x20.size a
  hwx0_30 : ∀ i : grid0.Coords, EltTy.bits .f32 = 32 ∨ (Rect.block (s := S32768x20) S256x20.size (cc0_transform_30 i) (hinb0_30 i)).WholeWords (EltTy.packing .f32)
  hstage0_31 : ∀ j, (stage0_31 j).IsWhole
  nbuf0_31 : grid0.bufCount reads0_31 false = 2
  hreads0_31 : ∀ i i' : grid0.Coords, (∀ a, reads0_31 a = true → i a = i' a) → cc0_transform_31 i = cc0_transform_31 i'
  hinb0_31 : ∀ (i : grid0.Coords) a, (cc0_transform_31 i a + 1) * S256x1.size a ≤ S32768x1.size a
  hwx0_31 : ∀ i : grid0.Coords, EltTy.bits .f32 = 32 ∨ (Rect.block (s := S32768x1) S256x1.size (cc0_transform_31 i) (hinb0_31 i)).WholeWords (EltTy.packing .f32)
  hstage0_32 : ∀ j, (stage0_32 j).IsWhole
  nbuf0_32 : grid0.bufCount reads0_32 false = 2
  hreads0_32 : ∀ i i' : grid0.Coords, (∀ a, reads0_32 a = true → i a = i' a) → cc0_transform_32 i = cc0_transform_32 i'
  hinb0_32 : ∀ (i : grid0.Coords) a, (cc0_transform_32 i a + 1) * S256x20.size a ≤ S32768x20.size a
  hwx0_32 : ∀ i : grid0.Coords, EltTy.bits .f32 = 32 ∨ (Rect.block (s := S32768x20) S256x20.size (cc0_transform_32 i) (hinb0_32 i)).WholeWords (EltTy.packing .f32)
  hstage0_33 : ∀ j, (stage0_33 j).IsWhole
  nbuf0_33 : grid0.bufCount reads0_33 false = 2
  hreads0_33 : ∀ i i' : grid0.Coords, (∀ a, reads0_33 a = true → i a = i' a) → cc0_transform_33 i = cc0_transform_33 i'
  hinb0_33 : ∀ (i : grid0.Coords) a, (cc0_transform_33 i a + 1) * S256x1.size a ≤ S32768x1.size a
  hwx0_33 : ∀ i : grid0.Coords, EltTy.bits .f32 = 32 ∨ (Rect.block (s := S32768x1) S256x1.size (cc0_transform_33 i) (hinb0_33 i)).WholeWords (EltTy.packing .f32)
  hstage0_34 : ∀ j, (stage0_34 j).IsWhole
  nbuf0_34 : grid0.bufCount reads0_34 false = 2
  hreads0_34 : ∀ i i' : grid0.Coords, (∀ a, reads0_34 a = true → i a = i' a) → cc0_transform_34 i = cc0_transform_34 i'
  hinb0_34 : ∀ (i : grid0.Coords) a, (cc0_transform_34 i a + 1) * S1x1x20.size a ≤ S128x1x20.size a
  hwx0_34 : ∀ i : grid0.Coords, EltTy.bits .f32 = 32 ∨ (Rect.block (s := S128x1x20) S1x1x20.size (cc0_transform_34 i) (hinb0_34 i)).WholeWords (EltTy.packing .f32)
  hstage0_35 : ∀ j, (stage0_35 j).IsWhole
  nbuf0_35 : grid0.bufCount reads0_35 false = 2
  hreads0_35 : ∀ i i' : grid0.Coords, (∀ a, reads0_35 a = true → i a = i' a) → cc0_transform_35 i = cc0_transform_35 i'
  hinb0_35 : ∀ (i : grid0.Coords) a, (cc0_transform_35 i a + 1) * S1x1x20.size a ≤ S128x1x20.size a
  hwx0_35 : ∀ i : grid0.Coords, EltTy.bits .f32 = 32 ∨ (Rect.block (s := S128x1x20) S1x1x20.size (cc0_transform_35 i) (hinb0_35 i)).WholeWords (EltTy.packing .f32)
  hstage0_36 : ∀ j, (stage0_36 j).IsWhole
  nbuf0_36 : grid0.bufCount reads0_36 false = 2
  hreads0_36 : ∀ i i' : grid0.Coords, (∀ a, reads0_36 a = true → i a = i' a) → cc0_transform_36 i = cc0_transform_36 i'
  hinb0_36 : ∀ (i : grid0.Coords) a, (cc0_transform_36 i a + 1) * S1x1x20.size a ≤ S128x1x20.size a
  hwx0_36 : ∀ i : grid0.Coords, EltTy.bits .f32 = 32 ∨ (Rect.block (s := S128x1x20) S1x1x20.size (cc0_transform_36 i) (hinb0_36 i)).WholeWords (EltTy.packing .f32)

variable [Facts₀]

def gather_S20x1024_S1_S1024_0_0_n_n_0_0_11024 : GatherDims S20x1024 S1 S1024 where
  offsetDims := [0]
  collapsedSliceDims := [0]
  operandBatchingDims := []
  startIndicesBatchingDims := []
  startIndexMap := [0]
  indexVectorDim := 0
  sliceSizes := ![1, 1024]
  wf := gather_S20x1024_S1_S1024_0_0_n_n_0_0_11024_wf
def gather_S20_S1_S__n_0_n_n_0_0_1 : GatherDims S20 S1 S_ where
  offsetDims := []
  collapsedSliceDims := [0]
  operandBatchingDims := []
  startIndicesBatchingDims := []
  startIndexMap := [0]
  indexVectorDim := 0
  sliceSizes := ![1]
  wf := gather_S20_S1_S__n_0_n_n_0_0_1_wf
def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S256x512_S512x1024_S256x1024_1_0_0_1_n_n : DotDims S256x512 S512x1024 S256x1024 where
  lhsContracting := [1]
  rhsContracting := [0]
  lhsNonContracting := [0]
  rhsNonContracting := [1]
  lhsBatch := []
  rhsBatch := []
  wf := dot_S256x512_S512x1024_S256x1024_1_0_0_1_n_n_wf
def dot_S256x1024_S1024x256_S256x256_1_0_0_1_n_n : DotDims S256x1024 S1024x256 S256x256 where
  lhsContracting := [1]
  rhsContracting := [0]
  lhsNonContracting := [0]
  rhsNonContracting := [1]
  lhsBatch := []
  rhsBatch := []
  wf := dot_S256x1024_S1024x256_S256x256_1_0_0_1_n_n_wf
def dot_S256x1024_S1024x20_S256x20_1_0_0_1_n_n : DotDims S256x1024 S1024x20 S256x20 where
  lhsContracting := [1]
  rhsContracting := [0]
  lhsNonContracting := [0]
  rhsNonContracting := [1]
  lhsBatch := []
  rhsBatch := []
  wf := dot_S256x1024_S1024x20_S256x20_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S512x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1024x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v21) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v22) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v9) S1024x20.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v23) S1x20.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v11) S1024x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg15) S1x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v13) S1024x20.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v15) S1024x256.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg18) S1x256.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v17) S1024x20.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v28) S1x1024.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v36) S1x1024.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v44) S1x1024.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v30) S1x1.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v38) S1x1.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v46) S1x1.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_v32) S1x1024.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_v40) S1x1024.size cc0_transform_26 reads0_26 false true 1 stage0_26 sem0_26
    hrank0 hreads0_26 hinb0_26 nbuf0_26 (Memref.isWhole_whole _) hwx0_26 hstage0_26

abbrev win0_27 : Pipeline.Window sig grid0 :=
  Pipeline.Window.ofSpec (Memref.whole main_v48) S1x1024.size cc0_transform_27 reads0_27 false true 1 stage0_27 sem0_27
    hrank0 hreads0_27 hinb0_27 nbuf0_27 (Memref.isWhole_whole _) hwx0_27 hstage0_27

abbrev win0_28 : Pipeline.Window sig grid0 :=
  Pipeline.Window.ofSpec (Memref.whole main_v49_0) S256x1024.size cc0_transform_28 reads0_28 true false 2 stage0_28 sem0_28
    hrank0 hreads0_28 hinb0_28 nbuf0_28 (Memref.isWhole_whole _) hwx0_28 hstage0_28

abbrev win0_29 : Pipeline.Window sig grid0 :=
  Pipeline.Window.ofSpec (Memref.whole main_v49_1) S256x20.size cc0_transform_29 reads0_29 true false 2 stage0_29 sem0_29
    hrank0 hreads0_29 hinb0_29 nbuf0_29 (Memref.isWhole_whole _) hwx0_29 hstage0_29

abbrev win0_30 : Pipeline.Window sig grid0 :=
  Pipeline.Window.ofSpec (Memref.whole main_v49_2) S256x20.size cc0_transform_30 reads0_30 true false 2 stage0_30 sem0_30
    hrank0 hreads0_30 hinb0_30 nbuf0_30 (Memref.isWhole_whole _) hwx0_30 hstage0_30

abbrev win0_31 : Pipeline.Window sig grid0 :=
  Pipeline.Window.ofSpec (Memref.whole main_v49_3) S256x1.size cc0_transform_31 reads0_31 true false 2 stage0_31 sem0_31
    hrank0 hreads0_31 hinb0_31 nbuf0_31 (Memref.isWhole_whole _) hwx0_31 hstage0_31

abbrev win0_32 : Pipeline.Window sig grid0 :=
  Pipeline.Window.ofSpec (Memref.whole main_v49_4) S256x20.size cc0_transform_32 reads0_32 true false 2 stage0_32 sem0_32
    hrank0 hreads0_32 hinb0_32 nbuf0_32 (Memref.isWhole_whole _) hwx0_32 hstage0_32

abbrev win0_33 : Pipeline.Window sig grid0 :=
  Pipeline.Window.ofSpec (Memref.whole main_v49_5) S256x1.size cc0_transform_33 reads0_33 true false 2 stage0_33 sem0_33
    hrank0 hreads0_33 hinb0_33 nbuf0_33 (Memref.isWhole_whole _) hwx0_33 hstage0_33

abbrev win0_34 : Pipeline.Window sig grid0 :=
  Pipeline.Window.ofSpec (Memref.whole main_v49_6) S1x1x20.size cc0_transform_34 reads0_34 true false 2 stage0_34 sem0_34
    hrank0 hreads0_34 hinb0_34 nbuf0_34 (Memref.isWhole_whole _) hwx0_34 hstage0_34

abbrev win0_35 : Pipeline.Window sig grid0 :=
  Pipeline.Window.ofSpec (Memref.whole main_v49_7) S1x1x20.size cc0_transform_35 reads0_35 true false 2 stage0_35 sem0_35
    hrank0 hreads0_35 hinb0_35 nbuf0_35 (Memref.isWhole_whole _) hwx0_35 hstage0_35

abbrev win0_36 : Pipeline.Window sig grid0 :=
  Pipeline.Window.ofSpec (Memref.whole main_v49_8) S1x1x20.size cc0_transform_36 reads0_36 true false 2 stage0_36 sem0_36
    hrank0 hreads0_36 hinb0_36 nbuf0_36 (Memref.isWhole_whole _) hwx0_36 hstage0_36

abbrev win0 : Fin 37 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | 28 => win0_28 | 29 => win0_29 | 30 => win0_30 | 31 => win0_31 | 32 => win0_32 | 33 => win0_33 | 34 => win0_34 | 35 => win0_35 | 36 => win0_36 | ⟨_ + 37, h⟩ => absurd h (Nat.not_lt.2 (Nat.le_add_left _ _))
abbrev spec0 : Fin 37 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S3 : Shape := ⟨1, ![3]⟩
abbrev S512x1024 : Shape := ⟨2, ![512, 1024]⟩
abbrev S512 : Shape := ⟨1, ![512]⟩
abbrev S512x512 : Shape := ⟨2, ![512, 512]⟩
abbrev S1024x512 : Shape := ⟨2, ![1024, 512]⟩
abbrev S1024 : Shape := ⟨1, ![1024]⟩
abbrev S256x1024 : Shape := ⟨2, ![256, 1024]⟩
abbrev S256 : Shape := ⟨1, ![256]⟩
abbrev S1x256 : Shape := ⟨2, ![1, 256]⟩
abbrev S1 : Shape := ⟨1, ![1]⟩
abbrev S20x1024 : Shape := ⟨2, ![20, 1024]⟩
abbrev S20 : Shape := ⟨1, ![20]⟩
abbrev S32768x512 : Shape := ⟨2, ![32768, 512]⟩
abbrev S1x512 : Shape := ⟨2, ![1, 512]⟩
abbrev S_ : Shape := ⟨0, ![]⟩
abbrev S1x1024 : Shape := ⟨2, ![1, 1024]⟩
abbrev S1024x256 : Shape := ⟨2, ![1024, 256]⟩
abbrev S32768x256 : Shape := ⟨2, ![32768, 256]⟩
abbrev S256x1 : Shape := ⟨2, ![256, 1]⟩
abbrev S32768x1 : Shape := ⟨2, ![32768, 1]⟩
abbrev S1x1 : Shape := ⟨2, ![1, 1]⟩
abbrev S1024x20 : Shape := ⟨2, ![1024, 20]⟩
abbrev S32768x20 : Shape := ⟨2, ![32768, 20]⟩
abbrev S1x20 : Shape := ⟨2, ![1, 20]⟩
abbrev S3x1 : Shape := ⟨2, ![3, 1]⟩
abbrev S32768x3 : Shape := ⟨2, ![32768, 3]⟩
abbrev S32768 : Shape := ⟨1, ![32768]⟩

abbrev nBuf : Space → Nat
  | .hbm => 203
  | .vmem => 0
  | .smem => 0
  | _ => 0

abbrev hbmTy0_0 (i : Nat) : BufTy := match i % 128 with
  | 0 => ⟨S32768x1024, .f32⟩
  | 1 => ⟨S3, .i32⟩
  | 2 => ⟨S512x1024, .f32⟩
  | 3 => ⟨S512, .f32⟩
  | 4 => ⟨S512x512, .f32⟩
  | 5 => ⟨S512, .f32⟩
  | 6 => ⟨S1024x512, .f32⟩
  | 7 => ⟨S1024, .f32⟩
  | 8 => ⟨S256x1024, .f32⟩
  | 9 => ⟨S256, .f32⟩
  | 10 => ⟨S1x256, .f32⟩
  | 11 => ⟨S1, .f32⟩
  | 12 => ⟨S20x1024, .f32⟩
  | 13 => ⟨S20, .f32⟩
  | 14 => ⟨S256x1024, .f32⟩
  | 15 => ⟨S1x256, .f32⟩
  | 16 => ⟨S20x1024, .f32⟩
  | 17 => ⟨S256x1024, .f32⟩
  | 18 => ⟨S1x256, .f32⟩
  | 19 => ⟨S20x1024, .f32⟩
  | 20 => ⟨S1024x512, .f32⟩
  | 21 => ⟨S32768x512, .f32⟩
  | 22 => ⟨S1x512, .f32⟩
  | 23 => ⟨S32768x512, .f32⟩
  | 24 => ⟨S32768x512, .f32⟩
  | 25 => ⟨S_, .f32⟩
  | 26 => ⟨S32768x512, .f32⟩
  | 27 => ⟨S32768x512, .f32⟩
  | 28 => ⟨S512x512, .f32⟩
  | 29 => ⟨S32768x512, .f32⟩
  | 30 => ⟨S1x512, .f32⟩
  | 31 => ⟨S32768x512, .f32⟩
  | 32 => ⟨S32768x512, .f32⟩
  | 33 => ⟨S_, .f32⟩
  | 34 => ⟨S32768x512, .f32⟩
  | 35 => ⟨S32768x512, .f32⟩
  | 36 => ⟨S512x1024, .f32⟩
  | 37 => ⟨S32768x1024, .f32⟩
  | 38 => ⟨S1x1024, .f32⟩
  | 39 => ⟨S32768x1024, .f32⟩
  | 40 => ⟨S32768x1024, .f32⟩
  | 41 => ⟨S_, .f32⟩
  | 42 => ⟨S32768x1024, .f32⟩
  | 43 => ⟨S32768x1024, .f32⟩
  | 44 => ⟨S32768x1024, .f32⟩
  | 45 => ⟨S1024x256, .f32⟩
  | 46 => ⟨S32768x256, .f32⟩
  | 47 => ⟨S1x256, .f32⟩
  | 48 => ⟨S32768x256, .f32⟩
  | 49 => ⟨S32768x256, .f32⟩
  | 50 => ⟨S_, .f32⟩
  | 51 => ⟨S32768x256, .f32⟩
  | 52 => ⟨S32768x256, .f32⟩
  | 53 => ⟨S256x1, .f32⟩
  | 54 => ⟨S32768x1, .f32⟩
  | 55 => ⟨S1x1, .f32⟩
  | 56 => ⟨S32768x1, .f32⟩
  | 57 => ⟨S32768x1, .f32⟩
  | 58 => ⟨S32768x1, .f32⟩
  | 59 => ⟨S32768x1, .f32⟩
  | 60 => ⟨S_, .f32⟩
  | 61 => ⟨S32768x1, .f32⟩
  | 62 => ⟨S32768x1, .f32⟩
  | 63 => ⟨S_, .f32⟩
  | 64 => ⟨S32768x1, .f32⟩
  | 65 => ⟨S32768x1, .f32⟩
  | 66 => ⟨S32768x1024, .f32⟩
  | 67 => ⟨S32768x1024, .f32⟩
  | 68 => ⟨S1024x20, .f32⟩
  | 69 => ⟨S32768x20, .f32⟩
  | 70 => ⟨S1x20, .f32⟩
  | 71 => ⟨S32768x20, .f32⟩
  | 72 => ⟨S32768x20, .f32⟩
  | 73 => ⟨S_, .f32⟩
  | 74 => ⟨S20, .f32⟩
  | 75 => ⟨S20, .f32⟩
  | 76 => ⟨S20, .f32⟩
  | 77 => ⟨S_, .f32⟩
  | 78 => ⟨S20, .f32⟩
  | 79 => ⟨S20, .f32⟩
  | 80 => ⟨S_, .f32⟩
  | 81 => ⟨S20, .f32⟩
  | 82 => ⟨S20, .f32⟩
  | 83 => ⟨S_, .i32⟩
  | 84 => ⟨S3, .i32⟩
  | 85 => ⟨S3, .i1⟩
  | 86 => ⟨S_, .i32⟩
  | 87 => ⟨S3, .i32⟩
  | 88 => ⟨S3, .i32⟩
  | 89 => ⟨S3, .i32⟩
  | 90 => ⟨S3x1, .i32⟩
  | 91 => ⟨S32768x3, .f32⟩
  | 92 => ⟨S_, .f32⟩
  | 93 => ⟨S32768, .f32⟩
  | 94 => ⟨S32768, .f32⟩
  | 95 => ⟨S32768, .f32⟩
  | 96 => ⟨S_, .f32⟩
  | 97 => ⟨S32768, .f32⟩
  | 98 => ⟨S32768, .f32⟩
  | 99 => ⟨S_, .f32⟩
  | 100 => ⟨S32768, .f32⟩
  | 101 => ⟨S32768, .f32⟩
  | 102 => ⟨S_, .f32⟩
  | 103 => ⟨S32768, .f32⟩
  | 104 => ⟨S32768, .i1⟩
  | 105 => ⟨S_, .f32⟩
  | 106 => ⟨S_, .f32⟩
  | 107 => ⟨S32768, .f32⟩
  | 108 => ⟨S32768, .f32⟩
  | 109 => ⟨S32768, .f32⟩
  | 110 => ⟨S32768x1, .f32⟩
  | 111 => ⟨S32768x1, .f32⟩
  | 112 => ⟨S32768x1024, .f32⟩
  | 113 => ⟨S32768x1024, .f32⟩
  | 114 => ⟨S1024x256, .f32⟩
  | 115 => ⟨S32768x256, .f32⟩
  | 116 => ⟨S_, .f32⟩
  | 117 => ⟨S32768x256, .f32⟩
  | 118 => ⟨S32768x256, .f32⟩
  | 119 => ⟨S256x1, .f32⟩
  | 120 => ⟨S32768x1, .f32⟩
  | 121 => ⟨S32768x1, .f32⟩
  | 122 => ⟨S32768x1, .f32⟩
  | 123 => ⟨S_, .f32⟩
  | 124 => ⟨S32768x1, .f32⟩
  | 125 => ⟨S32768x1, .f32⟩
  | 126 => ⟨S_, .f32⟩
  | 127 => ⟨S32768x1, .f32⟩
  | _ => ⟨S32768x1024, .f32⟩

abbrev hbmTy0_1 (i : Nat) : BufTy := match i % 128 with
  | 0 => ⟨S32768x1, .f32⟩
  | 1 => ⟨S32768x1024, .f32⟩
  | 2 => ⟨S32768x1024, .f32⟩
  | 3 => ⟨S1024x20, .f32⟩
  | 4 => ⟨S32768x20, .f32⟩
  | 5 => ⟨S_, .f32⟩
  | 6 => ⟨S20, .f32⟩
  | 7 => ⟨S20, .f32⟩
  | 8 => ⟨S20, .f32⟩
  | 9 => ⟨S_, .f32⟩
  | 10 => ⟨S20, .f32⟩
  | 11 => ⟨S20, .f32⟩
  | 12 => ⟨S_, .f32⟩
  | 13 => ⟨S20, .f32⟩
  | 14 => ⟨S20, .f32⟩
  | 15 => ⟨S_, .i32⟩
  | 16 => ⟨S3, .i32⟩
  | 17 => ⟨S3, .i1⟩
  | 18 => ⟨S_, .i32⟩
  | 19 => ⟨S3, .i32⟩
  | 20 => ⟨S3, .i32⟩
  | 21 => ⟨S3, .i32⟩
  | 22 => ⟨S3x1, .i32⟩
  | 23 => ⟨S32768x3, .f32⟩
  | 24 => ⟨S_, .f32⟩
  | 25 => ⟨S32768, .f32⟩
  | 26 => ⟨S32768, .f32⟩
  | 27 => ⟨S32768, .f32⟩
  | 28 => ⟨S_, .f32⟩
  | 29 => ⟨S32768, .f32⟩
  | 30 => ⟨S32768, .f32⟩
  | 31 => ⟨S_, .f32⟩
  | 32 => ⟨S32768, .f32⟩
  | 33 => ⟨S32768, .f32⟩
  | 34 => ⟨S_, .f32⟩
  | 35 => ⟨S32768, .f32⟩
  | 36 => ⟨S32768, .i1⟩
  | 37 => ⟨S_, .f32⟩
  | 38 => ⟨S_, .f32⟩
  | 39 => ⟨S32768, .f32⟩
  | 40 => ⟨S32768, .f32⟩
  | 41 => ⟨S32768, .f32⟩
  | 42 => ⟨S32768x1, .f32⟩
  | 43 => ⟨S32768x1, .f32⟩
  | 44 => ⟨S32768x1024, .f32⟩
  | 45 => ⟨S32768x1024, .f32⟩
  | 46 => ⟨S1024x256, .f32⟩
  | 47 => ⟨S32768x256, .f32⟩
  | 48 => ⟨S_, .f32⟩
  | 49 => ⟨S32768x256, .f32⟩
  | 50 => ⟨S32768x256, .f32⟩
  | 51 => ⟨S256x1, .f32⟩
  | 52 => ⟨S32768x1, .f32⟩
  | 53 => ⟨S32768x1, .f32⟩
  | 54 => ⟨S32768x1, .f32⟩
  | 55 => ⟨S_, .f32⟩
  | 56 => ⟨S32768x1, .f32⟩
  | 57 => ⟨S32768x1, .f32⟩
  | 58 => ⟨S_, .f32⟩
  | 59 => ⟨S32768x1, .f32⟩
  | 60 => ⟨S32768x1, .f32⟩
  | 61 => ⟨S32768x1024, .f32⟩
  | 62 => ⟨S32768x1024, .f32⟩
  | 63 => ⟨S1024x20, .f32⟩
  | 64 => ⟨S32768x20, .f32⟩
  | 65 => ⟨S_, .f32⟩
  | 66 => ⟨S20, .f32⟩
  | 67 => ⟨S20, .f32⟩
  | 68 => ⟨S20, .f32⟩
  | 69 => ⟨S_, .f32⟩
  | 70 => ⟨S20, .f32⟩
  | 71 => ⟨S20, .f32⟩
  | 72 => ⟨S_, .f32⟩
  | 73 => ⟨S20, .f32⟩
  | 74 => ⟨S20, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_call0_cst : Ref sig .tc := ⟨.hbm, 25, rfl⟩
abbrev main_call0_v0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_call1_cst : Ref sig .tc := ⟨.hbm, 33, rfl⟩
abbrev main_call1_v0 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_call2_cst : Ref sig .tc := ⟨.hbm, 41, rfl⟩
abbrev main_call2_v0 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_call3_cst : Ref sig .tc := ⟨.hbm, 50, rfl⟩
abbrev main_call3_v0 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst : Ref sig .tc := ⟨.hbm, 60, rfl⟩
abbrev main_v32 : Ref sig .tc := ⟨.hbm, 61, rfl⟩
abbrev main_v33 : Ref sig .tc := ⟨.hbm, 62, rfl⟩
abbrev main_cst_0 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_1 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_2 : Ref sig .tc := ⟨.hbm, 77, rfl⟩
abbrev main_v46 : Ref sig .tc := ⟨.hbm, 78, rfl⟩
abbrev main_v47 : Ref sig .tc := ⟨.hbm, 79, rfl⟩
abbrev main_cst_3 : Ref sig .tc := ⟨.hbm, 80, rfl⟩
abbrev main_v48 : Ref sig .tc := ⟨.hbm, 81, rfl⟩
abbrev main_v49 : Ref sig .tc := ⟨.hbm, 82, rfl⟩
abbrev main_c : Ref sig .tc := ⟨.hbm, 83, rfl⟩
abbrev main_v50 : Ref sig .tc := ⟨.hbm, 84, rfl⟩
abbrev main_v51 : Ref sig .tc := ⟨.hbm, 85, rfl⟩
abbrev main_c_4 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_5 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_cst_6 : Ref sig .tc := ⟨.hbm, 96, rfl⟩
abbrev main_v60 : Ref sig .tc := ⟨.hbm, 97, rfl⟩
abbrev main_v61 : Ref sig .tc := ⟨.hbm, 98, rfl⟩
abbrev main_cst_7 : Ref sig .tc := ⟨.hbm, 99, rfl⟩
abbrev main_v62 : Ref sig .tc := ⟨.hbm, 100, rfl⟩
abbrev main_v63 : Ref sig .tc := ⟨.hbm, 101, rfl⟩
abbrev main_cst_8 : Ref sig .tc := ⟨.hbm, 102, rfl⟩
abbrev main_v64 : Ref sig .tc := ⟨.hbm, 103, rfl⟩
abbrev main_v65 : Ref sig .tc := ⟨.hbm, 104, rfl⟩
abbrev main_cst_9 : Ref sig .tc := ⟨.hbm, 105, rfl⟩
abbrev main_cst_10 : Ref sig .tc := ⟨.hbm, 106, rfl⟩
abbrev main_call4_v0 : Ref sig .tc := ⟨.hbm, 107, rfl⟩
abbrev main_call4_v1 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_call5_cst : Ref sig .tc := ⟨.hbm, 116, rfl⟩
abbrev main_call5_v0 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_cst_11 : Ref sig .tc := ⟨.hbm, 123, rfl⟩
abbrev main_v78 : Ref sig .tc := ⟨.hbm, 124, rfl⟩
abbrev main_v79 : Ref sig .tc := ⟨.hbm, 125, rfl⟩
abbrev main_cst_12 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_cst_13 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_cst_14 : Ref sig .tc := ⟨.hbm, 137, rfl⟩
abbrev main_v89 : Ref sig .tc := ⟨.hbm, 138, rfl⟩
abbrev main_v90 : Ref sig .tc := ⟨.hbm, 139, rfl⟩
abbrev main_cst_15 : Ref sig .tc := ⟨.hbm, 140, rfl⟩
abbrev main_v91 : Ref sig .tc := ⟨.hbm, 141, rfl⟩
abbrev main_v92 : Ref sig .tc := ⟨.hbm, 142, rfl⟩
abbrev main_c_16 : Ref sig .tc := ⟨.hbm, 143, rfl⟩
abbrev main_v93 : Ref sig .tc := ⟨.hbm, 144, rfl⟩
abbrev main_v94 : Ref sig .tc := ⟨.hbm, 145, rfl⟩
abbrev main_c_17 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_cst_18 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_cst_19 : Ref sig .tc := ⟨.hbm, 156, rfl⟩
abbrev main_v103 : Ref sig .tc := ⟨.hbm, 157, rfl⟩
abbrev main_v104 : Ref sig .tc := ⟨.hbm, 158, rfl⟩
abbrev main_cst_20 : Ref sig .tc := ⟨.hbm, 159, rfl⟩
abbrev main_v105 : Ref sig .tc := ⟨.hbm, 160, rfl⟩
abbrev main_v106 : Ref sig .tc := ⟨.hbm, 161, rfl⟩
abbrev main_cst_21 : Ref sig .tc := ⟨.hbm, 162, rfl⟩
abbrev main_v107 : Ref sig .tc := ⟨.hbm, 163, rfl⟩
abbrev main_v108 : Ref sig .tc := ⟨.hbm, 164, rfl⟩
abbrev main_cst_22 : Ref sig .tc := ⟨.hbm, 165, rfl⟩
abbrev main_cst_23 : Ref sig .tc := ⟨.hbm, 166, rfl⟩
abbrev main_call6_v0 : Ref sig .tc := ⟨.hbm, 167, rfl⟩
abbrev main_call6_v1 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_call7_cst : Ref sig .tc := ⟨.hbm, 176, rfl⟩
abbrev main_call7_v0 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_cst_24 : Ref sig .tc := ⟨.hbm, 183, rfl⟩
abbrev main_v121 : Ref sig .tc := ⟨.hbm, 184, rfl⟩
abbrev main_v122 : Ref sig .tc := ⟨.hbm, 185, rfl⟩
abbrev main_cst_25 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev main_v127 : Ref sig .tc := ⟨.hbm, 191, rfl⟩
abbrev main_v128 : Ref sig .tc := ⟨.hbm, 192, rfl⟩
abbrev main_cst_26 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_cst_27 : Ref sig .tc := ⟨.hbm, 197, rfl⟩
abbrev main_v132 : Ref sig .tc := ⟨.hbm, 198, rfl⟩
abbrev main_v133 : Ref sig .tc := ⟨.hbm, 199, rfl⟩
abbrev main_cst_28 : Ref sig .tc := ⟨.hbm, 200, rfl⟩
abbrev main_v134 : Ref sig .tc := ⟨.hbm, 201, rfl⟩
abbrev main_v135 : Ref sig .tc := ⟨.hbm, 202, rfl⟩

abbrev nD : Nat := 1
abbrev τ : Topo := Topo.v7x

variable {F : FTy → Type} [FloatOps F]

class Facts₀ : Prop where
  transposes_S512x1024_S1024x512_1_0 : S512x1024.Transposes [1, 0] S1024x512
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  bcast_S_S32768x512 : S_.BroadcastsInDim S32768x512 (![] : Fin 0 → Fin S32768x512.rank)
  transposes_S512x512_S512x512_1_0 : S512x512.Transposes [1, 0] S512x512
  transposes_S1024x512_S512x1024_1_0 : S1024x512.Transposes [1, 0] S512x1024
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  bcast_S_S32768x1024 : S_.BroadcastsInDim S32768x1024 (![] : Fin 0 → Fin S32768x1024.rank)
  transposes_S256x1024_S1024x256_1_0 : S256x1024.Transposes [1, 0] S1024x256
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  bcast_S_S32768x256 : S_.BroadcastsInDim S32768x256 (![] : Fin 0 → Fin S32768x256.rank)
  transposes_S1x256_S256x1_1_0 : S1x256.Transposes [1, 0] S256x1
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  bcast_S_S32768x1 : S_.BroadcastsInDim S32768x1 (![] : Fin 0 → Fin S32768x1.rank)
  bcast_S32768x1_S32768x1024_0_1 : S32768x1.BroadcastsInDim S32768x1024 (![0, 1] : Fin 2 → Fin S32768x1024.rank)
  transposes_S20x1024_S1024x20_1_0 : S20x1024.Transposes [1, 0] S1024x20
  bcast_S20_S1x20_1 : S20.BroadcastsInDim S1x20 (![1] : Fin 1 → Fin S1x20.rank)
  bcast_S1x20_S32768x20_0_1 : S1x20.BroadcastsInDim S32768x20 (![0, 1] : Fin 2 → Fin S32768x20.rank)
  reducesTo_S32768x20_S20_d0 : S32768x20.ReducesTo [0] S20
  h_S_ : 0 < S_.numel
  bcast_S_S20 : S_.BroadcastsInDim S20 (![] : Fin 0 → Fin S20.rank)
  bcast_S_S3 : S_.BroadcastsInDim S3 (![] : Fin 0 → Fin S3.rank)
  bcast_S3_S3x1_0 : S3.BroadcastsInDim S3x1 (![0] : Fin 1 → Fin S3x1.rank)
  reducesTo_S32768x3_S32768_d1 : S32768x3.ReducesTo [1] S32768
  bcast_S_S32768 : S_.BroadcastsInDim S32768 (![] : Fin 0 → Fin S32768.rank)
  bcast_S32768_S32768x1_0 : S32768.BroadcastsInDim S32768x1 (![0] : Fin 1 → Fin S32768x1.rank)
  dot_S32768x1024_S1024x512_S32768x512_1_0_0_1_n_n_wf : DotDims.WF S32768x1024 S1024x512 S32768x512 [1] [0] [0] [1] [] []
  dot_S32768x512_S512x512_S32768x512_1_0_0_1_n_n_wf : DotDims.WF S32768x512 S512x512 S32768x512 [1] [0] [0] [1] [] []
  dot_S32768x512_S512x1024_S32768x1024_1_0_0_1_n_n_wf : DotDims.WF S32768x512 S512x1024 S32768x1024 [1] [0] [0] [1] [] []
  dot_S32768x1024_S1024x256_S32768x256_1_0_0_1_n_n_wf : DotDims.WF S32768x1024 S1024x256 S32768x256 [1] [0] [0] [1] [] []
  dot_S32768x256_S256x1_S32768x1_1_0_0_1_n_n_wf : DotDims.WF S32768x256 S256x1 S32768x1 [1] [0] [0] [1] [] []
  dot_S32768x1024_S1024x20_S32768x20_1_0_0_1_n_n_wf : DotDims.WF S32768x1024 S1024x20 S32768x20 [1] [0] [0] [1] [] []
  gather_S32768x20_S3x1_S32768x3_0_1_n_n_1_1_327681_wf : GatherDims.WF S32768x20 S3x1 S32768x3 [0] [1] [] [1] [] 1 ![32768, 1]

variable [Facts₀]

def dot_S32768x1024_S1024x512_S32768x512_1_0_0_1_n_n : DotDims S32768x1024 S1024x512 S32768x512 where
  lhsContracting := [1]
  rhsContracting := [0]
  lhsNonContracting := [0]
  rhsNonContracting := [1]
  lhsBatch := []
  rhsBatch := []
  wf := dot_S32768x1024_S1024x512_S32768x512_1_0_0_1_n_n_wf
def dot_S32768x512_S512x512_S32768x512_1_0_0_1_n_n : DotDims S32768x512 S512x512 S32768x512 where
  lhsContracting := [1]
  rhsContracting := [0]
  lhsNonContracting := [0]
  rhsNonContracting := [1]
  lhsBatch := []
  rhsBatch := []
  wf := dot_S32768x512_S512x512_S32768x512_1_0_0_1_n_n_wf
def dot_S32768x512_S512x1024_S32768x1024_1_0_0_1_n_n : DotDims S32768x512 S512x1024 S32768x1024 where
  lhsContracting := [1]
  rhsContracting := [0]
  lhsNonContracting := [0]
  rhsNonContracting := [1]
  lhsBatch := []
  rhsBatch := []
  wf := dot_S32768x512_S512x1024_S32768x1024_1_0_0_1_n_n_wf
def dot_S32768x1024_S1024x256_S32768x256_1_0_0_1_n_n : DotDims S32768x1024 S1024x256 S32768x256 where
  lhsContracting := [1]
  rhsContracting := [0]
  lhsNonContracting := [0]
  rhsNonContracting := [1]
  lhsBatch := []
  rhsBatch := []
  wf := dot_S32768x1024_S1024x256_S32768x256_1_0_0_1_n_n_wf
def dot_S32768x256_S256x1_S32768x1_1_0_0_1_n_n : DotDims S32768x256 S256x1 S32768x1 where
  lhsContracting := [1]
  rhsContracting := [0]
  lhsNonContracting := [0]
  rhsNonContracting := [1]
  lhsBatch := []
  rhsBatch := []
  wf := dot_S32768x256_S256x1_S32768x1_1_0_0_1_n_n_wf
def dot_S32768x1024_S1024x20_S32768x20_1_0_0_1_n_n : DotDims S32768x1024 S1024x20 S32768x20 where
  lhsContracting := [1]
  rhsContracting := [0]
  lhsNonContracting := [0]
  rhsNonContracting := [1]
  lhsBatch := []
  rhsBatch := []
  wf := dot_S32768x1024_S1024x20_S32768x20_1_0_0_1_n_n_wf
def gather_S32768x20_S3x1_S32768x3_0_1_n_n_1_1_327681 : GatherDims S32768x20 S3x1 S32768x3 where
  offsetDims := [0]
  collapsedSliceDims := [1]
  operandBatchingDims := []
  startIndicesBatchingDims := []
  startIndexMap := [1]
  indexVectorDim := 1
  sliceSizes := ![32768, 1]
  wf := gather_S32768x20_S3x1_S32768x3_0_1_n_n_1_1_327681_wf

class Facts : Prop extends Facts₀ where

variable [Facts]
-- ==== Proof.Spec.lean ====
/-
  The mathematics both programs compute, row by row, on the extended reals.

  Every result of the network is ROW-LOCAL: row `T` of each [32768, ·] result depends on row `T` of the input and on the
  weights only, and the three [20] results are a logistic of a column sum over all rows. So the specification is a chain
  of functions of ONE row `x : Fin 1024 → EReal`:

    feat   = relu (relu (relu (x·W₀ + b₀)·W₁ + b₁)·W₂ + b₂) + x                      (the residual embedding)
    att    = σ (relu (feat·Wf₁ + bf₁) · wf₂ + bf₂),   gated = att · feat,   tcam = gated·Wc₁ + bc₁
    ef     = feat · [σ (max over the three chosen columns of tcam) ≥ θ₁ ? 0 : 1]       (first erasure)
    eatt   = σ (relu (ef·Wf₃) · wf₄),   egated = eatt · ef,   etcam = egated·Wc₂
    ef2    = ef · [σ (max over the three chosen columns of etcam) ≥ θ₂ ? 0 : 1]        (second erasure)
    e2att  = σ (relu (ef2·Wf₅) · wf₆),  e2gated = e2att · ef2,  e2tcam = e2gated·Wc₃

  A product `v·W` is the plain sum `∑ k, v k * W k j`; `σ` is the logistic `1 / (1 + e^(-s))` with its limits at the
  infinities; the thresholds θ₁, θ₂ and the constants 0 and 1 are kept as the binary words both programs print, so that
  no word is ever evaluated. The weights are plain functions (`Wts`): each program reads them off its own arrays.
  The three "chosen columns" are given by the rows `s1w j`, `s2w j` of the class weights and the entries `s1b j` of the
  class bias at the three labels: column `label j` of `gated·Wc₁ + bc₁` is `∑ d, gated d * Wc₁[label j, d] + bc₁[label j]`.
-/
import Idealize.ShloMosaic.PureOps.Ideal
import Idealize.ShloMosaic.PureOps.Ideal.Laws
import Idealize.ShloMosaic.Lib.ValueIdx

noncomputable section

namespace Cert.Spec

open Idealize.ShloMosaic

/-- The network's weights as plain functions. A matrix is indexed (input coordinate, output coordinate). -/
structure Wts where
  w0 : Fin 1024 → Fin 512 → EReal
  b0 : Fin 512 → EReal
  w1 : Fin 512 → Fin 512 → EReal
  b1 : Fin 512 → EReal
  w2 : Fin 512 → Fin 1024 → EReal
  b2 : Fin 1024 → EReal
  wf1 : Fin 1024 → Fin 256 → EReal
  bf1 : Fin 256 → EReal
  wf2 : Fin 256 → EReal
  bf2 : EReal
  wc1 : Fin 1024 → Fin 20 → EReal
  bc1 : Fin 20 → EReal
  wf3 : Fin 1024 → Fin 256 → EReal
  wf4 : Fin 256 → EReal
  wc2 : Fin 1024 → Fin 20 → EReal
  wf5 : Fin 1024 → Fin 256 → EReal
  wf6 : Fin 256 → EReal
  wc3 : Fin 1024 → Fin 20 → EReal
  /-- row `label j` of the first class matrix -/
  s1w : Fin 3 → Fin 1024 → EReal
  /-- entry `label j` of the first class bias -/
  s1b : Fin 3 → EReal
  /-- row `label j` of the second class matrix -/
  s2w : Fin 3 → Fin 1024 → EReal

/-- The word of `0.0`. -/
abbrev zero : EReal := Ideal.ofBits .f32 0x00000000#32
/-- The word of `1.0`. -/
abbrev one : EReal := Ideal.ofBits .f32 0x3F800000#32
/-- The first threshold's word (`0.53` rounded to f32). -/
abbrev thr1 : EReal := Ideal.ofBits .f32 0x3F07AE14#32
/-- The second threshold's word (`0.51` rounded to f32). -/
abbrev thr2 : EReal := Ideal.ofBits .f32 0x3F028F5C#32

def relu (v : EReal) : EReal := max v zero

/-- A row times a matrix, at output coordinate `j`. -/
def lin {K N : Nat} (w : Fin K → Fin N → EReal) (x : Fin K → EReal) (j : Fin N) : EReal := ∑ k, x k * w k j

def sig (s : EReal) : EReal := Ideal.logistic s

/-- `0` where the logistic of `s` reaches the threshold, `1` elsewhere. -/
def mask (thr s : EReal) : EReal :=
  Scalar.select (FloatOps.cmpf (F := Ideal) (φ := .f32) .oge (sig s) thr) zero one

variable (W : Wts)

def h0 (x : Fin 1024 → EReal) (i : Fin 512) : EReal := relu (lin W.w0 x i + W.b0 i)
def h1 (x : Fin 1024 → EReal) (j : Fin 512) : EReal := relu (lin W.w1 (h0 W x) j + W.b1 j)
def h2 (x : Fin 1024 → EReal) (d : Fin 1024) : EReal := relu (lin W.w2 (h1 W x) d + W.b2 d)
/-- The residual embedding of a row. -/
def feat (x : Fin 1024 → EReal) (d : Fin 1024) : EReal := h2 W x d + x d

def attH (f : Fin 1024 → EReal) (k : Fin 256) : EReal := relu (lin W.wf1 f k + W.bf1 k)
def att (f : Fin 1024 → EReal) : EReal := sig ((∑ k, attH W f k * W.wf2 k) + W.bf2)
def gated (f : Fin 1024 → EReal) (d : Fin 1024) : EReal := att W f * f d
def tcam (f : Fin 1024 → EReal) (c : Fin 20) : EReal := lin W.wc1 (gated W f) c + W.bc1 c

/-- The class activation of a gated row `g` at the `j`-th label. -/
def col1 (g : Fin 1024 → EReal) (j : Fin 3) : EReal := (∑ d, g d * W.s1w j d) + W.s1b j
def sel1 (g : Fin 1024 → EReal) : EReal := max (max (col1 W g 0) (col1 W g 1)) (col1 W g 2)
/-- The once-erased features of a row with features `f`. -/
def ef (f : Fin 1024 → EReal) (d : Fin 1024) : EReal := f d * mask thr1 (sel1 W (gated W f))

def eattH (e : Fin 1024 → EReal) (k : Fin 256) : EReal := relu (lin W.wf3 e k)
def eatt (e : Fin 1024 → EReal) : EReal := sig (∑ k, eattH W e k * W.wf4 k)
def egated (e : Fin 1024 → EReal) (d : Fin 1024) : EReal := eatt W e * e d
def etcam (e : Fin 1024 → EReal) (c : Fin 20) : EReal := lin W.wc2 (egated W e) c

def col2 (g : Fin 1024 → EReal) (j : Fin 3) : EReal := ∑ d, g d * W.s2w j d
def sel2 (g : Fin 1024 → EReal) : EReal := max (max (col2 W g 0) (col2 W g 1)) (col2 W g 2)
/-- The twice-erased features of a row with once-erased features `e`. -/
def ef2 (e : Fin 1024 → EReal) (d : Fin 1024) : EReal := e d * mask thr2 (sel2 W (egated W e))

def e2attH (e2 : Fin 1024 → EReal) (k : Fin 256) : EReal := relu (lin W.wf5 e2 k)
def e2att (e2 : Fin 1024 → EReal) : EReal := sig (∑ k, e2attH W e2 k * W.wf6 k)
def e2gated (e2 : Fin 1024 → EReal) (d : Fin 1024) : EReal := e2att W e2 * e2 d
def e2tcam (e2 : Fin 1024 → EReal) (c : Fin 20) : EReal := lin W.wc3 (e2gated W e2) c

/-! ## The nine results, as functions of the input's rows -/

/-- Row `T`'s features, once-erased and twice-erased features. -/
def F (X : Fin 32768 → Fin 1024 → EReal) (T : Fin 32768) : Fin 1024 → EReal := feat W (X T)
def E (X : Fin 32768 → Fin 1024 → EReal) (T : Fin 32768) : Fin 1024 → EReal := ef W (F W X T)
def E2 (X : Fin 32768 → Fin 1024 → EReal) (T : Fin 32768) : Fin 1024 → EReal := ef2 W (E W X T)

/-- The logistic of a column's sum over all rows. -/
def colSig (A : Fin 32768 → Fin 20 → EReal) (c : Fin 20) : EReal := sig (∑ T, A T c)

/-! ## A sum over all rows, tile by tile -/

/-- Row `r` of tile `t` (tiles of 256 rows). -/
def tileRow (t : Fin 128) (r : Fin 256) : Fin 32768 := ⟨256 * t.val + r.val, by have := t.isLt; have := r.isLt; omega⟩

/-- A sum over the 32768 rows is the sum over the 128 tiles of the sums over each tile's 256 rows: sums of extended
    reals regroup freely (a commutative monoid). -/
theorem sum_rows_eq_sum_tiles (f : Fin 32768 → EReal) : ∑ T, f T = ∑ t : Fin 128, ∑ r : Fin 256, f (tileRow t r) := by
  rw [← Fintype.sum_prod_type' (fun t r => f (tileRow t r))]
  refine (Fintype.sum_equiv (finProdFinEquiv (m := 128) (n := 256)) _ f fun p => ?_).symm
  congr 1
  apply Fin.ext
  show 256 * p.1.val + p.2.val = p.2.val + 256 * p.1.val
  omega

end Cert.Spec

end
-- ==== Proof.KWindows.lean ====
/-
  The geometry of the region's thirty-seven windows over its 128 grid points. The twenty-seven weight operands are
  whole-array windows: their block at every point is the array. The input window's block at point `t` is rows
  `256·t … 256·t + 255` of the input. Each of the six row-blocked outputs writes, at point `t`, the rows `256·t …` of its
  array (block index `(j₀, j₁)` lies over array index `(256·t + j₀, j₁)`), and each of the three partial-sum outputs
  writes entry `(t, 0, ·)`; in both cases the 128 blocks cover the array (row `i₀` is in block `i₀ / 256`, entry
  `(i₀, 0, ·)` in block `i₀`).
-/
import proofs.«424737_j11321533792616_2_alg».proof.Proof.Gen.KernelIdeal.Launch
import proofs.«424737_j11321533792616_2_alg».proof.Proof.Gen.KernelIdeal.Points
import proofs.«424737_j11321533792616_2_alg».proof.Proof.Spec
import Idealize.ShloMosaic.Lib.Pipeline.Value
import Idealize.ShloMosaic.Lib.ValueIdx

noncomputable section

namespace Cert.KernelIdeal.Hand

open Idealize.ShloMosaic Idealize.ShloMosaic.TcCoe Idealize.ShloMosaic.ValueIdx Idealize.SL.Sem
open Cert.KernelIdeal Cert.KernelIdeal.Gen

theorem N128 : cfg0.N = 128 := N_0

/-- A grid point as a tile number. -/
def tile (t : Fin cfg0.N) : Fin 128 := ⟨t.val, lt_of_lt_of_eq t.isLt N128⟩

/-- The printed index maps of the row-blocked windows, decided over the 128 points: block `(t, 0)` (and `(t, 0, 0)`). -/
theorem idx_rows : ∀ t : Fin cfg0.N,
    win0_0.index t (0 : Fin 2) = t.val ∧ win0_0.index t (1 : Fin 2) = 0
    ∧ win0_28.index t (0 : Fin 2) = t.val ∧ win0_28.index t (1 : Fin 2) = 0
    ∧ win0_29.index t (0 : Fin 2) = t.val ∧ win0_29.index t (1 : Fin 2) = 0
    ∧ win0_30.index t (0 : Fin 2) = t.val ∧ win0_30.index t (1 : Fin 2) = 0
    ∧ win0_31.index t (0 : Fin 2) = t.val ∧ win0_31.index t (1 : Fin 2) = 0
    ∧ win0_32.index t (0 : Fin 2) = t.val ∧ win0_32.index t (1 : Fin 2) = 0
    ∧ win0_33.index t (0 : Fin 2) = t.val ∧ win0_33.index t (1 : Fin 2) = 0 :=
  (by decide +kernel : ∀ t : Fin grid0.N, _)

theorem idx_parts : ∀ t : Fin cfg0.N,
    win0_34.index t (0 : Fin 3) = t.val ∧ win0_34.index t (1 : Fin 3) = 0 ∧ win0_34.index t (2 : Fin 3) = 0
    ∧ win0_35.index t (0 : Fin 3) = t.val ∧ win0_35.index t (1 : Fin 3) = 0 ∧ win0_35.index t (2 : Fin 3) = 0
    ∧ win0_36.index t (0 : Fin 3) = t.val ∧ win0_36.index t (1 : Fin 3) = 0 ∧ win0_36.index t (2 : Fin 3) = 0 :=
  (by decide +kernel : ∀ t : Fin grid0.N, _)

/-! ## The weight operands: whole-array windows -/

/-- A whole array read through a block at offset zero of the array's own sizes is the array: the block offsets of
    window `w` (index map constantly zero) vanish at every point. -/
local macro "whole_blk " b:term:max w:term:max t:term:max : tactic =>
  `(tactic| (have hz : (fun a => ($w).index $t a * ($b).ty.shape.size a) = fun _ => 0 := funext fun a => by fin_cases a <;> rfl
             exact Memref.read_access_unit_zero (Elt Ideal) $b hz (fun a => by rw [congrFun hz a]; simp) _))

theorem blk1_read (t : Fin cfg0.N) (f : S1024x512.Idx → EReal) : ((cfg0.win 1).blk t).view.read (Elt Ideal) f = f := by whole_blk main_v1 win0_1 t
theorem blk2_read (t : Fin cfg0.N) (f : S1x512.Idx → EReal) : ((cfg0.win 2).blk t).view.read (Elt Ideal) f = f := by whole_blk main_v18 win0_2 t
theorem blk3_read (t : Fin cfg0.N) (f : S512x512.Idx → EReal) : ((cfg0.win 3).blk t).view.read (Elt Ideal) f = f := by whole_blk main_v3 win0_3 t
theorem blk4_read (t : Fin cfg0.N) (f : S1x512.Idx → EReal) : ((cfg0.win 4).blk t).view.read (Elt Ideal) f = f := by whole_blk main_v19 win0_4 t
theorem blk5_read (t : Fin cfg0.N) (f : S512x1024.Idx → EReal) : ((cfg0.win 5).blk t).view.read (Elt Ideal) f = f := by whole_blk main_v5 win0_5 t
theorem blk6_read (t : Fin cfg0.N) (f : S1x1024.Idx → EReal) : ((cfg0.win 6).blk t).view.read (Elt Ideal) f = f := by whole_blk main_v20 win0_6 t
theorem blk7_read (t : Fin cfg0.N) (f : S1024x256.Idx → EReal) : ((cfg0.win 7).blk t).view.read (Elt Ideal) f = f := by whole_blk main_v7 win0_7 t
theorem blk8_read (t : Fin cfg0.N) (f : S1x256.Idx → EReal) : ((cfg0.win 8).blk t).view.read (Elt Ideal) f = f := by whole_blk main_v21 win0_8 t
theorem blk9_read (t : Fin cfg0.N) (f : S1x256.Idx → EReal) : ((cfg0.win 9).blk t).view.read (Elt Ideal) f = f := by whole_blk main_arg10 win0_9 t
theorem blk10_read (t : Fin cfg0.N) (f : S1x1.Idx → EReal) : ((cfg0.win 10).blk t).view.read (Elt Ideal) f = f := by whole_blk main_v22 win0_10 t
theorem blk11_read (t : Fin cfg0.N) (f : S1024x20.Idx → EReal) : ((cfg0.win 11).blk t).view.read (Elt Ideal) f = f := by whole_blk main_v9 win0_11 t
theorem blk12_read (t : Fin cfg0.N) (f : S1x20.Idx → EReal) : ((cfg0.win 12).blk t).view.read (Elt Ideal) f = f := by whole_blk main_v23 win0_12 t
theorem blk13_read (t : Fin cfg0.N) (f : S1024x256.Idx → EReal) : ((cfg0.win 13).blk t).view.read (Elt Ideal) f = f := by whole_blk main_v11 win0_13 t
theorem blk14_read (t : Fin cfg0.N) (f : S1x256.Idx → EReal) : ((cfg0.win 14).blk t).view.read (Elt Ideal) f = f := by whole_blk main_arg15 win0_14 t
theorem blk15_read (t : Fin cfg0.N) (f : S1024x20.Idx → EReal) : ((cfg0.win 15).blk t).view.read (Elt Ideal) f = f := by whole_blk main_v13 win0_15 t
theorem blk16_read (t : Fin cfg0.N) (f : S1024x256.Idx → EReal) : ((cfg0.win 16).blk t).view.read (Elt Ideal) f = f := by whole_blk main_v15 win0_16 t
theorem blk17_read (t : Fin cfg0.N) (f : S1x256.Idx → EReal) : ((cfg0.win 17).blk t).view.read (Elt Ideal) f = f := by whole_blk main_arg18 win0_17 t
theorem blk18_read (t : Fin cfg0.N) (f : S1024x20.Idx → EReal) : ((cfg0.win 18).blk t).view.read (Elt Ideal) f = f := by whole_blk main_v17 win0_18 t
theorem blk19_read (t : Fin cfg0.N) (f : S1x1024.Idx → EReal) : ((cfg0.win 19).blk t).view.read (Elt Ideal) f = f := by whole_blk main_v28 win0_19 t
theorem blk20_read (t : Fin cfg0.N) (f : S1x1024.Idx → EReal) : ((cfg0.win 20).blk t).view.read (Elt Ideal) f = f := by whole_blk main_v36 win0_20 t
theorem blk21_read (t : Fin cfg0.N) (f : S1x1024.Idx → EReal) : ((cfg0.win 21).blk t).view.read (Elt Ideal) f = f := by whole_blk main_v44 win0_21 t
theorem blk22_read (t : Fin cfg0.N) (f : S1x1.Idx → EReal) : ((cfg0.win 22).blk t).view.read (Elt Ideal) f = f := by whole_blk main_v30 win0_22 t
theorem blk23_read (t : Fin cfg0.N) (f : S1x1.Idx → EReal) : ((cfg0.win 23).blk t).view.read (Elt Ideal) f = f := by whole_blk main_v38 win0_23 t
theorem blk24_read (t : Fin cfg0.N) (f : S1x1.Idx → EReal) : ((cfg0.win 24).blk t).view.read (Elt Ideal) f = f := by whole_blk main_v46 win0_24 t
theorem blk25_read (t : Fin cfg0.N) (f : S1x1024.Idx → EReal) : ((cfg0.win 25).blk t).view.read (Elt Ideal) f = f := by whole_blk main_v32 win0_25 t
theorem blk26_read (t : Fin cfg0.N) (f : S1x1024.Idx → EReal) : ((cfg0.win 26).blk t).view.read (Elt Ideal) f = f := by whole_blk main_v40 win0_26 t
theorem blk27_read (t : Fin cfg0.N) (f : S1x1024.Idx → EReal) : ((cfg0.win 27).blk t).view.read (Elt Ideal) f = f := by whole_blk main_v48 win0_27 t

/-! ## The input window: rows of a tile -/

/-- The input window's block at point `t` is rows `256·t …` of the array. -/
theorem blk0_read_apply (t : Fin cfg0.N) (f : S32768x1024.Idx → EReal) (r : Fin 256) (k : Fin 1024) :
    ((cfg0.win 0).blk t).view.read (Elt Ideal) f (ix2 r k) = f (ix2 (Spec.tileRow (tile t) r) k) := by
  obtain ⟨e0, e1, -⟩ := idx_rows t
  rw [View.read_apply]
  refine congrArg f (funext fun a => Fin.ext ?_)
  match a with
  | ⟨0, _⟩ => show win0_0.index t (0 : Fin 2) * 256 + 1 * r.val = 256 * t.val + r.val; rw [e0]; omega
  | ⟨1, _⟩ => show win0_0.index t (1 : Fin 2) * 1024 + 1 * k.val = k.val; rw [e1]; omega

/-! ## The output windows: the array index under a block index -/

theorem emb28 (t : Fin cfg0.N) (j : S256x1024.Idx) :
    ((((cfg0.win 28).blk t).view.emb j) 0).val = 256 * (tile t).val + (j 0).val ∧ ((((cfg0.win 28).blk t).view.emb j) 1).val = (j 1).val := by
  obtain ⟨-, -, e0, e1, -⟩ := idx_rows t
  constructor
  · show win0_28.index t (0 : Fin 2) * 256 + 1 * (j 0).val = 256 * t.val + (j 0).val; rw [e0]; omega
  · show win0_28.index t (1 : Fin 2) * 1024 + 1 * (j 1).val = (j 1).val; rw [e1]; omega

theorem emb29 (t : Fin cfg0.N) (j : S256x20.Idx) :
    ((((cfg0.win 29).blk t).view.emb j) 0).val = 256 * (tile t).val + (j 0).val ∧ ((((cfg0.win 29).blk t).view.emb j) 1).val = (j 1).val := by
  obtain ⟨-, -, -, -, e0, e1, -⟩ := idx_rows t
  constructor
  · show win0_29.index t (0 : Fin 2) * 256 + 1 * (j 0).val = 256 * t.val + (j 0).val; rw [e0]; omega
  · show win0_29.index t (1 : Fin 2) * 20 + 1 * (j 1).val = (j 1).val; rw [e1]; omega

theorem emb30 (t : Fin cfg0.N) (j : S256x20.Idx) :
    ((((cfg0.win 30).blk t).view.emb j) 0).val = 256 * (tile t).val + (j 0).val ∧ ((((cfg0.win 30).blk t).view.emb j) 1).val = (j 1).val := by
  obtain ⟨-, -, -, -, -, -, e0, e1, -⟩ := idx_rows t
  constructor
  · show win0_30.index t (0 : Fin 2) * 256 + 1 * (j 0).val = 256 * t.val + (j 0).val; rw [e0]; omega
  · show win0_30.index t (1 : Fin 2) * 20 + 1 * (j 1).val = (j 1).val; rw [e1]; omega

theorem emb31 (t : Fin cfg0.N) (j : S256x1.Idx) :
    ((((cfg0.win 31).blk t).view.emb j) 0).val = 256 * (tile t).val + (j 0).val := by
  obtain ⟨-, -, -, -, -, -, -, -, e0, -⟩ := idx_rows t
  show win0_31.index t (0 : Fin 2) * 256 + 1 * (j 0).val = 256 * t.val + (j 0).val; rw [e0]; omega

theorem emb32 (t : Fin cfg0.N) (j : S256x20.Idx) :
    ((((cfg0.win 32).blk t).view.emb j) 0).val = 256 * (tile t).val + (j 0).val ∧ ((((cfg0.win 32).blk t).view.emb j) 1).val = (j 1).val := by
  obtain ⟨-, -, -, -, -, -, -, -, -, -, e0, e1, -⟩ := idx_rows t
  constructor
  · show win0_32.index t (0 : Fin 2) * 256 + 1 * (j 0).val = 256 * t.val + (j 0).val; rw [e0]; omega
  · show win0_32.index t (1 : Fin 2) * 20 + 1 * (j 1).val = (j 1).val; rw [e1]; omega

theorem emb33 (t : Fin cfg0.N) (j : S256x1.Idx) :
    ((((cfg0.win 33).blk t).view.emb j) 0).val = 256 * (tile t).val + (j 0).val := by
  obtain ⟨-, -, -, -, -, -, -, -, -, -, -, -, e0, -⟩ := idx_rows t
  show win0_33.index t (0 : Fin 2) * 256 + 1 * (j 0).val = 256 * t.val + (j 0).val; rw [e0]; omega

theorem emb34 (t : Fin cfg0.N) (j : S1x1x20.Idx) :
    ((((cfg0.win 34).blk t).view.emb j) 0).val = (tile t).val ∧ ((((cfg0.win 34).blk t).view.emb j) 2).val = (j 2).val := by
  obtain ⟨e0, -, e2, -⟩ := idx_parts t
  have hj : (j 0).val < 1 := (j 0).isLt
  constructor
  · show win0_34.index t (0 : Fin 3) * 1 + 1 * (j 0).val = t.val; rw [e0]; omega
  · show win0_34.index t (2 : Fin 3) * 20 + 1 * (j 2).val = (j 2).val; rw [e2]; omega

theorem emb35 (t : Fin cfg0.N) (j : S1x1x20.Idx) :
    ((((cfg0.win 35).blk t).view.emb j) 0).val = (tile t).val ∧ ((((cfg0.win 35).blk t).view.emb j) 2).val = (j 2).val := by
  obtain ⟨-, -, -, e0, -, e2, -⟩ := idx_parts t
  have hj : (j 0).val < 1 := (j 0).isLt
  constructor
  · show win0_35.index t (0 : Fin 3) * 1 + 1 * (j 0).val = t.val; rw [e0]; omega
  · show win0_35.index t (2 : Fin 3) * 20 + 1 * (j 2).val = (j 2).val; rw [e2]; omega

theorem emb36 (t : Fin cfg0.N) (j : S1x1x20.Idx) :
    ((((cfg0.win 36).blk t).view.emb j) 0).val = (tile t).val ∧ ((((cfg0.win 36).blk t).view.emb j) 2).val = (j 2).val := by
  obtain ⟨-, -, -, -, -, -, e0, -, e2⟩ := idx_parts t
  have hj : (j 0).val < 1 := (j 0).isLt
  constructor
  · show win0_36.index t (0 : Fin 3) * 1 + 1 * (j 0).val = t.val; rw [e0]; omega
  · show win0_36.index t (2 : Fin 3) * 20 + 1 * (j 2).val = (j 2).val; rw [e2]; omega

/-! ## The output windows: the blocks cover the arrays -/

theorem cover28 (i : S32768x1024.Idx) : ∃ t : Fin cfg0.N, (cfg0.win 28).flush t = true ∧ i ∈ ((cfg0.win 28).blk t).view.set := by
  have hi0 : (i 0).val < 32768 := (i 0).isLt
  have hi1 : (i 1).val < 1024 := (i 1).isLt
  let t : Fin cfg0.N := ⟨(i 0).val / 256, by rw [N128]; omega⟩
  obtain ⟨-, -, e0, e1, -⟩ := idx_rows t
  refine ⟨t, flush0_28 t, ?_⟩
  show i ∈ ((View.whole main_v49_0).slice (win0_28.rect t)).set
  rw [View.set_slice_whole, Rect.mem_set_unit]
  intro a
  match a with
  | ⟨0, _⟩ => show win0_28.index t (0 : Fin 2) * 256 ≤ (i 0).val ∧ (i 0).val < win0_28.index t (0 : Fin 2) * 256 + 256; rw [e0]; show (i 0).val / 256 * 256 ≤ _ ∧ _ < (i 0).val / 256 * 256 + 256; omega
  | ⟨1, _⟩ => show win0_28.index t (1 : Fin 2) * 1024 ≤ (i 1).val ∧ (i 1).val < win0_28.index t (1 : Fin 2) * 1024 + 1024; rw [e1]; omega

theorem cover29 (i : S32768x20.Idx) : ∃ t : Fin cfg0.N, (cfg0.win 29).flush t = true ∧ i ∈ ((cfg0.win 29).blk t).view.set := by
  have hi0 : (i 0).val < 32768 := (i 0).isLt
  have hi1 : (i 1).val < 20 := (i 1).isLt
  let t : Fin cfg0.N := ⟨(i 0).val / 256, by rw [N128]; omega⟩
  obtain ⟨-, -, -, -, e0, e1, -⟩ := idx_rows t
  refine ⟨t, flush0_29 t, ?_⟩
  show i ∈ ((View.whole main_v49_1).slice (win0_29.rect t)).set
  rw [View.set_slice_whole, Rect.mem_set_unit]
  intro a
  match a with
  | ⟨0, _⟩ => show win0_29.index t (0 : Fin 2) * 256 ≤ (i 0).val ∧ (i 0).val < win0_29.index t (0 : Fin 2) * 256 + 256; rw [e0]; show (i 0).val / 256 * 256 ≤ _ ∧ _ < (i 0).val / 256 * 256 + 256; omega
  | ⟨1, _⟩ => show win0_29.index t (1 : Fin 2) * 20 ≤ (i 1).val ∧ (i 1).val < win0_29.index t (1 : Fin 2) * 20 + 20; rw [e1]; omega

theorem cover30 (i : S32768x20.Idx) : ∃ t : Fin cfg0.N, (cfg0.win 30).flush t = true ∧ i ∈ ((cfg0.win 30).blk t).view.set := by
  have hi0 : (i 0).val < 32768 := (i 0).isLt
  have hi1 : (i 1).val < 20 := (i 1).isLt
  let t : Fin cfg0.N := ⟨(i 0).val / 256, by rw [N128]; omega⟩
  obtain ⟨-, -, -, -, -, -, e0, e1, -⟩ := idx_rows t
  refine ⟨t, flush0_30 t, ?_⟩
  show i ∈ ((View.whole main_v49_2).slice (win0_30.rect t)).set
  rw [View.set_slice_whole, Rect.mem_set_unit]
  intro a
  match a with
  | ⟨0, _⟩ => show win0_30.index t (0 : Fin 2) * 256 ≤ (i 0).val ∧ (i 0).val < win0_30.index t (0 : Fin 2) * 256 + 256; rw [e0]; show (i 0).val / 256 * 256 ≤ _ ∧ _ < (i 0).val / 256 * 256 + 256; omega
  | ⟨1, _⟩ => show win0_30.index t (1 : Fin 2) * 20 ≤ (i 1).val ∧ (i 1).val < win0_30.index t (1 : Fin 2) * 20 + 20; rw [e1]; omega

theorem cover31 (i : S32768x1.Idx) : ∃ t : Fin cfg0.N, (cfg0.win 31).flush t = true ∧ i ∈ ((cfg0.win 31).blk t).view.set := by
  have hi0 : (i 0).val < 32768 := (i 0).isLt
  have hi1 : (i 1).val < 1 := (i 1).isLt
  let t : Fin cfg0.N := ⟨(i 0).val / 256, by rw [N128]; omega⟩
  obtain ⟨-, -, -, -, -, -, -, -, e0, e1, -⟩ := idx_rows t
  refine ⟨t, flush0_31 t, ?_⟩
  show i ∈ ((View.whole main_v49_3).slice (win0_31.rect t)).set
  rw [View.set_slice_whole, Rect.mem_set_unit]
  intro a
  match a with
  | ⟨0, _⟩ => show win0_31.index t (0 : Fin 2) * 256 ≤ (i 0).val ∧ (i 0).val < win0_31.index t (0 : Fin 2) * 256 + 256; rw [e0]; show (i 0).val / 256 * 256 ≤ _ ∧ _ < (i 0).val / 256 * 256 + 256; omega
  | ⟨1, _⟩ => show win0_31.index t (1 : Fin 2) * 1 ≤ (i 1).val ∧ (i 1).val < win0_31.index t (1 : Fin 2) * 1 + 1; rw [e1]; omega

theorem cover32 (i : S32768x20.Idx) : ∃ t : Fin cfg0.N, (cfg0.win 32).flush t = true ∧ i ∈ ((cfg0.win 32).blk t).view.set := by
  have hi0 : (i 0).val < 32768 := (i 0).isLt
  have hi1 : (i 1).val < 20 := (i 1).isLt
  let t : Fin cfg0.N := ⟨(i 0).val / 256, by rw [N128]; omega⟩
  obtain ⟨-, -, -, -, -, -, -, -, -, -, e0, e1, -⟩ := idx_rows t
  refine ⟨t, flush0_32 t, ?_⟩
  show i ∈ ((View.whole main_v49_4).slice (win0_32.rect t)).set
  rw [View.set_slice_whole, Rect.mem_set_unit]
  intro a
  match a with
  | ⟨0, _⟩ => show win0_32.index t (0 : Fin 2) * 256 ≤ (i 0).val ∧ (i 0).val < win0_32.index t (0 : Fin 2) * 256 + 256; rw [e0]; show (i 0).val / 256 * 256 ≤ _ ∧ _ < (i 0).val / 256 * 256 + 256; omega
  | ⟨1, _⟩ => show win0_32.index t (1 : Fin 2) * 20 ≤ (i 1).val ∧ (i 1).val < win0_32.index t (1 : Fin 2) * 20 + 20; rw [e1]; omega

theorem cover33 (i : S32768x1.Idx) : ∃ t : Fin cfg0.N, (cfg0.win 33).flush t = true ∧ i ∈ ((cfg0.win 33).blk t).view.set := by
  have hi0 : (i 0).val < 32768 := (i 0).isLt
  have hi1 : (i 1).val < 1 := (i 1).isLt
  let t : Fin cfg0.N := ⟨(i 0).val / 256, by rw [N128]; omega⟩
  obtain ⟨-, -, -, -, -, -, -, -, -, -, -, -, e0, e1⟩ := idx_rows t
  refine ⟨t, flush0_33 t, ?_⟩
  show i ∈ ((View.whole main_v49_5).slice (win0_33.rect t)).set
  rw [View.set_slice_whole, Rect.mem_set_unit]
  intro a
  match a with
  | ⟨0, _⟩ => show win0_33.index t (0 : Fin 2) * 256 ≤ (i 0).val ∧ (i 0).val < win0_33.index t (0 : Fin 2) * 256 + 256; rw [e0]; show (i 0).val / 256 * 256 ≤ _ ∧ _ < (i 0).val / 256 * 256 + 256; omega
  | ⟨1, _⟩ => show win0_33.index t (1 : Fin 2) * 1 ≤ (i 1).val ∧ (i 1).val < win0_33.index t (1 : Fin 2) * 1 + 1; rw [e1]; omega

theorem cover34 (i : S128x1x20.Idx) : ∃ t : Fin cfg0.N, (cfg0.win 34).flush t = true ∧ i ∈ ((cfg0.win 34).blk t).view.set := by
  have hi0 : (i 0).val < 128 := (i 0).isLt
  have hi1 : (i 1).val < 1 := (i 1).isLt
  have hi2 : (i 2).val < 20 := (i 2).isLt
  let t : Fin cfg0.N := ⟨(i 0).val, by rw [N128]; omega⟩
  obtain ⟨e0, e1, e2, -⟩ := idx_parts t
  refine ⟨t, flush0_34 t, ?_⟩
  show i ∈ ((View.whole main_v49_6).slice (win0_34.rect t)).set
  rw [View.set_slice_whole, Rect.mem_set_unit]
  intro a
  match a with
  | ⟨0, _⟩ => show win0_34.index t (0 : Fin 3) * 1 ≤ (i 0).val ∧ (i 0).val < win0_34.index t (0 : Fin 3) * 1 + 1; rw [e0]; show (i 0).val * 1 ≤ _ ∧ _ < (i 0).val * 1 + 1; omega
  | ⟨1, _⟩ => show win0_34.index t (1 : Fin 3) * 1 ≤ (i 1).val ∧ (i 1).val < win0_34.index t (1 : Fin 3) * 1 + 1; rw [e1]; omega
  | ⟨2, _⟩ => show win0_34.index t (2 : Fin 3) * 20 ≤ (i 2).val ∧ (i 2).val < win0_34.index t (2 : Fin 3) * 20 + 20; rw [e2]; omega

theorem cover35 (i : S128x1x20.Idx) : ∃ t : Fin cfg0.N, (cfg0.win 35).flush t = true ∧ i ∈ ((cfg0.win 35).blk t).view.set := by
  have hi0 : (i 0).val < 128 := (i 0).isLt
  have hi1 : (i 1).val < 1 := (i 1).isLt
  have hi2 : (i 2).val < 20 := (i 2).isLt
  let t : Fin cfg0.N := ⟨(i 0).val, by rw [N128]; omega⟩
  obtain ⟨-, -, -, e0, e1, e2, -⟩ := idx_parts t
  refine ⟨t, flush0_35 t, ?_⟩
  show i ∈ ((View.whole main_v49_7).slice (win0_35.rect t)).set
  rw [View.set_slice_whole, Rect.mem_set_unit]
  intro a
  match a with
  | ⟨0, _⟩ => show win0_35.index t (0 : Fin 3) * 1 ≤ (i 0).val ∧ (i 0).val < win0_35.index t (0 : Fin 3) * 1 + 1; rw [e0]; show (i 0).val * 1 ≤ _ ∧ _ < (i 0).val * 1 + 1; omega
  | ⟨1, _⟩ => show win0_35.index t (1 : Fin 3) * 1 ≤ (i 1).val ∧ (i 1).val < win0_35.index t (1 : Fin 3) * 1 + 1; rw [e1]; omega
  | ⟨2, _⟩ => show win0_35.index t (2 : Fin 3) * 20 ≤ (i 2).val ∧ (i 2).val < win0_35.index t (2 : Fin 3) * 20 + 20; rw [e2]; omega

theorem cover36 (i : S128x1x20.Idx) : ∃ t : Fin cfg0.N, (cfg0.win 36).flush t = true ∧ i ∈ ((cfg0.win 36).blk t).view.set := by
  have hi0 : (i 0).val < 128 := (i 0).isLt
  have hi1 : (i 1).val < 1 := (i 1).isLt
  have hi2 : (i 2).val < 20 := (i 2).isLt
  let t : Fin cfg0.N := ⟨(i 0).val, by rw [N128]; omega⟩
  obtain ⟨-, -, -, -, -, -, e0, e1, e2⟩ := idx_parts t
  refine ⟨t, flush0_36 t, ?_⟩
  show i ∈ ((View.whole main_v49_8).slice (win0_36.rect t)).set
  rw [View.set_slice_whole, Rect.mem_set_unit]
  intro a
  match a with
  | ⟨0, _⟩ => show win0_36.index t (0 : Fin 3) * 1 ≤ (i 0).val ∧ (i 0).val < win0_36.index t (0 : Fin 3) * 1 + 1; rw [e0]; show (i 0).val * 1 ≤ _ ∧ _ < (i 0).val * 1 + 1; omega
  | ⟨1, _⟩ => show win0_36.index t (1 : Fin 3) * 1 ≤ (i 1).val ∧ (i 1).val < win0_36.index t (1 : Fin 3) * 1 + 1; rw [e1]; omega
  | ⟨2, _⟩ => show win0_36.index t (2 : Fin 3) * 20 ≤ (i 2).val ∧ (i 2).val < win0_36.index t (2 : Fin 3) * 20 + 20; rw [e2]; omega

end Cert.KernelIdeal.Hand

end
-- ==== Proof.LibRows.lean ====
/-
  Small reading lemmas over literal rank-2 shapes: a vector kept as a column, a column spread over a row's lanes, a lane sum
  and a row sum of a matrix read as plain `Fin`-indexed sums, and a maximum of three.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.LibRows

open Idealize.ShloMosaic Idealize.ShloMosaic.ValueIdx

variable {α : Type}

/-- An `[a]` vector kept as an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column spread to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1]` cell spread to an `[a, 1]` column reads the cell everywhere. -/
theorem broadcastTo_11_a1_apply {a : ℕ} (v : (⟨2, ![1, 1]⟩ : Shape).Idx → α) (h : (⟨2, ![1, 1]⟩ : Shape).Broadcasts ⟨2, ![a, 1]⟩)
    (p : Fin a) (u : Fin 1) : broadcastTo ⟨2, ![a, 1]⟩ v h (ix2 p u) = v (ix2 (0 : Fin 1) (0 : Fin 1)) := by
  refine broadcastTo_apply v h (ix2 p u) (ix2 (0 : Fin 1) (0 : Fin 1)) fun ax => ?_
  match ax with
  | ⟨0, _⟩ => rfl
  | ⟨1, _⟩ => rfl

variable {φ : FTy}

/-- The lane sum of a matrix (a `multi_reduction <add>` along axis 1), at row `r`: the sum of the row. -/
theorem multiReduction_add_axis1 {a b : ℕ} (src : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  rw [Ideal.multiReduction_add_single]
  refine Finset.sum_congr rfl fun k _ => congrArg src (funext fun d => Fin.ext ?_)
  match d with
  | ⟨0, _⟩ => rfl
  | ⟨1, _⟩ => rfl

/-- The row sum of a matrix (a `multi_reduction <add>` along axis 0), at column `c`: the sum of the column. -/
theorem multiReduction_add_axis0 {a b : ℕ} (src : FVec Ideal ⟨2, ![a, b]⟩ φ) (acc : BitVec φ.bits)
    (h : Shape.Reduces ⟨2, ![a, b]⟩ [0] ⟨1, ![b]⟩) (hφ : FKind.Formats φ) (hacc : acc = FKind.add.neutral φ hφ) (c : Fin b) :
    multiReduction .add [0] ⟨1, ![b]⟩ src acc h hφ hacc (ix1 c) = ∑ k : Fin a, src (ix2 k c) := by
  rw [Ideal.multiReduction_add_single]
  refine Finset.sum_congr rfl fun k _ => congrArg src (funext fun d => Fin.ext ?_)
  match d with
  | ⟨0, _⟩ => rfl
  | ⟨1, _⟩ => rfl

/-- The maximum of three values from the bottom element, taken in order, is the nested maximum. -/
theorem fold_max_three (f : Fin 3 → EReal) :
    (Finset.univ : Finset (Fin 3)).fold max ⊥ f = max (max (f 0) (f 1)) (f 2) := by
  have hu : (Finset.univ : Finset (Fin 3)) = {0, 1, 2} := by decide
  rw [hu, Finset.fold_insert (by decide), Finset.fold_insert (by decide), Finset.fold_singleton]
  simp only [max_bot_right, max_assoc]

end Cert.LibRows

end
-- ==== Proof.KPay1.lean ====
/-
  The kernel body's first stage at one element: the residual embedding of a block's row, its gate, the gated row,
  the class activations of the row, and the block's column sums of them. Each value the body computes over a
  [256, ·] block is, at row `r`, the specification's function of row `r` of the block it reads; the weights are whatever
  the operand blocks hold (hypotheses `h…`: operand block element = weight).
-/
import proofs.«424737_j11321533792616_2_alg».proof.Proof.Gen.KernelIdeal.Skeleton
import proofs.«424737_j11321533792616_2_alg».proof.Proof.Spec
import proofs.«424737_j11321533792616_2_alg».proof.Proof.LibRows
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Rows

open Idealize.ShloMosaic Idealize.ShloMosaic.ValueIdx Cert.KernelIdeal Cert.KernelIdeal.Gen Cert.LibRows

/-! ## The five block products, each read at one element

A block product into the zero block is, at row `i` and column `j`, the plain sum over the contracted coordinate `k` of
the left block at `(i, k)` times the right block at `(k, j)`: the contraction index has one axis, and the two operand
indices are read coordinate by coordinate. -/

theorem kp1_lhs_mm_1024_512_0 (i : S256x512.Idx) (q : dot_S256x1024_S1024x512_S256x512_1_0_0_1_n_n.contr.Idx) :
    (dot_S256x1024_S1024x512_S256x512_1_0_0_1_n_n.lhsIdx i q 0).val = (i 0).val := by
  unfold DotDims.lhsIdx
  rw [dif_neg (show ¬(0 : Fin S256x1024.rank) ∈ dot_S256x1024_S1024x512_S256x512_1_0_0_1_n_n.lhsBatch by decide), dif_pos (show (0 : Fin S256x1024.rank) ∈ dot_S256x1024_S1024x512_S256x512_1_0_0_1_n_n.lhsNonContracting by decide)]
  rfl
theorem kp1_lhs_mm_1024_512_1 (i : S256x512.Idx) (q : dot_S256x1024_S1024x512_S256x512_1_0_0_1_n_n.contr.Idx) :
    (dot_S256x1024_S1024x512_S256x512_1_0_0_1_n_n.lhsIdx i q 1).val = (q ⟨0, by decide⟩).val :=
  dot_S256x1024_S1024x512_S256x512_1_0_0_1_n_n.lhsIdx_val_of_single rfl i q
theorem kp1_rhs_mm_1024_512_0 (i : S256x512.Idx) (q : dot_S256x1024_S1024x512_S256x512_1_0_0_1_n_n.contr.Idx) :
    (dot_S256x1024_S1024x512_S256x512_1_0_0_1_n_n.rhsIdx i q 0).val = (q ⟨0, by decide⟩).val :=
  dot_S256x1024_S1024x512_S256x512_1_0_0_1_n_n.rhsIdx_val_of_single rfl i q
theorem kp1_rhs_mm_1024_512_1 (i : S256x512.Idx) (q : dot_S256x1024_S1024x512_S256x512_1_0_0_1_n_n.contr.Idx) :
    (dot_S256x1024_S1024x512_S256x512_1_0_0_1_n_n.rhsIdx i q 1).val = (i 1).val := by
  unfold DotDims.rhsIdx
  rw [dif_neg (show ¬(1 : Fin S1024x512.rank) ∈ dot_S256x1024_S1024x512_S256x512_1_0_0_1_n_n.rhsBatch by decide), dif_pos (show (1 : Fin S1024x512.rank) ∈ dot_S256x1024_S1024x512_S256x512_1_0_0_1_n_n.rhsNonContracting by decide)]
  rfl
/-- A [256, 1024] block times a [1024, 512] block, at `(i, j)`. -/
theorem kp1_mm_1024_512 {φ₁ φ₂ : FTy} (l : FVec Ideal S256x1024 φ₁) (w : FVec Ideal S1024x512 φ₂) (i : Fin 256) (j : Fin 512) :
    matmul dot_S256x1024_S1024x512_S256x512_1_0_0_1_n_n none l w (constant (F := Ideal) S256x512 .f32 0x00000000#32) (ix2 i j)
      = ∑ k : Fin 1024, l (ix2 i k) * w (ix2 k j) := by
  simp only [matmul]
  rw [Ideal.matmul_constant_zero_apply, ← Equiv.sum_comp (ValueIdx.contrEquiv1 dot_S256x1024_S1024x512_S256x512_1_0_0_1_n_n 1024 rfl rfl).symm]
  refine Finset.sum_congr rfl fun k _ => ?_
  have hk := ValueIdx.contrEquiv1_symm_val dot_S256x1024_S1024x512_S256x512_1_0_0_1_n_n 1024 rfl rfl k
  have el : dot_S256x1024_S1024x512_S256x512_1_0_0_1_n_n.lhsIdx (ix2 i j) ((ValueIdx.contrEquiv1 dot_S256x1024_S1024x512_S256x512_1_0_0_1_n_n 1024 rfl rfl).symm k) = ix2 i k := funext fun a => Fin.ext (by
    match a with
    | ⟨0, _⟩ => exact kp1_lhs_mm_1024_512_0 _ _
    | ⟨1, _⟩ => exact (kp1_lhs_mm_1024_512_1 _ _).trans hk)
  have er : dot_S256x1024_S1024x512_S256x512_1_0_0_1_n_n.rhsIdx (ix2 i j) ((ValueIdx.contrEquiv1 dot_S256x1024_S1024x512_S256x512_1_0_0_1_n_n 1024 rfl rfl).symm k) = ix2 k j := funext fun a => Fin.ext (by
    match a with
    | ⟨0, _⟩ => exact (kp1_rhs_mm_1024_512_0 _ _).trans hk
    | ⟨1, _⟩ => exact kp1_rhs_mm_1024_512_1 _ _)
  rw [el, er]

theorem kp1_lhs_mm_512_512_0 (i : S256x512.Idx) (q : dot_S256x512_S512x512_S256x512_1_0_0_1_n_n.contr.Idx) :
    (dot_S256x512_S512x512_S256x512_1_0_0_1_n_n.lhsIdx i q 0).val = (i 0).val := by
  unfold DotDims.lhsIdx
  rw [dif_neg (show ¬(0 : Fin S256x512.rank) ∈ dot_S256x512_S512x512_S256x512_1_0_0_1_n_n.lhsBatch by decide), dif_pos (show (0 : Fin S256x512.rank) ∈ dot_S256x512_S512x512_S256x512_1_0_0_1_n_n.lhsNonContracting by decide)]
  rfl
theorem kp1_lhs_mm_512_512_1 (i : S256x512.Idx) (q : dot_S256x512_S512x512_S256x512_1_0_0_1_n_n.contr.Idx) :
    (dot_S256x512_S512x512_S256x512_1_0_0_1_n_n.lhsIdx i q 1).val = (q ⟨0, by decide⟩).val :=
  dot_S256x512_S512x512_S256x512_1_0_0_1_n_n.lhsIdx_val_of_single rfl i q
theorem kp1_rhs_mm_512_512_0 (i : S256x512.Idx) (q : dot_S256x512_S512x512_S256x512_1_0_0_1_n_n.contr.Idx) :
    (dot_S256x512_S512x512_S256x512_1_0_0_1_n_n.rhsIdx i q 0).val = (q ⟨0, by decide⟩).val :=
  dot_S256x512_S512x512_S256x512_1_0_0_1_n_n.rhsIdx_val_of_single rfl i q
theorem kp1_rhs_mm_512_512_1 (i : S256x512.Idx) (q : dot_S256x512_S512x512_S256x512_1_0_0_1_n_n.contr.Idx) :
    (dot_S256x512_S512x512_S256x512_1_0_0_1_n_n.rhsIdx i q 1).val = (i 1).val := by
  unfold DotDims.rhsIdx
  rw [dif_neg (show ¬(1 : Fin S512x512.rank) ∈ dot_S256x512_S512x512_S256x512_1_0_0_1_n_n.rhsBatch by decide), dif_pos (show (1 : Fin S512x512.rank) ∈ dot_S256x512_S512x512_S256x512_1_0_0_1_n_n.rhsNonContracting by decide)]
  rfl
/-- A [256, 512] block times a [512, 512] block, at `(i, j)`. -/
theorem kp1_mm_512_512 {φ₁ φ₂ : FTy} (l : FVec Ideal S256x512 φ₁) (w : FVec Ideal S512x512 φ₂) (i : Fin 256) (j : Fin 512) :
    matmul dot_S256x512_S512x512_S256x512_1_0_0_1_n_n none l w (constant (F := Ideal) S256x512 .f32 0x00000000#32) (ix2 i j)
      = ∑ k : Fin 512, l (ix2 i k) * w (ix2 k j) := by
  simp only [matmul]
  rw [Ideal.matmul_constant_zero_apply, ← Equiv.sum_comp (ValueIdx.contrEquiv1 dot_S256x512_S512x512_S256x512_1_0_0_1_n_n 512 rfl rfl).symm]
  refine Finset.sum_congr rfl fun k _ => ?_
  have hk := ValueIdx.contrEquiv1_symm_val dot_S256x512_S512x512_S256x512_1_0_0_1_n_n 512 rfl rfl k
  have el : dot_S256x512_S512x512_S256x512_1_0_0_1_n_n.lhsIdx (ix2 i j) ((ValueIdx.contrEquiv1 dot_S256x512_S512x512_S256x512_1_0_0_1_n_n 512 rfl rfl).symm k) = ix2 i k := funext fun a => Fin.ext (by
    match a with
    | ⟨0, _⟩ => exact kp1_lhs_mm_512_512_0 _ _
    | ⟨1, _⟩ => exact (kp1_lhs_mm_512_512_1 _ _).trans hk)
  have er : dot_S256x512_S512x512_S256x512_1_0_0_1_n_n.rhsIdx (ix2 i j) ((ValueIdx.contrEquiv1 dot_S256x512_S512x512_S256x512_1_0_0_1_n_n 512 rfl rfl).symm k) = ix2 k j := funext fun a => Fin.ext (by
    match a with
    | ⟨0, _⟩ => exact (kp1_rhs_mm_512_512_0 _ _).trans hk
    | ⟨1, _⟩ => exact kp1_rhs_mm_512_512_1 _ _)
  rw [el, er]

theorem kp1_lhs_mm_512_1024_0 (i : S256x1024.Idx) (q : dot_S256x512_S512x1024_S256x1024_1_0_0_1_n_n.contr.Idx) :
    (dot_S256x512_S512x1024_S256x1024_1_0_0_1_n_n.lhsIdx i q 0).val = (i 0).val := by
  unfold DotDims.lhsIdx
  rw [dif_neg (show ¬(0 : Fin S256x512.rank) ∈ dot_S256x512_S512x1024_S256x1024_1_0_0_1_n_n.lhsBatch by decide), dif_pos (show (0 : Fin S256x512.rank) ∈ dot_S256x512_S512x1024_S256x1024_1_0_0_1_n_n.lhsNonContracting by decide)]
  rfl
theorem kp1_lhs_mm_512_1024_1 (i : S256x1024.Idx) (q : dot_S256x512_S512x1024_S256x1024_1_0_0_1_n_n.contr.Idx) :
    (dot_S256x512_S512x1024_S256x1024_1_0_0_1_n_n.lhsIdx i q 1).val = (q ⟨0, by decide⟩).val :=
  dot_S256x512_S512x1024_S256x1024_1_0_0_1_n_n.lhsIdx_val_of_single rfl i q
theorem kp1_rhs_mm_512_1024_0 (i : S256x1024.Idx) (q : dot_S256x512_S512x1024_S256x1024_1_0_0_1_n_n.contr.Idx) :
    (dot_S256x512_S512x1024_S256x1024_1_0_0_1_n_n.rhsIdx i q 0).val = (q ⟨0, by decide⟩).val :=
  dot_S256x512_S512x1024_S256x1024_1_0_0_1_n_n.rhsIdx_val_of_single rfl i q
theorem kp1_rhs_mm_512_1024_1 (i : S256x1024.Idx) (q : dot_S256x512_S512x1024_S256x1024_1_0_0_1_n_n.contr.Idx) :
    (dot_S256x512_S512x1024_S256x1024_1_0_0_1_n_n.rhsIdx i q 1).val = (i 1).val := by
  unfold DotDims.rhsIdx
  rw [dif_neg (show ¬(1 : Fin S512x1024.rank) ∈ dot_S256x512_S512x1024_S256x1024_1_0_0_1_n_n.rhsBatch by decide), dif_pos (show (1 : Fin S512x1024.rank) ∈ dot_S256x512_S512x1024_S256x1024_1_0_0_1_n_n.rhsNonContracting by decide)]
  rfl
/-- A [256, 512] block times a [512, 1024] block, at `(i, j)`. -/
theorem kp1_mm_512_1024 {φ₁ φ₂ : FTy} (l : FVec Ideal S256x512 φ₁) (w : FVec Ideal S512x1024 φ₂) (i : Fin 256) (j : Fin 1024) :
    matmul dot_S256x512_S512x1024_S256x1024_1_0_0_1_n_n none l w (constant (F := Ideal) S256x1024 .f32 0x00000000#32) (ix2 i j)
      = ∑ k : Fin 512, l (ix2 i k) * w (ix2 k j) := by
  simp only [matmul]
  rw [Ideal.matmul_constant_zero_apply, ← Equiv.sum_comp (ValueIdx.contrEquiv1 dot_S256x512_S512x1024_S256x1024_1_0_0_1_n_n 512 rfl rfl).symm]
  refine Finset.sum_congr rfl fun k _ => ?_
  have hk := ValueIdx.contrEquiv1_symm_val dot_S256x512_S512x1024_S256x1024_1_0_0_1_n_n 512 rfl rfl k
  have el : dot_S256x512_S512x1024_S256x1024_1_0_0_1_n_n.lhsIdx (ix2 i j) ((ValueIdx.contrEquiv1 dot_S256x512_S512x1024_S256x1024_1_0_0_1_n_n 512 rfl rfl).symm k) = ix2 i k := funext fun a => Fin.ext (by
    match a with
    | ⟨0, _⟩ => exact kp1_lhs_mm_512_1024_0 _ _
    | ⟨1, _⟩ => exact (kp1_lhs_mm_512_1024_1 _ _).trans hk)
  have er : dot_S256x512_S512x1024_S256x1024_1_0_0_1_n_n.rhsIdx (ix2 i j) ((ValueIdx.contrEquiv1 dot_S256x512_S512x1024_S256x1024_1_0_0_1_n_n 512 rfl rfl).symm k) = ix2 k j := funext fun a => Fin.ext (by
    match a with
    | ⟨0, _⟩ => exact (kp1_rhs_mm_512_1024_0 _ _).trans hk
    | ⟨1, _⟩ => exact kp1_rhs_mm_512_1024_1 _ _)
  rw [el, er]

theorem kp1_lhs_mm_1024_256_0 (i : S256x256.Idx) (q : dot_S256x1024_S1024x256_S256x256_1_0_0_1_n_n.contr.Idx) :
    (dot_S256x1024_S1024x256_S256x256_1_0_0_1_n_n.lhsIdx i q 0).val = (i 0).val := by
  unfold DotDims.lhsIdx
  rw [dif_neg (show ¬(0 : Fin S256x1024.rank) ∈ dot_S256x1024_S1024x256_S256x256_1_0_0_1_n_n.lhsBatch by decide), dif_pos (show (0 : Fin S256x1024.rank) ∈ dot_S256x1024_S1024x256_S256x256_1_0_0_1_n_n.lhsNonContracting by decide)]
  rfl
theorem kp1_lhs_mm_1024_256_1 (i : S256x256.Idx) (q : dot_S256x1024_S1024x256_S256x256_1_0_0_1_n_n.contr.Idx) :
    (dot_S256x1024_S1024x256_S256x256_1_0_0_1_n_n.lhsIdx i q 1).val = (q ⟨0, by decide⟩).val :=
  dot_S256x1024_S1024x256_S256x256_1_0_0_1_n_n.lhsIdx_val_of_single rfl i q
theorem kp1_rhs_mm_1024_256_0 (i : S256x256.Idx) (q : dot_S256x1024_S1024x256_S256x256_1_0_0_1_n_n.contr.Idx) :
    (dot_S256x1024_S1024x256_S256x256_1_0_0_1_n_n.rhsIdx i q 0).val = (q ⟨0, by decide⟩).val :=
  dot_S256x1024_S1024x256_S256x256_1_0_0_1_n_n.rhsIdx_val_of_single rfl i q
theorem kp1_rhs_mm_1024_256_1 (i : S256x256.Idx) (q : dot_S256x1024_S1024x256_S256x256_1_0_0_1_n_n.contr.Idx) :
    (dot_S256x1024_S1024x256_S256x256_1_0_0_1_n_n.rhsIdx i q 1).val = (i 1).val := by
  unfold DotDims.rhsIdx
  rw [dif_neg (show ¬(1 : Fin S1024x256.rank) ∈ dot_S256x1024_S1024x256_S256x256_1_0_0_1_n_n.rhsBatch by decide), dif_pos (show (1 : Fin S1024x256.rank) ∈ dot_S256x1024_S1024x256_S256x256_1_0_0_1_n_n.rhsNonContracting by decide)]
  rfl
/-- A [256, 1024] block times a [1024, 256] block, at `(i, j)`. -/
theorem kp1_mm_1024_256 {φ₁ φ₂ : FTy} (l : FVec Ideal S256x1024 φ₁) (w : FVec Ideal S1024x256 φ₂) (i : Fin 256) (j : Fin 256) :
    matmul dot_S256x1024_S1024x256_S256x256_1_0_0_1_n_n none l w (constant (F := Ideal) S256x256 .f32 0x00000000#32) (ix2 i j)
      = ∑ k : Fin 1024, l (ix2 i k) * w (ix2 k j) := by
  simp only [matmul]
  rw [Ideal.matmul_constant_zero_apply, ← Equiv.sum_comp (ValueIdx.contrEquiv1 dot_S256x1024_S1024x256_S256x256_1_0_0_1_n_n 1024 rfl rfl).symm]
  refine Finset.sum_congr rfl fun k _ => ?_
  have hk := ValueIdx.contrEquiv1_symm_val dot_S256x1024_S1024x256_S256x256_1_0_0_1_n_n 1024 rfl rfl k
  have el : dot_S256x1024_S1024x256_S256x256_1_0_0_1_n_n.lhsIdx (ix2 i j) ((ValueIdx.contrEquiv1 dot_S256x1024_S1024x256_S256x256_1_0_0_1_n_n 1024 rfl rfl).symm k) = ix2 i k := funext fun a => Fin.ext (by
    match a with
    | ⟨0, _⟩ => exact kp1_lhs_mm_1024_256_0 _ _
    | ⟨1, _⟩ => exact (kp1_lhs_mm_1024_256_1 _ _).trans hk)
  have er : dot_S256x1024_S1024x256_S256x256_1_0_0_1_n_n.rhsIdx (ix2 i j) ((ValueIdx.contrEquiv1 dot_S256x1024_S1024x256_S256x256_1_0_0_1_n_n 1024 rfl rfl).symm k) = ix2 k j := funext fun a => Fin.ext (by
    match a with
    | ⟨0, _⟩ => exact (kp1_rhs_mm_1024_256_0 _ _).trans hk
    | ⟨1, _⟩ => exact kp1_rhs_mm_1024_256_1 _ _)
  rw [el, er]

theorem kp1_lhs_mm_1024_20_0 (i : S256x20.Idx) (q : dot_S256x1024_S1024x20_S256x20_1_0_0_1_n_n.contr.Idx) :
    (dot_S256x1024_S1024x20_S256x20_1_0_0_1_n_n.lhsIdx i q 0).val = (i 0).val := by
  unfold DotDims.lhsIdx
  rw [dif_neg (show ¬(0 : Fin S256x1024.rank) ∈ dot_S256x1024_S1024x20_S256x20_1_0_0_1_n_n.lhsBatch by decide), dif_pos (show (0 : Fin S256x1024.rank) ∈ dot_S256x1024_S1024x20_S256x20_1_0_0_1_n_n.lhsNonContracting by decide)]
  rfl
theorem kp1_lhs_mm_1024_20_1 (i : S256x20.Idx) (q : dot_S256x1024_S1024x20_S256x20_1_0_0_1_n_n.contr.Idx) :
    (dot_S256x1024_S1024x20_S256x20_1_0_0_1_n_n.lhsIdx i q 1).val = (q ⟨0, by decide⟩).val :=
  dot_S256x1024_S1024x20_S256x20_1_0_0_1_n_n.lhsIdx_val_of_single rfl i q
theorem kp1_rhs_mm_1024_20_0 (i : S256x20.Idx) (q : dot_S256x1024_S1024x20_S256x20_1_0_0_1_n_n.contr.Idx) :
    (dot_S256x1024_S1024x20_S256x20_1_0_0_1_n_n.rhsIdx i q 0).val = (q ⟨0, by decide⟩).val :=
  dot_S256x1024_S1024x20_S256x20_1_0_0_1_n_n.rhsIdx_val_of_single rfl i q
theorem kp1_rhs_mm_1024_20_1 (i : S256x20.Idx) (q : dot_S256x1024_S1024x20_S256x20_1_0_0_1_n_n.contr.Idx) :
    (dot_S256x1024_S1024x20_S256x20_1_0_0_1_n_n.rhsIdx i q 1).val = (i 1).val := by
  unfold DotDims.rhsIdx
  rw [dif_neg (show ¬(1 : Fin S1024x20.rank) ∈ dot_S256x1024_S1024x20_S256x20_1_0_0_1_n_n.rhsBatch by decide), dif_pos (show (1 : Fin S1024x20.rank) ∈ dot_S256x1024_S1024x20_S256x20_1_0_0_1_n_n.rhsNonContracting by decide)]
  rfl
/-- A [256, 1024] block times a [1024, 20] block, at `(i, j)`. -/
theorem kp1_mm_1024_20 {φ₁ φ₂ : FTy} (l : FVec Ideal S256x1024 φ₁) (w : FVec Ideal S1024x20 φ₂) (i : Fin 256) (j : Fin 20) :
    matmul dot_S256x1024_S1024x20_S256x20_1_0_0_1_n_n none l w (constant (F := Ideal) S256x20 .f32 0x00000000#32) (ix2 i j)
      = ∑ k : Fin 1024, l (ix2 i k) * w (ix2 k j) := by
  simp only [matmul]
  rw [Ideal.matmul_constant_zero_apply, ← Equiv.sum_comp (ValueIdx.contrEquiv1 dot_S256x1024_S1024x20_S256x20_1_0_0_1_n_n 1024 rfl rfl).symm]
  refine Finset.sum_congr rfl fun k _ => ?_
  have hk := ValueIdx.contrEquiv1_symm_val dot_S256x1024_S1024x20_S256x20_1_0_0_1_n_n 1024 rfl rfl k
  have el : dot_S256x1024_S1024x20_S256x20_1_0_0_1_n_n.lhsIdx (ix2 i j) ((ValueIdx.contrEquiv1 dot_S256x1024_S1024x20_S256x20_1_0_0_1_n_n 1024 rfl rfl).symm k) = ix2 i k := funext fun a => Fin.ext (by
    match a with
    | ⟨0, _⟩ => exact kp1_lhs_mm_1024_20_0 _ _
    | ⟨1, _⟩ => exact (kp1_lhs_mm_1024_20_1 _ _).trans hk)
  have er : dot_S256x1024_S1024x20_S256x20_1_0_0_1_n_n.rhsIdx (ix2 i j) ((ValueIdx.contrEquiv1 dot_S256x1024_S1024x20_S256x20_1_0_0_1_n_n 1024 rfl rfl).symm k) = ix2 k j := funext fun a => Fin.ext (by
    match a with
    | ⟨0, _⟩ => exact (kp1_rhs_mm_1024_20_0 _ _).trans hk
    | ⟨1, _⟩ => exact kp1_rhs_mm_1024_20_1 _ _)
  rw [el, er]

/-! ## The two sums of the stage, and the logistic, each read at one element

The sums are stated with their side conditions as hypotheses of the very propositions the body carries (the format is
one of the two float formats; the initial word is the zero word), so that they apply to the body's terms as they stand. -/

/-- The lane sum of a [256, 256] block, at row `r`. -/
theorem kp1_lane_sum_256 (src : FVec Ideal S256x256 .f32) (hφ : FTy.f32 = FTy.f32 ∨ FTy.f32 = FTy.bf16)
    (hacc : (0x00000000#32 : BitVec 32) = 0x00000000#32) (r : Fin 256) :
    multiReduction (F := Ideal) .add [1] S256 src 0x00000000#32 reduces_S256x256_S256 hφ hacc (ix1 r)
      = ∑ k : Fin 256, src (ix2 r k) :=
  multiReduction_add_axis1 src _ _ hφ hacc r

/-- The column sum of a [256, 20] block, at class `c`. -/
theorem kp1_row_sum_20 (src : FVec Ideal S256x20 .f32) (hφ : FTy.f32 = FTy.f32 ∨ FTy.f32 = FTy.bf16)
    (hacc : (0x00000000#32 : BitVec 32) = 0x00000000#32) (c : Fin 20) :
    multiReduction (F := Ideal) .add [0] S20 src 0x00000000#32 reduces_S256x20_S20 hφ hacc (ix1 c)
      = ∑ r : Fin 256, src (ix2 r c) :=
  multiReduction_add_axis0 src _ _ hφ hacc c

/-- The logistic of a block is the logistic of each element. -/
theorem kp1_logistic_apply {s : Shape} {φ : FTy} (v : FVec Ideal s φ) (i : s.Idx) : logistic v i = Ideal.logistic (v i) := rfl

/-- The embedding: `relu (relu (relu (x·W₀ + b₀)·W₁ + b₁)·W₂ + b₂) + x` at row `r`, lane `d`. -/
theorem pay1_apply (W : Spec.Wts) (v0 : Vec Ideal S256x1024 .f32) (v1 : Vec Ideal S1024x512 .bf16) (v3 : Vec Ideal S1x512 .f32)
    (v11 : Vec Ideal S512x512 .bf16) (v13 : Vec Ideal S1x512 .f32) (v21 : Vec Ideal S512x1024 .bf16) (v23 : Vec Ideal S1x1024 .f32)
    (h1 : ∀ (k : Fin 1024) (j : Fin 512), v1 (ix2 k j) = W.w0 k j) (h3 : ∀ j : Fin 512, v3 (ix2 (0 : Fin 1) j) = W.b0 j)
    (h11 : ∀ (k : Fin 512) (j : Fin 512), v11 (ix2 k j) = W.w1 k j) (h13 : ∀ j : Fin 512, v13 (ix2 (0 : Fin 1) j) = W.b1 j)
    (h21 : ∀ (k : Fin 512) (j : Fin 1024), v21 (ix2 k j) = W.w2 k j) (h23 : ∀ j : Fin 1024, v23 (ix2 (0 : Fin 1) j) = W.b2 j)
    (r : Fin 256) (d : Fin 1024) :
    k0_pay1 (F := Ideal) v0 v1 v3 v11 v13 v21 v23 (ix2 r d) = Spec.feat W (fun k => v0 (ix2 r k)) d := by
  unfold k0_pay1
  simp only [addf_apply, maximumf_apply, truncf_apply, broadcast_apply, shapeCast_self, kp1_mm_1024_512, kp1_mm_512_512,
    kp1_mm_512_1024, broadcastTo_1b_ab_apply, h1, h3, h11, h13, h21, h23, Spec.feat, Spec.h2, Spec.h1, Spec.h0, Spec.lin,
    Spec.relu]
  rfl

/-- The gated row: the gate `σ (relu (f·Wf₁ + bf₁)·wf₂ + bf₂)` of the row's features `f`, times the features. -/
theorem pay2_apply (W : Spec.Wts) (v31 : FVec Ideal S256x1024 .f32) (v33 : Vec Ideal S1024x256 .bf16) (v35 : Vec Ideal S1x256 .f32)
    (v43 : Vec Ideal S1x256 .f32) (v48 : Vec Ideal S1x1 .f32)
    (h33 : ∀ (k : Fin 1024) (j : Fin 256), v33 (ix2 k j) = W.wf1 k j) (h35 : ∀ j : Fin 256, v35 (ix2 (0 : Fin 1) j) = W.bf1 j)
    (h43 : ∀ k : Fin 256, v43 (ix2 (0 : Fin 1) k) = W.wf2 k) (h48 : v48 (ix2 (0 : Fin 1) (0 : Fin 1)) = W.bf2)
    (r : Fin 256) (d : Fin 1024) :
    k0_pay2 (F := Ideal) v31 v33 v35 v43 v48 (ix2 r d) = Spec.gated W (fun k => v31 (ix2 r k)) d := by
  unfold k0_pay2
  simp only [mulf_apply, addf_apply, shapeCast_self, kp1_logistic_apply, broadcastTo_a1_ab_apply, broadcastTo_11_a1_apply,
    shapeCast_a_a1_apply, h48, Spec.gated, Spec.att, Spec.sig]
  refine congrArg (fun s => Ideal.logistic (s + W.bf2) * v31 (ix2 r d)) ?_
  refine (kp1_lane_sum_256 _ _ _ r).trans ?_
  refine Finset.sum_congr rfl fun k _ => ?_
  simp only [mulf_apply, addf_apply, maximumf_apply, truncf_apply, broadcast_apply, kp1_mm_1024_256, broadcastTo_1b_ab_apply,
    h33, h35, h43, Spec.attH, Spec.lin, Spec.relu]
  rfl

/-- The class activations of the row: the gated row times the class matrix, plus the class bias. -/
theorem pay3_apply (W : Spec.Wts) (v31 : FVec Ideal S256x1024 .f32) (v33 : Vec Ideal S1024x256 .bf16) (v35 : Vec Ideal S1x256 .f32)
    (v43 : Vec Ideal S1x256 .f32) (v48 : Vec Ideal S1x1 .f32) (v55 : Vec Ideal S1024x20 .bf16) (v57 : Vec Ideal S1x20 .f32)
    (h33 : ∀ (k : Fin 1024) (j : Fin 256), v33 (ix2 k j) = W.wf1 k j) (h35 : ∀ j : Fin 256, v35 (ix2 (0 : Fin 1) j) = W.bf1 j)
    (h43 : ∀ k : Fin 256, v43 (ix2 (0 : Fin 1) k) = W.wf2 k) (h48 : v48 (ix2 (0 : Fin 1) (0 : Fin 1)) = W.bf2)
    (h55 : ∀ (k : Fin 1024) (c : Fin 20), v55 (ix2 k c) = W.wc1 k c) (h57 : ∀ c : Fin 20, v57 (ix2 (0 : Fin 1) c) = W.bc1 c)
    (r : Fin 256) (c : Fin 20) :
    k0_pay3 (F := Ideal) v31 v33 v35 v43 v48 v55 v57 (ix2 r c) = Spec.tcam W (fun k => v31 (ix2 r k)) c := by
  unfold k0_pay3
  simp only [addf_apply, truncf_apply, shapeCast_self, kp1_mm_1024_20, broadcastTo_1b_ab_apply,
    pay2_apply W v31 v33 v35 v43 v48 h33 h35 h43 h48, h55, h57, Spec.tcam, Spec.lin]

/-- The block's column sums of the class activations (one [1, 1, 20] entry per tile). -/
theorem pay4_apply (W : Spec.Wts) (v31 : FVec Ideal S256x1024 .f32) (v33 : Vec Ideal S1024x256 .bf16) (v35 : Vec Ideal S1x256 .f32)
    (v43 : Vec Ideal S1x256 .f32) (v48 : Vec Ideal S1x1 .f32) (v55 : Vec Ideal S1024x20 .bf16) (v57 : Vec Ideal S1x20 .f32)
    (h33 : ∀ (k : Fin 1024) (j : Fin 256), v33 (ix2 k j) = W.wf1 k j) (h35 : ∀ j : Fin 256, v35 (ix2 (0 : Fin 1) j) = W.bf1 j)
    (h43 : ∀ k : Fin 256, v43 (ix2 (0 : Fin 1) k) = W.wf2 k) (h48 : v48 (ix2 (0 : Fin 1) (0 : Fin 1)) = W.bf2)
    (h55 : ∀ (k : Fin 1024) (c : Fin 20), v55 (ix2 k c) = W.wc1 k c) (h57 : ∀ c : Fin 20, v57 (ix2 (0 : Fin 1) c) = W.bc1 c)
    (c : Fin 20) :
    k0_pay4 (F := Ideal) v31 v33 v35 v43 v48 v55 v57 (ix3 (0 : Fin 1) (0 : Fin 1) c)
      = ∑ r : Fin 256, Spec.tcam W (fun k => v31 (ix2 r k)) c := by
  unfold k0_pay4
  simp only [shapeCast_ab_1ab_apply, shapeCast_a_1a_apply]
  refine (kp1_row_sum_20 _ _ _ c).trans ?_
  exact Finset.sum_congr rfl fun r _ => pay3_apply W v31 v33 v35 v43 v48 v55 v57 h33 h35 h43 h48 h55 h57 r c

end Cert.KernelIdeal.Rows

end
-- ==== Proof.KPay2.lean ====
/-
  The kernel body's second stage at one element: the first erasure of a row's features, the second gate, the
  re-gated row, its class activations and their column sums over the block. As in the first stage every value is, at row
  `r`, the specification's function of row `r` of the blocks it reads.
-/
import proofs.«424737_j11321533792616_2_alg».proof.Proof.Gen.KernelIdeal.Skeleton
import proofs.«424737_j11321533792616_2_alg».proof.Proof.Spec
import proofs.«424737_j11321533792616_2_alg».proof.Proof.LibRows
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Rows

open Idealize.ShloMosaic Idealize.ShloMosaic.ValueIdx Cert.KernelIdeal Cert.KernelIdeal.Gen Cert.LibRows

/-! ## The two products of this stage read at an element -/

theorem kp2_lhsA_0 (i : S256x256.Idx) (q : dot_S256x1024_S1024x256_S256x256_1_0_0_1_n_n.contr.Idx) :
    (dot_S256x1024_S1024x256_S256x256_1_0_0_1_n_n.lhsIdx i q 0).val = (i 0).val := by
  unfold DotDims.lhsIdx
  rw [dif_neg (show ¬(0 : Fin S256x1024.rank) ∈ dot_S256x1024_S1024x256_S256x256_1_0_0_1_n_n.lhsBatch by decide), dif_pos (show (0 : Fin S256x1024.rank) ∈ dot_S256x1024_S1024x256_S256x256_1_0_0_1_n_n.lhsNonContracting by decide)]
  rfl
theorem kp2_lhsA_1 (i : S256x256.Idx) (q : dot_S256x1024_S1024x256_S256x256_1_0_0_1_n_n.contr.Idx) :
    (dot_S256x1024_S1024x256_S256x256_1_0_0_1_n_n.lhsIdx i q 1).val = (q ⟨0, by decide⟩).val :=
  dot_S256x1024_S1024x256_S256x256_1_0_0_1_n_n.lhsIdx_val_of_single rfl i q
theorem kp2_rhsA_0 (i : S256x256.Idx) (q : dot_S256x1024_S1024x256_S256x256_1_0_0_1_n_n.contr.Idx) :
    (dot_S256x1024_S1024x256_S256x256_1_0_0_1_n_n.rhsIdx i q 0).val = (q ⟨0, by decide⟩).val :=
  dot_S256x1024_S1024x256_S256x256_1_0_0_1_n_n.rhsIdx_val_of_single rfl i q
theorem kp2_rhsA_1 (i : S256x256.Idx) (q : dot_S256x1024_S1024x256_S256x256_1_0_0_1_n_n.contr.Idx) :
    (dot_S256x1024_S1024x256_S256x256_1_0_0_1_n_n.rhsIdx i q 1).val = (i 1).val := by
  unfold DotDims.rhsIdx
  rw [dif_neg (show ¬(1 : Fin S1024x256.rank) ∈ dot_S256x1024_S1024x256_S256x256_1_0_0_1_n_n.rhsBatch by decide), dif_pos (show (1 : Fin S1024x256.rank) ∈ dot_S256x1024_S1024x256_S256x256_1_0_0_1_n_n.rhsNonContracting by decide)]
  rfl

/-- A [256, 1024] block times a [1024, 256] matrix into the zero block, at (i, j): the sum over the contracted axis. -/
theorem kp2_mm_1024_256 {φ₁ φ₂ : FTy} (l : FVec Ideal S256x1024 φ₁) (r : FVec Ideal S1024x256 φ₂) (i : Fin 256) (j : Fin 256) :
    matmul dot_S256x1024_S1024x256_S256x256_1_0_0_1_n_n none l r (constant (F := Ideal) S256x256 .f32 0x00000000#32) (ix2 i j)
      = ∑ k : Fin 1024, l (ix2 i k) * r (ix2 k j) := by
  simp only [matmul]
  rw [Ideal.matmul_constant_zero_apply, ← Equiv.sum_comp (ValueIdx.contrEquiv1 dot_S256x1024_S1024x256_S256x256_1_0_0_1_n_n 1024 rfl rfl).symm]
  refine Finset.sum_congr rfl fun k _ => ?_
  have hk := ValueIdx.contrEquiv1_symm_val dot_S256x1024_S1024x256_S256x256_1_0_0_1_n_n 1024 rfl rfl k
  have el : dot_S256x1024_S1024x256_S256x256_1_0_0_1_n_n.lhsIdx (ix2 i j) ((ValueIdx.contrEquiv1 dot_S256x1024_S1024x256_S256x256_1_0_0_1_n_n 1024 rfl rfl).symm k) = ix2 i k := funext fun a => Fin.ext (by
    match a with
    | ⟨0, _⟩ => exact kp2_lhsA_0 _ _
    | ⟨1, _⟩ => exact (kp2_lhsA_1 _ _).trans hk)
  have er : dot_S256x1024_S1024x256_S256x256_1_0_0_1_n_n.rhsIdx (ix2 i j) ((ValueIdx.contrEquiv1 dot_S256x1024_S1024x256_S256x256_1_0_0_1_n_n 1024 rfl rfl).symm k) = ix2 k j := funext fun a => Fin.ext (by
    match a with
    | ⟨0, _⟩ => exact (kp2_rhsA_0 _ _).trans hk
    | ⟨1, _⟩ => exact kp2_rhsA_1 _ _)
  rw [el, er]

theorem kp2_lhsB_0 (i : S256x20.Idx) (q : dot_S256x1024_S1024x20_S256x20_1_0_0_1_n_n.contr.Idx) :
    (dot_S256x1024_S1024x20_S256x20_1_0_0_1_n_n.lhsIdx i q 0).val = (i 0).val := by
  unfold DotDims.lhsIdx
  rw [dif_neg (show ¬(0 : Fin S256x1024.rank) ∈ dot_S256x1024_S1024x20_S256x20_1_0_0_1_n_n.lhsBatch by decide), dif_pos (show (0 : Fin S256x1024.rank) ∈ dot_S256x1024_S1024x20_S256x20_1_0_0_1_n_n.lhsNonContracting by decide)]
  rfl
theorem kp2_lhsB_1 (i : S256x20.Idx) (q : dot_S256x1024_S1024x20_S256x20_1_0_0_1_n_n.contr.Idx) :
    (dot_S256x1024_S1024x20_S256x20_1_0_0_1_n_n.lhsIdx i q 1).val = (q ⟨0, by decide⟩).val :=
  dot_S256x1024_S1024x20_S256x20_1_0_0_1_n_n.lhsIdx_val_of_single rfl i q
theorem kp2_rhsB_0 (i : S256x20.Idx) (q : dot_S256x1024_S1024x20_S256x20_1_0_0_1_n_n.contr.Idx) :
    (dot_S256x1024_S1024x20_S256x20_1_0_0_1_n_n.rhsIdx i q 0).val = (q ⟨0, by decide⟩).val :=
  dot_S256x1024_S1024x20_S256x20_1_0_0_1_n_n.rhsIdx_val_of_single rfl i q
theorem kp2_rhsB_1 (i : S256x20.Idx) (q : dot_S256x1024_S1024x20_S256x20_1_0_0_1_n_n.contr.Idx) :
    (dot_S256x1024_S1024x20_S256x20_1_0_0_1_n_n.rhsIdx i q 1).val = (i 1).val := by
  unfold DotDims.rhsIdx
  rw [dif_neg (show ¬(1 : Fin S1024x20.rank) ∈ dot_S256x1024_S1024x20_S256x20_1_0_0_1_n_n.rhsBatch by decide), dif_pos (show (1 : Fin S1024x20.rank) ∈ dot_S256x1024_S1024x20_S256x20_1_0_0_1_n_n.rhsNonContracting by decide)]
  rfl

/-- A [256, 1024] block times a [1024, 20] matrix into the zero block, at (i, j): the sum over the contracted axis. -/
theorem kp2_mm_1024_20 {φ₁ φ₂ : FTy} (l : FVec Ideal S256x1024 φ₁) (r : FVec Ideal S1024x20 φ₂) (i : Fin 256) (j : Fin 20) :
    matmul dot_S256x1024_S1024x20_S256x20_1_0_0_1_n_n none l r (constant (F := Ideal) S256x20 .f32 0x00000000#32) (ix2 i j)
      = ∑ k : Fin 1024, l (ix2 i k) * r (ix2 k j) := by
  simp only [matmul]
  rw [Ideal.matmul_constant_zero_apply, ← Equiv.sum_comp (ValueIdx.contrEquiv1 dot_S256x1024_S1024x20_S256x20_1_0_0_1_n_n 1024 rfl rfl).symm]
  refine Finset.sum_congr rfl fun k _ => ?_
  have hk := ValueIdx.contrEquiv1_symm_val dot_S256x1024_S1024x20_S256x20_1_0_0_1_n_n 1024 rfl rfl k
  have el : dot_S256x1024_S1024x20_S256x20_1_0_0_1_n_n.lhsIdx (ix2 i j) ((ValueIdx.contrEquiv1 dot_S256x1024_S1024x20_S256x20_1_0_0_1_n_n 1024 rfl rfl).symm k) = ix2 i k := funext fun a => Fin.ext (by
    match a with
    | ⟨0, _⟩ => exact kp2_lhsB_0 _ _
    | ⟨1, _⟩ => exact (kp2_lhsB_1 _ _).trans hk)
  have er : dot_S256x1024_S1024x20_S256x20_1_0_0_1_n_n.rhsIdx (ix2 i j) ((ValueIdx.contrEquiv1 dot_S256x1024_S1024x20_S256x20_1_0_0_1_n_n 1024 rfl rfl).symm k) = ix2 k j := funext fun a => Fin.ext (by
    match a with
    | ⟨0, _⟩ => exact (kp2_rhsB_0 _ _).trans hk
    | ⟨1, _⟩ => exact kp2_rhsB_1 _ _)
  rw [el, er]

/-- A loaded [1, 1024] row re-cast to its own shape is itself. -/
theorem pay5_eq (v68 : Vec Ideal S1x1024 .f32) : k0_pay5 (F := Ideal) v68 = v68 := by
  unfold k0_pay5
  exact shapeCast_self _ _

/-- The logistic of a block, at an element: the logistic of the element. -/
theorem kp2_logistic_apply {s : Shape} (v : FVec Ideal s .f32) (i : s.Idx) : logistic v i = Ideal.logistic (v i) := rfl

/-- One class column of a block of gated rows `g`, at row `r`: the lane sum of the row times the class row `w`, kept as a
    column, plus the bias cell `b` spread down the column. With `w`, `b` the `j`-th chosen row and bias entry this is the
    specification's class activation of the row at the `j`-th label. -/
theorem kp2_col (W : Spec.Wts) (g : FVec Ideal S256x1024 .f32) (w : FVec Ideal S1x1024 .f32) (b : FVec Ideal S1x1 .f32) (j : Fin 3)
    (hw : ∀ d : Fin 1024, w (ix2 (0 : Fin 1) d) = W.s1w j d) (hbj : b (ix2 (0 : Fin 1) (0 : Fin 1)) = W.s1b j)
    (hb : S1x1024.Broadcasts S256x1024) (acc : BitVec FTy.f32.bits) (hr : Shape.Reduces S256x1024 [1] S256) (hφ : FKind.Formats .f32)
    (hacc : acc = FKind.add.neutral .f32 hφ) (hc : S256.ShapeCasts S256x1) (hb1 : S1x1.Broadcasts S256x1)
    (r : Fin 256) (u : Fin 1) :
    addf (shapeCast S256x1 (multiReduction (F := Ideal) .add [1] S256 (mulf g (broadcastTo S256x1024 w hb)) acc hr hφ hacc) hc)
      (broadcastTo S256x1 b hb1) (ix2 r u)
    = Spec.col1 W (fun k => g (ix2 r k)) j := by
  rw [addf_apply]
  unfold Spec.col1
  refine congrArg₂ (· + ·) ?_ ?_
  · refine (shapeCast_a_a1_apply _ _ r u).trans ?_
    refine (multiReduction_add_axis1 _ _ _ _ _ r).trans ?_
    refine Finset.sum_congr rfl fun d _ => ?_
    rw [mulf_apply, broadcastTo_1b_ab_apply, hw]
  · exact (broadcastTo_11_a1_apply _ _ r u).trans hbj

/-- The once-erased features: the features times `[σ (max of the three class columns of the gated row) ≥ θ₁ ? 0 : 1]`.
    `v31` is the block of features, `v54` the block of gated rows; the three class rows and bias entries are the operands. -/
theorem pay6_apply (W : Spec.Wts) (v31 v54 : FVec Ideal S256x1024 .f32) (v69 : FVec Ideal S1x1024 .f32) (v74 : Vec Ideal S1x1 .f32)
    (v78 : Vec Ideal S1x1024 .f32) (v84 : Vec Ideal S1x1 .f32) (v88 : Vec Ideal S1x1024 .f32) (v94 : Vec Ideal S1x1 .f32)
    (h69 : ∀ d : Fin 1024, v69 (ix2 (0 : Fin 1) d) = W.s1w 0 d) (h74 : v74 (ix2 (0 : Fin 1) (0 : Fin 1)) = W.s1b 0)
    (h78 : ∀ d : Fin 1024, v78 (ix2 (0 : Fin 1) d) = W.s1w 1 d) (h84 : v84 (ix2 (0 : Fin 1) (0 : Fin 1)) = W.s1b 1)
    (h88 : ∀ d : Fin 1024, v88 (ix2 (0 : Fin 1) d) = W.s1w 2 d) (h94 : v94 (ix2 (0 : Fin 1) (0 : Fin 1)) = W.s1b 2)
    (r : Fin 256) (d : Fin 1024) :
    k0_pay6 (F := Ideal) v31 v54 v69 v74 v78 v84 v88 v94 (ix2 r d)
      = v31 (ix2 r d) * Spec.mask Spec.thr1 (Spec.sel1 W (fun k => v54 (ix2 r k))) := by
  simp only [k0_pay6, shapeCast_self]
  rw [mulf_apply, broadcastTo_a1_ab_apply, select_apply, cmpf_apply, broadcast_apply, broadcast_apply, broadcast_apply]
  rw [kp2_logistic_apply, maximumf_apply, maximumf_apply]
  unfold Spec.mask Spec.sig Spec.sel1
  refine congrArg (fun s => v31 (ix2 r d) * Scalar.select (FloatOps.cmpf (F := Ideal) (φ := .f32) .oge (Ideal.logistic s) Spec.thr1)
    Spec.zero Spec.one) ?_
  exact congrArg₂ max (congrArg₂ max (kp2_col W v54 v69 v74 0 h69 h74 _ _ _ _ _ _ _ r 0) (kp2_col W v54 v78 v84 1 h78 h84 _ _ _ _ _ _ _ r 0))
    (kp2_col W v54 v88 v94 2 h88 h94 _ _ _ _ _ _ _ r 0)

/-- A loaded matrix re-cast to its own shape is itself. -/
theorem pay7_eq (v108 : Vec Ideal S1024x256 .bf16) : k0_pay7 (F := Ideal) v108 = v108 := by
  unfold k0_pay7
  exact shapeCast_self _ _

/-- A change of float format is the identity on the extended reals. -/
theorem pay8_apply (v31 v54 : FVec Ideal S256x1024 .f32) (v69 : FVec Ideal S1x1024 .f32) (v74 : Vec Ideal S1x1 .f32)
    (v78 : Vec Ideal S1x1024 .f32) (v84 : Vec Ideal S1x1 .f32) (v88 : Vec Ideal S1x1024 .f32) (v94 : Vec Ideal S1x1 .f32)
    (i : S256x1024.Idx) :
    k0_pay8 (F := Ideal) v31 v54 v69 v74 v78 v84 v88 v94 i = k0_pay6 (F := Ideal) v31 v54 v69 v74 v78 v84 v88 v94 i := by
  rfl

/-- The second gate of a row with once-erased features `e` (`v110` is the block of them): `σ (relu (e·Wf₃)·wf₄)`. -/
theorem pay9_apply (W : Spec.Wts) (v109 : FVec Ideal S1024x256 .bf16) (v110 : FVec Ideal S256x1024 .bf16) (v114 : Vec Ideal S1x256 .f32)
    (h109 : ∀ (k : Fin 1024) (j : Fin 256), v109 (ix2 k j) = W.wf3 k j) (h114 : ∀ k : Fin 256, v114 (ix2 (0 : Fin 1) k) = W.wf4 k)
    (r : Fin 256) (u : Fin 1) :
    k0_pay9 (F := Ideal) v109 v110 (constant S256x256 .f32 0x00000000#32) v114 (ix2 r u) = Spec.eatt W (fun k => v110 (ix2 r k)) := by
  simp only [k0_pay9]
  show Ideal.logistic (shapeCast S256x1 _ shapeCasts_S256_S256x1 (ix2 r u)) = Ideal.logistic _
  refine congrArg Ideal.logistic ?_
  refine (shapeCast_a_a1_apply _ _ r u).trans ?_
  refine (multiReduction_add_axis1 _ _ _ _ _ r).trans ?_
  refine Finset.sum_congr rfl fun k _ => ?_
  rw [mulf_apply, maximumf_apply, broadcast_apply, broadcastTo_1b_ab_apply, kp2_mm_1024_256, h114]
  simp only [h109]
  rfl

/-- The re-gated row: the second gate times the once-erased features (`v107` and `v110` hold the same block). -/
theorem pay10_apply (W : Spec.Wts) (v107 : FVec Ideal S256x1024 .f32) (v109 : FVec Ideal S1024x256 .bf16) (v110 : FVec Ideal S256x1024 .bf16)
    (v114 : Vec Ideal S1x256 .f32)
    (h109 : ∀ (k : Fin 1024) (j : Fin 256), v109 (ix2 k j) = W.wf3 k j) (h114 : ∀ k : Fin 256, v114 (ix2 (0 : Fin 1) k) = W.wf4 k)
    (hv : ∀ i, v110 i = v107 i) (r : Fin 256) (d : Fin 1024) :
    k0_pay10 (F := Ideal) v107 v109 v110 (constant S256x256 .f32 0x00000000#32) v114 (ix2 r d)
      = Spec.egated W (fun k => v107 (ix2 r k)) d := by
  simp only [k0_pay10]
  rw [mulf_apply, broadcastTo_a1_ab_apply, pay9_apply W v109 v110 v114 h109 h114 r 0]
  have hrow : (fun k => v110 (ix2 r k)) = fun k => v107 (ix2 r k) := funext fun k => hv _
  rw [hrow]
  rfl

/-- The second class activations of the row: the re-gated row times the second class matrix. -/
theorem pay11_apply (W : Spec.Wts) (v107 : FVec Ideal S256x1024 .f32) (v109 : FVec Ideal S1024x256 .bf16) (v110 : FVec Ideal S256x1024 .bf16)
    (v114 : Vec Ideal S1x256 .f32) (v123 : Vec Ideal S1024x20 .bf16)
    (h109 : ∀ (k : Fin 1024) (j : Fin 256), v109 (ix2 k j) = W.wf3 k j) (h114 : ∀ k : Fin 256, v114 (ix2 (0 : Fin 1) k) = W.wf4 k)
    (h123 : ∀ (k : Fin 1024) (c : Fin 20), v123 (ix2 k c) = W.wc2 k c)
    (hv : ∀ i, v110 i = v107 i) (r : Fin 256) (c : Fin 20) :
    k0_pay11 (F := Ideal) v107 v109 v110 (constant S256x256 .f32 0x00000000#32) v114 v123 (ix2 r c)
      = Spec.etcam W (fun k => v107 (ix2 r k)) c := by
  simp only [k0_pay11]
  rw [kp2_mm_1024_20]
  unfold Spec.etcam Spec.lin
  refine Finset.sum_congr rfl fun k _ => ?_
  rw [truncf_apply, shapeCast_self, pay10_apply W v107 v109 v110 v114 h109 h114 hv r k, h123]

/-- Their column sums over the block. -/
theorem pay12_apply (W : Spec.Wts) (v107 : FVec Ideal S256x1024 .f32) (v109 : FVec Ideal S1024x256 .bf16) (v110 : FVec Ideal S256x1024 .bf16)
    (v114 : Vec Ideal S1x256 .f32) (v123 : Vec Ideal S1024x20 .bf16)
    (h109 : ∀ (k : Fin 1024) (j : Fin 256), v109 (ix2 k j) = W.wf3 k j) (h114 : ∀ k : Fin 256, v114 (ix2 (0 : Fin 1) k) = W.wf4 k)
    (h123 : ∀ (k : Fin 1024) (c : Fin 20), v123 (ix2 k c) = W.wc2 k c)
    (hv : ∀ i, v110 i = v107 i) (c : Fin 20) :
    k0_pay12 (F := Ideal) v107 v109 v110 (constant S256x256 .f32 0x00000000#32) v114 v123 (ix3 (0 : Fin 1) (0 : Fin 1) c)
      = ∑ r : Fin 256, Spec.etcam W (fun k => v107 (ix2 r k)) c := by
  simp only [k0_pay12]
  refine (shapeCast_ab_1ab_apply _ _ 0 0 c).trans ?_
  refine (shapeCast_a_1a_apply _ _ 0 c).trans ?_
  refine (multiReduction_add_axis0 _ _ _ _ _ c).trans ?_
  refine Finset.sum_congr rfl fun r _ => ?_
  exact pay11_apply W v107 v109 v110 v114 v123 h109 h114 h123 hv r c

end Cert.KernelIdeal.Rows

end
-- ==== Proof.KPay3.lean ====
/-
  The kernel body's third stage at one element: the class columns of the re-gated row at the three labels, the
  second erasure, the third gate, the twice re-gated row's class activations and their column sums over the block.
-/
import proofs.«424737_j11321533792616_2_alg».proof.Proof.Gen.KernelIdeal.Skeleton
import proofs.«424737_j11321533792616_2_alg».proof.Proof.Spec
import proofs.«424737_j11321533792616_2_alg».proof.Proof.LibRows
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Rows

open Idealize.ShloMosaic Idealize.ShloMosaic.ValueIdx Cert.KernelIdeal Cert.KernelIdeal.Gen Cert.LibRows

/-! ## The two block products at an index

The coordinates of the operands' indices under each product's dimension numbers (rows times the contracted axis, the
contracted axis times columns), then the product into the zero block as a plain sum over the contracted coordinate. -/

theorem kp3_lhsA_0 (i : S256x256.Idx) (q : dot_S256x1024_S1024x256_S256x256_1_0_0_1_n_n.contr.Idx) :
    (dot_S256x1024_S1024x256_S256x256_1_0_0_1_n_n.lhsIdx i q 0).val = (i 0).val := by
  unfold DotDims.lhsIdx
  rw [dif_neg (show ¬(0 : Fin S256x1024.rank) ∈ dot_S256x1024_S1024x256_S256x256_1_0_0_1_n_n.lhsBatch by decide), dif_pos (show (0 : Fin S256x1024.rank) ∈ dot_S256x1024_S1024x256_S256x256_1_0_0_1_n_n.lhsNonContracting by decide)]
  rfl
theorem kp3_lhsA_1 (i : S256x256.Idx) (q : dot_S256x1024_S1024x256_S256x256_1_0_0_1_n_n.contr.Idx) :
    (dot_S256x1024_S1024x256_S256x256_1_0_0_1_n_n.lhsIdx i q 1).val = (q ⟨0, by decide⟩).val :=
  dot_S256x1024_S1024x256_S256x256_1_0_0_1_n_n.lhsIdx_val_of_single rfl i q
theorem kp3_rhsA_0 (i : S256x256.Idx) (q : dot_S256x1024_S1024x256_S256x256_1_0_0_1_n_n.contr.Idx) :
    (dot_S256x1024_S1024x256_S256x256_1_0_0_1_n_n.rhsIdx i q 0).val = (q ⟨0, by decide⟩).val :=
  dot_S256x1024_S1024x256_S256x256_1_0_0_1_n_n.rhsIdx_val_of_single rfl i q
theorem kp3_rhsA_1 (i : S256x256.Idx) (q : dot_S256x1024_S1024x256_S256x256_1_0_0_1_n_n.contr.Idx) :
    (dot_S256x1024_S1024x256_S256x256_1_0_0_1_n_n.rhsIdx i q 1).val = (i 1).val := by
  unfold DotDims.rhsIdx
  rw [dif_neg (show ¬(1 : Fin S1024x256.rank) ∈ dot_S256x1024_S1024x256_S256x256_1_0_0_1_n_n.rhsBatch by decide), dif_pos (show (1 : Fin S1024x256.rank) ∈ dot_S256x1024_S1024x256_S256x256_1_0_0_1_n_n.rhsNonContracting by decide)]
  rfl

/-- The product of a [256, 1024] block and a [1024, 256] block into the zero block, at row `i` and column `j`: the sum over the
    contracted coordinate. -/
theorem kp3_mm_1024_256 {φ₁ φ₂ : FTy} (l : FVec Ideal S256x1024 φ₁) (r : FVec Ideal S1024x256 φ₂) (i : Fin 256) (j : Fin 256) :
    matmul dot_S256x1024_S1024x256_S256x256_1_0_0_1_n_n none l r (constant (F := Ideal) S256x256 .f32 0x00000000#32) (ix2 i j)
      = ∑ k : Fin 1024, l (ix2 i k) * r (ix2 k j) := by
  refine (Ideal.matmul_constant_zero_apply dot_S256x1024_S1024x256_S256x256_1_0_0_1_n_n none l r (ix2 i j)).trans ?_
  rw [← Equiv.sum_comp (ValueIdx.contrEquiv1 dot_S256x1024_S1024x256_S256x256_1_0_0_1_n_n 1024 rfl rfl).symm]
  refine Finset.sum_congr rfl fun k _ => ?_
  have hk := ValueIdx.contrEquiv1_symm_val dot_S256x1024_S1024x256_S256x256_1_0_0_1_n_n 1024 rfl rfl k
  have el : dot_S256x1024_S1024x256_S256x256_1_0_0_1_n_n.lhsIdx (ix2 i j) ((ValueIdx.contrEquiv1 dot_S256x1024_S1024x256_S256x256_1_0_0_1_n_n 1024 rfl rfl).symm k) = ix2 i k := funext fun a => Fin.ext (by
    match a with
    | ⟨0, _⟩ => exact kp3_lhsA_0 _ _
    | ⟨1, _⟩ => exact (kp3_lhsA_1 _ _).trans hk)
  have er : dot_S256x1024_S1024x256_S256x256_1_0_0_1_n_n.rhsIdx (ix2 i j) ((ValueIdx.contrEquiv1 dot_S256x1024_S1024x256_S256x256_1_0_0_1_n_n 1024 rfl rfl).symm k) = ix2 k j := funext fun a => Fin.ext (by
    match a with
    | ⟨0, _⟩ => exact (kp3_rhsA_0 _ _).trans hk
    | ⟨1, _⟩ => exact kp3_rhsA_1 _ _)
  rw [el, er]

theorem kp3_lhsB_0 (i : S256x20.Idx) (q : dot_S256x1024_S1024x20_S256x20_1_0_0_1_n_n.contr.Idx) :
    (dot_S256x1024_S1024x20_S256x20_1_0_0_1_n_n.lhsIdx i q 0).val = (i 0).val := by
  unfold DotDims.lhsIdx
  rw [dif_neg (show ¬(0 : Fin S256x1024.rank) ∈ dot_S256x1024_S1024x20_S256x20_1_0_0_1_n_n.lhsBatch by decide), dif_pos (show (0 : Fin S256x1024.rank) ∈ dot_S256x1024_S1024x20_S256x20_1_0_0_1_n_n.lhsNonContracting by decide)]
  rfl
theorem kp3_lhsB_1 (i : S256x20.Idx) (q : dot_S256x1024_S1024x20_S256x20_1_0_0_1_n_n.contr.Idx) :
    (dot_S256x1024_S1024x20_S256x20_1_0_0_1_n_n.lhsIdx i q 1).val = (q ⟨0, by decide⟩).val :=
  dot_S256x1024_S1024x20_S256x20_1_0_0_1_n_n.lhsIdx_val_of_single rfl i q
theorem kp3_rhsB_0 (i : S256x20.Idx) (q : dot_S256x1024_S1024x20_S256x20_1_0_0_1_n_n.contr.Idx) :
    (dot_S256x1024_S1024x20_S256x20_1_0_0_1_n_n.rhsIdx i q 0).val = (q ⟨0, by decide⟩).val :=
  dot_S256x1024_S1024x20_S256x20_1_0_0_1_n_n.rhsIdx_val_of_single rfl i q
theorem kp3_rhsB_1 (i : S256x20.Idx) (q : dot_S256x1024_S1024x20_S256x20_1_0_0_1_n_n.contr.Idx) :
    (dot_S256x1024_S1024x20_S256x20_1_0_0_1_n_n.rhsIdx i q 1).val = (i 1).val := by
  unfold DotDims.rhsIdx
  rw [dif_neg (show ¬(1 : Fin S1024x20.rank) ∈ dot_S256x1024_S1024x20_S256x20_1_0_0_1_n_n.rhsBatch by decide), dif_pos (show (1 : Fin S1024x20.rank) ∈ dot_S256x1024_S1024x20_S256x20_1_0_0_1_n_n.rhsNonContracting by decide)]
  rfl

/-- The product of a [256, 1024] block and a [1024, 20] block into the zero block, at row `i` and column `j`: the sum over the
    contracted coordinate. -/
theorem kp3_mm_1024_20 {φ₁ φ₂ : FTy} (l : FVec Ideal S256x1024 φ₁) (r : FVec Ideal S1024x20 φ₂) (i : Fin 256) (j : Fin 20) :
    matmul dot_S256x1024_S1024x20_S256x20_1_0_0_1_n_n none l r (constant (F := Ideal) S256x20 .f32 0x00000000#32) (ix2 i j)
      = ∑ k : Fin 1024, l (ix2 i k) * r (ix2 k j) := by
  refine (Ideal.matmul_constant_zero_apply dot_S256x1024_S1024x20_S256x20_1_0_0_1_n_n none l r (ix2 i j)).trans ?_
  rw [← Equiv.sum_comp (ValueIdx.contrEquiv1 dot_S256x1024_S1024x20_S256x20_1_0_0_1_n_n 1024 rfl rfl).symm]
  refine Finset.sum_congr rfl fun k _ => ?_
  have hk := ValueIdx.contrEquiv1_symm_val dot_S256x1024_S1024x20_S256x20_1_0_0_1_n_n 1024 rfl rfl k
  have el : dot_S256x1024_S1024x20_S256x20_1_0_0_1_n_n.lhsIdx (ix2 i j) ((ValueIdx.contrEquiv1 dot_S256x1024_S1024x20_S256x20_1_0_0_1_n_n 1024 rfl rfl).symm k) = ix2 i k := funext fun a => Fin.ext (by
    match a with
    | ⟨0, _⟩ => exact kp3_lhsB_0 _ _
    | ⟨1, _⟩ => exact (kp3_lhsB_1 _ _).trans hk)
  have er : dot_S256x1024_S1024x20_S256x20_1_0_0_1_n_n.rhsIdx (ix2 i j) ((ValueIdx.contrEquiv1 dot_S256x1024_S1024x20_S256x20_1_0_0_1_n_n 1024 rfl rfl).symm k) = ix2 k j := funext fun a => Fin.ext (by
    match a with
    | ⟨0, _⟩ => exact (kp3_rhsB_0 _ _).trans hk
    | ⟨1, _⟩ => exact kp3_rhsB_1 _ _)
  rw [el, er]

/-! ## The second gate and the re-gated block -/

/-- The second gate of a row: `σ (relu (e·Wf₃)·wf₄)` of the once-erased row `e` (the block `v107`, handed to the product in
    the narrower format, which changes nothing). -/
theorem kp3_gate2_apply (W : Spec.Wts) (v107 : FVec Ideal S256x1024 .f32) (v109 : FVec Ideal S1024x256 .bf16) (v110 : FVec Ideal S256x1024 .bf16)
    (v114 : Vec Ideal S1x256 .f32)
    (h109 : ∀ (k : Fin 1024) (j : Fin 256), v109 (ix2 k j) = W.wf3 k j) (h114 : ∀ k : Fin 256, v114 (ix2 (0 : Fin 1) k) = W.wf4 k)
    (hv : ∀ i, v110 i = v107 i) (r : Fin 256) (u : Fin 1) :
    k0_pay9 (F := Ideal) v109 v110 (constant S256x256 .f32 0x00000000#32) v114 (ix2 r u)
      = Spec.eatt W (fun k => v107 (ix2 r k)) := by
  unfold k0_pay9 Spec.eatt Spec.sig
  refine congrArg Ideal.logistic ?_
  refine (shapeCast_a_a1_apply _ _ r u).trans ?_
  refine (multiReduction_add_axis1 _ _ _ _ _ r).trans ?_
  refine Finset.sum_congr rfl fun k _ => ?_
  show max (matmul dot_S256x1024_S1024x256_S256x256_1_0_0_1_n_n none v110 v109 _ (ix2 r k)) (Ideal.ofBits .f32 0x00000000#32)
      * broadcastTo S256x256 v114 _ (ix2 r k) = _
  rw [kp3_mm_1024_256, broadcastTo_1b_ab_apply, h114]
  unfold Spec.eattH Spec.relu Spec.lin
  simp only [hv, h109]

/-- The re-gated block at row `r`, lane `d`: the second gate times the once-erased feature. -/
theorem kp3_regated_apply (W : Spec.Wts) (v107 : FVec Ideal S256x1024 .f32) (v109 : FVec Ideal S1024x256 .bf16) (v110 : FVec Ideal S256x1024 .bf16)
    (v114 : Vec Ideal S1x256 .f32)
    (h109 : ∀ (k : Fin 1024) (j : Fin 256), v109 (ix2 k j) = W.wf3 k j) (h114 : ∀ k : Fin 256, v114 (ix2 (0 : Fin 1) k) = W.wf4 k)
    (hv : ∀ i, v110 i = v107 i) (r : Fin 256) (d : Fin 1024) :
    k0_pay10 (F := Ideal) v107 v109 v110 (constant S256x256 .f32 0x00000000#32) v114 (ix2 r d)
      = Spec.egated W (fun k => v107 (ix2 r k)) d := by
  unfold k0_pay10 Spec.egated
  show broadcastTo S256x1024 (k0_pay9 (F := Ideal) v109 v110 (constant S256x256 .f32 0x00000000#32) v114) _ (ix2 r d) * v107 (ix2 r d) = _
  rw [broadcastTo_a1_ab_apply, kp3_gate2_apply W v107 v109 v110 v114 h109 h114 hv]

/-- The re-gated row's class column at the first label (`v132` is that row of the second class matrix). -/
theorem pay13_apply (W : Spec.Wts) (v107 : FVec Ideal S256x1024 .f32) (v109 : FVec Ideal S1024x256 .bf16) (v110 : FVec Ideal S256x1024 .bf16)
    (v114 : Vec Ideal S1x256 .f32) (v132 : Vec Ideal S1x1024 .f32)
    (h109 : ∀ (k : Fin 1024) (j : Fin 256), v109 (ix2 k j) = W.wf3 k j) (h114 : ∀ k : Fin 256, v114 (ix2 (0 : Fin 1) k) = W.wf4 k)
    (h132 : ∀ d : Fin 1024, v132 (ix2 (0 : Fin 1) d) = W.s2w 0 d)
    (hv : ∀ i, v110 i = v107 i) (r : Fin 256) (u : Fin 1) :
    k0_pay13 (F := Ideal) v107 v109 v110 (constant S256x256 .f32 0x00000000#32) v114 v132 (ix2 r u)
      = Spec.col2 W (Spec.egated W (fun k => v107 (ix2 r k))) 0 := by
  unfold k0_pay13 Spec.col2
  refine (shapeCast_a_a1_apply _ _ r u).trans ?_
  refine (multiReduction_add_axis1 _ _ _ _ _ r).trans ?_
  refine Finset.sum_congr rfl fun d _ => ?_
  show k0_pay10 (F := Ideal) v107 v109 v110 (constant S256x256 .f32 0x00000000#32) v114 (ix2 r d)
      * broadcastTo S256x1024 (shapeCast S1x1024 v132 _) _ (ix2 r d) = _
  rw [kp3_regated_apply W v107 v109 v110 v114 h109 h114 hv, broadcastTo_1b_ab_apply, shapeCast_self, h132]

/-- The same at the second label. -/
theorem pay14_apply (W : Spec.Wts) (v107 : FVec Ideal S256x1024 .f32) (v109 : FVec Ideal S1024x256 .bf16) (v110 : FVec Ideal S256x1024 .bf16)
    (v114 : Vec Ideal S1x256 .f32) (v138 : Vec Ideal S1x1024 .f32)
    (h109 : ∀ (k : Fin 1024) (j : Fin 256), v109 (ix2 k j) = W.wf3 k j) (h114 : ∀ k : Fin 256, v114 (ix2 (0 : Fin 1) k) = W.wf4 k)
    (h138 : ∀ d : Fin 1024, v138 (ix2 (0 : Fin 1) d) = W.s2w 1 d)
    (hv : ∀ i, v110 i = v107 i) (r : Fin 256) (u : Fin 1) :
    k0_pay14 (F := Ideal) v107 v109 v110 (constant S256x256 .f32 0x00000000#32) v114 v138 (ix2 r u)
      = Spec.col2 W (Spec.egated W (fun k => v107 (ix2 r k))) 1 := by
  unfold k0_pay14 Spec.col2
  refine (shapeCast_a_a1_apply _ _ r u).trans ?_
  refine (multiReduction_add_axis1 _ _ _ _ _ r).trans ?_
  refine Finset.sum_congr rfl fun d _ => ?_
  show k0_pay10 (F := Ideal) v107 v109 v110 (constant S256x256 .f32 0x00000000#32) v114 (ix2 r d)
      * broadcastTo S256x1024 (shapeCast S1x1024 v138 _) _ (ix2 r d) = _
  rw [kp3_regated_apply W v107 v109 v110 v114 h109 h114 hv, broadcastTo_1b_ab_apply, shapeCast_self, h138]

/-- The twice-erased features: the once-erased features `v107` times `[σ (max of the three columns) ≥ θ₂ ? 0 : 1]`, the
    first two columns given (`v137`, `v143`), the third computed from the re-gated block `v122` and the label's row `v144`. -/
theorem pay15_apply (W : Spec.Wts) (v107 v122 : FVec Ideal S256x1024 .f32) (v137 v143 : FVec Ideal S256x1 .f32) (v144 : Vec Ideal S1x1024 .f32)
    (h144 : ∀ d : Fin 1024, v144 (ix2 (0 : Fin 1) d) = W.s2w 2 d) (r : Fin 256) (d : Fin 1024) :
    k0_pay15 (F := Ideal) v107 v122 v137 v143 v144 (ix2 r d)
      = v107 (ix2 r d) * Spec.mask Spec.thr2 (max (max (v137 (ix2 r (0 : Fin 1))) (v143 (ix2 r (0 : Fin 1))))
          (Spec.col2 W (fun k => v122 (ix2 r k)) 2)) := by
  unfold k0_pay15
  show v107 (ix2 r d) * broadcastTo S256x1024 _ _ (ix2 r d) = _
  rw [broadcastTo_a1_ab_apply]
  refine congrArg (v107 (ix2 r d) * ·) ?_
  unfold Spec.mask Spec.sig Spec.col2
  refine congrArg (fun s => Scalar.select (FloatOps.cmpf (F := Ideal) (φ := .f32) .oge
    (Ideal.logistic (max (max (v137 (ix2 r (0 : Fin 1))) (v143 (ix2 r (0 : Fin 1)))) s)) Spec.thr2) Spec.zero Spec.one) ?_
  refine (shapeCast_a_a1_apply _ _ r (0 : Fin 1)).trans ?_
  refine (multiReduction_add_axis1 _ _ _ _ _ r).trans ?_
  refine Finset.sum_congr rfl fun k _ => ?_
  show v122 (ix2 r k) * broadcastTo S256x1024 (shapeCast S1x1024 v144 _) _ (ix2 r k) = _
  rw [broadcastTo_1b_ab_apply, shapeCast_self, h144]

/-- The third gate of a row with twice-erased features (the block `k0_pay15 …`): `σ (relu (e₂·Wf₅)·wf₆)`. -/
theorem pay16_apply (W : Spec.Wts) (v107 v122 : FVec Ideal S256x1024 .f32) (v137 v143 : FVec Ideal S256x1 .f32) (v144 : Vec Ideal S1x1024 .f32)
    (v160 : Vec Ideal S1024x256 .bf16) (v166 : Vec Ideal S1x256 .f32)
    (h160 : ∀ (k : Fin 1024) (j : Fin 256), v160 (ix2 k j) = W.wf5 k j) (h166 : ∀ k : Fin 256, v166 (ix2 (0 : Fin 1) k) = W.wf6 k)
    (r : Fin 256) (u : Fin 1) :
    k0_pay16 (F := Ideal) v107 v122 v137 v143 v144 v160 v166 (ix2 r u)
      = Spec.e2att W (fun k => k0_pay15 (F := Ideal) v107 v122 v137 v143 v144 (ix2 r k)) := by
  unfold k0_pay16 Spec.e2att Spec.sig
  generalize k0_pay15 (F := Ideal) v107 v122 v137 v143 v144 = e
  refine congrArg Ideal.logistic ?_
  refine (shapeCast_a_a1_apply _ _ r u).trans ?_
  refine (multiReduction_add_axis1 _ _ _ _ _ r).trans ?_
  refine Finset.sum_congr rfl fun k _ => ?_
  show max (matmul dot_S256x1024_S1024x256_S256x256_1_0_0_1_n_n none (truncf .bf16 e bitsLt_bf16_f32) (shapeCast S1024x256 v160 _) _ (ix2 r k))
      (Ideal.ofBits .f32 0x00000000#32) * broadcastTo S256x256 v166 _ (ix2 r k) = _
  rw [kp3_mm_1024_256, broadcastTo_1b_ab_apply, h166, shapeCast_self]
  unfold Spec.e2attH Spec.relu Spec.lin
  simp only [h160, truncf_apply]

/-- The third class activations of the row. -/
theorem pay17_apply (W : Spec.Wts) (v107 v122 : FVec Ideal S256x1024 .f32) (v137 v143 : FVec Ideal S256x1 .f32) (v144 : Vec Ideal S1x1024 .f32)
    (v160 : Vec Ideal S1024x256 .bf16) (v166 : Vec Ideal S1x256 .f32) (v175 : Vec Ideal S1024x20 .bf16)
    (h160 : ∀ (k : Fin 1024) (j : Fin 256), v160 (ix2 k j) = W.wf5 k j) (h166 : ∀ k : Fin 256, v166 (ix2 (0 : Fin 1) k) = W.wf6 k)
    (h175 : ∀ (k : Fin 1024) (c : Fin 20), v175 (ix2 k c) = W.wc3 k c)
    (r : Fin 256) (c : Fin 20) :
    k0_pay17 (F := Ideal) v107 v122 v137 v143 v144 v160 v166 v175 (ix2 r c)
      = Spec.e2tcam W (fun k => k0_pay15 (F := Ideal) v107 v122 v137 v143 v144 (ix2 r k)) c := by
  have hg := pay16_apply W v107 v122 v137 v143 v144 v160 v166 h160 h166 r
  unfold k0_pay17 Spec.e2tcam Spec.lin Spec.e2gated
  generalize k0_pay16 (F := Ideal) v107 v122 v137 v143 v144 v160 v166 = g at hg ⊢
  generalize k0_pay15 (F := Ideal) v107 v122 v137 v143 v144 = e at hg ⊢
  refine (kp3_mm_1024_20 _ _ r c).trans ?_
  refine Finset.sum_congr rfl fun d _ => ?_
  show (broadcastTo S256x1024 g _ (ix2 r d) * e (ix2 r d)) * shapeCast S1024x20 v175 _ (ix2 d c) = _
  rw [broadcastTo_a1_ab_apply, hg, shapeCast_self, h175]

/-- Their column sums over the block. -/
theorem pay18_apply (W : Spec.Wts) (v107 v122 : FVec Ideal S256x1024 .f32) (v137 v143 : FVec Ideal S256x1 .f32) (v144 : Vec Ideal S1x1024 .f32)
    (v160 : Vec Ideal S1024x256 .bf16) (v166 : Vec Ideal S1x256 .f32) (v175 : Vec Ideal S1024x20 .bf16)
    (h160 : ∀ (k : Fin 1024) (j : Fin 256), v160 (ix2 k j) = W.wf5 k j) (h166 : ∀ k : Fin 256, v166 (ix2 (0 : Fin 1) k) = W.wf6 k)
    (h175 : ∀ (k : Fin 1024) (c : Fin 20), v175 (ix2 k c) = W.wc3 k c)
    (c : Fin 20) :
    k0_pay18 (F := Ideal) v107 v122 v137 v143 v144 v160 v166 v175 (ix3 (0 : Fin 1) (0 : Fin 1) c)
      = ∑ r : Fin 256, Spec.e2tcam W (fun k => k0_pay15 (F := Ideal) v107 v122 v137 v143 v144 (ix2 r k)) c := by
  unfold k0_pay18
  refine (shapeCast_ab_1ab_apply _ _ (0 : Fin 1) (0 : Fin 1) c).trans ?_
  refine (shapeCast_a_1a_apply _ _ (0 : Fin 1) c).trans ?_
  refine (multiReduction_add_axis0 _ _ _ _ _ c).trans ?_
  exact Finset.sum_congr rfl fun r _ => pay17_apply W v107 v122 v137 v143 v144 v160 v166 v175 h160 h166 h175 r c

end Cert.KernelIdeal.Rows

end
-- ==== Proof.KHolds.lean ====
/-
  What it means for the kernel's twenty-seven weight operands (as blocks read at a grid point) to HOLD a set of
  weights: each matrix operand is the weight matrix entry by entry, each bias operand the bias as one row, each of the nine
  label operands the label's row (or entry) of a class matrix (or bias).
-/
import proofs.«424737_j11321533792616_2_alg».proof.Proof.Gen.KernelIdeal
import proofs.«424737_j11321533792616_2_alg».proof.Proof.Spec
import Idealize.ShloMosaic.Lib.ValueIdx

noncomputable section

namespace Cert.KernelIdeal.Rows

open Idealize.ShloMosaic Idealize.ShloMosaic.ValueIdx Cert.KernelIdeal

/-- The operand blocks `x1 … x27` hold the weights `W`. -/
structure Holds (W : Spec.Wts) (x1 : Vec Ideal S1024x512 .bf16) (x2 : Vec Ideal S1x512 .f32) (x3 : Vec Ideal S512x512 .bf16) (x4 : Vec Ideal S1x512 .f32) (x5 : Vec Ideal S512x1024 .bf16) (x6 : Vec Ideal S1x1024 .f32) (x7 : Vec Ideal S1024x256 .bf16) (x8 : Vec Ideal S1x256 .f32) (x9 : Vec Ideal S1x256 .f32) (x10 : Vec Ideal S1x1 .f32) (x11 : Vec Ideal S1024x20 .bf16) (x12 : Vec Ideal S1x20 .f32) (x13 : Vec Ideal S1024x256 .bf16) (x14 : Vec Ideal S1x256 .f32) (x15 : Vec Ideal S1024x20 .bf16) (x16 : Vec Ideal S1024x256 .bf16) (x17 : Vec Ideal S1x256 .f32) (x18 : Vec Ideal S1024x20 .bf16) (x19 : Vec Ideal S1x1024 .f32) (x20 : Vec Ideal S1x1024 .f32) (x21 : Vec Ideal S1x1024 .f32) (x22 : Vec Ideal S1x1 .f32) (x23 : Vec Ideal S1x1 .f32) (x24 : Vec Ideal S1x1 .f32) (x25 : Vec Ideal S1x1024 .f32) (x26 : Vec Ideal S1x1024 .f32) (x27 : Vec Ideal S1x1024 .f32) : Prop where
  h1 : ∀ (k : Fin 1024) (j : Fin 512), x1 (ix2 k j) = W.w0 k j
  h2 : ∀ j : Fin 512, x2 (ix2 (0 : Fin 1) j) = W.b0 j
  h3 : ∀ (k : Fin 512) (j : Fin 512), x3 (ix2 k j) = W.w1 k j
  h4 : ∀ j : Fin 512, x4 (ix2 (0 : Fin 1) j) = W.b1 j
  h5 : ∀ (k : Fin 512) (j : Fin 1024), x5 (ix2 k j) = W.w2 k j
  h6 : ∀ j : Fin 1024, x6 (ix2 (0 : Fin 1) j) = W.b2 j
  h7 : ∀ (k : Fin 1024) (j : Fin 256), x7 (ix2 k j) = W.wf1 k j
  h8 : ∀ j : Fin 256, x8 (ix2 (0 : Fin 1) j) = W.bf1 j
  h9 : ∀ k : Fin 256, x9 (ix2 (0 : Fin 1) k) = W.wf2 k
  h10 : x10 (ix2 (0 : Fin 1) (0 : Fin 1)) = W.bf2
  h11 : ∀ (k : Fin 1024) (c : Fin 20), x11 (ix2 k c) = W.wc1 k c
  h12 : ∀ c : Fin 20, x12 (ix2 (0 : Fin 1) c) = W.bc1 c
  h13 : ∀ (k : Fin 1024) (j : Fin 256), x13 (ix2 k j) = W.wf3 k j
  h14 : ∀ k : Fin 256, x14 (ix2 (0 : Fin 1) k) = W.wf4 k
  h15 : ∀ (k : Fin 1024) (c : Fin 20), x15 (ix2 k c) = W.wc2 k c
  h16 : ∀ (k : Fin 1024) (j : Fin 256), x16 (ix2 k j) = W.wf5 k j
  h17 : ∀ k : Fin 256, x17 (ix2 (0 : Fin 1) k) = W.wf6 k
  h18 : ∀ (k : Fin 1024) (c : Fin 20), x18 (ix2 k c) = W.wc3 k c
  h19 : ∀ d : Fin 1024, x19 (ix2 (0 : Fin 1) d) = W.s1w 0 d
  h20 : ∀ d : Fin 1024, x20 (ix2 (0 : Fin 1) d) = W.s1w 1 d
  h21 : ∀ d : Fin 1024, x21 (ix2 (0 : Fin 1) d) = W.s1w 2 d
  h22 : x22 (ix2 (0 : Fin 1) (0 : Fin 1)) = W.s1b 0
  h23 : x23 (ix2 (0 : Fin 1) (0 : Fin 1)) = W.s1b 1
  h24 : x24 (ix2 (0 : Fin 1) (0 : Fin 1)) = W.s1b 2
  h25 : ∀ d : Fin 1024, x25 (ix2 (0 : Fin 1) d) = W.s2w 0 d
  h26 : ∀ d : Fin 1024, x26 (ix2 (0 : Fin 1) d) = W.s2w 1 d
  h27 : ∀ d : Fin 1024, x27 (ix2 (0 : Fin 1) d) = W.s2w 2 d

end Cert.KernelIdeal.Rows

end
-- ==== Proof.KOut.lean ====
/-
  What the body leaves in each of the nine output windows' buffers, read at one element: the specification's function of
  the row of the input block, when the twenty-seven weight operands hold the weights. Rows of the [256, ·] outputs
  are the row functions of the block's rows; each [1, 1, 20] output is the block's column sum of the class activations.
-/
import proofs.«424737_j11321533792616_2_alg».proof.Proof.KernelIdealFrame
import proofs.«424737_j11321533792616_2_alg».proof.Proof.KPay1
import proofs.«424737_j11321533792616_2_alg».proof.Proof.KPay2
import proofs.«424737_j11321533792616_2_alg».proof.Proof.KPay3
import proofs.«424737_j11321533792616_2_alg».proof.Proof.KHolds

noncomputable section

namespace Cert.KernelIdeal.Rows

open Idealize.ShloMosaic Idealize.ShloMosaic.ValueIdx Cert.KernelIdeal Cert.KernelIdeal.Gen Cert.KernelIdeal.GenP Cert.LibRows

variable (W : Spec.Wts) (x0 : Vec Ideal S256x1024 .f32) (x1 : Vec Ideal S1024x512 .bf16) (x2 : Vec Ideal S1x512 .f32) (x3 : Vec Ideal S512x512 .bf16) (x4 : Vec Ideal S1x512 .f32) (x5 : Vec Ideal S512x1024 .bf16) (x6 : Vec Ideal S1x1024 .f32) (x7 : Vec Ideal S1024x256 .bf16) (x8 : Vec Ideal S1x256 .f32) (x9 : Vec Ideal S1x256 .f32) (x10 : Vec Ideal S1x1 .f32) (x11 : Vec Ideal S1024x20 .bf16) (x12 : Vec Ideal S1x20 .f32) (x13 : Vec Ideal S1024x256 .bf16) (x14 : Vec Ideal S1x256 .f32) (x15 : Vec Ideal S1024x20 .bf16) (x16 : Vec Ideal S1024x256 .bf16) (x17 : Vec Ideal S1x256 .f32) (x18 : Vec Ideal S1024x20 .bf16) (x19 : Vec Ideal S1x1024 .f32) (x20 : Vec Ideal S1x1024 .f32) (x21 : Vec Ideal S1x1024 .f32) (x22 : Vec Ideal S1x1 .f32) (x23 : Vec Ideal S1x1 .f32) (x24 : Vec Ideal S1x1 .f32) (x25 : Vec Ideal S1x1024 .f32) (x26 : Vec Ideal S1x1024 .f32) (x27 : Vec Ideal S1x1024 .f32)

/-! ## The blocks the windows share

The body computes each later value from earlier ones, so the windows' payloads repeat a few blocks many times: the block
of features, of gated rows, of once-erased features (in both float formats), of re-gated rows, the two class columns of
the re-gated rows, and the block of twice-erased features. Each is named once here, and read at row `r` once below. -/

local notation "FB" => k0_pay1 (F := Ideal) x0 x1 x2 x3 x4 x5 x6
local notation "GB" => k0_pay2 (F := Ideal) FB x7 x8 x9 x10
local notation "EB" => k0_pay6 (F := Ideal) FB GB (k0_pay5 x19) x22 x20 x23 x21 x24
local notation "ENB" => k0_pay8 (F := Ideal) FB GB (k0_pay5 x19) x22 x20 x23 x21 x24
local notation "ZB" => constant (F := Ideal) S256x256 FTy.f32 0x00000000#32
local notation "EGB" => k0_pay10 (F := Ideal) EB (k0_pay7 x13) ENB ZB x14
local notation "C0B" => k0_pay13 (F := Ideal) EB (k0_pay7 x13) ENB ZB x14 x25
local notation "C1B" => k0_pay14 (F := Ideal) EB (k0_pay7 x13) ENB ZB x14 x26
local notation "E2B" => k0_pay15 (F := Ideal) EB EGB C0B C1B x27

namespace Out

section Blocks

variable {W} {x0} {x1} {x2} {x3} {x4} {x5} {x6} {x7} {x8} {x9} {x10} {x11} {x12} {x13} {x14} {x15} {x16} {x17} {x18} {x19} {x20} {x21} {x22} {x23} {x24} {x25} {x26} {x27}

/-- The first label's row of the first class matrix, read through the identity re-cast. -/
theorem s1w0_holds (H : Holds W x1 x2 x3 x4 x5 x6 x7 x8 x9 x10 x11 x12 x13 x14 x15 x16 x17 x18 x19 x20 x21 x22 x23 x24 x25 x26 x27) (d : Fin 1024) : k0_pay5 (F := Ideal) x19 (ix2 (0 : Fin 1) d) = W.s1w 0 d := by
  rw [pay5_eq]; exact H.h19 d

/-- The second gate's matrix, read through the identity re-cast. -/
theorem wf3_holds (H : Holds W x1 x2 x3 x4 x5 x6 x7 x8 x9 x10 x11 x12 x13 x14 x15 x16 x17 x18 x19 x20 x21 x22 x23 x24 x25 x26 x27) (k : Fin 1024) (j : Fin 256) : k0_pay7 (F := Ideal) x13 (ix2 k j) = W.wf3 k j := by
  rw [pay7_eq]; exact H.h13 k j

/-- Row `r` of the block of features is the features of row `r` of the input block. -/
theorem featB_row (H : Holds W x1 x2 x3 x4 x5 x6 x7 x8 x9 x10 x11 x12 x13 x14 x15 x16 x17 x18 x19 x20 x21 x22 x23 x24 x25 x26 x27) (r : Fin 256) (d : Fin 1024) :
    FB (ix2 r d) = Spec.feat W (fun k => x0 (ix2 r k)) d :=
  pay1_apply W x0 x1 x2 x3 x4 x5 x6 H.h1 H.h2 H.h3 H.h4 H.h5 H.h6 r d

/-- Row `r` of the block of gated rows. -/
theorem gatedB_row (H : Holds W x1 x2 x3 x4 x5 x6 x7 x8 x9 x10 x11 x12 x13 x14 x15 x16 x17 x18 x19 x20 x21 x22 x23 x24 x25 x26 x27) (r : Fin 256) (d : Fin 1024) :
    GB (ix2 r d) = Spec.gated W (Spec.feat W (fun k => x0 (ix2 r k))) d :=
  (pay2_apply W FB x7 x8 x9 x10 H.h7 H.h8 H.h9 H.h10 r d).trans
    (congrArg (fun f => Spec.gated W f d) (funext fun k => featB_row H r k))

/-- Row `r` of the block of once-erased features. -/
theorem efB_row (H : Holds W x1 x2 x3 x4 x5 x6 x7 x8 x9 x10 x11 x12 x13 x14 x15 x16 x17 x18 x19 x20 x21 x22 x23 x24 x25 x26 x27) (r : Fin 256) (d : Fin 1024) :
    EB (ix2 r d) = Spec.ef W (Spec.feat W (fun k => x0 (ix2 r k))) d := by
  rw [pay6_apply W FB GB (k0_pay5 x19) x22 x20 x23 x21 x24 (s1w0_holds H) H.h22 H.h20 H.h23 H.h21 H.h24 r d,
    featB_row H r d,
    show (fun k => GB (ix2 r k)) = Spec.gated W (Spec.feat W (fun k => x0 (ix2 r k))) from funext fun k => gatedB_row H r k]
  rfl

/-- The once-erased features in the narrower float format are the same extended reals. -/
theorem efNB_eq (i : S256x1024.Idx) : ENB i = EB i :=
  pay8_apply FB GB (k0_pay5 x19) x22 x20 x23 x21 x24 i

/-- Row `r` of the block of re-gated rows. -/
theorem egB_row (H : Holds W x1 x2 x3 x4 x5 x6 x7 x8 x9 x10 x11 x12 x13 x14 x15 x16 x17 x18 x19 x20 x21 x22 x23 x24 x25 x26 x27) (r : Fin 256) (d : Fin 1024) :
    EGB (ix2 r d) = Spec.egated W (Spec.ef W (Spec.feat W (fun k => x0 (ix2 r k)))) d :=
  (pay10_apply W EB (k0_pay7 x13) ENB x14 (wf3_holds H) H.h14 efNB_eq r d).trans
    (congrArg (fun f => Spec.egated W f d) (funext fun k => efB_row H r k))

/-- Row `r` of the re-gated rows' class column at the first label. -/
theorem c0B_row (H : Holds W x1 x2 x3 x4 x5 x6 x7 x8 x9 x10 x11 x12 x13 x14 x15 x16 x17 x18 x19 x20 x21 x22 x23 x24 x25 x26 x27) (r : Fin 256) (u : Fin 1) :
    C0B (ix2 r u) = Spec.col2 W (Spec.egated W (Spec.ef W (Spec.feat W (fun k => x0 (ix2 r k))))) 0 :=
  (pay13_apply W EB (k0_pay7 x13) ENB x14 x25 (wf3_holds H) H.h14 H.h25 efNB_eq r u).trans
    (congrArg (fun f => Spec.col2 W (Spec.egated W f) 0) (funext fun k => efB_row H r k))

/-- The same at the second label. -/
theorem c1B_row (H : Holds W x1 x2 x3 x4 x5 x6 x7 x8 x9 x10 x11 x12 x13 x14 x15 x16 x17 x18 x19 x20 x21 x22 x23 x24 x25 x26 x27) (r : Fin 256) (u : Fin 1) :
    C1B (ix2 r u) = Spec.col2 W (Spec.egated W (Spec.ef W (Spec.feat W (fun k => x0 (ix2 r k))))) 1 :=
  (pay14_apply W EB (k0_pay7 x13) ENB x14 x26 (wf3_holds H) H.h14 H.h26 efNB_eq r u).trans
    (congrArg (fun f => Spec.col2 W (Spec.egated W f) 1) (funext fun k => efB_row H r k))

/-- Row `r` of the block of twice-erased features. -/
theorem ef2B_row (H : Holds W x1 x2 x3 x4 x5 x6 x7 x8 x9 x10 x11 x12 x13 x14 x15 x16 x17 x18 x19 x20 x21 x22 x23 x24 x25 x26 x27) (r : Fin 256) (d : Fin 1024) :
    E2B (ix2 r d) = Spec.ef2 W (Spec.ef W (Spec.feat W (fun k => x0 (ix2 r k)))) d := by
  rw [pay15_apply W EB EGB C0B C1B x27 H.h27 r d, efB_row H r d, c0B_row H r 0, c1B_row H r 0,
    show (fun k => EGB (ix2 r k)) = Spec.egated W (Spec.ef W (Spec.feat W (fun k => x0 (ix2 r k)))) from funext fun k => egB_row H r k]
  rfl

end Blocks

/-! ## The nine windows

Each window's buffer is left by ONE store through the whole-buffer rectangle, of a payload whose operands are loads
through whole-buffer rectangles: so the buffer is the payload of the operand blocks themselves, and the payload's row is
read off the blocks' rows above. -/

/-- The zero offsets of a rank-2 rectangle are zero on each axis. -/
theorem hz2 : (![0, 0] : Fin 2 → Nat) = fun _ => 0 := funext fun a => by fin_cases a <;> rfl
/-- The zero offsets of a rank-3 rectangle are zero on each axis. -/
theorem hz3 : (![0, 0, 0] : Fin 3 → Nat) = fun _ => 0 := funext fun a => by fin_cases a <;> rfl

/-! A load through the whole-buffer rectangle reads the buffer: one statement per operand shape. -/
theorem ld_r0_0 {e : EltTy} (X : Vec Ideal S256x1024 e) : View.ld X r0_0 = X := View.ld_unit_zero (S := S256x1024) hz2 _ X
theorem ld_r0_1 {e : EltTy} (X : Vec Ideal S1024x512 e) : View.ld X r0_1 = X := View.ld_unit_zero (S := S1024x512) hz2 _ X
theorem ld_r0_2 {e : EltTy} (X : Vec Ideal S1x512 e) : View.ld X r0_2 = X := View.ld_unit_zero (S := S1x512) hz2 _ X
theorem ld_r0_3 {e : EltTy} (X : Vec Ideal S512x512 e) : View.ld X r0_3 = X := View.ld_unit_zero (S := S512x512) hz2 _ X
theorem ld_r0_4 {e : EltTy} (X : Vec Ideal S512x1024 e) : View.ld X r0_4 = X := View.ld_unit_zero (S := S512x1024) hz2 _ X
theorem ld_r0_5 {e : EltTy} (X : Vec Ideal S1x1024 e) : View.ld X r0_5 = X := View.ld_unit_zero (S := S1x1024) hz2 _ X
theorem ld_r0_6 {e : EltTy} (X : Vec Ideal S1024x256 e) : View.ld X r0_6 = X := View.ld_unit_zero (S := S1024x256) hz2 _ X
theorem ld_r0_7 {e : EltTy} (X : Vec Ideal S1x256 e) : View.ld X r0_7 = X := View.ld_unit_zero (S := S1x256) hz2 _ X
theorem ld_r0_8 {e : EltTy} (X : Vec Ideal S1x1 e) : View.ld X r0_8 = X := View.ld_unit_zero (S := S1x1) hz2 _ X
theorem ld_r0_9 {e : EltTy} (X : Vec Ideal S1024x20 e) : View.ld X r0_9 = X := View.ld_unit_zero (S := S1024x20) hz2 _ X
theorem ld_r0_10 {e : EltTy} (X : Vec Ideal S1x20 e) : View.ld X r0_10 = X := View.ld_unit_zero (S := S1x20) hz2 _ X

end Out

open Out

/-- Window 28: the features. -/
theorem out28_apply (H : Holds W x1 x2 x3 x4 x5 x6 x7 x8 x9 x10 x11 x12 x13 x14 x15 x16 x17 x18 x19 x20 x21 x22 x23 x24 x25 x26 x27) (r : Fin 256) (d : Fin 1024) :
    out0_28 (F := Ideal) x0 x1 x2 x3 x4 x5 x6 x7 x8 x9 x10 x11 x12 x13 x14 x15 x16 x17 x18 x19 x20 x21 x22 x23 x24 x25 x26 x27 (ix2 r d) = Spec.feat W (fun k => x0 (ix2 r k)) d := by
  unfold out0_28
  rw [View.canon_unit_zero hz2]
  simp only [ld_r0_0, ld_r0_1, ld_r0_2, ld_r0_3, ld_r0_4, ld_r0_5]
  exact featB_row H r d

/-- Window 29: the class activations. -/
theorem out29_apply (H : Holds W x1 x2 x3 x4 x5 x6 x7 x8 x9 x10 x11 x12 x13 x14 x15 x16 x17 x18 x19 x20 x21 x22 x23 x24 x25 x26 x27) (r : Fin 256) (c : Fin 20) :
    out0_29 (F := Ideal) x0 x1 x2 x3 x4 x5 x6 x7 x8 x9 x10 x11 x12 x13 x14 x15 x16 x17 x18 x19 x20 x21 x22 x23 x24 x25 x26 x27 (ix2 r c) = Spec.tcam W (Spec.feat W (fun k => x0 (ix2 r k))) c := by
  unfold out0_29
  rw [View.canon_unit_zero hz2]
  simp only [ld_r0_0, ld_r0_1, ld_r0_2, ld_r0_3, ld_r0_4, ld_r0_5, ld_r0_6, ld_r0_7, ld_r0_8, ld_r0_9, ld_r0_10]
  refine (pay3_apply W FB x7 x8 x9 x10 x11 x12 H.h7 H.h8 H.h9 H.h10 H.h11 H.h12 r c).trans ?_
  exact congrArg (fun f => Spec.tcam W f c) (funext fun k => featB_row H r k)

/-- Window 30: the class activations after the first erasure. -/
theorem out30_apply (H : Holds W x1 x2 x3 x4 x5 x6 x7 x8 x9 x10 x11 x12 x13 x14 x15 x16 x17 x18 x19 x20 x21 x22 x23 x24 x25 x26 x27) (r : Fin 256) (c : Fin 20) :
    out0_30 (F := Ideal) x0 x1 x2 x3 x4 x5 x6 x7 x8 x9 x10 x11 x12 x13 x14 x15 x16 x17 x18 x19 x20 x21 x22 x23 x24 x25 x26 x27 (ix2 r c) = Spec.etcam W (Spec.ef W (Spec.feat W (fun k => x0 (ix2 r k)))) c := by
  unfold out0_30
  rw [View.canon_unit_zero hz2]
  simp only [ld_r0_0, ld_r0_1, ld_r0_2, ld_r0_3, ld_r0_4, ld_r0_5, ld_r0_6, ld_r0_7, ld_r0_8, ld_r0_9, ld_r0_10]
  refine (pay11_apply W EB (k0_pay7 x13) ENB x14 x15 (wf3_holds H) H.h14 H.h15 efNB_eq r c).trans ?_
  exact congrArg (fun f => Spec.etcam W f c) (funext fun k => efB_row H r k)

/-- Window 31: the gate after the first erasure. -/
theorem out31_apply (H : Holds W x1 x2 x3 x4 x5 x6 x7 x8 x9 x10 x11 x12 x13 x14 x15 x16 x17 x18 x19 x20 x21 x22 x23 x24 x25 x26 x27) (r : Fin 256) (u : Fin 1) :
    out0_31 (F := Ideal) x0 x1 x2 x3 x4 x5 x6 x7 x8 x9 x10 x11 x12 x13 x14 x15 x16 x17 x18 x19 x20 x21 x22 x23 x24 x25 x26 x27 (ix2 r u) = Spec.eatt W (Spec.ef W (Spec.feat W (fun k => x0 (ix2 r k)))) := by
  unfold out0_31
  rw [View.canon_unit_zero hz2]
  simp only [ld_r0_0, ld_r0_1, ld_r0_2, ld_r0_3, ld_r0_4, ld_r0_5, ld_r0_6, ld_r0_7, ld_r0_8, ld_r0_9, ld_r0_10]
  refine (pay9_apply W (k0_pay7 x13) ENB x14 (wf3_holds H) H.h14 r u).trans ?_
  exact congrArg (Spec.eatt W) (funext fun k => (efNB_eq _).trans (efB_row H r k))

/-- Window 32: the class activations after the second erasure. -/
theorem out32_apply (H : Holds W x1 x2 x3 x4 x5 x6 x7 x8 x9 x10 x11 x12 x13 x14 x15 x16 x17 x18 x19 x20 x21 x22 x23 x24 x25 x26 x27) (r : Fin 256) (c : Fin 20) :
    out0_32 (F := Ideal) x0 x1 x2 x3 x4 x5 x6 x7 x8 x9 x10 x11 x12 x13 x14 x15 x16 x17 x18 x19 x20 x21 x22 x23 x24 x25 x26 x27 (ix2 r c)
      = Spec.e2tcam W (Spec.ef2 W (Spec.ef W (Spec.feat W (fun k => x0 (ix2 r k))))) c := by
  unfold out0_32
  rw [View.canon_unit_zero hz2]
  simp only [ld_r0_0, ld_r0_1, ld_r0_2, ld_r0_3, ld_r0_4, ld_r0_5, ld_r0_6, ld_r0_7, ld_r0_8, ld_r0_9, ld_r0_10]
  refine (pay17_apply W EB EGB C0B C1B x27 x16 x17 x18 H.h16 H.h17 H.h18 r c).trans ?_
  exact congrArg (fun f => Spec.e2tcam W f c) (funext fun k => ef2B_row H r k)

/-- Window 33: the gate after the second erasure. -/
theorem out33_apply (H : Holds W x1 x2 x3 x4 x5 x6 x7 x8 x9 x10 x11 x12 x13 x14 x15 x16 x17 x18 x19 x20 x21 x22 x23 x24 x25 x26 x27) (r : Fin 256) (u : Fin 1) :
    out0_33 (F := Ideal) x0 x1 x2 x3 x4 x5 x6 x7 x8 x9 x10 x11 x12 x13 x14 x15 x16 x17 x18 x19 x20 x21 x22 x23 x24 x25 x26 x27 (ix2 r u)
      = Spec.e2att W (Spec.ef2 W (Spec.ef W (Spec.feat W (fun k => x0 (ix2 r k))))) := by
  unfold out0_33
  rw [View.canon_unit_zero hz2]
  simp only [ld_r0_0, ld_r0_1, ld_r0_2, ld_r0_3, ld_r0_4, ld_r0_5, ld_r0_6, ld_r0_7, ld_r0_8, ld_r0_9, ld_r0_10]
  refine (pay16_apply W EB EGB C0B C1B x27 x16 x17 H.h16 H.h17 r u).trans ?_
  exact congrArg (Spec.e2att W) (funext fun k => ef2B_row H r k)

/-- Window 34: the block's column sums of the class activations. -/
theorem out34_apply (H : Holds W x1 x2 x3 x4 x5 x6 x7 x8 x9 x10 x11 x12 x13 x14 x15 x16 x17 x18 x19 x20 x21 x22 x23 x24 x25 x26 x27) (c : Fin 20) :
    out0_34 (F := Ideal) x0 x1 x2 x3 x4 x5 x6 x7 x8 x9 x10 x11 x12 x13 x14 x15 x16 x17 x18 x19 x20 x21 x22 x23 x24 x25 x26 x27 (ix3 (0 : Fin 1) (0 : Fin 1) c)
      = ∑ r : Fin 256, Spec.tcam W (Spec.feat W (fun k => x0 (ix2 r k))) c := by
  unfold out0_34
  rw [View.canon_unit_zero hz3]
  simp only [ld_r0_0, ld_r0_1, ld_r0_2, ld_r0_3, ld_r0_4, ld_r0_5, ld_r0_6, ld_r0_7, ld_r0_8, ld_r0_9, ld_r0_10]
  refine (pay4_apply W FB x7 x8 x9 x10 x11 x12 H.h7 H.h8 H.h9 H.h10 H.h11 H.h12 c).trans ?_
  exact Finset.sum_congr rfl fun r _ => congrArg (fun f => Spec.tcam W f c) (funext fun k => featB_row H r k)

/-- Window 35: the same after the first erasure. -/
theorem out35_apply (H : Holds W x1 x2 x3 x4 x5 x6 x7 x8 x9 x10 x11 x12 x13 x14 x15 x16 x17 x18 x19 x20 x21 x22 x23 x24 x25 x26 x27) (c : Fin 20) :
    out0_35 (F := Ideal) x0 x1 x2 x3 x4 x5 x6 x7 x8 x9 x10 x11 x12 x13 x14 x15 x16 x17 x18 x19 x20 x21 x22 x23 x24 x25 x26 x27 (ix3 (0 : Fin 1) (0 : Fin 1) c)
      = ∑ r : Fin 256, Spec.etcam W (Spec.ef W (Spec.feat W (fun k => x0 (ix2 r k)))) c := by
  unfold out0_35
  rw [View.canon_unit_zero hz3]
  simp only [ld_r0_0, ld_r0_1, ld_r0_2, ld_r0_3, ld_r0_4, ld_r0_5, ld_r0_6, ld_r0_7, ld_r0_8, ld_r0_9, ld_r0_10]
  refine (pay12_apply W EB (k0_pay7 x13) ENB x14 x15 (wf3_holds H) H.h14 H.h15 efNB_eq c).trans ?_
  exact Finset.sum_congr rfl fun r _ => congrArg (fun f => Spec.etcam W f c) (funext fun k => efB_row H r k)

/-- Window 36: the same after the second erasure. -/
theorem out36_apply (H : Holds W x1 x2 x3 x4 x5 x6 x7 x8 x9 x10 x11 x12 x13 x14 x15 x16 x17 x18 x19 x20 x21 x22 x23 x24 x25 x26 x27) (c : Fin 20) :
    out0_36 (F := Ideal) x0 x1 x2 x3 x4 x5 x6 x7 x8 x9 x10 x11 x12 x13 x14 x15 x16 x17 x18 x19 x20 x21 x22 x23 x24 x25 x26 x27 (ix3 (0 : Fin 1) (0 : Fin 1) c)
      = ∑ r : Fin 256, Spec.e2tcam W (Spec.ef2 W (Spec.ef W (Spec.feat W (fun k => x0 (ix2 r k))))) c := by
  unfold out0_36
  rw [View.canon_unit_zero hz3]
  simp only [ld_r0_0, ld_r0_1, ld_r0_2, ld_r0_3, ld_r0_4, ld_r0_5, ld_r0_6, ld_r0_7, ld_r0_8, ld_r0_9, ld_r0_10]
  refine (pay18_apply W EB EGB C0B C1B x27 x16 x17 x18 H.h16 H.h17 H.h18 c).trans ?_
  exact Finset.sum_congr rfl fun r _ => congrArg (fun f => Spec.e2tcam W f c) (funext fun k => ef2B_row H r k)

end Cert.KernelIdeal.Rows

end
-- ==== Proof.Results.lean ====
/-
  The nine results as functions of the ARGUMENT ARRAYS: the weights read off the arguments (a reference-side matrix is
  stored (output, input), so the specification's weight (k, j) is argument element (j, k)), each label read as a class
  number, and each result array as the specification's row function of the input's rows.
-/
import proofs.«424737_j11321533792616_2_alg».proof.Proof.Spec

noncomputable section

namespace Cert.Spec

open Idealize.ShloMosaic Idealize.ShloMosaic.ValueIdx

/-- One of three, by position. -/
def pick3 {α : Type} (a b c : α) (j : Fin 3) : α :=
  match j with
  | ⟨0, _⟩ => a
  | ⟨1, _⟩ => b
  | ⟨2, _⟩ => c

/-- A label read as a class number: signed, clamped into the twenty classes. -/
def lab (a1 : (⟨1, ![3]⟩ : Shape).Idx → BitVec 32) (j : Fin 3) : Fin 20 :=
  ⟨min (a1 (ix1 j)).toInt.toNat 19, by omega⟩

/-- The weights the nineteen weight and label arguments hold. -/
def WA (a1 : (⟨1, ![3]⟩ : Shape).Idx → BitVec 32) (a2 : (⟨2, ![512, 1024]⟩ : Shape).Idx → EReal) (a3 : (⟨1, ![512]⟩ : Shape).Idx → EReal)
    (a4 : (⟨2, ![512, 512]⟩ : Shape).Idx → EReal) (a5 : (⟨1, ![512]⟩ : Shape).Idx → EReal) (a6 : (⟨2, ![1024, 512]⟩ : Shape).Idx → EReal) (a7 : (⟨1, ![1024]⟩ : Shape).Idx → EReal)
    (a8 : (⟨2, ![256, 1024]⟩ : Shape).Idx → EReal) (a9 : (⟨1, ![256]⟩ : Shape).Idx → EReal) (a10 : (⟨2, ![1, 256]⟩ : Shape).Idx → EReal) (a11 : (⟨1, ![1]⟩ : Shape).Idx → EReal)
    (a12 : (⟨2, ![20, 1024]⟩ : Shape).Idx → EReal) (a13 : (⟨1, ![20]⟩ : Shape).Idx → EReal) (a14 : (⟨2, ![256, 1024]⟩ : Shape).Idx → EReal) (a15 : (⟨2, ![1, 256]⟩ : Shape).Idx → EReal)
    (a16 : (⟨2, ![20, 1024]⟩ : Shape).Idx → EReal) (a17 : (⟨2, ![256, 1024]⟩ : Shape).Idx → EReal) (a18 : (⟨2, ![1, 256]⟩ : Shape).Idx → EReal) (a19 : (⟨2, ![20, 1024]⟩ : Shape).Idx → EReal) : Wts where
  w0 := fun k j => a2 (ix2 j k)
  b0 := fun j => a3 (ix1 j)
  w1 := fun k j => a4 (ix2 j k)
  b1 := fun j => a5 (ix1 j)
  w2 := fun k j => a6 (ix2 j k)
  b2 := fun j => a7 (ix1 j)
  wf1 := fun k j => a8 (ix2 j k)
  bf1 := fun j => a9 (ix1 j)
  wf2 := fun k => a10 (ix2 (0 : Fin 1) k)
  bf2 := a11 (ix1 (0 : Fin 1))
  wc1 := fun k c => a12 (ix2 c k)
  bc1 := fun c => a13 (ix1 c)
  wf3 := fun k j => a14 (ix2 j k)
  wf4 := fun k => a15 (ix2 (0 : Fin 1) k)
  wc2 := fun k c => a16 (ix2 c k)
  wf5 := fun k j => a17 (ix2 j k)
  wf6 := fun k => a18 (ix2 (0 : Fin 1) k)
  wc3 := fun k c => a19 (ix2 c k)
  s1w := fun j d => a12 (ix2 (lab a1 j) d)
  s1b := fun j => a13 (ix1 (lab a1 j))
  s2w := fun j d => a16 (ix2 (lab a1 j) d)

/-- The input's rows. -/
def rows (a0 : (⟨2, ![32768, 1024]⟩ : Shape).Idx → EReal) : Fin 32768 → Fin 1024 → EReal := fun T k => a0 (ix2 T k)

variable (W : Wts) (a0 : (⟨2, ![32768, 1024]⟩ : Shape).Idx → EReal)

/-- The features [32768, 1024]. -/
def resFeat : (⟨2, ![32768, 1024]⟩ : Shape).Idx → EReal := fun i => F W (rows a0) (i 0) (i 1)
/-- The class activations [32768, 20] and the logistic of their column sums [20]. -/
def resTcam : (⟨2, ![32768, 20]⟩ : Shape).Idx → EReal := fun i => tcam W (F W (rows a0) (i 0)) (i 1)
def resX : (⟨1, ![20]⟩ : Shape).Idx → EReal := fun i => colSig (fun T c => tcam W (F W (rows a0) T) c) (i 0)
/-- After the first erasure: the gate [32768, 1], the class activations, the logistic of their column sums. -/
def resEAtt : (⟨2, ![32768, 1]⟩ : Shape).Idx → EReal := fun i => eatt W (E W (rows a0) (i 0))
def resETcam : (⟨2, ![32768, 20]⟩ : Shape).Idx → EReal := fun i => etcam W (E W (rows a0) (i 0)) (i 1)
def resEX : (⟨1, ![20]⟩ : Shape).Idx → EReal := fun i => colSig (fun T c => etcam W (E W (rows a0) T) c) (i 0)
/-- After the second erasure. -/
def resE2Att : (⟨2, ![32768, 1]⟩ : Shape).Idx → EReal := fun i => e2att W (E2 W (rows a0) (i 0))
def resE2Tcam : (⟨2, ![32768, 20]⟩ : Shape).Idx → EReal := fun i => e2tcam W (E2 W (rows a0) (i 0)) (i 1)
def resE2X : (⟨1, ![20]⟩ : Shape).Idx → EReal := fun i => colSig (fun T c => e2tcam W (E2 W (rows a0) T) c) (i 0)

/-- The kernel's per-tile partial sums of a [32768, 20] array `A`, as the [128, 1, 20] array it writes: tile `t`'s
    entry at class `c` is the sum of `A` over the tile's 256 rows. -/
def resPart (A : Fin 32768 → Fin 20 → EReal) : (⟨3, ![128, 1, 20]⟩ : Shape).Idx → EReal :=
  fun i => ∑ r : Fin 256, A (tileRow (i 0) r) (i 2)

/-- The three [32768, 20] arrays whose column sums the program reports. -/
def actT : Fin 32768 → Fin 20 → EReal := fun T c => tcam W (F W (rows a0) T) c
def actE : Fin 32768 → Fin 20 → EReal := fun T c => etcam W (E W (rows a0) T) c
def actE2 : Fin 32768 → Fin 20 → EReal := fun T c => e2tcam W (E2 W (rows a0) T) c

end Cert.Spec

end
-- ==== Proof.KBlocks.lean ====
/-
  A grid point's output blocks as restrictions of the whole result arrays: when the point's input block is rows
  `256·t … 256·t + 255` of the input `A` (tile `t`) and the weight operands hold the weights, the body's buffer for each
  output window, at a block index `j`, is the result array at the array index `i` lying under `j` (row `256·t + j₀`, the
  same lane; for the partial sums: entry `(t, 0, c)`).
-/
import proofs.«424737_j11321533792616_2_alg».proof.Proof.KOut
import proofs.«424737_j11321533792616_2_alg».proof.Proof.Results

noncomputable section

namespace Cert.KernelIdeal.Rows

open Idealize.ShloMosaic Idealize.ShloMosaic.ValueIdx Cert.KernelIdeal Cert.KernelIdeal.Gen Cert.KernelIdeal.GenP

variable (W : Spec.Wts) (x0 : Vec Ideal S256x1024 .f32) (x1 : Vec Ideal S1024x512 .bf16) (x2 : Vec Ideal S1x512 .f32) (x3 : Vec Ideal S512x512 .bf16) (x4 : Vec Ideal S1x512 .f32) (x5 : Vec Ideal S512x1024 .bf16) (x6 : Vec Ideal S1x1024 .f32) (x7 : Vec Ideal S1024x256 .bf16) (x8 : Vec Ideal S1x256 .f32) (x9 : Vec Ideal S1x256 .f32) (x10 : Vec Ideal S1x1 .f32) (x11 : Vec Ideal S1024x20 .bf16) (x12 : Vec Ideal S1x20 .f32) (x13 : Vec Ideal S1024x256 .bf16) (x14 : Vec Ideal S1x256 .f32) (x15 : Vec Ideal S1024x20 .bf16) (x16 : Vec Ideal S1024x256 .bf16) (x17 : Vec Ideal S1x256 .f32) (x18 : Vec Ideal S1024x20 .bf16) (x19 : Vec Ideal S1x1024 .f32) (x20 : Vec Ideal S1x1024 .f32) (x21 : Vec Ideal S1x1024 .f32) (x22 : Vec Ideal S1x1 .f32) (x23 : Vec Ideal S1x1 .f32) (x24 : Vec Ideal S1x1 .f32) (x25 : Vec Ideal S1x1024 .f32) (x26 : Vec Ideal S1x1024 .f32) (x27 : Vec Ideal S1x1024 .f32)
variable (A : S32768x1024.Idx → EReal) (tt : Fin 128)

/-- Window 28 (features). -/
theorem blk28 (H : Holds W x1 x2 x3 x4 x5 x6 x7 x8 x9 x10 x11 x12 x13 x14 x15 x16 x17 x18 x19 x20 x21 x22 x23 x24 x25 x26 x27) (hx : ∀ (r : Fin 256) (k : Fin 1024), x0 (ix2 r k) = A (ix2 (Spec.tileRow tt r) k))
    (j : S256x1024.Idx) (i : S32768x1024.Idx) (h0 : (i 0).val = 256 * tt.val + (j 0).val) (h1 : (i 1).val = (j 1).val) :
    out0_28 (F := Ideal) x0 x1 x2 x3 x4 x5 x6 x7 x8 x9 x10 x11 x12 x13 x14 x15 x16 x17 x18 x19 x20 x21 x22 x23 x24 x25 x26 x27 j = Spec.resFeat W A i := by
  obtain ⟨r, d, rfl⟩ : ∃ (r : Fin 256) (d : Fin 1024), j = ix2 r d := ⟨j 0, j 1, eq_ix2 j⟩
  obtain ⟨T, e, rfl⟩ : ∃ (T : Fin 32768) (e : Fin 1024), i = ix2 T e := ⟨i 0, i 1, eq_ix2 i⟩
  obtain rfl : T = Spec.tileRow tt r := Fin.ext h0
  obtain rfl : d = e := (Fin.ext h1).symm
  rw [out28_apply W x0 x1 x2 x3 x4 x5 x6 x7 x8 x9 x10 x11 x12 x13 x14 x15 x16 x17 x18 x19 x20 x21 x22 x23 x24 x25 x26 x27 H r d]
  exact congrArg (fun x => Spec.feat W x d) (funext fun k => hx r k)

/-- Window 29 (class activations). -/
theorem blk29 (H : Holds W x1 x2 x3 x4 x5 x6 x7 x8 x9 x10 x11 x12 x13 x14 x15 x16 x17 x18 x19 x20 x21 x22 x23 x24 x25 x26 x27) (hx : ∀ (r : Fin 256) (k : Fin 1024), x0 (ix2 r k) = A (ix2 (Spec.tileRow tt r) k))
    (j : S256x20.Idx) (i : S32768x20.Idx) (h0 : (i 0).val = 256 * tt.val + (j 0).val) (h1 : (i 1).val = (j 1).val) :
    out0_29 (F := Ideal) x0 x1 x2 x3 x4 x5 x6 x7 x8 x9 x10 x11 x12 x13 x14 x15 x16 x17 x18 x19 x20 x21 x22 x23 x24 x25 x26 x27 j = Spec.resTcam W A i := by
  obtain ⟨r, c, rfl⟩ : ∃ (r : Fin 256) (c : Fin 20), j = ix2 r c := ⟨j 0, j 1, eq_ix2 j⟩
  obtain ⟨T, e, rfl⟩ : ∃ (T : Fin 32768) (e : Fin 20), i = ix2 T e := ⟨i 0, i 1, eq_ix2 i⟩
  obtain rfl : T = Spec.tileRow tt r := Fin.ext h0
  obtain rfl : c = e := (Fin.ext h1).symm
  rw [out29_apply W x0 x1 x2 x3 x4 x5 x6 x7 x8 x9 x10 x11 x12 x13 x14 x15 x16 x17 x18 x19 x20 x21 x22 x23 x24 x25 x26 x27 H r c]
  exact congrArg (fun x => Spec.tcam W (Spec.feat W x) c) (funext fun k => hx r k)

/-- Window 30 (class activations after the first erasure). -/
theorem blk30 (H : Holds W x1 x2 x3 x4 x5 x6 x7 x8 x9 x10 x11 x12 x13 x14 x15 x16 x17 x18 x19 x20 x21 x22 x23 x24 x25 x26 x27) (hx : ∀ (r : Fin 256) (k : Fin 1024), x0 (ix2 r k) = A (ix2 (Spec.tileRow tt r) k))
    (j : S256x20.Idx) (i : S32768x20.Idx) (h0 : (i 0).val = 256 * tt.val + (j 0).val) (h1 : (i 1).val = (j 1).val) :
    out0_30 (F := Ideal) x0 x1 x2 x3 x4 x5 x6 x7 x8 x9 x10 x11 x12 x13 x14 x15 x16 x17 x18 x19 x20 x21 x22 x23 x24 x25 x26 x27 j = Spec.resETcam W A i := by
  obtain ⟨r, c, rfl⟩ : ∃ (r : Fin 256) (c : Fin 20), j = ix2 r c := ⟨j 0, j 1, eq_ix2 j⟩
  obtain ⟨T, e, rfl⟩ : ∃ (T : Fin 32768) (e : Fin 20), i = ix2 T e := ⟨i 0, i 1, eq_ix2 i⟩
  obtain rfl : T = Spec.tileRow tt r := Fin.ext h0
  obtain rfl : c = e := (Fin.ext h1).symm
  rw [out30_apply W x0 x1 x2 x3 x4 x5 x6 x7 x8 x9 x10 x11 x12 x13 x14 x15 x16 x17 x18 x19 x20 x21 x22 x23 x24 x25 x26 x27 H r c]
  exact congrArg (fun x => Spec.etcam W (Spec.ef W (Spec.feat W x)) c) (funext fun k => hx r k)

/-- Window 31 (gate after the first erasure). -/
theorem blk31 (H : Holds W x1 x2 x3 x4 x5 x6 x7 x8 x9 x10 x11 x12 x13 x14 x15 x16 x17 x18 x19 x20 x21 x22 x23 x24 x25 x26 x27) (hx : ∀ (r : Fin 256) (k : Fin 1024), x0 (ix2 r k) = A (ix2 (Spec.tileRow tt r) k))
    (j : S256x1.Idx) (i : S32768x1.Idx) (h0 : (i 0).val = 256 * tt.val + (j 0).val) :
    out0_31 (F := Ideal) x0 x1 x2 x3 x4 x5 x6 x7 x8 x9 x10 x11 x12 x13 x14 x15 x16 x17 x18 x19 x20 x21 x22 x23 x24 x25 x26 x27 j = Spec.resEAtt W A i := by
  obtain ⟨r, u, rfl⟩ : ∃ (r : Fin 256) (u : Fin 1), j = ix2 r u := ⟨j 0, j 1, eq_ix2 j⟩
  obtain ⟨T, e, rfl⟩ : ∃ (T : Fin 32768) (e : Fin 1), i = ix2 T e := ⟨i 0, i 1, eq_ix2 i⟩
  obtain rfl : T = Spec.tileRow tt r := Fin.ext h0
  rw [out31_apply W x0 x1 x2 x3 x4 x5 x6 x7 x8 x9 x10 x11 x12 x13 x14 x15 x16 x17 x18 x19 x20 x21 x22 x23 x24 x25 x26 x27 H r u]
  exact congrArg (fun x => Spec.eatt W (Spec.ef W (Spec.feat W x))) (funext fun k => hx r k)

/-- Window 32 (class activations after the second erasure). -/
theorem blk32 (H : Holds W x1 x2 x3 x4 x5 x6 x7 x8 x9 x10 x11 x12 x13 x14 x15 x16 x17 x18 x19 x20 x21 x22 x23 x24 x25 x26 x27) (hx : ∀ (r : Fin 256) (k : Fin 1024), x0 (ix2 r k) = A (ix2 (Spec.tileRow tt r) k))
    (j : S256x20.Idx) (i : S32768x20.Idx) (h0 : (i 0).val = 256 * tt.val + (j 0).val) (h1 : (i 1).val = (j 1).val) :
    out0_32 (F := Ideal) x0 x1 x2 x3 x4 x5 x6 x7 x8 x9 x10 x11 x12 x13 x14 x15 x16 x17 x18 x19 x20 x21 x22 x23 x24 x25 x26 x27 j = Spec.resE2Tcam W A i := by
  obtain ⟨r, c, rfl⟩ : ∃ (r : Fin 256) (c : Fin 20), j = ix2 r c := ⟨j 0, j 1, eq_ix2 j⟩
  obtain ⟨T, e, rfl⟩ : ∃ (T : Fin 32768) (e : Fin 20), i = ix2 T e := ⟨i 0, i 1, eq_ix2 i⟩
  obtain rfl : T = Spec.tileRow tt r := Fin.ext h0
  obtain rfl : c = e := (Fin.ext h1).symm
  rw [out32_apply W x0 x1 x2 x3 x4 x5 x6 x7 x8 x9 x10 x11 x12 x13 x14 x15 x16 x17 x18 x19 x20 x21 x22 x23 x24 x25 x26 x27 H r c]
  exact congrArg (fun x => Spec.e2tcam W (Spec.ef2 W (Spec.ef W (Spec.feat W x))) c) (funext fun k => hx r k)

/-- Window 33 (gate after the second erasure). -/
theorem blk33 (H : Holds W x1 x2 x3 x4 x5 x6 x7 x8 x9 x10 x11 x12 x13 x14 x15 x16 x17 x18 x19 x20 x21 x22 x23 x24 x25 x26 x27) (hx : ∀ (r : Fin 256) (k : Fin 1024), x0 (ix2 r k) = A (ix2 (Spec.tileRow tt r) k))
    (j : S256x1.Idx) (i : S32768x1.Idx) (h0 : (i 0).val = 256 * tt.val + (j 0).val) :
    out0_33 (F := Ideal) x0 x1 x2 x3 x4 x5 x6 x7 x8 x9 x10 x11 x12 x13 x14 x15 x16 x17 x18 x19 x20 x21 x22 x23 x24 x25 x26 x27 j = Spec.resE2Att W A i := by
  obtain ⟨r, u, rfl⟩ : ∃ (r : Fin 256) (u : Fin 1), j = ix2 r u := ⟨j 0, j 1, eq_ix2 j⟩
  obtain ⟨T, e, rfl⟩ : ∃ (T : Fin 32768) (e : Fin 1), i = ix2 T e := ⟨i 0, i 1, eq_ix2 i⟩
  obtain rfl : T = Spec.tileRow tt r := Fin.ext h0
  rw [out33_apply W x0 x1 x2 x3 x4 x5 x6 x7 x8 x9 x10 x11 x12 x13 x14 x15 x16 x17 x18 x19 x20 x21 x22 x23 x24 x25 x26 x27 H r u]
  exact congrArg (fun x => Spec.e2att W (Spec.ef2 W (Spec.ef W (Spec.feat W x)))) (funext fun k => hx r k)

/-- Window 34 (the tile's column sums of the class activations). -/
theorem blk34 (H : Holds W x1 x2 x3 x4 x5 x6 x7 x8 x9 x10 x11 x12 x13 x14 x15 x16 x17 x18 x19 x20 x21 x22 x23 x24 x25 x26 x27) (hx : ∀ (r : Fin 256) (k : Fin 1024), x0 (ix2 r k) = A (ix2 (Spec.tileRow tt r) k))
    (j : S1x1x20.Idx) (i : S128x1x20.Idx) (h0 : (i 0).val = tt.val) (h2 : (i 2).val = (j 2).val) :
    out0_34 (F := Ideal) x0 x1 x2 x3 x4 x5 x6 x7 x8 x9 x10 x11 x12 x13 x14 x15 x16 x17 x18 x19 x20 x21 x22 x23 x24 x25 x26 x27 j = Spec.resPart (Spec.actT W A) i := by
  obtain ⟨a, b, c, rfl⟩ : ∃ (a : Fin 1) (b : Fin 1) (c : Fin 20), j = ix3 a b c := ⟨j 0, j 1, j 2, eq_ix3 j⟩
  obtain rfl : a = 0 := Subsingleton.elim _ _
  obtain rfl : b = 0 := Subsingleton.elim _ _
  obtain ⟨t, b', c', rfl⟩ : ∃ (t : Fin 128) (b' : Fin 1) (c' : Fin 20), i = ix3 t b' c' := ⟨i 0, i 1, i 2, eq_ix3 i⟩
  obtain rfl : tt = t := (Fin.ext h0).symm
  obtain rfl : c = c' := (Fin.ext h2).symm
  rw [out34_apply W x0 x1 x2 x3 x4 x5 x6 x7 x8 x9 x10 x11 x12 x13 x14 x15 x16 x17 x18 x19 x20 x21 x22 x23 x24 x25 x26 x27 H c]
  exact Finset.sum_congr rfl fun r _ => congrArg (fun x => Spec.tcam W (Spec.feat W x) c) (funext fun k => hx r k)

/-- Window 35 (the same after the first erasure). -/
theorem blk35 (H : Holds W x1 x2 x3 x4 x5 x6 x7 x8 x9 x10 x11 x12 x13 x14 x15 x16 x17 x18 x19 x20 x21 x22 x23 x24 x25 x26 x27) (hx : ∀ (r : Fin 256) (k : Fin 1024), x0 (ix2 r k) = A (ix2 (Spec.tileRow tt r) k))
    (j : S1x1x20.Idx) (i : S128x1x20.Idx) (h0 : (i 0).val = tt.val) (h2 : (i 2).val = (j 2).val) :
    out0_35 (F := Ideal) x0 x1 x2 x3 x4 x5 x6 x7 x8 x9 x10 x11 x12 x13 x14 x15 x16 x17 x18 x19 x20 x21 x22 x23 x24 x25 x26 x27 j = Spec.resPart (Spec.actE W A) i := by
  obtain ⟨a, b, c, rfl⟩ : ∃ (a : Fin 1) (b : Fin 1) (c : Fin 20), j = ix3 a b c := ⟨j 0, j 1, j 2, eq_ix3 j⟩
  obtain rfl : a = 0 := Subsingleton.elim _ _
  obtain rfl : b = 0 := Subsingleton.elim _ _
  obtain ⟨t, b', c', rfl⟩ : ∃ (t : Fin 128) (b' : Fin 1) (c' : Fin 20), i = ix3 t b' c' := ⟨i 0, i 1, i 2, eq_ix3 i⟩
  obtain rfl : tt = t := (Fin.ext h0).symm
  obtain rfl : c = c' := (Fin.ext h2).symm
  rw [out35_apply W x0 x1 x2 x3 x4 x5 x6 x7 x8 x9 x10 x11 x12 x13 x14 x15 x16 x17 x18 x19 x20 x21 x22 x23 x24 x25 x26 x27 H c]
  exact Finset.sum_congr rfl fun r _ => congrArg (fun x => Spec.etcam W (Spec.ef W (Spec.feat W x)) c) (funext fun k => hx r k)

/-- Window 36 (the same after the second erasure). -/
theorem blk36 (H : Holds W x1 x2 x3 x4 x5 x6 x7 x8 x9 x10 x11 x12 x13 x14 x15 x16 x17 x18 x19 x20 x21 x22 x23 x24 x25 x26 x27) (hx : ∀ (r : Fin 256) (k : Fin 1024), x0 (ix2 r k) = A (ix2 (Spec.tileRow tt r) k))
    (j : S1x1x20.Idx) (i : S128x1x20.Idx) (h0 : (i 0).val = tt.val) (h2 : (i 2).val = (j 2).val) :
    out0_36 (F := Ideal) x0 x1 x2 x3 x4 x5 x6 x7 x8 x9 x10 x11 x12 x13 x14 x15 x16 x17 x18 x19 x20 x21 x22 x23 x24 x25 x26 x27 j = Spec.resPart (Spec.actE2 W A) i := by
  obtain ⟨a, b, c, rfl⟩ : ∃ (a : Fin 1) (b : Fin 1) (c : Fin 20), j = ix3 a b c := ⟨j 0, j 1, j 2, eq_ix3 j⟩
  obtain rfl : a = 0 := Subsingleton.elim _ _
  obtain rfl : b = 0 := Subsingleton.elim _ _
  obtain ⟨t, b', c', rfl⟩ : ∃ (t : Fin 128) (b' : Fin 1) (c' : Fin 20), i = ix3 t b' c' := ⟨i 0, i 1, i 2, eq_ix3 i⟩
  obtain rfl : tt = t := (Fin.ext h0).symm
  obtain rfl : c = c' := (Fin.ext h2).symm
  rw [out36_apply W x0 x1 x2 x3 x4 x5 x6 x7 x8 x9 x10 x11 x12 x13 x14 x15 x16 x17 x18 x19 x20 x21 x22 x23 x24 x25 x26 x27 H c]
  exact Finset.sum_congr rfl fun r _ => congrArg (fun x => Spec.e2tcam W (Spec.ef2 W (Spec.ef W (Spec.feat W x))) c) (funext fun k => hx r k)

end Cert.KernelIdeal.Rows

end
-- ==== Proof.KWeights.lean ====
/-
  The weights the kernel's region finds in its twenty-seven weight operand arrays when it is entered (`WK`), and the
  weights the program's arguments hold (`WAm`: the specification's reading of the arguments).
-/
import proofs.«424737_j11321533792616_2_alg».proof.Proof.KernelIdealFrame
import proofs.«424737_j11321533792616_2_alg».proof.Proof.Results
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate

noncomputable section

namespace Cert.KernelIdeal.Hand

open Idealize.ShloMosaic Idealize.ShloMosaic.TcCoe Idealize.ShloMosaic.ValueIdx Idealize.SL.Sem
open Cert.KernelIdeal Cert.KernelIdeal.Gen Cert.KernelIdeal.GenP

variable (m : (ℓ : Loc nD τ sig) → Buf (Elt Ideal) ℓ)

/-- The weights as the region finds them in its operand arrays (window `w`'s array is the buffer named beside it). -/
def WK (c : Dev nD) : Spec.Wts where
  w0 := fun k j => (V m c main_v1 : S1024x512.Idx → EReal) (ix2 k j)            -- window 1
  b0 := fun j => (V m c main_v18 : S1x512.Idx → EReal) (ix2 (0 : Fin 1) j)      -- window 2
  w1 := fun k j => (V m c main_v3 : S512x512.Idx → EReal) (ix2 k j)             -- window 3
  b1 := fun j => (V m c main_v19 : S1x512.Idx → EReal) (ix2 (0 : Fin 1) j)      -- window 4
  w2 := fun k j => (V m c main_v5 : S512x1024.Idx → EReal) (ix2 k j)            -- window 5
  b2 := fun j => (V m c main_v20 : S1x1024.Idx → EReal) (ix2 (0 : Fin 1) j)     -- window 6
  wf1 := fun k j => (V m c main_v7 : S1024x256.Idx → EReal) (ix2 k j)           -- window 7
  bf1 := fun j => (V m c main_v21 : S1x256.Idx → EReal) (ix2 (0 : Fin 1) j)     -- window 8
  wf2 := fun k => (V m c main_arg10 : S1x256.Idx → EReal) (ix2 (0 : Fin 1) k)   -- window 9
  bf2 := (V m c main_v22 : S1x1.Idx → EReal) (ix2 (0 : Fin 1) (0 : Fin 1))      -- window 10
  wc1 := fun k c' => (V m c main_v9 : S1024x20.Idx → EReal) (ix2 k c')          -- window 11
  bc1 := fun c' => (V m c main_v23 : S1x20.Idx → EReal) (ix2 (0 : Fin 1) c')    -- window 12
  wf3 := fun k j => (V m c main_v11 : S1024x256.Idx → EReal) (ix2 k j)          -- window 13
  wf4 := fun k => (V m c main_arg15 : S1x256.Idx → EReal) (ix2 (0 : Fin 1) k)   -- window 14
  wc2 := fun k c' => (V m c main_v13 : S1024x20.Idx → EReal) (ix2 k c')         -- window 15
  wf5 := fun k j => (V m c main_v15 : S1024x256.Idx → EReal) (ix2 k j)          -- window 16
  wf6 := fun k => (V m c main_arg18 : S1x256.Idx → EReal) (ix2 (0 : Fin 1) k)   -- window 17
  wc3 := fun k c' => (V m c main_v17 : S1024x20.Idx → EReal) (ix2 k c')         -- window 18
  s1w := fun j d => Spec.pick3 ((V m c main_v28 : S1x1024.Idx → EReal) (ix2 (0 : Fin 1) d))
    ((V m c main_v36 : S1x1024.Idx → EReal) (ix2 (0 : Fin 1) d)) ((V m c main_v44 : S1x1024.Idx → EReal) (ix2 (0 : Fin 1) d)) j   -- windows 19, 20, 21
  s1b := fun j => Spec.pick3 ((V m c main_v30 : S1x1.Idx → EReal) (ix2 (0 : Fin 1) (0 : Fin 1)))
    ((V m c main_v38 : S1x1.Idx → EReal) (ix2 (0 : Fin 1) (0 : Fin 1))) ((V m c main_v46 : S1x1.Idx → EReal) (ix2 (0 : Fin 1) (0 : Fin 1))) j   -- windows 22, 23, 24
  s2w := fun j d => Spec.pick3 ((V m c main_v32 : S1x1024.Idx → EReal) (ix2 (0 : Fin 1) d))
    ((V m c main_v40 : S1x1024.Idx → EReal) (ix2 (0 : Fin 1) d)) ((V m c main_v48 : S1x1024.Idx → EReal) (ix2 (0 : Fin 1) d)) j   -- windows 25, 26, 27

/-- The weights the arguments hold, on core `c`. -/
abbrev WAm (c : Dev nD) : Spec.Wts := Spec.WA (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))

end Cert.KernelIdeal.Hand

end
-- ==== Proof.KArrays.lean ====
/-
  The nine output arrays after the region. At every grid point the twenty-seven weight operands' blocks are the
  operand arrays themselves, so they hold the weights the region finds (`WK`); the input block is a tile's rows of
  the input. Hence what point `t` writes back to each output array is block `t` of ONE whole-array function — the
  specification's result function of the weights and of the input's rows —, and since the 128 blocks cover the array,
  the array ends holding that function.
-/
import proofs.«424737_j11321533792616_2_alg».proof.Proof.KernelIdealFrame
import proofs.«424737_j11321533792616_2_alg».proof.Proof.KWindows
import proofs.«424737_j11321533792616_2_alg».proof.Proof.KBlocks
import proofs.«424737_j11321533792616_2_alg».proof.Proof.KWeights
import proofs.«424737_j11321533792616_2_alg».proof.Proof.Results

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP Cert.KernelIdeal.Rows

variable (m : (ℓ : Loc nD τ sig) → Buf (Elt Ideal) ℓ)

/-- The input as the region finds it. -/
abbrev XK (c : Dev nD) : S32768x1024.Idx → EReal := V m c main_arg0

/-- `pick3` at its three positions. -/
theorem ka_pick3_0 {α : Type} (a b c : α) : Spec.pick3 a b c 0 = a := rfl
theorem ka_pick3_1 {α : Type} (a b c : α) : Spec.pick3 a b c 1 = b := rfl
theorem ka_pick3_2 {α : Type} (a b c : α) : Spec.pick3 a b c 2 = c := rfl

/-- A weight operand's block at any point is its whole array. -/
theorem iblk1_eq (c : Dev nD) (t : Fin cfg0.N) : (iblk m c 1 t : S1024x512.Idx → EReal) = V m c main_v1 := by unfold iblk; exact blk1_read t _
theorem iblk2_eq (c : Dev nD) (t : Fin cfg0.N) : (iblk m c 2 t : S1x512.Idx → EReal) = V m c main_v18 := by unfold iblk; exact blk2_read t _
theorem iblk3_eq (c : Dev nD) (t : Fin cfg0.N) : (iblk m c 3 t : S512x512.Idx → EReal) = V m c main_v3 := by unfold iblk; exact blk3_read t _
theorem iblk4_eq (c : Dev nD) (t : Fin cfg0.N) : (iblk m c 4 t : S1x512.Idx → EReal) = V m c main_v19 := by unfold iblk; exact blk4_read t _
theorem iblk5_eq (c : Dev nD) (t : Fin cfg0.N) : (iblk m c 5 t : S512x1024.Idx → EReal) = V m c main_v5 := by unfold iblk; exact blk5_read t _
theorem iblk6_eq (c : Dev nD) (t : Fin cfg0.N) : (iblk m c 6 t : S1x1024.Idx → EReal) = V m c main_v20 := by unfold iblk; exact blk6_read t _
theorem iblk7_eq (c : Dev nD) (t : Fin cfg0.N) : (iblk m c 7 t : S1024x256.Idx → EReal) = V m c main_v7 := by unfold iblk; exact blk7_read t _
theorem iblk8_eq (c : Dev nD) (t : Fin cfg0.N) : (iblk m c 8 t : S1x256.Idx → EReal) = V m c main_v21 := by unfold iblk; exact blk8_read t _
theorem iblk9_eq (c : Dev nD) (t : Fin cfg0.N) : (iblk m c 9 t : S1x256.Idx → EReal) = V m c main_arg10 := by unfold iblk; exact blk9_read t _
theorem iblk10_eq (c : Dev nD) (t : Fin cfg0.N) : (iblk m c 10 t : S1x1.Idx → EReal) = V m c main_v22 := by unfold iblk; exact blk10_read t _
theorem iblk11_eq (c : Dev nD) (t : Fin cfg0.N) : (iblk m c 11 t : S1024x20.Idx → EReal) = V m c main_v9 := by unfold iblk; exact blk11_read t _
theorem iblk12_eq (c : Dev nD) (t : Fin cfg0.N) : (iblk m c 12 t : S1x20.Idx → EReal) = V m c main_v23 := by unfold iblk; exact blk12_read t _
theorem iblk13_eq (c : Dev nD) (t : Fin cfg0.N) : (iblk m c 13 t : S1024x256.Idx → EReal) = V m c main_v11 := by unfold iblk; exact blk13_read t _
theorem iblk14_eq (c : Dev nD) (t : Fin cfg0.N) : (iblk m c 14 t : S1x256.Idx → EReal) = V m c main_arg15 := by unfold iblk; exact blk14_read t _
theorem iblk15_eq (c : Dev nD) (t : Fin cfg0.N) : (iblk m c 15 t : S1024x20.Idx → EReal) = V m c main_v13 := by unfold iblk; exact blk15_read t _
theorem iblk16_eq (c : Dev nD) (t : Fin cfg0.N) : (iblk m c 16 t : S1024x256.Idx → EReal) = V m c main_v15 := by unfold iblk; exact blk16_read t _
theorem iblk17_eq (c : Dev nD) (t : Fin cfg0.N) : (iblk m c 17 t : S1x256.Idx → EReal) = V m c main_arg18 := by unfold iblk; exact blk17_read t _
theorem iblk18_eq (c : Dev nD) (t : Fin cfg0.N) : (iblk m c 18 t : S1024x20.Idx → EReal) = V m c main_v17 := by unfold iblk; exact blk18_read t _
theorem iblk19_eq (c : Dev nD) (t : Fin cfg0.N) : (iblk m c 19 t : S1x1024.Idx → EReal) = V m c main_v28 := by unfold iblk; exact blk19_read t _
theorem iblk20_eq (c : Dev nD) (t : Fin cfg0.N) : (iblk m c 20 t : S1x1024.Idx → EReal) = V m c main_v36 := by unfold iblk; exact blk20_read t _
theorem iblk21_eq (c : Dev nD) (t : Fin cfg0.N) : (iblk m c 21 t : S1x1024.Idx → EReal) = V m c main_v44 := by unfold iblk; exact blk21_read t _
theorem iblk22_eq (c : Dev nD) (t : Fin cfg0.N) : (iblk m c 22 t : S1x1.Idx → EReal) = V m c main_v30 := by unfold iblk; exact blk22_read t _
theorem iblk23_eq (c : Dev nD) (t : Fin cfg0.N) : (iblk m c 23 t : S1x1.Idx → EReal) = V m c main_v38 := by unfold iblk; exact blk23_read t _
theorem iblk24_eq (c : Dev nD) (t : Fin cfg0.N) : (iblk m c 24 t : S1x1.Idx → EReal) = V m c main_v46 := by unfold iblk; exact blk24_read t _
theorem iblk25_eq (c : Dev nD) (t : Fin cfg0.N) : (iblk m c 25 t : S1x1024.Idx → EReal) = V m c main_v32 := by unfold iblk; exact blk25_read t _
theorem iblk26_eq (c : Dev nD) (t : Fin cfg0.N) : (iblk m c 26 t : S1x1024.Idx → EReal) = V m c main_v40 := by unfold iblk; exact blk26_read t _
theorem iblk27_eq (c : Dev nD) (t : Fin cfg0.N) : (iblk m c 27 t : S1x1024.Idx → EReal) = V m c main_v48 := by unfold iblk; exact blk27_read t _

/-- At every point the weight operands' blocks hold the weights the region finds: each block is its whole array, and
    the weights the region finds are read off those arrays. -/
theorem holds (c : Dev nD) (t : Fin cfg0.N) :
    Holds (WK m c) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) := by
  rw [iblk1_eq, iblk2_eq, iblk3_eq, iblk4_eq, iblk5_eq, iblk6_eq, iblk7_eq, iblk8_eq, iblk9_eq, iblk10_eq, iblk11_eq, iblk12_eq, iblk13_eq, iblk14_eq, iblk15_eq, iblk16_eq, iblk17_eq, iblk18_eq, iblk19_eq, iblk20_eq, iblk21_eq, iblk22_eq, iblk23_eq, iblk24_eq, iblk25_eq, iblk26_eq, iblk27_eq]
  unfold WK
  constructor <;> intros <;> dsimp only <;> simp only [ka_pick3_0, ka_pick3_1, ka_pick3_2]

/-- The input block at point `t` is tile `t`'s rows of the input. -/
theorem rows_at (c : Dev nD) (t : Fin cfg0.N) (r : Fin 256) (k : Fin 1024) :
    (iblk m c 0 t : S256x1024.Idx → EReal) (ix2 r k) = XK m c (ix2 (Spec.tileRow (tile t) r) k) :=
  blk0_read_apply t (XK m c) r k

/-! ## What each point writes back is a block of the result function

The window is not cut at any point, so what is written back is the body's buffer itself, and reading a function through
the point's block is evaluating it at the array index under the block index: with the body's buffer and the result
function named as they stand, the block lemma is the statement. -/

theorem flushed28_eq (c : Dev nD) (t : Fin cfg0.N) :
    (dats m 0 c).flushed 28 t = ((cfg0.win 28).blk t).view.read (Elt Ideal) (Spec.resFeat (WK m c) (XK m c)) := by
  show (cfg0.win 28).cut (grid0.coords t) ((dats m 0 c).after 28 t) = _
  rw [after0_28]
  funext j
  obtain ⟨h0, h1⟩ := emb28 t j
  have key := blk28 (WK m c) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (XK m c) (tile t) (holds m c t) (rows_at m c t) j (((cfg0.win 28).blk t).view.emb j) h0 h1
  generalize out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) = y at key ⊢
  generalize Spec.resFeat (WK m c) (XK m c) = G at key ⊢
  exact key

theorem flushed29_eq (c : Dev nD) (t : Fin cfg0.N) :
    (dats m 0 c).flushed 29 t = ((cfg0.win 29).blk t).view.read (Elt Ideal) (Spec.resTcam (WK m c) (XK m c)) := by
  show (cfg0.win 29).cut (grid0.coords t) ((dats m 0 c).after 29 t) = _
  rw [after0_29]
  funext j
  obtain ⟨h0, h1⟩ := emb29 t j
  have key := blk29 (WK m c) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (XK m c) (tile t) (holds m c t) (rows_at m c t) j (((cfg0.win 29).blk t).view.emb j) h0 h1
  generalize out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) = y at key ⊢
  generalize Spec.resTcam (WK m c) (XK m c) = G at key ⊢
  exact key

theorem flushed30_eq (c : Dev nD) (t : Fin cfg0.N) :
    (dats m 0 c).flushed 30 t = ((cfg0.win 30).blk t).view.read (Elt Ideal) (Spec.resETcam (WK m c) (XK m c)) := by
  show (cfg0.win 30).cut (grid0.coords t) ((dats m 0 c).after 30 t) = _
  rw [after0_30]
  funext j
  obtain ⟨h0, h1⟩ := emb30 t j
  have key := blk30 (WK m c) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (XK m c) (tile t) (holds m c t) (rows_at m c t) j (((cfg0.win 30).blk t).view.emb j) h0 h1
  generalize out0_30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) = y at key ⊢
  generalize Spec.resETcam (WK m c) (XK m c) = G at key ⊢
  exact key

theorem flushed31_eq (c : Dev nD) (t : Fin cfg0.N) :
    (dats m 0 c).flushed 31 t = ((cfg0.win 31).blk t).view.read (Elt Ideal) (Spec.resEAtt (WK m c) (XK m c)) := by
  show (cfg0.win 31).cut (grid0.coords t) ((dats m 0 c).after 31 t) = _
  rw [after0_31]
  funext j
  have key := blk31 (WK m c) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (XK m c) (tile t) (holds m c t) (rows_at m c t) j (((cfg0.win 31).blk t).view.emb j) (emb31 t j)
  generalize out0_31 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) = y at key ⊢
  generalize Spec.resEAtt (WK m c) (XK m c) = G at key ⊢
  exact key

theorem flushed32_eq (c : Dev nD) (t : Fin cfg0.N) :
    (dats m 0 c).flushed 32 t = ((cfg0.win 32).blk t).view.read (Elt Ideal) (Spec.resE2Tcam (WK m c) (XK m c)) := by
  show (cfg0.win 32).cut (grid0.coords t) ((dats m 0 c).after 32 t) = _
  rw [after0_32]
  funext j
  obtain ⟨h0, h1⟩ := emb32 t j
  have key := blk32 (WK m c) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (XK m c) (tile t) (holds m c t) (rows_at m c t) j (((cfg0.win 32).blk t).view.emb j) h0 h1
  generalize out0_32 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) = y at key ⊢
  generalize Spec.resE2Tcam (WK m c) (XK m c) = G at key ⊢
  exact key

theorem flushed33_eq (c : Dev nD) (t : Fin cfg0.N) :
    (dats m 0 c).flushed 33 t = ((cfg0.win 33).blk t).view.read (Elt Ideal) (Spec.resE2Att (WK m c) (XK m c)) := by
  show (cfg0.win 33).cut (grid0.coords t) ((dats m 0 c).after 33 t) = _
  rw [after0_33]
  funext j
  have key := blk33 (WK m c) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (XK m c) (tile t) (holds m c t) (rows_at m c t) j (((cfg0.win 33).blk t).view.emb j) (emb33 t j)
  generalize out0_33 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) = y at key ⊢
  generalize Spec.resE2Att (WK m c) (XK m c) = G at key ⊢
  exact key

theorem flushed34_eq (c : Dev nD) (t : Fin cfg0.N) :
    (dats m 0 c).flushed 34 t = ((cfg0.win 34).blk t).view.read (Elt Ideal) (Spec.resPart (Spec.actT (WK m c) (XK m c))) := by
  show (cfg0.win 34).cut (grid0.coords t) ((dats m 0 c).after 34 t) = _
  rw [after0_34]
  funext j
  obtain ⟨h0, h2⟩ := emb34 t j
  have key := blk34 (WK m c) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (XK m c) (tile t) (holds m c t) (rows_at m c t) j (((cfg0.win 34).blk t).view.emb j) h0 h2
  generalize out0_34 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) = y at key ⊢
  generalize Spec.resPart (Spec.actT (WK m c) (XK m c)) = G at key ⊢
  exact key

theorem flushed35_eq (c : Dev nD) (t : Fin cfg0.N) :
    (dats m 0 c).flushed 35 t = ((cfg0.win 35).blk t).view.read (Elt Ideal) (Spec.resPart (Spec.actE (WK m c) (XK m c))) := by
  show (cfg0.win 35).cut (grid0.coords t) ((dats m 0 c).after 35 t) = _
  rw [after0_35]
  funext j
  obtain ⟨h0, h2⟩ := emb35 t j
  have key := blk35 (WK m c) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (XK m c) (tile t) (holds m c t) (rows_at m c t) j (((cfg0.win 35).blk t).view.emb j) h0 h2
  generalize out0_35 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) = y at key ⊢
  generalize Spec.resPart (Spec.actE (WK m c) (XK m c)) = G at key ⊢
  exact key

theorem flushed36_eq (c : Dev nD) (t : Fin cfg0.N) :
    (dats m 0 c).flushed 36 t = ((cfg0.win 36).blk t).view.read (Elt Ideal) (Spec.resPart (Spec.actE2 (WK m c) (XK m c))) := by
  show (cfg0.win 36).cut (grid0.coords t) ((dats m 0 c).after 36 t) = _
  rw [after0_36]
  funext j
  obtain ⟨h0, h2⟩ := emb36 t j
  have key := blk36 (WK m c) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (XK m c) (tile t) (holds m c t) (rows_at m c t) j (((cfg0.win 36).blk t).view.emb j) h0 h2
  generalize out0_36 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) = y at key ⊢
  generalize Spec.resPart (Spec.actE2 (WK m c) (XK m c)) = G at key ⊢
  exact key

/-! ## The arrays after the last point -/

theorem final28 (c : Dev nD) : (dats m 0 c).arrAt 28 cfg0.N = Spec.resFeat (WK m c) (XK m c) :=
  (dats m 0 c).arrAt_eq_of_cover 28 _ (fun t _ => flushed28_eq m c t) cover28
theorem final29 (c : Dev nD) : (dats m 0 c).arrAt 29 cfg0.N = Spec.resTcam (WK m c) (XK m c) :=
  (dats m 0 c).arrAt_eq_of_cover 29 _ (fun t _ => flushed29_eq m c t) cover29
theorem final30 (c : Dev nD) : (dats m 0 c).arrAt 30 cfg0.N = Spec.resETcam (WK m c) (XK m c) :=
  (dats m 0 c).arrAt_eq_of_cover 30 _ (fun t _ => flushed30_eq m c t) cover30
theorem final31 (c : Dev nD) : (dats m 0 c).arrAt 31 cfg0.N = Spec.resEAtt (WK m c) (XK m c) :=
  (dats m 0 c).arrAt_eq_of_cover 31 _ (fun t _ => flushed31_eq m c t) cover31
theorem final32 (c : Dev nD) : (dats m 0 c).arrAt 32 cfg0.N = Spec.resE2Tcam (WK m c) (XK m c) :=
  (dats m 0 c).arrAt_eq_of_cover 32 _ (fun t _ => flushed32_eq m c t) cover32
theorem final33 (c : Dev nD) : (dats m 0 c).arrAt 33 cfg0.N = Spec.resE2Att (WK m c) (XK m c) :=
  (dats m 0 c).arrAt_eq_of_cover 33 _ (fun t _ => flushed33_eq m c t) cover33
theorem final34 (c : Dev nD) : (dats m 0 c).arrAt 34 cfg0.N = Spec.resPart (Spec.actT (WK m c) (XK m c)) :=
  (dats m 0 c).arrAt_eq_of_cover 34 _ (fun t _ => flushed34_eq m c t) cover34
theorem final35 (c : Dev nD) : (dats m 0 c).arrAt 35 cfg0.N = Spec.resPart (Spec.actE (WK m c) (XK m c)) :=
  (dats m 0 c).arrAt_eq_of_cover 35 _ (fun t _ => flushed35_eq m c t) cover35
theorem final36 (c : Dev nD) : (dats m 0 c).arrAt 36 cfg0.N = Spec.resPart (Spec.actE2 (WK m c) (XK m c)) :=
  (dats m 0 c).arrAt_eq_of_cover 36 _ (fun t _ => flushed36_eq m c t) cover36

end Cert.KernelIdeal.Hand

end
-- ==== Proof.KHostPlain.lean ====
/-
  The kernel's host prelude, the eighteen plain operands: nine matrices are the arguments transposed (and re-formatted,
  which changes nothing on the extended reals), six biases are the arguments as one row, three [1, 256] weights are the
  arguments themselves. So each of these fields of the weights the region finds is the field the arguments hold.
-/
import proofs.«424737_j11321533792616_2_alg».proof.Proof.KWeights
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate

noncomputable section

namespace Cert.KernelIdeal.Hand

open Idealize.ShloMosaic Idealize.ShloMosaic.TcCoe Idealize.ShloMosaic.ValueIdx Idealize.SL.Sem
open Cert.KernelIdeal Cert.KernelIdeal.Gen Cert.KernelIdeal.GenP

variable (m : (ℓ : Loc nD τ sig) → Buf (Elt Ideal) ℓ)

/-! ## The first stretch's results survive the later stretches

The host operations before the region run in twenty-one stretches. The fifteen buffers below are written in the first
stretch; no operation of the twenty later stretches writes any of them, so the region finds in each what the first
stretch left there. -/

/-- The results of the first stretch that the region reads. -/
abbrev khp_Rs : List (Ref sig .tc) := [main_v1, main_v3, main_v5, main_v7, main_v9, main_v11, main_v13, main_v15, main_v17, main_v18, main_v19, main_v20, main_v21, main_v22, main_v23]

/-- No operation of the later stretches writes one of these buffers. -/
theorem khp_tail (X : Valuation τ sig (Elt Ideal)) (r : Ref sig .tc) (hr : r ∈ khp_Rs) :
    StableHlo.after (List.flatten [hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20]) X (Proc.devRef .tc r) = X (Proc.devRef .tc r) :=
  StableHlo.after_of_forall_not_mem (b := Proc.devRef .tc r) _ _ (List.forall_iff_forall_mem.mp (by
    simp only [hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem hr (by decide))))

/-- So at region entry each holds what the first stretch, run from the launch memory, left in it. -/
theorem khp_first (c : Dev nD) (r : Ref sig .tc) (hr : r ∈ khp_Rs) :
    V m c r = StableHlo.after hostOps0 (fun b => m (c, b)) (Proc.devRef .tc r) := by
  show StableHlo.after (List.flatten (hostOps0 :: [hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20])) (fun b => m (c, b)) (Proc.devRef .tc r) = _
  rw [List.flatten_cons, StableHlo.after_append]
  exact khp_tail _ r hr

/-! ## Each operand at an element -/

/-- `main_v1` at region entry: the argument `main_arg2` transposed (the re-formatting changes nothing). -/
theorem khp_w0 (c : Dev nD) (k : Fin 1024) (j : Fin 512) :
    (V m c main_v1 : S1024x512.Idx → EReal) (ix2 k j) = (m ((c : Thread nD τ).loc main_arg2) : S512x1024.Idx → EReal) (ix2 j k) := by
  have e : @Eq (S1024x512.Idx → EReal) (V m c main_v1)
      (truncf (F := Ideal) .bf16 (transpose S1024x512 [1, 0] (m ((c : Thread nD τ).loc main_arg2) : S512x1024.Idx → EReal) transposes_S512x1024_S1024x512_1_0) bitsLt_bf16_f32) := by
    refine (khp_first m c main_v1 (by decide)).trans ?_
    dsimp only [hostOps0]
    after_results_simp
  rw [e, truncf_apply]
  exact transpose_ix2_apply _ _ k j

/-- `main_v3` at region entry: the argument `main_arg4` transposed (the re-formatting changes nothing). -/
theorem khp_w1 (c : Dev nD) (k : Fin 512) (j : Fin 512) :
    (V m c main_v3 : S512x512.Idx → EReal) (ix2 k j) = (m ((c : Thread nD τ).loc main_arg4) : S512x512.Idx → EReal) (ix2 j k) := by
  have e : @Eq (S512x512.Idx → EReal) (V m c main_v3)
      (truncf (F := Ideal) .bf16 (transpose S512x512 [1, 0] (m ((c : Thread nD τ).loc main_arg4) : S512x512.Idx → EReal) transposes_S512x512_S512x512_1_0) bitsLt_bf16_f32) := by
    refine (khp_first m c main_v3 (by decide)).trans ?_
    dsimp only [hostOps0]
    after_results_simp
  rw [e, truncf_apply]
  exact transpose_ix2_apply _ _ k j

/-- `main_v5` at region entry: the argument `main_arg6` transposed (the re-formatting changes nothing). -/
theorem khp_w2 (c : Dev nD) (k : Fin 512) (j : Fin 1024) :
    (V m c main_v5 : S512x1024.Idx → EReal) (ix2 k j) = (m ((c : Thread nD τ).loc main_arg6) : S1024x512.Idx → EReal) (ix2 j k) := by
  have e : @Eq (S512x1024.Idx → EReal) (V m c main_v5)
      (truncf (F := Ideal) .bf16 (transpose S512x1024 [1, 0] (m ((c : Thread nD τ).loc main_arg6) : S1024x512.Idx → EReal) transposes_S1024x512_S512x1024_1_0) bitsLt_bf16_f32) := by
    refine (khp_first m c main_v5 (by decide)).trans ?_
    dsimp only [hostOps0]
    after_results_simp
  rw [e, truncf_apply]
  exact transpose_ix2_apply _ _ k j

/-- `main_v7` at region entry: the argument `main_arg8` transposed (the re-formatting changes nothing). -/
theorem khp_wf1 (c : Dev nD) (k : Fin 1024) (j : Fin 256) :
    (V m c main_v7 : S1024x256.Idx → EReal) (ix2 k j) = (m ((c : Thread nD τ).loc main_arg8) : S256x1024.Idx → EReal) (ix2 j k) := by
  have e : @Eq (S1024x256.Idx → EReal) (V m c main_v7)
      (truncf (F := Ideal) .bf16 (transpose S1024x256 [1, 0] (m ((c : Thread nD τ).loc main_arg8) : S256x1024.Idx → EReal) transposes_S256x1024_S1024x256_1_0) bitsLt_bf16_f32) := by
    refine (khp_first m c main_v7 (by decide)).trans ?_
    dsimp only [hostOps0]
    after_results_simp
  rw [e, truncf_apply]
  exact transpose_ix2_apply _ _ k j

/-- `main_v9` at region entry: the argument `main_arg12` transposed (the re-formatting changes nothing). -/
theorem khp_wc1 (c : Dev nD) (k : Fin 1024) (j : Fin 20) :
    (V m c main_v9 : S1024x20.Idx → EReal) (ix2 k j) = (m ((c : Thread nD τ).loc main_arg12) : S20x1024.Idx → EReal) (ix2 j k) := by
  have e : @Eq (S1024x20.Idx → EReal) (V m c main_v9)
      (truncf (F := Ideal) .bf16 (transpose S1024x20 [1, 0] (m ((c : Thread nD τ).loc main_arg12) : S20x1024.Idx → EReal) transposes_S20x1024_S1024x20_1_0) bitsLt_bf16_f32) := by
    refine (khp_first m c main_v9 (by decide)).trans ?_
    dsimp only [hostOps0]
    after_results_simp
  rw [e, truncf_apply]
  exact transpose_ix2_apply _ _ k j

/-- `main_v11` at region entry: the argument `main_arg14` transposed (the re-formatting changes nothing). -/
theorem khp_wf3 (c : Dev nD) (k : Fin 1024) (j : Fin 256) :
    (V m c main_v11 : S1024x256.Idx → EReal) (ix2 k j) = (m ((c : Thread nD τ).loc main_arg14) : S256x1024.Idx → EReal) (ix2 j k) := by
  have e : @Eq (S1024x256.Idx → EReal) (V m c main_v11)
      (truncf (F := Ideal) .bf16 (transpose S1024x256 [1, 0] (m ((c : Thread nD τ).loc main_arg14) : S256x1024.Idx → EReal) transposes_S256x1024_S1024x256_1_0) bitsLt_bf16_f32) := by
    refine (khp_first m c main_v11 (by decide)).trans ?_
    dsimp only [hostOps0]
    after_results_simp
  rw [e, truncf_apply]
  exact transpose_ix2_apply _ _ k j

/-- `main_v13` at region entry: the argument `main_arg16` transposed (the re-formatting changes nothing). -/
theorem khp_wc2 (c : Dev nD) (k : Fin 1024) (j : Fin 20) :
    (V m c main_v13 : S1024x20.Idx → EReal) (ix2 k j) = (m ((c : Thread nD τ).loc main_arg16) : S20x1024.Idx → EReal) (ix2 j k) := by
  have e : @Eq (S1024x20.Idx → EReal) (V m c main_v13)
      (truncf (F := Ideal) .bf16 (transpose S1024x20 [1, 0] (m ((c : Thread nD τ).loc main_arg16) : S20x1024.Idx → EReal) transposes_S20x1024_S1024x20_1_0) bitsLt_bf16_f32) := by
    refine (khp_first m c main_v13 (by decide)).trans ?_
    dsimp only [hostOps0]
    after_results_simp
  rw [e, truncf_apply]
  exact transpose_ix2_apply _ _ k j

/-- `main_v15` at region entry: the argument `main_arg17` transposed (the re-formatting changes nothing). -/
theorem khp_wf5 (c : Dev nD) (k : Fin 1024) (j : Fin 256) :
    (V m c main_v15 : S1024x256.Idx → EReal) (ix2 k j) = (m ((c : Thread nD τ).loc main_arg17) : S256x1024.Idx → EReal) (ix2 j k) := by
  have e : @Eq (S1024x256.Idx → EReal) (V m c main_v15)
      (truncf (F := Ideal) .bf16 (transpose S1024x256 [1, 0] (m ((c : Thread nD τ).loc main_arg17) : S256x1024.Idx → EReal) transposes_S256x1024_S1024x256_1_0) bitsLt_bf16_f32) := by
    refine (khp_first m c main_v15 (by decide)).trans ?_
    dsimp only [hostOps0]
    after_results_simp
  rw [e, truncf_apply]
  exact transpose_ix2_apply _ _ k j

/-- `main_v17` at region entry: the argument `main_arg19` transposed (the re-formatting changes nothing). -/
theorem khp_wc3 (c : Dev nD) (k : Fin 1024) (j : Fin 20) :
    (V m c main_v17 : S1024x20.Idx → EReal) (ix2 k j) = (m ((c : Thread nD τ).loc main_arg19) : S20x1024.Idx → EReal) (ix2 j k) := by
  have e : @Eq (S1024x20.Idx → EReal) (V m c main_v17)
      (truncf (F := Ideal) .bf16 (transpose S1024x20 [1, 0] (m ((c : Thread nD τ).loc main_arg19) : S20x1024.Idx → EReal) transposes_S20x1024_S1024x20_1_0) bitsLt_bf16_f32) := by
    refine (khp_first m c main_v17 (by decide)).trans ?_
    dsimp only [hostOps0]
    after_results_simp
  rw [e, truncf_apply]
  exact transpose_ix2_apply _ _ k j

/-- `main_v18` at region entry: the argument `main_arg3` as one row. -/
theorem khp_b0 (c : Dev nD) (j : Fin 512) :
    (V m c main_v18 : S1x512.Idx → EReal) (ix2 (0 : Fin 1) j) = (m ((c : Thread nD τ).loc main_arg3) : S512.Idx → EReal) (ix1 j) := by
  have e : @Eq (S1x512.Idx → EReal) (V m c main_v18)
      (shapeCast S1x512 (m ((c : Thread nD τ).loc main_arg3) : S512.Idx → EReal) shapeCasts_S512_S1x512) := by
    refine (khp_first m c main_v18 (by decide)).trans ?_
    dsimp only [hostOps0]
    after_results_simp
    rfl
  rw [e]
  exact shapeCast_a_1a_apply _ _ 0 j

/-- `main_v19` at region entry: the argument `main_arg5` as one row. -/
theorem khp_b1 (c : Dev nD) (j : Fin 512) :
    (V m c main_v19 : S1x512.Idx → EReal) (ix2 (0 : Fin 1) j) = (m ((c : Thread nD τ).loc main_arg5) : S512.Idx → EReal) (ix1 j) := by
  have e : @Eq (S1x512.Idx → EReal) (V m c main_v19)
      (shapeCast S1x512 (m ((c : Thread nD τ).loc main_arg5) : S512.Idx → EReal) shapeCasts_S512_S1x512) := by
    refine (khp_first m c main_v19 (by decide)).trans ?_
    dsimp only [hostOps0]
    after_results_simp
    rfl
  rw [e]
  exact shapeCast_a_1a_apply _ _ 0 j

/-- `main_v20` at region entry: the argument `main_arg7` as one row. -/
theorem khp_b2 (c : Dev nD) (j : Fin 1024) :
    (V m c main_v20 : S1x1024.Idx → EReal) (ix2 (0 : Fin 1) j) = (m ((c : Thread nD τ).loc main_arg7) : S1024.Idx → EReal) (ix1 j) := by
  have e : @Eq (S1x1024.Idx → EReal) (V m c main_v20)
      (shapeCast S1x1024 (m ((c : Thread nD τ).loc main_arg7) : S1024.Idx → EReal) shapeCasts_S1024_S1x1024) := by
    refine (khp_first m c main_v20 (by decide)).trans ?_
    dsimp only [hostOps0]
    after_results_simp
    rfl
  rw [e]
  exact shapeCast_a_1a_apply _ _ 0 j

/-- `main_v21` at region entry: the argument `main_arg9` as one row. -/
theorem khp_bf1 (c : Dev nD) (j : Fin 256) :
    (V m c main_v21 : S1x256.Idx → EReal) (ix2 (0 : Fin 1) j) = (m ((c : Thread nD τ).loc main_arg9) : S256.Idx → EReal) (ix1 j) := by
  have e : @Eq (S1x256.Idx → EReal) (V m c main_v21)
      (shapeCast S1x256 (m ((c : Thread nD τ).loc main_arg9) : S256.Idx → EReal) shapeCasts_S256_S1x256) := by
    refine (khp_first m c main_v21 (by decide)).trans ?_
    dsimp only [hostOps0]
    after_results_simp
    rfl
  rw [e]
  exact shapeCast_a_1a_apply _ _ 0 j

/-- `main_v22` at region entry: the argument `main_arg11` as one row. -/
theorem khp_bf2 (c : Dev nD) (j : Fin 1) :
    (V m c main_v22 : S1x1.Idx → EReal) (ix2 (0 : Fin 1) j) = (m ((c : Thread nD τ).loc main_arg11) : S1.Idx → EReal) (ix1 j) := by
  have e : @Eq (S1x1.Idx → EReal) (V m c main_v22)
      (shapeCast S1x1 (m ((c : Thread nD τ).loc main_arg11) : S1.Idx → EReal) shapeCasts_S1_S1x1) := by
    refine (khp_first m c main_v22 (by decide)).trans ?_
    dsimp only [hostOps0]
    after_results_simp
    rfl
  rw [e]
  exact shapeCast_a_1a_apply _ _ 0 j

/-- `main_v23` at region entry: the argument `main_arg13` as one row. -/
theorem khp_bc1 (c : Dev nD) (j : Fin 20) :
    (V m c main_v23 : S1x20.Idx → EReal) (ix2 (0 : Fin 1) j) = (m ((c : Thread nD τ).loc main_arg13) : S20.Idx → EReal) (ix1 j) := by
  have e : @Eq (S1x20.Idx → EReal) (V m c main_v23)
      (shapeCast S1x20 (m ((c : Thread nD τ).loc main_arg13) : S20.Idx → EReal) shapeCasts_S20_S1x20) := by
    refine (khp_first m c main_v23 (by decide)).trans ?_
    dsimp only [hostOps0]
    after_results_simp
    rfl
  rw [e]
  exact shapeCast_a_1a_apply _ _ 0 j

/-- `main_arg10` is written by no host operation before the region: the region finds the argument itself. -/
theorem khp_wf2 (c : Dev nD) (k : Fin 256) :
    (V m c main_arg10 : S1x256.Idx → EReal) (ix2 (0 : Fin 1) k) = (m ((c : Thread nD τ).loc main_arg10) : S1x256.Idx → EReal) (ix2 (0 : Fin 1) k) := by
  rw [V_main_arg10]

/-- `main_arg15` is written by no host operation before the region: the region finds the argument itself. -/
theorem khp_wf4 (c : Dev nD) (k : Fin 256) :
    (V m c main_arg15 : S1x256.Idx → EReal) (ix2 (0 : Fin 1) k) = (m ((c : Thread nD τ).loc main_arg15) : S1x256.Idx → EReal) (ix2 (0 : Fin 1) k) := by
  rw [V_main_arg15]

/-- `main_arg18` is written by no host operation before the region: the region finds the argument itself. -/
theorem khp_wf6 (c : Dev nD) (k : Fin 256) :
    (V m c main_arg18 : S1x256.Idx → EReal) (ix2 (0 : Fin 1) k) = (m ((c : Thread nD τ).loc main_arg18) : S1x256.Idx → EReal) (ix2 (0 : Fin 1) k) := by
  rw [V_main_arg18]

/-! ## The eighteen fields -/

theorem w0_eq (c : Dev nD) : (WK m c).w0 = (WAm m c).w0 := by
  funext k j
  dsimp only [WK, WAm, Spec.WA]
  exact khp_w0 m c k j

theorem b0_eq (c : Dev nD) : (WK m c).b0 = (WAm m c).b0 := by
  funext j
  dsimp only [WK, WAm, Spec.WA]
  exact khp_b0 m c j

theorem w1_eq (c : Dev nD) : (WK m c).w1 = (WAm m c).w1 := by
  funext k j
  dsimp only [WK, WAm, Spec.WA]
  exact khp_w1 m c k j

theorem b1_eq (c : Dev nD) : (WK m c).b1 = (WAm m c).b1 := by
  funext j
  dsimp only [WK, WAm, Spec.WA]
  exact khp_b1 m c j

theorem w2_eq (c : Dev nD) : (WK m c).w2 = (WAm m c).w2 := by
  funext k j
  dsimp only [WK, WAm, Spec.WA]
  exact khp_w2 m c k j

theorem b2_eq (c : Dev nD) : (WK m c).b2 = (WAm m c).b2 := by
  funext j
  dsimp only [WK, WAm, Spec.WA]
  exact khp_b2 m c j

theorem wf1_eq (c : Dev nD) : (WK m c).wf1 = (WAm m c).wf1 := by
  funext k j
  dsimp only [WK, WAm, Spec.WA]
  exact khp_wf1 m c k j

theorem bf1_eq (c : Dev nD) : (WK m c).bf1 = (WAm m c).bf1 := by
  funext j
  dsimp only [WK, WAm, Spec.WA]
  exact khp_bf1 m c j

theorem wf2_eq (c : Dev nD) : (WK m c).wf2 = (WAm m c).wf2 := by
  funext k
  dsimp only [WK, WAm, Spec.WA]
  exact khp_wf2 m c k

theorem bf2_eq (c : Dev nD) : (WK m c).bf2 = (WAm m c).bf2 := by
  dsimp only [WK, WAm, Spec.WA]
  exact khp_bf2 m c 0

theorem wc1_eq (c : Dev nD) : (WK m c).wc1 = (WAm m c).wc1 := by
  funext k j
  dsimp only [WK, WAm, Spec.WA]
  exact khp_wc1 m c k j

theorem bc1_eq (c : Dev nD) : (WK m c).bc1 = (WAm m c).bc1 := by
  funext j
  dsimp only [WK, WAm, Spec.WA]
  exact khp_bc1 m c j

theorem wf3_eq (c : Dev nD) : (WK m c).wf3 = (WAm m c).wf3 := by
  funext k j
  dsimp only [WK, WAm, Spec.WA]
  exact khp_wf3 m c k j

theorem wf4_eq (c : Dev nD) : (WK m c).wf4 = (WAm m c).wf4 := by
  funext k
  dsimp only [WK, WAm, Spec.WA]
  exact khp_wf4 m c k

theorem wc2_eq (c : Dev nD) : (WK m c).wc2 = (WAm m c).wc2 := by
  funext k j
  dsimp only [WK, WAm, Spec.WA]
  exact khp_wc2 m c k j

theorem wf5_eq (c : Dev nD) : (WK m c).wf5 = (WAm m c).wf5 := by
  funext k j
  dsimp only [WK, WAm, Spec.WA]
  exact khp_wf5 m c k j

theorem wf6_eq (c : Dev nD) : (WK m c).wf6 = (WAm m c).wf6 := by
  funext k
  dsimp only [WK, WAm, Spec.WA]
  exact khp_wf6 m c k

theorem wc3_eq (c : Dev nD) : (WK m c).wc3 = (WAm m c).wc3 := by
  funext k j
  dsimp only [WK, WAm, Spec.WA]
  exact khp_wc3 m c k j

end Cert.KernelIdeal.Hand

end
-- ==== Proof.KHostTake.lean ====
/-
  The kernel's host prelude, the nine label operands: each label is first clipped into the twenty classes and then
  looked up in a class matrix (or the class bias); the look-up wraps a negative index (there is none after the clip), tests
  the range (it always passes after the clip) and gathers the row, so it reads the row of the clipped label: the label
  read signed and clamped into the classes. No precondition is needed.
-/
import proofs.«424737_j11321533792616_2_alg».proof.Proof.KWeights
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate

noncomputable section

namespace Cert.KernelIdeal.Hand

open Idealize.ShloMosaic Idealize.ShloMosaic.TcCoe Idealize.ShloMosaic.ValueIdx Idealize.SL.Sem
open Cert.KernelIdeal Cert.KernelIdeal.Gen Cert.KernelIdeal.GenP

variable (m : (ℓ : Loc nD τ sig) → Buf (Elt Ideal) ℓ)

/-! ### Words: the clip into the classes, the wrap of a negative index, the range test -/

/-- A word clipped into the twenty classes: the smaller of 19 and the larger of 0 and the word, read signed. -/
def clipW (l : BitVec 32) : BitVec 32 := IntOp.minsi 19#32 (IntOp.maxsi 0#32 l)

theorem clipW_toInt (l : BitVec 32) : (clipW l).toInt = min 19 (max 0 l.toInt) := by
  have h0 : (0#32 : BitVec 32).toInt = 0 := by decide
  have h19 : (19#32 : BitVec 32).toInt = 19 := by decide
  unfold clipW IntOp.minsi IntOp.maxsi
  by_cases h1 : l.slt 0#32
  · rw [if_pos h1]
    have h2 : ¬ ((19#32 : BitVec 32).slt 0#32) := by decide
    rw [if_neg h2, h0]
    simp only [BitVec.slt, h0, decide_eq_true_eq] at h1
    omega
  · rw [if_neg h1]
    simp only [BitVec.slt, h0, decide_eq_true_eq] at h1
    by_cases h2 : (19#32 : BitVec 32).slt l
    · rw [if_pos h2, h19]; simp only [BitVec.slt, h19, decide_eq_true_eq] at h2; omega
    · rw [if_neg h2]; simp only [BitVec.slt, h19, decide_eq_true_eq] at h2; omega

/-- A word that reads non-negative signed reads the same unsigned. -/
theorem toNat_eq_toInt_of_nonneg (x : BitVec 32) (h0 : 0 ≤ x.toInt) : (x.toNat : Int) = x.toInt := by
  have h := BitVec.toInt_eq_toNat_cond x
  have hlt := x.isLt
  split at h <;> omega

theorem clipW_nonneg (l : BitVec 32) : 0 ≤ (clipW l).toInt := by rw [clipW_toInt]; omega
theorem clipW_le (l : BitVec 32) : (clipW l).toInt ≤ 19 := by rw [clipW_toInt]; omega

/-- The clipped word's value is the label read signed and clamped into the classes. -/
theorem clipW_toNat (l : BitVec 32) : (clipW l).toNat = min l.toInt.toNat 19 := by
  have h := clipW_toInt l
  have hn := toNat_eq_toInt_of_nonneg (clipW l) (clipW_nonneg l)
  omega

/-- The wrap of a negative index leaves a non-negative one alone. -/
theorem wrapW_eq (l : BitVec 32) (h0 : 0 ≤ l.toInt) :
    Scalar.select (IntOp.cmpi .slt l 0#32) (IntOp.addi l 20#32) l = l := by
  have hz : (0#32 : BitVec 32).toInt = 0 := by decide
  have hc : IntOp.cmpi .slt l 0#32 = 0#1 := by
    show BitVec.ofBool (l.slt 0#32) = 0#1
    have : l.slt 0#32 = false := by
      simp only [BitVec.slt, hz, decide_eq_false_iff_not]; omega
    rw [this]; rfl
  rw [hc, select_zero]

/-- The range test of an index in the classes passes. -/
theorem rangeW_eq (l : BitVec 32) (h0 : 0 ≤ l.toInt) (h19 : l.toInt ≤ 19) :
    IntOp.andi (IntOp.cmpi .sge l 0#32) (IntOp.cmpi .sle l 19#32) = 1#1 := by
  have hz : (0#32 : BitVec 32).toInt = 0 := by decide
  have hn : (19#32 : BitVec 32).toInt = 19 := by decide
  have hge : IntOp.cmpi .sge l 0#32 = 1#1 := by
    show BitVec.ofBool ((0#32 : BitVec 32).sle l) = 1#1
    have : (0#32 : BitVec 32).sle l = true := by
      simp only [BitVec.sle, hz, decide_eq_true_eq]; omega
    rw [this]; rfl
  have hle : IntOp.cmpi .sle l 19#32 = 1#1 := by
    show BitVec.ofBool (l.sle 19#32) = 1#1
    have : l.sle 19#32 = true := by
      simp only [BitVec.sle, hn, decide_eq_true_eq]; omega
    rw [this]; rfl
  rw [hge, hle]; decide

/-- A left fold by `and` from 1 over ones is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-! ### Indices of the small shapes, a scalar's broadcast -/

/-- The one-entry vector shape has one index. -/
theorem idx_S1_eq (x y : S1.Idx) : x = y := by
  funext b
  have hb : b = 0 := Subsingleton.elim _ _
  subst hb
  have hx := (x 0).isLt
  have hy := (y 0).isLt
  change (x 0).val < 1 at hx
  change (y 0).val < 1 at hy
  exact Fin.ext (by omega)

/-- A scalar broadcast to any shape reads the scalar everywhere. -/
theorem bcast_scalar_apply {α : Type} {t : Shape} (h : S_.BroadcastsInDim t ![]) (v : S_.Idx → α) (j : t.Idx) :
    broadcastInDim t ![] h v j = v ix0 := by
  rw [StableHlo.Predicate.bcast_scalar h (by decide) v j]
  exact congrArg v (eq_ix0 _)

/-! ### The look-up of a class row, as the program computes it -/

/-- The index after the wrap of a negative one, as a one-entry vector. -/
def wrapV (l : IVec S_ 32) : IVec S1 32 :=
  broadcastInDim S1 ![] bcast_S_S1 (select (cmpi .slt l (constantI S_ 32 0#32)) (addi l (constantI S_ 32 20#32)) l)

/-- The range test of the wrapped index, reduced by `and`. -/
def okV (l : IVec S_ 32) : IVec S_ 1 :=
  Host.reduce IntOp.andi
    (andi (cmpi .sge (wrapV l) (broadcastInDim S1 ![] bcast_S_S1 (constantI S_ 32 0#32))) (cmpi .sle (wrapV l) (constantI S1 32 19#32)))
    (constantI S_ 1 1#1) reducesTo_S1_S_d0 h_S_

/-- The row of a class matrix at an index word: the gathered row where the range test passes. -/
def takeRow (tbl : S20x1024.Idx → EReal) (l : IVec S_ 32) : S1024.Idx → EReal :=
  select (broadcastInDim S1024 ![] bcast_S_S1024 (okV l))
    (Host.gather gather_S20x1024_S1_S1024_0_0_n_n_0_0_11024 tbl (wrapV l))
    (broadcastInDim S1024 ![] bcast_S_S1024 (constant (F := Ideal) S_ .f32 0x7FC00000#32))

/-- The entry of the class bias at an index word. -/
def takeEnt (tbl : S20.Idx → EReal) (l : IVec S_ 32) : S_.Idx → EReal :=
  select (okV l) (Host.gather gather_S20_S1_S__n_0_n_n_0_0_1 tbl (wrapV l)) (constant (F := Ideal) S_ .f32 0x7FC00000#32)

/-- The three labels clipped into the classes. -/
def clipV (a1 : IVec S3 32) : IVec S3 32 :=
  minsi (broadcastInDim S3 ![] bcast_S_S3 (id (constantI S_ 32 19#32)))
    (maxsi (broadcastInDim S3 ![] bcast_S_S3 (id (constantI S_ 32 0#32))) a1)

/-- The entry at position `o` of a three-entry vector, as a scalar. -/
def labV (x : IVec S3 32) (o : Nat) (h : S3.Slices ![o] S1) : IVec S_ 32 :=
  shapeCast S_ (extractStridedSlice S1 ![o] x h) shapeCasts_S1_S_

theorem wrapV_apply (l : IVec S_ 32) (h0 : 0 ≤ (l ix0).toInt) (i : S1.Idx) : wrapV l i = l ix0 := by
  unfold wrapV
  rw [bcast_scalar_apply]
  show Scalar.select (IntOp.cmpi .slt (l ix0) 0#32) (IntOp.addi (l ix0) 20#32) (l ix0) = l ix0
  exact wrapW_eq _ h0

theorem okV_apply (l : IVec S_ 32) (h0 : 0 ≤ (l ix0).toInt) (h19 : (l ix0).toInt ≤ 19) (j : S_.Idx) : okV l j = 1#1 := by
  unfold okV
  rw [Host.reduce_eq_foldl]
  refine foldl_andi_one _ (fun i => ?_) _
  show IntOp.andi (IntOp.cmpi .sge (wrapV l i) (broadcastInDim S1 ![] bcast_S_S1 (constantI S_ 32 0#32) i))
    (IntOp.cmpi .sle (wrapV l i) 19#32) = 1#1
  rw [wrapV_apply l h0 i, bcast_scalar_apply]
  exact rangeW_eq _ h0 h19

/-- The gather of a row: the table's row at the start index read signed and clamped into the table. -/
theorem gather_row {α : Type} (d : GatherDims S20x1024 S1 S1024) (hcoll : d.collapsedSliceDims = [0])
    (hob : d.operandBatchingDims = []) (hsim : d.startIndexMap = [0])
    (tbl : S20x1024.Idx → α) (idx : IVec S1 32) (k : Fin 1024) :
    Host.gather d tbl idx (ix1 k) = tbl (ix2 (⟨min (idx (ix1 (0 : Fin 1))).toInt.toNat 19, by omega⟩ : Fin 20) k) := by
  unfold Host.gather
  congr 1
  funext a
  apply Fin.ext
  have hb : ∀ a : Fin 2, a ∉ d.operandBatchingDims := fun a => by rw [hob]; exact List.not_mem_nil
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix1 k) idx 0 + d.batchCoord (ix1 k) 0 + d.offCoord (ix1 k) 0 = min (idx (ix1 0)).toInt.toNat 19
    rw [GatherDims.batchCoord_eq_zero _ _ _ (hb 0), GatherDims.offCoord_eq_zero _ _ _ hk]
    simp only [Nat.add_zero]
    unfold GatherDims.start
    rw [dif_pos hm, hsl, idx_S1_eq (d.siIdx _ _) (ix1 0)]
    rfl
  | ⟨1, _⟩ =>
    have hk : (1 : Fin 2) ∈ d.sKept := by rw [GatherDims.mem_sKept, hcoll]; exact ⟨by decide, hb 1⟩
    have hm : (1 : Fin 2) ∉ d.startIndexMap := by rw [hsim]; decide
    show d.start (ix1 k) idx 1 + d.batchCoord (ix1 k) 1 + d.offCoord (ix1 k) 1 = k.val
    rw [GatherDims.batchCoord_eq_zero _ _ _ (hb 1), Nat.add_zero]
    unfold GatherDims.start GatherDims.offCoord
    rw [dif_neg hm, dif_pos hk, Nat.zero_add]
    have e : ∀ X : Fin 1, ((ix1 k : S1024.Idx) X).val = k.val := fun X => by
      have hX : X = 0 := Subsingleton.elim _ _
      subst hX; rfl
    exact e _

/-- The gather of an entry: the table's entry at the start index read signed and clamped into the table. -/
theorem gather_ent {α : Type} (d : GatherDims S20 S1 S_) (hcoll : d.collapsedSliceDims = [0])
    (hob : d.operandBatchingDims = []) (hsim : d.startIndexMap = [0])
    (tbl : S20.Idx → α) (idx : IVec S1 32) (j : S_.Idx) :
    Host.gather d tbl idx j = tbl (ix1 (⟨min (idx (ix1 (0 : Fin 1))).toInt.toNat 19, by omega⟩ : Fin 20)) := by
  unfold Host.gather
  congr 1
  funext a
  have ha0 : a = 0 := Subsingleton.elim _ _
  subst ha0
  apply Fin.ext
  have hb : (0 : Fin 1) ∉ d.operandBatchingDims := by rw [hob]; exact List.not_mem_nil
  have hk : (0 : Fin 1) ∉ d.sKept := by rw [GatherDims.mem_sKept, hcoll]; simp
  have hm : (0 : Fin 1) ∈ d.startIndexMap := by rw [hsim]; exact List.mem_singleton.mpr rfl
  have hsl : d.sliceSizes 0 = 1 := d.slice_collapsed 0 (by rw [hcoll]; exact List.mem_singleton.mpr rfl)
  show d.start j idx 0 + d.batchCoord j 0 + d.offCoord j 0 = min (idx (ix1 0)).toInt.toNat 19
  rw [GatherDims.batchCoord_eq_zero _ _ _ hb, GatherDims.offCoord_eq_zero _ _ _ hk]
  simp only [Nat.add_zero]
  unfold GatherDims.start
  rw [dif_pos hm, hsl, idx_S1_eq (d.siIdx _ _) (ix1 0)]
  rfl

/-- An index word in the classes reads its own row: the wrap leaves it, the range test passes. -/
theorem takeRow_apply (tbl : S20x1024.Idx → EReal) (l : IVec S_ 32) (h0 : 0 ≤ (l ix0).toInt) (h19 : (l ix0).toInt ≤ 19)
    (k : Fin 1024) (r : Fin 20) (hr : r.val = (l ix0).toNat) :
    takeRow tbl l (ix1 k) = tbl (ix2 r k) := by
  unfold takeRow
  rw [select_apply, bcast_scalar_apply, okV_apply l h0 h19, select_one, gather_row _ rfl rfl rfl]
  have e : min (wrapV l (ix1 (0 : Fin 1))).toInt.toNat 19 = r.val := by
    rw [wrapV_apply l h0, hr]
    have := toNat_eq_toInt_of_nonneg _ h0
    omega
  exact congrArg (fun q : Fin 20 => tbl (ix2 q k)) (Fin.ext e)

theorem takeEnt_apply (tbl : S20.Idx → EReal) (l : IVec S_ 32) (h0 : 0 ≤ (l ix0).toInt) (h19 : (l ix0).toInt ≤ 19)
    (j : S_.Idx) (r : Fin 20) (hr : r.val = (l ix0).toNat) :
    takeEnt tbl l j = tbl (ix1 r) := by
  unfold takeEnt
  rw [select_apply, okV_apply l h0 h19, select_one, gather_ent _ rfl rfl rfl]
  have e : min (wrapV l (ix1 (0 : Fin 1))).toInt.toNat 19 = r.val := by
    rw [wrapV_apply l h0, hr]
    have := toNat_eq_toInt_of_nonneg _ h0
    omega
  exact congrArg (fun q : Fin 20 => tbl (ix1 q)) (Fin.ext e)

theorem clipV_apply (a1 : IVec S3 32) (i : S3.Idx) : clipV a1 i = clipW (a1 i) := by
  unfold clipV
  show IntOp.minsi (broadcastInDim S3 ![] bcast_S_S3 (id (constantI S_ 32 19#32)) i)
    (IntOp.maxsi (broadcastInDim S3 ![] bcast_S_S3 (id (constantI S_ 32 0#32)) i) (a1 i)) = _
  rw [bcast_scalar_apply, bcast_scalar_apply]
  rfl

theorem labV_apply (a1 : IVec S3 32) (o : Nat) (ho : o < 3) (h : S3.Slices ![o] S1) :
    labV (clipV a1) o h ix0 = clipW (a1 (ix1 (⟨o, ho⟩ : Fin 3))) := by
  unfold labV shapeCast
  show extractStridedSlice S1 ![o] (clipV a1) h (Shape.reshapeEquiv shapeCasts_S1_S_ ix0) = _
  rw [idx_S1_eq (Shape.reshapeEquiv shapeCasts_S1_S_ ix0) (ix1 (0 : Fin 1)),
    extractStridedSlice_apply ![o] (clipV a1) h (ix1 (0 : Fin 1)) (ix1 (⟨o, ho⟩ : Fin 3)) (fun a => by
      have ha : a = 0 := Subsingleton.elim _ _
      subst ha; rfl), clipV_apply]

/-- The row the program looks up for label `j` is the row of the label read as a class number. -/
theorem takeRow_lab (tbl : S20x1024.Idx → EReal) (a1 : IVec S3 32) (o : Nat) (ho : o < 3) (h : S3.Slices ![o] S1) (k : Fin 1024) :
    takeRow tbl (labV (clipV a1) o h) (ix1 k) = tbl (ix2 (Spec.lab a1 ⟨o, ho⟩) k) := by
  refine takeRow_apply tbl _ ?_ ?_ k _ ?_
  · rw [labV_apply a1 o ho h]; exact clipW_nonneg _
  · rw [labV_apply a1 o ho h]; exact clipW_le _
  · rw [labV_apply a1 o ho h, clipW_toNat]; rfl

theorem takeEnt_lab (tbl : S20.Idx → EReal) (a1 : IVec S3 32) (o : Nat) (ho : o < 3) (h : S3.Slices ![o] S1) (j : S_.Idx) :
    takeEnt tbl (labV (clipV a1) o h) j = tbl (ix1 (Spec.lab a1 ⟨o, ho⟩)) := by
  refine takeEnt_apply tbl _ ?_ ?_ j _ ?_
  · rw [labV_apply a1 o ho h]; exact clipW_nonneg _
  · rw [labV_apply a1 o ho h]; exact clipW_le _
  · rw [labV_apply a1 o ho h, clipW_toNat]; rfl

/-! ## The host operations before the region, in ten runs

The twenty-one stretches of host operations before the region, grouped: the first run ends with the first label as a
scalar; each later run is one look-up with the reshape (and, twice, the next label's slice) that follows it. -/

/-- Run 0: the stretches 0, 1, 2. -/
def run0 (W : Valuation τ sig (Elt Ideal)) : Valuation τ sig (Elt Ideal) := StableHlo.after ((hostOps0 (F := Ideal)) ++ ((hostOps0_1 (F := Ideal)) ++ ((hostOps0_2 (F := Ideal))))) W

/-- Run 1: the stretches 3, 4. -/
def run1 (W : Valuation τ sig (Elt Ideal)) : Valuation τ sig (Elt Ideal) := StableHlo.after ((hostOps0_3 (F := Ideal)) ++ ((hostOps0_4 (F := Ideal)))) W

/-- Run 2: the stretches 5, 6. -/
def run2 (W : Valuation τ sig (Elt Ideal)) : Valuation τ sig (Elt Ideal) := StableHlo.after ((hostOps0_5 (F := Ideal)) ++ ((hostOps0_6 (F := Ideal)))) W

/-- Run 3: the stretches 7, 8. -/
def run3 (W : Valuation τ sig (Elt Ideal)) : Valuation τ sig (Elt Ideal) := StableHlo.after ((hostOps0_7 (F := Ideal)) ++ ((hostOps0_8 (F := Ideal)))) W

/-- Run 4: the stretches 9, 10. -/
def run4 (W : Valuation τ sig (Elt Ideal)) : Valuation τ sig (Elt Ideal) := StableHlo.after ((hostOps0_9 (F := Ideal)) ++ ((hostOps0_10 (F := Ideal)))) W

/-- Run 5: the stretches 11, 12. -/
def run5 (W : Valuation τ sig (Elt Ideal)) : Valuation τ sig (Elt Ideal) := StableHlo.after ((hostOps0_11 (F := Ideal)) ++ ((hostOps0_12 (F := Ideal)))) W

/-- Run 6: the stretches 13, 14. -/
def run6 (W : Valuation τ sig (Elt Ideal)) : Valuation τ sig (Elt Ideal) := StableHlo.after ((hostOps0_13 (F := Ideal)) ++ ((hostOps0_14 (F := Ideal)))) W

/-- Run 7: the stretches 15, 16. -/
def run7 (W : Valuation τ sig (Elt Ideal)) : Valuation τ sig (Elt Ideal) := StableHlo.after ((hostOps0_15 (F := Ideal)) ++ ((hostOps0_16 (F := Ideal)))) W

/-- Run 8: the stretches 17, 18. -/
def run8 (W : Valuation τ sig (Elt Ideal)) : Valuation τ sig (Elt Ideal) := StableHlo.after ((hostOps0_17 (F := Ideal)) ++ ((hostOps0_18 (F := Ideal)))) W

/-- Run 9: the stretches 19, 20. -/
def run9 (W : Valuation τ sig (Elt Ideal)) : Valuation τ sig (Elt Ideal) := StableHlo.after ((hostOps0_19 (F := Ideal)) ++ ((hostOps0_20 (F := Ideal)))) W

/-- The region finds what the ten runs, in order, leave of the launch memory. -/
theorem V_runs (c : Dev nD) (r : Ref sig .tc) :
    V m c r = run9 (run8 (run7 (run6 (run5 (run4 (run3 (run2 (run1 (run0 (fun b => m (c, b))))))))))) (Proc.devRef .tc r) := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20]) (fun b => m (c, b)) (Proc.devRef .tc r) = _
  simp only [run0, run1, run2, run3, run4, run5, run6, run7, run8, run9, List.flatten_cons, List.flatten_nil, List.append_nil, StableHlo.after_append]

/-! ## What a run leaves alone -/

/-- Buffers run 0 does not write. -/
abbrev keep0 : List (Ref sig .tc) := [main_arg1, main_arg12, main_arg13, main_arg16, main_v34, main_v42, main_v28, main_v30, main_v32, main_v36, main_v38, main_v40, main_v44, main_v46, main_v48]
theorem run0_keeps (W : Valuation τ sig (Elt Ideal)) (r : Ref sig .tc) (hr : r ∈ keep0) :
    run0 W (Proc.devRef .tc r) = W (Proc.devRef .tc r) :=
  StableHlo.after_of_forall_not_mem (b := Proc.devRef .tc r) _ _ (List.forall_iff_forall_mem.mp (by
    simp only [hostOps0, hostOps0_1, hostOps0_2, List.cons_append, List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (ne_of_mem_of_not_mem hr (by decide))))

/-- Buffers run 1 does not write. -/
abbrev keep1 : List (Ref sig .tc) := [main_arg1, main_arg12, main_arg13, main_arg16, main_v24, main_v26, main_v34, main_v42, main_v30, main_v32, main_v36, main_v38, main_v40, main_v44, main_v46, main_v48]
theorem run1_keeps (W : Valuation τ sig (Elt Ideal)) (r : Ref sig .tc) (hr : r ∈ keep1) :
    run1 W (Proc.devRef .tc r) = W (Proc.devRef .tc r) :=
  StableHlo.after_of_forall_not_mem (b := Proc.devRef .tc r) _ _ (List.forall_iff_forall_mem.mp (by
    simp only [hostOps0_3, hostOps0_4, List.cons_append, List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (ne_of_mem_of_not_mem hr (by decide))))

/-- Buffers run 2 does not write. -/
abbrev keep2 : List (Ref sig .tc) := [main_arg1, main_arg12, main_arg13, main_arg16, main_v24, main_v26, main_v34, main_v42, main_v28, main_v32, main_v36, main_v38, main_v40, main_v44, main_v46, main_v48]
theorem run2_keeps (W : Valuation τ sig (Elt Ideal)) (r : Ref sig .tc) (hr : r ∈ keep2) :
    run2 W (Proc.devRef .tc r) = W (Proc.devRef .tc r) :=
  StableHlo.after_of_forall_not_mem (b := Proc.devRef .tc r) _ _ (List.forall_iff_forall_mem.mp (by
    simp only [hostOps0_5, hostOps0_6, List.cons_append, List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (ne_of_mem_of_not_mem hr (by decide))))

/-- Buffers run 3 does not write. -/
abbrev keep3 : List (Ref sig .tc) := [main_arg1, main_arg12, main_arg13, main_arg16, main_v24, main_v26, main_v42, main_v28, main_v30, main_v36, main_v38, main_v40, main_v44, main_v46, main_v48]
theorem run3_keeps (W : Valuation τ sig (Elt Ideal)) (r : Ref sig .tc) (hr : r ∈ keep3) :
    run3 W (Proc.devRef .tc r) = W (Proc.devRef .tc r) :=
  StableHlo.after_of_forall_not_mem (b := Proc.devRef .tc r) _ _ (List.forall_iff_forall_mem.mp (by
    simp only [hostOps0_7, hostOps0_8, List.cons_append, List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (ne_of_mem_of_not_mem hr (by decide))))

/-- Buffers run 4 does not write. -/
abbrev keep4 : List (Ref sig .tc) := [main_arg1, main_arg12, main_arg13, main_arg16, main_v24, main_v26, main_v34, main_v42, main_v28, main_v30, main_v32, main_v38, main_v40, main_v44, main_v46, main_v48]
theorem run4_keeps (W : Valuation τ sig (Elt Ideal)) (r : Ref sig .tc) (hr : r ∈ keep4) :
    run4 W (Proc.devRef .tc r) = W (Proc.devRef .tc r) :=
  StableHlo.after_of_forall_not_mem (b := Proc.devRef .tc r) _ _ (List.forall_iff_forall_mem.mp (by
    simp only [hostOps0_9, hostOps0_10, List.cons_append, List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (ne_of_mem_of_not_mem hr (by decide))))

/-- Buffers run 5 does not write. -/
abbrev keep5 : List (Ref sig .tc) := [main_arg1, main_arg12, main_arg13, main_arg16, main_v24, main_v26, main_v34, main_v42, main_v28, main_v30, main_v32, main_v36, main_v40, main_v44, main_v46, main_v48]
theorem run5_keeps (W : Valuation τ sig (Elt Ideal)) (r : Ref sig .tc) (hr : r ∈ keep5) :
    run5 W (Proc.devRef .tc r) = W (Proc.devRef .tc r) :=
  StableHlo.after_of_forall_not_mem (b := Proc.devRef .tc r) _ _ (List.forall_iff_forall_mem.mp (by
    simp only [hostOps0_11, hostOps0_12, List.cons_append, List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (ne_of_mem_of_not_mem hr (by decide))))

/-- Buffers run 6 does not write. -/
abbrev keep6 : List (Ref sig .tc) := [main_arg1, main_arg12, main_arg13, main_arg16, main_v24, main_v26, main_v34, main_v28, main_v30, main_v32, main_v36, main_v38, main_v44, main_v46, main_v48]
theorem run6_keeps (W : Valuation τ sig (Elt Ideal)) (r : Ref sig .tc) (hr : r ∈ keep6) :
    run6 W (Proc.devRef .tc r) = W (Proc.devRef .tc r) :=
  StableHlo.after_of_forall_not_mem (b := Proc.devRef .tc r) _ _ (List.forall_iff_forall_mem.mp (by
    simp only [hostOps0_13, hostOps0_14, List.cons_append, List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (ne_of_mem_of_not_mem hr (by decide))))

/-- Buffers run 7 does not write. -/
abbrev keep7 : List (Ref sig .tc) := [main_arg1, main_arg12, main_arg13, main_arg16, main_v24, main_v26, main_v34, main_v42, main_v28, main_v30, main_v32, main_v36, main_v38, main_v40, main_v46, main_v48]
theorem run7_keeps (W : Valuation τ sig (Elt Ideal)) (r : Ref sig .tc) (hr : r ∈ keep7) :
    run7 W (Proc.devRef .tc r) = W (Proc.devRef .tc r) :=
  StableHlo.after_of_forall_not_mem (b := Proc.devRef .tc r) _ _ (List.forall_iff_forall_mem.mp (by
    simp only [hostOps0_15, hostOps0_16, List.cons_append, List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (ne_of_mem_of_not_mem hr (by decide))))

/-- Buffers run 8 does not write. -/
abbrev keep8 : List (Ref sig .tc) := [main_arg1, main_arg12, main_arg13, main_arg16, main_v24, main_v26, main_v34, main_v42, main_v28, main_v30, main_v32, main_v36, main_v38, main_v40, main_v44, main_v48]
theorem run8_keeps (W : Valuation τ sig (Elt Ideal)) (r : Ref sig .tc) (hr : r ∈ keep8) :
    run8 W (Proc.devRef .tc r) = W (Proc.devRef .tc r) :=
  StableHlo.after_of_forall_not_mem (b := Proc.devRef .tc r) _ _ (List.forall_iff_forall_mem.mp (by
    simp only [hostOps0_17, hostOps0_18, List.cons_append, List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (ne_of_mem_of_not_mem hr (by decide))))

/-- Buffers run 9 does not write. -/
abbrev keep9 : List (Ref sig .tc) := [main_arg1, main_arg12, main_arg13, main_arg16, main_v24, main_v26, main_v34, main_v42, main_v28, main_v30, main_v32, main_v36, main_v38, main_v40, main_v44, main_v46]
theorem run9_keeps (W : Valuation τ sig (Elt Ideal)) (r : Ref sig .tc) (hr : r ∈ keep9) :
    run9 W (Proc.devRef .tc r) = W (Proc.devRef .tc r) :=
  StableHlo.after_of_forall_not_mem (b := Proc.devRef .tc r) _ _ (List.forall_iff_forall_mem.mp (by
    simp only [hostOps0_19, hostOps0_20, List.cons_append, List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (ne_of_mem_of_not_mem hr (by decide))))

/-! ## What a run writes -/

theorem run0_v24 (W : Valuation τ sig (Elt Ideal)) :
    @Eq (S3.Idx → BitVec 32) (run0 W (Proc.devRef .tc main_v24)) (clipV (W (Proc.devRef .tc main_arg1))) := by
  simp only [run0, hostOps0, hostOps0_1, hostOps0_2, List.cons_append, List.nil_append]
  after_results_simp
  rfl

theorem run0_v26 (W : Valuation τ sig (Elt Ideal)) :
    @Eq (S_.Idx → BitVec 32) (run0 W (Proc.devRef .tc main_v26)) (labV (clipV (W (Proc.devRef .tc main_arg1))) 0 slices_S3_S1_0) := by
  simp only [run0, hostOps0, hostOps0_1, hostOps0_2, List.cons_append, List.nil_append]
  after_results_simp
  rfl

theorem run1_v28 (W : Valuation τ sig (Elt Ideal)) :
    @Eq (S1x1024.Idx → EReal) (run1 W (Proc.devRef .tc main_v28)) (shapeCast S1x1024 (takeRow (W (Proc.devRef .tc main_arg12)) (W (Proc.devRef .tc main_v26))) shapeCasts_S1024_S1x1024) := by
  simp only [run1, hostOps0_3, hostOps0_4, List.cons_append, List.nil_append]
  after_results_simp
  rfl

theorem run2_v30 (W : Valuation τ sig (Elt Ideal)) :
    @Eq (S1x1.Idx → EReal) (run2 W (Proc.devRef .tc main_v30)) (shapeCast S1x1 (takeEnt (W (Proc.devRef .tc main_arg13)) (W (Proc.devRef .tc main_v26))) shapeCasts_S_S1x1) := by
  simp only [run2, hostOps0_5, hostOps0_6, List.cons_append, List.nil_append]
  after_results_simp
  rfl

theorem run3_v32 (W : Valuation τ sig (Elt Ideal)) :
    @Eq (S1x1024.Idx → EReal) (run3 W (Proc.devRef .tc main_v32)) (shapeCast S1x1024 (takeRow (W (Proc.devRef .tc main_arg16)) (W (Proc.devRef .tc main_v26))) shapeCasts_S1024_S1x1024) := by
  simp only [run3, hostOps0_7, hostOps0_8, List.cons_append, List.nil_append]
  after_results_simp
  rfl

theorem run3_v34 (W : Valuation τ sig (Elt Ideal)) :
    @Eq (S_.Idx → BitVec 32) (run3 W (Proc.devRef .tc main_v34)) (labV (W (Proc.devRef .tc main_v24)) 1 slices_S3_S1_1) := by
  simp only [run3, hostOps0_7, hostOps0_8, List.cons_append, List.nil_append]
  after_results_simp
  rfl

theorem run4_v36 (W : Valuation τ sig (Elt Ideal)) :
    @Eq (S1x1024.Idx → EReal) (run4 W (Proc.devRef .tc main_v36)) (shapeCast S1x1024 (takeRow (W (Proc.devRef .tc main_arg12)) (W (Proc.devRef .tc main_v34))) shapeCasts_S1024_S1x1024) := by
  simp only [run4, hostOps0_9, hostOps0_10, List.cons_append, List.nil_append]
  after_results_simp
  rfl

theorem run5_v38 (W : Valuation τ sig (Elt Ideal)) :
    @Eq (S1x1.Idx → EReal) (run5 W (Proc.devRef .tc main_v38)) (shapeCast S1x1 (takeEnt (W (Proc.devRef .tc main_arg13)) (W (Proc.devRef .tc main_v34))) shapeCasts_S_S1x1) := by
  simp only [run5, hostOps0_11, hostOps0_12, List.cons_append, List.nil_append]
  after_results_simp
  rfl

theorem run6_v40 (W : Valuation τ sig (Elt Ideal)) :
    @Eq (S1x1024.Idx → EReal) (run6 W (Proc.devRef .tc main_v40)) (shapeCast S1x1024 (takeRow (W (Proc.devRef .tc main_arg16)) (W (Proc.devRef .tc main_v34))) shapeCasts_S1024_S1x1024) := by
  simp only [run6, hostOps0_13, hostOps0_14, List.cons_append, List.nil_append]
  after_results_simp
  rfl

theorem run6_v42 (W : Valuation τ sig (Elt Ideal)) :
    @Eq (S_.Idx → BitVec 32) (run6 W (Proc.devRef .tc main_v42)) (labV (W (Proc.devRef .tc main_v24)) 2 slices_S3_S1_2) := by
  simp only [run6, hostOps0_13, hostOps0_14, List.cons_append, List.nil_append]
  after_results_simp
  rfl

theorem run7_v44 (W : Valuation τ sig (Elt Ideal)) :
    @Eq (S1x1024.Idx → EReal) (run7 W (Proc.devRef .tc main_v44)) (shapeCast S1x1024 (takeRow (W (Proc.devRef .tc main_arg12)) (W (Proc.devRef .tc main_v42))) shapeCasts_S1024_S1x1024) := by
  simp only [run7, hostOps0_15, hostOps0_16, List.cons_append, List.nil_append]
  after_results_simp
  rfl

theorem run8_v46 (W : Valuation τ sig (Elt Ideal)) :
    @Eq (S1x1.Idx → EReal) (run8 W (Proc.devRef .tc main_v46)) (shapeCast S1x1 (takeEnt (W (Proc.devRef .tc main_arg13)) (W (Proc.devRef .tc main_v42))) shapeCasts_S_S1x1) := by
  simp only [run8, hostOps0_17, hostOps0_18, List.cons_append, List.nil_append]
  after_results_simp
  rfl

theorem run9_v48 (W : Valuation τ sig (Elt Ideal)) :
    @Eq (S1x1024.Idx → EReal) (run9 W (Proc.devRef .tc main_v48)) (shapeCast S1x1024 (takeRow (W (Proc.devRef .tc main_arg16)) (W (Proc.devRef .tc main_v42))) shapeCasts_S1024_S1x1024) := by
  simp only [run9, hostOps0_19, hostOps0_20, List.cons_append, List.nil_append]
  after_results_simp
  rfl

/-! ## The nine operands at an element -/

/-- A scalar as a [1, 1] array reads the scalar. -/
theorem shapeCast_S_S1x1_apply {α : Type} (x : S_.Idx → α) (h : S_.ShapeCasts S1x1) (j : S1x1.Idx) : shapeCast S1x1 x h j = x ix0 := by
  unfold shapeCast
  exact congrArg x (eq_ix0 _)

theorem pick3_0 {α : Type} (a b c : α) (h : 0 < 3) : Spec.pick3 a b c ⟨0, h⟩ = a := rfl
theorem pick3_1 {α : Type} (a b c : α) (h : 1 < 3) : Spec.pick3 a b c ⟨1, h⟩ = b := rfl
theorem pick3_2 {α : Type} (a b c : α) (h : 2 < 3) : Spec.pick3 a b c ⟨2, h⟩ = c := rfl

/-- `main_v28` at region entry: the row of `main_arg12` at label 0 read as a class number. -/
theorem take_v28 (c : Dev nD) (d : Fin 1024) :
    (V m c main_v28 : S1x1024.Idx → EReal) (ix2 (0 : Fin 1) d)
      = ((m ((c : Thread nD τ).loc main_arg12)) : S20x1024.Idx → EReal) (ix2 (Spec.lab (m ((c : Thread nD τ).loc main_arg1)) (⟨0, by decide⟩ : Fin 3)) d) := by
  have e : @Eq (S1x1024.Idx → EReal) (V m c main_v28)
      (shapeCast S1x1024 (takeRow (m ((c : Thread nD τ).loc main_arg12)) (labV (clipV (m ((c : Thread nD τ).loc main_arg1))) 0 slices_S3_S1_0)) shapeCasts_S1024_S1x1024) := by
    refine (V_runs m c main_v28).trans ?_
    rw [run9_keeps _ main_v28 (by decide),
      run8_keeps _ main_v28 (by decide),
      run7_keeps _ main_v28 (by decide),
      run6_keeps _ main_v28 (by decide),
      run5_keeps _ main_v28 (by decide),
      run4_keeps _ main_v28 (by decide),
      run3_keeps _ main_v28 (by decide),
      run2_keeps _ main_v28 (by decide),
      run1_v28,
      run0_keeps _ main_arg12 (by decide),
      run0_v26] <;> rfl
  rw [e, shapeCast_a_1a_apply]
  exact takeRow_lab _ _ 0 (by decide) _ d

/-- `main_v30` at region entry: the entry of `main_arg13` at label 0 read as a class number. -/
theorem take_v30 (c : Dev nD) :
    (V m c main_v30 : S1x1.Idx → EReal) (ix2 (0 : Fin 1) (0 : Fin 1))
      = ((m ((c : Thread nD τ).loc main_arg13)) : S20.Idx → EReal) (ix1 (Spec.lab (m ((c : Thread nD τ).loc main_arg1)) (⟨0, by decide⟩ : Fin 3))) := by
  have e : @Eq (S1x1.Idx → EReal) (V m c main_v30)
      (shapeCast S1x1 (takeEnt (m ((c : Thread nD τ).loc main_arg13)) (labV (clipV (m ((c : Thread nD τ).loc main_arg1))) 0 slices_S3_S1_0)) shapeCasts_S_S1x1) := by
    refine (V_runs m c main_v30).trans ?_
    rw [run9_keeps _ main_v30 (by decide),
      run8_keeps _ main_v30 (by decide),
      run7_keeps _ main_v30 (by decide),
      run6_keeps _ main_v30 (by decide),
      run5_keeps _ main_v30 (by decide),
      run4_keeps _ main_v30 (by decide),
      run3_keeps _ main_v30 (by decide),
      run2_v30,
      run1_keeps _ main_arg13 (by decide),
      run0_keeps _ main_arg13 (by decide),
      run1_keeps _ main_v26 (by decide),
      run0_v26] <;> rfl
  rw [e, shapeCast_S_S1x1_apply]
  exact takeEnt_lab _ _ 0 (by decide) _ _

/-- `main_v32` at region entry: the row of `main_arg16` at label 0 read as a class number. -/
theorem take_v32 (c : Dev nD) (d : Fin 1024) :
    (V m c main_v32 : S1x1024.Idx → EReal) (ix2 (0 : Fin 1) d)
      = ((m ((c : Thread nD τ).loc main_arg16)) : S20x1024.Idx → EReal) (ix2 (Spec.lab (m ((c : Thread nD τ).loc main_arg1)) (⟨0, by decide⟩ : Fin 3)) d) := by
  have e : @Eq (S1x1024.Idx → EReal) (V m c main_v32)
      (shapeCast S1x1024 (takeRow (m ((c : Thread nD τ).loc main_arg16)) (labV (clipV (m ((c : Thread nD τ).loc main_arg1))) 0 slices_S3_S1_0)) shapeCasts_S1024_S1x1024) := by
    refine (V_runs m c main_v32).trans ?_
    rw [run9_keeps _ main_v32 (by decide),
      run8_keeps _ main_v32 (by decide),
      run7_keeps _ main_v32 (by decide),
      run6_keeps _ main_v32 (by decide),
      run5_keeps _ main_v32 (by decide),
      run4_keeps _ main_v32 (by decide),
      run3_v32,
      run2_keeps _ main_arg16 (by decide),
      run1_keeps _ main_arg16 (by decide),
      run0_keeps _ main_arg16 (by decide),
      run2_keeps _ main_v26 (by decide),
      run1_keeps _ main_v26 (by decide),
      run0_v26] <;> rfl
  rw [e, shapeCast_a_1a_apply]
  exact takeRow_lab _ _ 0 (by decide) _ d

/-- `main_v36` at region entry: the row of `main_arg12` at label 1 read as a class number. -/
theorem take_v36 (c : Dev nD) (d : Fin 1024) :
    (V m c main_v36 : S1x1024.Idx → EReal) (ix2 (0 : Fin 1) d)
      = ((m ((c : Thread nD τ).loc main_arg12)) : S20x1024.Idx → EReal) (ix2 (Spec.lab (m ((c : Thread nD τ).loc main_arg1)) (⟨1, by decide⟩ : Fin 3)) d) := by
  have e : @Eq (S1x1024.Idx → EReal) (V m c main_v36)
      (shapeCast S1x1024 (takeRow (m ((c : Thread nD τ).loc main_arg12)) (labV (clipV (m ((c : Thread nD τ).loc main_arg1))) 1 slices_S3_S1_1)) shapeCasts_S1024_S1x1024) := by
    refine (V_runs m c main_v36).trans ?_
    rw [run9_keeps _ main_v36 (by decide),
      run8_keeps _ main_v36 (by decide),
      run7_keeps _ main_v36 (by decide),
      run6_keeps _ main_v36 (by decide),
      run5_keeps _ main_v36 (by decide),
      run4_v36,
      run3_keeps _ main_arg12 (by decide),
      run2_keeps _ main_arg12 (by decide),
      run1_keeps _ main_arg12 (by decide),
      run0_keeps _ main_arg12 (by decide),
      run3_v34,
      run2_keeps _ main_v24 (by decide),
      run1_keeps _ main_v24 (by decide),
      run0_v24] <;> rfl
  rw [e, shapeCast_a_1a_apply]
  exact takeRow_lab _ _ 1 (by decide) _ d

/-- `main_v38` at region entry: the entry of `main_arg13` at label 1 read as a class number. -/
theorem take_v38 (c : Dev nD) :
    (V m c main_v38 : S1x1.Idx → EReal) (ix2 (0 : Fin 1) (0 : Fin 1))
      = ((m ((c : Thread nD τ).loc main_arg13)) : S20.Idx → EReal) (ix1 (Spec.lab (m ((c : Thread nD τ).loc main_arg1)) (⟨1, by decide⟩ : Fin 3))) := by
  have e : @Eq (S1x1.Idx → EReal) (V m c main_v38)
      (shapeCast S1x1 (takeEnt (m ((c : Thread nD τ).loc main_arg13)) (labV (clipV (m ((c : Thread nD τ).loc main_arg1))) 1 slices_S3_S1_1)) shapeCasts_S_S1x1) := by
    refine (V_runs m c main_v38).trans ?_
    rw [run9_keeps _ main_v38 (by decide),
      run8_keeps _ main_v38 (by decide),
      run7_keeps _ main_v38 (by decide),
      run6_keeps _ main_v38 (by decide),
      run5_v38,
      run4_keeps _ main_arg13 (by decide),
      run3_keeps _ main_arg13 (by decide),
      run2_keeps _ main_arg13 (by decide),
      run1_keeps _ main_arg13 (by decide),
      run0_keeps _ main_arg13 (by decide),
      run4_keeps _ main_v34 (by decide),
      run3_v34,
      run2_keeps _ main_v24 (by decide),
      run1_keeps _ main_v24 (by decide),
      run0_v24] <;> rfl
  rw [e, shapeCast_S_S1x1_apply]
  exact takeEnt_lab _ _ 1 (by decide) _ _

/-- `main_v40` at region entry: the row of `main_arg16` at label 1 read as a class number. -/
theorem take_v40 (c : Dev nD) (d : Fin 1024) :
    (V m c main_v40 : S1x1024.Idx → EReal) (ix2 (0 : Fin 1) d)
      = ((m ((c : Thread nD τ).loc main_arg16)) : S20x1024.Idx → EReal) (ix2 (Spec.lab (m ((c : Thread nD τ).loc main_arg1)) (⟨1, by decide⟩ : Fin 3)) d) := by
  have e : @Eq (S1x1024.Idx → EReal) (V m c main_v40)
      (shapeCast S1x1024 (takeRow (m ((c : Thread nD τ).loc main_arg16)) (labV (clipV (m ((c : Thread nD τ).loc main_arg1))) 1 slices_S3_S1_1)) shapeCasts_S1024_S1x1024) := by
    refine (V_runs m c main_v40).trans ?_
    rw [run9_keeps _ main_v40 (by decide),
      run8_keeps _ main_v40 (by decide),
      run7_keeps _ main_v40 (by decide),
      run6_v40,
      run5_keeps _ main_arg16 (by decide),
      run4_keeps _ main_arg16 (by decide),
      run3_keeps _ main_arg16 (by decide),
      run2_keeps _ main_arg16 (by decide),
      run1_keeps _ main_arg16 (by decide),
      run0_keeps _ main_arg16 (by decide),
      run5_keeps _ main_v34 (by decide),
      run4_keeps _ main_v34 (by decide),
      run3_v34,
      run2_keeps _ main_v24 (by decide),
      run1_keeps _ main_v24 (by decide),
      run0_v24] <;> rfl
  rw [e, shapeCast_a_1a_apply]
  exact takeRow_lab _ _ 1 (by decide) _ d

/-- `main_v44` at region entry: the row of `main_arg12` at label 2 read as a class number. -/
theorem take_v44 (c : Dev nD) (d : Fin 1024) :
    (V m c main_v44 : S1x1024.Idx → EReal) (ix2 (0 : Fin 1) d)
      = ((m ((c : Thread nD τ).loc main_arg12)) : S20x1024.Idx → EReal) (ix2 (Spec.lab (m ((c : Thread nD τ).loc main_arg1)) (⟨2, by decide⟩ : Fin 3)) d) := by
  have e : @Eq (S1x1024.Idx → EReal) (V m c main_v44)
      (shapeCast S1x1024 (takeRow (m ((c : Thread nD τ).loc main_arg12)) (labV (clipV (m ((c : Thread nD τ).loc main_arg1))) 2 slices_S3_S1_2)) shapeCasts_S1024_S1x1024) := by
    refine (V_runs m c main_v44).trans ?_
    rw [run9_keeps _ main_v44 (by decide),
      run8_keeps _ main_v44 (by decide),
      run7_v44,
      run6_keeps _ main_arg12 (by decide),
      run5_keeps _ main_arg12 (by decide),
      run4_keeps _ main_arg12 (by decide),
      run3_keeps _ main_arg12 (by decide),
      run2_keeps _ main_arg12 (by decide),
      run1_keeps _ main_arg12 (by decide),
      run0_keeps _ main_arg12 (by decide),
      run6_v42,
      run5_keeps _ main_v24 (by decide),
      run4_keeps _ main_v24 (by decide),
      run3_keeps _ main_v24 (by decide),
      run2_keeps _ main_v24 (by decide),
      run1_keeps _ main_v24 (by decide),
      run0_v24] <;> rfl
  rw [e, shapeCast_a_1a_apply]
  exact takeRow_lab _ _ 2 (by decide) _ d

/-- `main_v46` at region entry: the entry of `main_arg13` at label 2 read as a class number. -/
theorem take_v46 (c : Dev nD) :
    (V m c main_v46 : S1x1.Idx → EReal) (ix2 (0 : Fin 1) (0 : Fin 1))
      = ((m ((c : Thread nD τ).loc main_arg13)) : S20.Idx → EReal) (ix1 (Spec.lab (m ((c : Thread nD τ).loc main_arg1)) (⟨2, by decide⟩ : Fin 3))) := by
  have e : @Eq (S1x1.Idx → EReal) (V m c main_v46)
      (shapeCast S1x1 (takeEnt (m ((c : Thread nD τ).loc main_arg13)) (labV (clipV (m ((c : Thread nD τ).loc main_arg1))) 2 slices_S3_S1_2)) shapeCasts_S_S1x1) := by
    refine (V_runs m c main_v46).trans ?_
    rw [run9_keeps _ main_v46 (by decide),
      run8_v46,
      run7_keeps _ main_arg13 (by decide),
      run6_keeps _ main_arg13 (by decide),
      run5_keeps _ main_arg13 (by decide),
      run4_keeps _ main_arg13 (by decide),
      run3_keeps _ main_arg13 (by decide),
      run2_keeps _ main_arg13 (by decide),
      run1_keeps _ main_arg13 (by decide),
      run0_keeps _ main_arg13 (by decide),
      run7_keeps _ main_v42 (by decide),
      run6_v42,
      run5_keeps _ main_v24 (by decide),
      run4_keeps _ main_v24 (by decide),
      run3_keeps _ main_v24 (by decide),
      run2_keeps _ main_v24 (by decide),
      run1_keeps _ main_v24 (by decide),
      run0_v24] <;> rfl
  rw [e, shapeCast_S_S1x1_apply]
  exact takeEnt_lab _ _ 2 (by decide) _ _

/-- `main_v48` at region entry: the row of `main_arg16` at label 2 read as a class number. -/
theorem take_v48 (c : Dev nD) (d : Fin 1024) :
    (V m c main_v48 : S1x1024.Idx → EReal) (ix2 (0 : Fin 1) d)
      = ((m ((c : Thread nD τ).loc main_arg16)) : S20x1024.Idx → EReal) (ix2 (Spec.lab (m ((c : Thread nD τ).loc main_arg1)) (⟨2, by decide⟩ : Fin 3)) d) := by
  have e : @Eq (S1x1024.Idx → EReal) (V m c main_v48)
      (shapeCast S1x1024 (takeRow (m ((c : Thread nD τ).loc main_arg16)) (labV (clipV (m ((c : Thread nD τ).loc main_arg1))) 2 slices_S3_S1_2)) shapeCasts_S1024_S1x1024) := by
    refine (V_runs m c main_v48).trans ?_
    rw [run9_v48,
      run8_keeps _ main_arg16 (by decide),
      run7_keeps _ main_arg16 (by decide),
      run6_keeps _ main_arg16 (by decide),
      run5_keeps _ main_arg16 (by decide),
      run4_keeps _ main_arg16 (by decide),
      run3_keeps _ main_arg16 (by decide),
      run2_keeps _ main_arg16 (by decide),
      run1_keeps _ main_arg16 (by decide),
      run0_keeps _ main_arg16 (by decide),
      run8_keeps _ main_v42 (by decide),
      run7_keeps _ main_v42 (by decide),
      run6_v42,
      run5_keeps _ main_v24 (by decide),
      run4_keeps _ main_v24 (by decide),
      run3_keeps _ main_v24 (by decide),
      run2_keeps _ main_v24 (by decide),
      run1_keeps _ main_v24 (by decide),
      run0_v24] <;> rfl
  rw [e, shapeCast_a_1a_apply]
  exact takeRow_lab _ _ 2 (by decide) _ d

/-! ## The three fields -/

theorem s1w_eq (c : Dev nD) : (WK m c).s1w = (WAm m c).s1w := by
  funext j d
  dsimp only [WK, WAm, Spec.WA]
  match j with
  | ⟨0, _⟩ => rw [pick3_0]; exact take_v28 m c d
  | ⟨1, _⟩ => rw [pick3_1]; exact take_v36 m c d
  | ⟨2, _⟩ => rw [pick3_2]; exact take_v44 m c d

theorem s1b_eq (c : Dev nD) : (WK m c).s1b = (WAm m c).s1b := by
  funext j
  dsimp only [WK, WAm, Spec.WA]
  match j with
  | ⟨0, _⟩ => rw [pick3_0]; exact take_v30 m c
  | ⟨1, _⟩ => rw [pick3_1]; exact take_v38 m c
  | ⟨2, _⟩ => rw [pick3_2]; exact take_v46 m c

theorem s2w_eq (c : Dev nD) : (WK m c).s2w = (WAm m c).s2w := by
  funext j d
  dsimp only [WK, WAm, Spec.WA]
  match j with
  | ⟨0, _⟩ => rw [pick3_0]; exact take_v32 m c d
  | ⟨1, _⟩ => rw [pick3_1]; exact take_v40 m c d
  | ⟨2, _⟩ => rw [pick3_2]; exact take_v48 m c d

end Cert.KernelIdeal.Hand

end
-- ==== Proof.KHost.lean ====
/-
  The kernel's host prelude, assembled: the weights the region finds in its operand arrays are the weights the
  arguments hold, field by field.
-/
import proofs.«424737_j11321533792616_2_alg».proof.Proof.KHostPlain
import proofs.«424737_j11321533792616_2_alg».proof.Proof.KHostTake
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate

noncomputable section

namespace Cert.KernelIdeal.Hand

open Idealize.ShloMosaic Idealize.ShloMosaic.TcCoe Idealize.ShloMosaic.ValueIdx Idealize.SL.Sem
open Cert.KernelIdeal Cert.KernelIdeal.Gen Cert.KernelIdeal.GenP

variable (m : (ℓ : Loc nD τ sig) → Buf (Elt Ideal) ℓ)

/-- Two sets of weights with equal fields are equal. -/
theorem wts_ext (A B : Spec.Wts) (h1 : A.w0 = B.w0) (h2 : A.b0 = B.b0) (h3 : A.w1 = B.w1) (h4 : A.b1 = B.b1) (h5 : A.w2 = B.w2)
    (h6 : A.b2 = B.b2) (h7 : A.wf1 = B.wf1) (h8 : A.bf1 = B.bf1) (h9 : A.wf2 = B.wf2) (h10 : A.bf2 = B.bf2) (h11 : A.wc1 = B.wc1)
    (h12 : A.bc1 = B.bc1) (h13 : A.wf3 = B.wf3) (h14 : A.wf4 = B.wf4) (h15 : A.wc2 = B.wc2) (h16 : A.wf5 = B.wf5) (h17 : A.wf6 = B.wf6)
    (h18 : A.wc3 = B.wc3) (h19 : A.s1w = B.s1w) (h20 : A.s1b = B.s1b) (h21 : A.s2w = B.s2w) : A = B := by
  cases A; cases B; simp only [Spec.Wts.mk.injEq] at *
  exact ⟨h1, h2, h3, h4, h5, h6, h7, h8, h9, h10, h11, h12, h13, h14, h15, h16, h17, h18, h19, h20, h21⟩

/-- The weights the region finds are the weights the arguments hold. -/
theorem WK_eq (c : Dev nD) : WK m c = WAm m c :=
  wts_ext _ _ (w0_eq m c) (b0_eq m c) (w1_eq m c) (b1_eq m c) (w2_eq m c) (b2_eq m c) (wf1_eq m c) (bf1_eq m c) (wf2_eq m c)
    (bf2_eq m c) (wc1_eq m c) (bc1_eq m c) (wf3_eq m c) (wf4_eq m c) (wc2_eq m c) (wf5_eq m c) (wf6_eq m c) (wc3_eq m c)
    (s1w_eq m c) (s1b_eq m c) (s2w_eq m c)

end Cert.KernelIdeal.Hand

end
-- ==== Proof.KTail.lean ====
/-
  The host operations after the region: each of the three [20] results is the logistic of the column sums, over the 128
  tiles, of a [128, 1, 20] array of per-tile partial sums the region wrote (re-cast to [128, 20], summed along its first
  axis from the zero word, then `1 / (1 + e^(-s))` spelt as negate, exponential, add, divide).
-/
import proofs.«424737_j11321533792616_2_alg».proof.Proof.KernelIdealFrame
import proofs.«424737_j11321533792616_2_alg».proof.Proof.Spec
import proofs.«424737_j11321533792616_2_alg».proof.Proof.LibRows
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Hand

open Idealize.ShloMosaic Idealize.ShloMosaic.TcCoe Idealize.ShloMosaic.ValueIdx Idealize.SL.Sem
open Cert.KernelIdeal Cert.KernelIdeal.Gen Cert.KernelIdeal.GenP

/-! ## The tail of one result over any array of partial sums -/

/-- A [128, 1, 20] array re-cast to [128, 20] reads, at `(t, c)`, the array at `(t, 0, c)`: the two row-major positions
    are `(t·1 + 0)·20 + c` and `t·20 + c`. -/
theorem kt_shapeCast_a1b_ab_apply (P : S128x1x20.Idx → EReal) (hc : S128x1x20.ShapeCasts S128x20) (t : Fin 128) (c : Fin 20) :
    shapeCast S128x20 P hc (ix2 t c) = P (ix3 t (0 : Fin 1) c) :=
  shapeCast_apply P hc _ _ (by
    rw [Shape.rowMajor_val_three, Shape.rowMajor_val_two]
    show (t.val * 1 + 0) * 20 + c.val = t.val * 20 + c.val
    omega)

/-- The host's sum of a [128, 20] array along its first axis from the zero word, at class `c`: the plain column sum. -/
theorem kt_hostSum_apply (x : S128x20.Idx → EReal) (hr : S128x20.ReducesTo [0] S20) (hu : 0 < S_.numel) (c : Fin 20) :
    Host.reduceAdd (F := Ideal) (φ := .f32) x (constant (F := Ideal) S_ .f32 0x00000000#32) hr hu (ix1 c)
      = ∑ t : Fin 128, x (ix2 t c) := by
  have h : S128x20.Reduces [0] S20 := by decide
  show Ideal.hostReduceAdd hr x (Ideal.ofBits .f32 0x00000000#32) (ix1 c) = _
  rw [Ideal.hostReduceAdd_single hr h, Ideal.ofBits_zero_f32, zero_add]
  refine Finset.sum_congr rfl fun t _ => congrArg x (funext fun d => Fin.ext ?_)
  match d with
  | ⟨0, _⟩ => rfl
  | ⟨1, _⟩ => rfl

/-- The word `0x3F800000` is the real `1`. -/
theorem kt_one_word : Ideal.ofBits .f32 0x3F800000#32 = 1 :=
  IdealRules.sign_bit.ideal_onePat .f32

/-- A rank-0 constant spread to [20] reads its word everywhere. -/
theorem kt_bcast_const_apply (w : BitVec 32) (hb : S_.BroadcastsInDim S20 (![] : Fin 0 → Fin S20.rank)) (c : Fin 20) :
    broadcastInDim S20 ![] hb (constant (F := Ideal) S_ .f32 w) (ix1 c) = Ideal.ofBits .f32 w :=
  broadcastInDim_apply ![] hb (constant (F := Ideal) S_ .f32 w) (ix1 c) ix0 (fun a => a.elim0)

/-- The tail of one result, over any array `P` of per-tile partial sums: `1 / (1 + e^(-s))` of the column sum `s` of
    `P`, which is the logistic of `s`. -/
theorem kt_colSig_of_parts (P : S128x1x20.Idx → EReal) (hc : S128x1x20.ShapeCasts S128x20) (hr : S128x20.ReducesTo [0] S20)
    (hu : 0 < S_.numel) (hb : S_.BroadcastsInDim S20 (![] : Fin 0 → Fin S20.rank)) (c : Fin 20) :
    Host.divf (F := Ideal) (φ := .f32) (broadcastInDim S20 ![] hb (constant (F := Ideal) S_ .f32 0x3F800000#32))
      (addf (broadcastInDim S20 ![] hb (constant (F := Ideal) S_ .f32 0x3F800000#32))
        (Host.exp (Host.negf (Host.reduceAdd (F := Ideal) (φ := .f32) (shapeCast S128x20 P hc)
          (constant (F := Ideal) S_ .f32 0x00000000#32) hr hu)))) (ix1 c)
      = Spec.sig (∑ t : Fin 128, P (ix3 t (0 : Fin 1) c)) := by
  show Ideal.div (broadcastInDim S20 ![] hb (constant (F := Ideal) S_ .f32 0x3F800000#32) (ix1 c))
      (broadcastInDim S20 ![] hb (constant (F := Ideal) S_ .f32 0x3F800000#32) (ix1 c)
        + Ideal.exp (-(Host.reduceAdd (F := Ideal) (φ := .f32) (shapeCast S128x20 P hc)
          (constant (F := Ideal) S_ .f32 0x00000000#32) hr hu (ix1 c)))) = _
  rw [kt_bcast_const_apply, kt_one_word, kt_hostSum_apply]
  simp only [kt_shapeCast_a1b_ab_apply]
  rfl

variable (m : (ℓ : Loc nD τ sig) → Buf (Elt Ideal) ℓ)

/-- The first [20] result, given what window 34's array (the partial sums of the class activations) ends holding. -/
theorem tail57 (c : Dev nD) (P : S128x1x20.Idx → EReal) (hP : (dats m 0 c).arrAt 34 cfg0.N = P) :
    Pipeline.afterTail₀ cfgs (dats m) 0 (V0 m) [hostOps1] c main_v57
      = fun i : S20.Idx => Spec.sig (∑ t : Fin 128, P (ix3 t (0 : Fin 1) (i 0))) := by
  unfold Pipeline.afterTail₀
  show StableHlo.after hostOps1 _ (Proc.devRef .tc main_v57) = _
  after_results
  funext i
  obtain ⟨c', rfl⟩ : ∃ c' : Fin 20, i = ix1 c' := ⟨i 0, eq_ix1 i⟩
  rw [Pipeline.withArrays_arr spec0 launch0.win.arr_inj c _ _ 34, hP]
  exact kt_colSig_of_parts P _ _ _ _ c'

/-- The second [20] result, given what window 35's array ends holding. -/
theorem tail65 (c : Dev nD) (P : S128x1x20.Idx → EReal) (hP : (dats m 0 c).arrAt 35 cfg0.N = P) :
    Pipeline.afterTail₀ cfgs (dats m) 0 (V0 m) [hostOps1] c main_v65
      = fun i : S20.Idx => Spec.sig (∑ t : Fin 128, P (ix3 t (0 : Fin 1) (i 0))) := by
  unfold Pipeline.afterTail₀
  show StableHlo.after hostOps1 _ (Proc.devRef .tc main_v65) = _
  after_results
  funext i
  obtain ⟨c', rfl⟩ : ∃ c' : Fin 20, i = ix1 c' := ⟨i 0, eq_ix1 i⟩
  rw [Pipeline.withArrays_arr spec0 launch0.win.arr_inj c _ _ 35, hP]
  exact kt_colSig_of_parts P _ _ _ _ c'

/-- The third [20] result, given what window 36's array ends holding. -/
theorem tail73 (c : Dev nD) (P : S128x1x20.Idx → EReal) (hP : (dats m 0 c).arrAt 36 cfg0.N = P) :
    Pipeline.afterTail₀ cfgs (dats m) 0 (V0 m) [hostOps1] c main_v73
      = fun i : S20.Idx => Spec.sig (∑ t : Fin 128, P (ix3 t (0 : Fin 1) (i 0))) := by
  unfold Pipeline.afterTail₀
  show StableHlo.after hostOps1 _ (Proc.devRef .tc main_v73) = _
  after_results
  funext i
  obtain ⟨c', rfl⟩ : ∃ c' : Fin 20, i = ix1 c' := ⟨i 0, eq_ix1 i⟩
  rw [Pipeline.withArrays_arr spec0 launch0.win.arr_inj c _ _ 36, hP]
  exact kt_colSig_of_parts P _ _ _ _ c'

end Cert.KernelIdeal.Hand

end
-- ==== Proof.KRun.lean ====
/-
  The idealized kernel's run, read: every weakly fair execution terminates with the nine result buffers holding the
  specification's result functions of the arguments. The six [32768, ·] results are output arrays of the region; the
  three [20] results are computed after it from the per-tile partial sums, and a sum over the 128 tiles of the sums over
  each tile's 256 rows is the sum over all 32768 rows.
-/
import proofs.«424737_j11321533792616_2_alg».proof.Proof.KArrays
import proofs.«424737_j11321533792616_2_alg».proof.Proof.KHost
import proofs.«424737_j11321533792616_2_alg».proof.Proof.KTail

noncomputable section

namespace Cert.KernelIdeal.Hand

open Idealize.ShloMosaic Idealize.ShloMosaic.TcCoe Idealize.ShloMosaic.ValueIdx Idealize.SL.Sem
open Cert.KernelIdeal Cert.KernelIdeal.Gen Cert.KernelIdeal.GenP

variable (m : (ℓ : Loc nD τ sig) → Buf (Elt Ideal) ℓ) (ρ : Dev nD → PrngReg)

/-- The input the region finds is the input as launched. -/
theorem XK_eq (c : Dev nD) : XK m c = m ((c.tc : Thread nD τ).loc main_arg0) := V_main_arg0 m c

/-- The logistic of the tile-by-tile sums of the partial sums of `A` is the logistic of `A`'s column sums. -/
theorem sig_parts (A : Fin 32768 → Fin 20 → EReal) (i : S20.Idx) :
    Spec.sig (∑ t : Fin 128, Spec.resPart A (ix3 t (0 : Fin 1) (i 0))) = Spec.colSig A (i 0) := by
  show Spec.sig (∑ t : Fin 128, ∑ r : Fin 256, A (Spec.tileRow t r) (i 0)) = Spec.sig (∑ T, A T (i 0))
  rw [Spec.sum_rows_eq_sum_tiles fun T => A T (i 0)]

theorem res57 (c : Dev nD) :
    Pipeline.afterTail₀ cfgs (dats m) 0 (V0 m) [hostOps1] c main_v57 = Spec.resX (WAm m c) (m ((c.tc : Thread nD τ).loc main_arg0)) := by
  rw [tail57 m c _ (final34 m c), WK_eq, XK_eq]
  exact funext fun i => sig_parts _ i

theorem res65 (c : Dev nD) :
    Pipeline.afterTail₀ cfgs (dats m) 0 (V0 m) [hostOps1] c main_v65 = Spec.resEX (WAm m c) (m ((c.tc : Thread nD τ).loc main_arg0)) := by
  rw [tail65 m c _ (final35 m c), WK_eq, XK_eq]
  exact funext fun i => sig_parts _ i

theorem res73 (c : Dev nD) :
    Pipeline.afterTail₀ cfgs (dats m) 0 (V0 m) [hostOps1] c main_v73 = Spec.resE2X (WAm m c) (m ((c.tc : Thread nD τ).loc main_arg0)) := by
  rw [tail73 m c _ (final36 m c), WK_eq, XK_eq]
  exact funext fun i => sig_parts _ i

theorem arr28 (c : Dev nD) : (dats m 0 c).arrAt 28 cfg0.N = Spec.resFeat (WAm m c) (m ((c.tc : Thread nD τ).loc main_arg0)) := by
  rw [final28, WK_eq, XK_eq]
theorem arr29 (c : Dev nD) : (dats m 0 c).arrAt 29 cfg0.N = Spec.resTcam (WAm m c) (m ((c.tc : Thread nD τ).loc main_arg0)) := by
  rw [final29, WK_eq, XK_eq]
theorem arr30 (c : Dev nD) : (dats m 0 c).arrAt 30 cfg0.N = Spec.resETcam (WAm m c) (m ((c.tc : Thread nD τ).loc main_arg0)) := by
  rw [final30, WK_eq, XK_eq]
theorem arr31 (c : Dev nD) : (dats m 0 c).arrAt 31 cfg0.N = Spec.resEAtt (WAm m c) (m ((c.tc : Thread nD τ).loc main_arg0)) := by
  rw [final31, WK_eq, XK_eq]
theorem arr32 (c : Dev nD) : (dats m 0 c).arrAt 32 cfg0.N = Spec.resE2Tcam (WAm m c) (m ((c.tc : Thread nD τ).loc main_arg0)) := by
  rw [final32, WK_eq, XK_eq]
theorem arr33 (c : Dev nD) : (dats m 0 c).arrAt 33 cfg0.N = Spec.resE2Att (WAm m c) (m ((c.tc : Thread nD τ).loc main_arg0)) := by
  rw [final33, WK_eq, XK_eq]

/-! ## The run's post, buffer by buffer: an output array holds what the proof data compute, a buffer the host tail
writes holds the tail's result. -/

theorem post28 (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_v49_0) = (dats m 0 c).arrAt 28 cfg0.N :=
  (h c).1 28

theorem post29 (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_v49_1) = (dats m 0 c).arrAt 29 cfg0.N :=
  (h c).1 29

theorem post30 (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_v49_2) = (dats m 0 c).arrAt 30 cfg0.N :=
  (h c).1 30

theorem post31 (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_v49_3) = (dats m 0 c).arrAt 31 cfg0.N :=
  (h c).1 31

theorem post32 (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_v49_4) = (dats m 0 c).arrAt 32 cfg0.N :=
  (h c).1 32

theorem post33 (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_v49_5) = (dats m 0 c).arrAt 33 cfg0.N :=
  (h c).1 33

theorem post_main_v57 (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_v57) = Pipeline.afterTail₀ cfgs (dats m) 0 (V0 m) [hostOps1] c main_v57 :=
  (h c).2 main_v57 (Pipeline.mem_restRefs_of main_v57 (by decide) (by decide))

theorem post_main_v65 (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_v65) = Pipeline.afterTail₀ cfgs (dats m) 0 (V0 m) [hostOps1] c main_v65 :=
  (h c).2 main_v65 (Pipeline.mem_restRefs_of main_v65 (by decide) (by decide))

theorem post_main_v73 (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_v73) = Pipeline.afterTail₀ cfgs (dats m) 0 (V0 m) [hostOps1] c main_v73 :=
  (h c).2 main_v73 (Pipeline.mem_restRefs_of main_v73 (by decide) (by decide))

/-! ## The arguments end as launched: a staged input is never written back, and no other argument is written at all. -/

theorem kept_main_arg0 (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0) :=
  ((h c).1 0).trans (((dats m 0 c).arrAt_in 0 rfl _).trans ((A_eq m c 0).trans (V_main_arg0 m c)))
theorem kept_main_arg1 (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_arg1) = m ((c.tc : Thread nD τ).loc main_arg1) :=
  ((h c).2 main_arg1 (Pipeline.mem_restRefs_of main_arg1 (by decide) (by decide))).trans (W_main_arg1 m (dats m) c)
theorem kept_main_arg2 (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_arg2) = m ((c.tc : Thread nD τ).loc main_arg2) :=
  ((h c).2 main_arg2 (Pipeline.mem_restRefs_of main_arg2 (by decide) (by decide))).trans (W_main_arg2 m (dats m) c)
theorem kept_main_arg3 (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_arg3) = m ((c.tc : Thread nD τ).loc main_arg3) :=
  ((h c).2 main_arg3 (Pipeline.mem_restRefs_of main_arg3 (by decide) (by decide))).trans (W_main_arg3 m (dats m) c)
theorem kept_main_arg4 (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_arg4) = m ((c.tc : Thread nD τ).loc main_arg4) :=
  ((h c).2 main_arg4 (Pipeline.mem_restRefs_of main_arg4 (by decide) (by decide))).trans (W_main_arg4 m (dats m) c)
theorem kept_main_arg5 (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_arg5) = m ((c.tc : Thread nD τ).loc main_arg5) :=
  ((h c).2 main_arg5 (Pipeline.mem_restRefs_of main_arg5 (by decide) (by decide))).trans (W_main_arg5 m (dats m) c)
theorem kept_main_arg6 (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_arg6) = m ((c.tc : Thread nD τ).loc main_arg6) :=
  ((h c).2 main_arg6 (Pipeline.mem_restRefs_of main_arg6 (by decide) (by decide))).trans (W_main_arg6 m (dats m) c)
theorem kept_main_arg7 (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_arg7) = m ((c.tc : Thread nD τ).loc main_arg7) :=
  ((h c).2 main_arg7 (Pipeline.mem_restRefs_of main_arg7 (by decide) (by decide))).trans (W_main_arg7 m (dats m) c)
theorem kept_main_arg8 (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_arg8) = m ((c.tc : Thread nD τ).loc main_arg8) :=
  ((h c).2 main_arg8 (Pipeline.mem_restRefs_of main_arg8 (by decide) (by decide))).trans (W_main_arg8 m (dats m) c)
theorem kept_main_arg9 (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_arg9) = m ((c.tc : Thread nD τ).loc main_arg9) :=
  ((h c).2 main_arg9 (Pipeline.mem_restRefs_of main_arg9 (by decide) (by decide))).trans (W_main_arg9 m (dats m) c)
theorem kept_main_arg10 (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_arg10) = m ((c.tc : Thread nD τ).loc main_arg10) :=
  ((h c).1 9).trans (((dats m 0 c).arrAt_in 9 rfl _).trans ((A_eq m c 9).trans (V_main_arg10 m c)))
theorem kept_main_arg11 (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_arg11) = m ((c.tc : Thread nD τ).loc main_arg11) :=
  ((h c).2 main_arg11 (Pipeline.mem_restRefs_of main_arg11 (by decide) (by decide))).trans (W_main_arg11 m (dats m) c)
theorem kept_main_arg12 (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_arg12) = m ((c.tc : Thread nD τ).loc main_arg12) :=
  ((h c).2 main_arg12 (Pipeline.mem_restRefs_of main_arg12 (by decide) (by decide))).trans (W_main_arg12 m (dats m) c)
theorem kept_main_arg13 (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_arg13) = m ((c.tc : Thread nD τ).loc main_arg13) :=
  ((h c).2 main_arg13 (Pipeline.mem_restRefs_of main_arg13 (by decide) (by decide))).trans (W_main_arg13 m (dats m) c)
theorem kept_main_arg14 (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_arg14) = m ((c.tc : Thread nD τ).loc main_arg14) :=
  ((h c).2 main_arg14 (Pipeline.mem_restRefs_of main_arg14 (by decide) (by decide))).trans (W_main_arg14 m (dats m) c)
theorem kept_main_arg15 (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_arg15) = m ((c.tc : Thread nD τ).loc main_arg15) :=
  ((h c).1 14).trans (((dats m 0 c).arrAt_in 14 rfl _).trans ((A_eq m c 14).trans (V_main_arg15 m c)))
theorem kept_main_arg16 (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_arg16) = m ((c.tc : Thread nD τ).loc main_arg16) :=
  ((h c).2 main_arg16 (Pipeline.mem_restRefs_of main_arg16 (by decide) (by decide))).trans (W_main_arg16 m (dats m) c)
theorem kept_main_arg17 (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_arg17) = m ((c.tc : Thread nD τ).loc main_arg17) :=
  ((h c).2 main_arg17 (Pipeline.mem_restRefs_of main_arg17 (by decide) (by decide))).trans (W_main_arg17 m (dats m) c)
theorem kept_main_arg18 (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_arg18) = m ((c.tc : Thread nD τ).loc main_arg18) :=
  ((h c).1 17).trans (((dats m 0 c).arrAt_in 17 rfl _).trans ((A_eq m c 17).trans (V_main_arg18 m c)))
theorem kept_main_arg19 (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_arg19) = m ((c.tc : Thread nD τ).loc main_arg19) :=
  ((h c).2 main_arg19 (Pipeline.mem_restRefs_of main_arg19 (by decide) (by decide))).trans (W_main_arg19 m (dats m) c)

/-- The run with the nine results named, in the order the claim pairs them, and the arguments unchanged. -/
theorem run : θ_run defs (onTc (τ := τ) (main (F := Ideal))) ⟨m, fun _ => 0, ρ⟩ fun r => ∀ c : Dev nD,
      r.2.mem ((c.tc : Thread nD τ).loc main_v57) = Spec.resX (WAm m c) (m ((c.tc : Thread nD τ).loc main_arg0))
      ∧ r.2.mem ((c.tc : Thread nD τ).loc main_v49_0) = Spec.resFeat (WAm m c) (m ((c.tc : Thread nD τ).loc main_arg0))
      ∧ r.2.mem ((c.tc : Thread nD τ).loc main_v49_1) = Spec.resTcam (WAm m c) (m ((c.tc : Thread nD τ).loc main_arg0))
      ∧ r.2.mem ((c.tc : Thread nD τ).loc main_v65) = Spec.resEX (WAm m c) (m ((c.tc : Thread nD τ).loc main_arg0))
      ∧ r.2.mem ((c.tc : Thread nD τ).loc main_v49_2) = Spec.resETcam (WAm m c) (m ((c.tc : Thread nD τ).loc main_arg0))
      ∧ r.2.mem ((c.tc : Thread nD τ).loc main_v49_3) = Spec.resEAtt (WAm m c) (m ((c.tc : Thread nD τ).loc main_arg0))
      ∧ r.2.mem ((c.tc : Thread nD τ).loc main_v73) = Spec.resE2X (WAm m c) (m ((c.tc : Thread nD τ).loc main_arg0))
      ∧ r.2.mem ((c.tc : Thread nD τ).loc main_v49_4) = Spec.resE2Tcam (WAm m c) (m ((c.tc : Thread nD τ).loc main_arg0))
      ∧ r.2.mem ((c.tc : Thread nD τ).loc main_v49_5) = Spec.resE2Att (WAm m c) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun r h c => ⟨
      (post_main_v57 m r h c).trans (res57 m c),
      (post28 m r h c).trans (arr28 m c),
      (post29 m r h c).trans (arr29 m c),
      (post_main_v65 m r h c).trans (res65 m c),
      (post30 m r h c).trans (arr30 m c),
      (post31 m r h c).trans (arr31 m c),
      (post_main_v73 m r h c).trans (res73 m c),
      (post32 m r h c).trans (arr32 m c),
      (post33 m r h c).trans (arr33 m c),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c,
      kept_main_arg17 m r h c,
      kept_main_arg18 m r h c,
      kept_main_arg19 m r h c⟩) (run_main m ρ)

end Cert.KernelIdeal.Hand

end
-- ==== Proof.RefStageA.lean ====
/-
  The reference's first stage read at one element: the residual embedding, the gate, the gated features, the class
  activations, and the logistic of their column sums. Each [32768, ·] array is, at row `T`, the specification's function
  of row `T` of the input; the weights are whatever the argument arrays hold (hypotheses `h…`: the reference multiplies by
  the TRANSPOSED weight matrices, so argument element (j, k) is weight (k, j)).
-/
import proofs.«424737_j11321533792616_2_alg».proof.Proof.RefRead
import proofs.«424737_j11321533792616_2_alg».proof.Proof.Spec
import proofs.«424737_j11321533792616_2_alg».proof.Proof.LibRows
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

noncomputable section

namespace Cert.ReferenceIdeal.Stages

open Idealize.ShloMosaic Idealize.ShloMosaic.ValueIdx Cert.ReferenceIdeal Cert.ReferenceIdeal.ReadP Cert.LibRows

/-! ## Words -/

/-- The word `0x3F800000` is the real `1`. -/
private theorem one_word : Ideal.ofBits .f32 0x3F800000#32 = 1 := IdealRules.sign_bit.ideal_onePat .f32

/-- The logistic as the reference spells it: `1 / (1 + e^(-s))` with both ones given as words. -/
private theorem sig_words (s : EReal) :
    Ideal.div (Ideal.ofBits .f32 0x3F800000#32) (Ideal.ofBits .f32 0x3F800000#32 + Ideal.exp (-s)) = Spec.sig s := by
  rw [one_word]; rfl

/-! ## Where each layout operation and each contraction reads, at row `T` -/

private theorem lidx1 (T : Fin 32768) (i : Fin 512) (k : Fin 1024) : lidx_main_v1 (ix2 T i) k = ix2 T k := funext fun a => Fin.ext (by match a with | ⟨0, _⟩ => rfl | ⟨1, _⟩ => rfl)
private theorem ridx1 (T : Fin 32768) (i : Fin 512) (k : Fin 1024) : idx_main_v0 (ridx_main_v1 (ix2 T i) k) = ix2 i k := funext fun a => Fin.ext (by match a with | ⟨0, _⟩ => rfl | ⟨1, _⟩ => rfl)
private theorem bidx3 (T : Fin 32768) (i : Fin 512) : idx_main_v2 (idx_main_v3 (ix2 T i)) = ix1 i := funext fun a => Fin.ext (by match a with | ⟨0, _⟩ => rfl)

private theorem lidx7 (T : Fin 32768) (j : Fin 512) (k : Fin 512) : lidx_main_v7 (ix2 T j) k = ix2 T k := funext fun a => Fin.ext (by match a with | ⟨0, _⟩ => rfl | ⟨1, _⟩ => rfl)
private theorem ridx7 (T : Fin 32768) (j : Fin 512) (k : Fin 512) : idx_main_v6 (ridx_main_v7 (ix2 T j) k) = ix2 j k := funext fun a => Fin.ext (by match a with | ⟨0, _⟩ => rfl | ⟨1, _⟩ => rfl)
private theorem bidx9 (T : Fin 32768) (j : Fin 512) : idx_main_v8 (idx_main_v9 (ix2 T j)) = ix1 j := funext fun a => Fin.ext (by match a with | ⟨0, _⟩ => rfl)

private theorem lidx13 (T : Fin 32768) (d : Fin 1024) (k : Fin 512) : lidx_main_v13 (ix2 T d) k = ix2 T k := funext fun a => Fin.ext (by match a with | ⟨0, _⟩ => rfl | ⟨1, _⟩ => rfl)
private theorem ridx13 (T : Fin 32768) (d : Fin 1024) (k : Fin 512) : idx_main_v12 (ridx_main_v13 (ix2 T d) k) = ix2 d k := funext fun a => Fin.ext (by match a with | ⟨0, _⟩ => rfl | ⟨1, _⟩ => rfl)
private theorem bidx15 (T : Fin 32768) (d : Fin 1024) : idx_main_v14 (idx_main_v15 (ix2 T d)) = ix1 d := funext fun a => Fin.ext (by match a with | ⟨0, _⟩ => rfl)

private theorem lidx20 (T : Fin 32768) (j : Fin 256) (k : Fin 1024) : lidx_main_v20 (ix2 T j) k = ix2 T k := funext fun a => Fin.ext (by match a with | ⟨0, _⟩ => rfl | ⟨1, _⟩ => rfl)
private theorem ridx20 (T : Fin 32768) (j : Fin 256) (k : Fin 1024) : idx_main_v19 (ridx_main_v20 (ix2 T j) k) = ix2 j k := funext fun a => Fin.ext (by match a with | ⟨0, _⟩ => rfl | ⟨1, _⟩ => rfl)
private theorem bidx22 (T : Fin 32768) (j : Fin 256) : idx_main_v21 (idx_main_v22 (ix2 T j)) = ix1 j := funext fun a => Fin.ext (by match a with | ⟨0, _⟩ => rfl)

private theorem lidx26 (T : Fin 32768) (u : Fin 1) (k : Fin 256) : lidx_main_v26 (ix2 T u) k = ix2 T k := funext fun a => Fin.ext (by match a with | ⟨0, _⟩ => rfl | ⟨1, _⟩ => rfl)
private theorem ridx26 (T : Fin 32768) (k : Fin 256) : idx_main_v25 (ridx_main_v26 (ix2 T (0 : Fin 1)) k) = ix2 (0 : Fin 1) k := funext fun a => Fin.ext (by match a with | ⟨0, _⟩ => rfl | ⟨1, _⟩ => rfl)
private theorem bidx28 (T : Fin 32768) (u : Fin 1) : idx_main_v27 (idx_main_v28 (ix2 T u)) = ix1 (0 : Fin 1) := funext fun a => Fin.ext (by match a with | ⟨0, _⟩ => rfl)
private theorem bidx36 (T : Fin 32768) (d : Fin 1024) : idx_main_v36 (ix2 T d) = ix2 T (0 : Fin 1) := funext fun a => Fin.ext (by match a with | ⟨0, _⟩ => rfl | ⟨1, _⟩ => rfl)

private theorem lidx39 (T : Fin 32768) (c : Fin 20) (k : Fin 1024) : lidx_main_v39 (ix2 T c) k = ix2 T k := funext fun a => Fin.ext (by match a with | ⟨0, _⟩ => rfl | ⟨1, _⟩ => rfl)
private theorem ridx39 (T : Fin 32768) (c : Fin 20) (k : Fin 1024) : idx_main_v38 (ridx_main_v39 (ix2 T c) k) = ix2 c k := funext fun a => Fin.ext (by match a with | ⟨0, _⟩ => rfl | ⟨1, _⟩ => rfl)
private theorem bidx41 (T : Fin 32768) (c : Fin 20) : idx_main_v40 (idx_main_v41 (ix2 T c)) = ix1 c := funext fun a => Fin.ext (by match a with | ⟨0, _⟩ => rfl)
private theorem ridx43 (c : Fin 20) (T : Fin 32768) : idx_main_v43 (ix1 c) T = ix2 T c := funext fun a => Fin.ext (by match a with | ⟨0, _⟩ => rfl | ⟨1, _⟩ => rfl)

/-! ## The three hidden layers of the embedding, one relu layer at a time -/

/-- The first hidden layer: row `T`, lane `i` of `relu (x·W₀ᵀ + b₀)`. -/
private theorem v5_row (W : Spec.Wts) (x0 : (⟨S32768x1024, .f32⟩ : BufTy).Contents (Elt Ideal)) (x2 : (⟨S512x1024, .f32⟩ : BufTy).Contents (Elt Ideal)) (x3 : (⟨S512, .f32⟩ : BufTy).Contents (Elt Ideal))
    (h2 : ∀ (k : Fin 1024) (j : Fin 512), x2 (ix2 j k) = W.w0 k j) (h3 : ∀ j : Fin 512, x3 (ix1 j) = W.b0 j)
    (T : Fin 32768) (i : Fin 512) :
    val_main_v5 (F := Ideal) x0 x2 x3 (ix2 T i) = Spec.h0 W (fun k => x0 (ix2 T k)) i := by
  rw [val_main_v5_apply, val_main_v4_apply, val_main_v1_apply, val_main_v3_apply, val_main_v2_apply,
    val_main_call0_v0_apply, val_main_call0_cst_apply]
  simp only [val_main_v0_apply, lidx1, ridx1, bidx3, h2, h3, Ideal.addf_def, Ideal.mulf_def, Ideal.maximumf_def, Ideal.ofBits_def]
  rfl

/-- The second hidden layer: row `T`, lane `j` of `relu (h₀·W₁ᵀ + b₁)`. -/
private theorem v11_row (W : Spec.Wts) (x0 : (⟨S32768x1024, .f32⟩ : BufTy).Contents (Elt Ideal)) (x2 : (⟨S512x1024, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal))
    (h2 : ∀ (k : Fin 1024) (j : Fin 512), x2 (ix2 j k) = W.w0 k j) (h3 : ∀ j : Fin 512, x3 (ix1 j) = W.b0 j)
    (h4 : ∀ (k : Fin 512) (j : Fin 512), x4 (ix2 j k) = W.w1 k j) (h5 : ∀ j : Fin 512, x5 (ix1 j) = W.b1 j)
    (T : Fin 32768) (j : Fin 512) :
    val_main_v11 (F := Ideal) x0 x2 x3 x4 x5 (ix2 T j) = Spec.h1 W (fun k => x0 (ix2 T k)) j := by
  rw [val_main_v11_apply, val_main_v10_apply, val_main_v7_apply, val_main_v9_apply, val_main_v8_apply,
    val_main_call1_v0_apply, val_main_call1_cst_apply]
  simp only [val_main_v6_apply, lidx7, ridx7, bidx9, v5_row W x0 x2 x3 h2 h3, h4, h5, Ideal.addf_def, Ideal.mulf_def, Ideal.maximumf_def, Ideal.ofBits_def]
  rfl

/-- The third hidden layer: row `T`, lane `d` of `relu (h₁·W₂ᵀ + b₂)`. -/
private theorem v17_row (W : Spec.Wts) (x0 : (⟨S32768x1024, .f32⟩ : BufTy).Contents (Elt Ideal)) (x2 : (⟨S512x1024, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal)) (x6 : (⟨S1024x512, .f32⟩ : BufTy).Contents (Elt Ideal)) (x7 : (⟨S1024, .f32⟩ : BufTy).Contents (Elt Ideal))
    (h2 : ∀ (k : Fin 1024) (j : Fin 512), x2 (ix2 j k) = W.w0 k j) (h3 : ∀ j : Fin 512, x3 (ix1 j) = W.b0 j)
    (h4 : ∀ (k : Fin 512) (j : Fin 512), x4 (ix2 j k) = W.w1 k j) (h5 : ∀ j : Fin 512, x5 (ix1 j) = W.b1 j)
    (h6 : ∀ (k : Fin 512) (j : Fin 1024), x6 (ix2 j k) = W.w2 k j) (h7 : ∀ j : Fin 1024, x7 (ix1 j) = W.b2 j)
    (T : Fin 32768) (d : Fin 1024) :
    val_main_v17 (F := Ideal) x0 x2 x3 x4 x5 x6 x7 (ix2 T d) = Spec.h2 W (fun k => x0 (ix2 T k)) d := by
  rw [val_main_v17_apply, val_main_v16_apply, val_main_v13_apply, val_main_v15_apply, val_main_v14_apply,
    val_main_call2_v0_apply, val_main_call2_cst_apply]
  simp only [val_main_v12_apply, lidx13, ridx13, bidx15, v11_row W x0 x2 x3 x4 x5 h2 h3 h4 h5, h6, h7, Ideal.addf_def, Ideal.mulf_def, Ideal.maximumf_def, Ideal.ofBits_def]
  rfl

/-- The residual embedding: row `T`, lane `d` of `relu (relu (relu (x·W₀ᵀ + b₀)·W₁ᵀ + b₁)·W₂ᵀ + b₂) + x`. -/
theorem feat_apply (W : Spec.Wts) (x0 : (⟨S32768x1024, .f32⟩ : BufTy).Contents (Elt Ideal)) (x2 : (⟨S512x1024, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal)) (x6 : (⟨S1024x512, .f32⟩ : BufTy).Contents (Elt Ideal)) (x7 : (⟨S1024, .f32⟩ : BufTy).Contents (Elt Ideal))
    (h2 : ∀ (k : Fin 1024) (j : Fin 512), x2 (ix2 j k) = W.w0 k j) (h3 : ∀ j : Fin 512, x3 (ix1 j) = W.b0 j)
    (h4 : ∀ (k : Fin 512) (j : Fin 512), x4 (ix2 j k) = W.w1 k j) (h5 : ∀ j : Fin 512, x5 (ix1 j) = W.b1 j)
    (h6 : ∀ (k : Fin 512) (j : Fin 1024), x6 (ix2 j k) = W.w2 k j) (h7 : ∀ j : Fin 1024, x7 (ix1 j) = W.b2 j)
    (T : Fin 32768) (d : Fin 1024) :
    val_main_v18 (F := Ideal) x0 x2 x3 x4 x5 x6 x7 (ix2 T d) = Spec.feat W (fun k => x0 (ix2 T k)) d := by
  rw [val_main_v18_apply, v17_row W x0 x2 x3 x4 x5 x6 x7 h2 h3 h4 h5 h6 h7]
  rfl

/-! ## The gate -/

/-- The gate's hidden layer: row `T`, lane `j` of `relu (f·Wf₁ᵀ + bf₁)`. -/
private theorem v24_row (W : Spec.Wts) (x0 : (⟨S32768x1024, .f32⟩ : BufTy).Contents (Elt Ideal)) (x2 : (⟨S512x1024, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal)) (x6 : (⟨S1024x512, .f32⟩ : BufTy).Contents (Elt Ideal)) (x7 : (⟨S1024, .f32⟩ : BufTy).Contents (Elt Ideal)) (x8 : (⟨S256x1024, .f32⟩ : BufTy).Contents (Elt Ideal)) (x9 : (⟨S256, .f32⟩ : BufTy).Contents (Elt Ideal))
    (f : Fin 32768 → Fin 1024 → EReal) (hf : ∀ (T : Fin 32768) (d : Fin 1024), val_main_v18 (F := Ideal) x0 x2 x3 x4 x5 x6 x7 (ix2 T d) = f T d)
    (h8 : ∀ (k : Fin 1024) (j : Fin 256), x8 (ix2 j k) = W.wf1 k j) (h9 : ∀ j : Fin 256, x9 (ix1 j) = W.bf1 j)
    (T : Fin 32768) (j : Fin 256) :
    val_main_v24 (F := Ideal) x0 x2 x3 x4 x5 x6 x7 x8 x9 (ix2 T j) = Spec.attH W (f T) j := by
  rw [val_main_v24_apply, val_main_v23_apply, val_main_v20_apply, val_main_v22_apply, val_main_v21_apply,
    val_main_call3_v0_apply, val_main_call3_cst_apply]
  simp only [val_main_v19_apply, lidx20, ridx20, bidx22, hf, h8, h9, Ideal.addf_def, Ideal.mulf_def, Ideal.maximumf_def, Ideal.ofBits_def]
  rfl

/-- The gate: row `T` of the `[32768, 1]` column `σ (relu (f·Wf₁ᵀ + bf₁)·wf₂ᵀ + bf₂)`. -/
private theorem v35_row (W : Spec.Wts) (x0 : (⟨S32768x1024, .f32⟩ : BufTy).Contents (Elt Ideal)) (x2 : (⟨S512x1024, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal)) (x6 : (⟨S1024x512, .f32⟩ : BufTy).Contents (Elt Ideal)) (x7 : (⟨S1024, .f32⟩ : BufTy).Contents (Elt Ideal)) (x8 : (⟨S256x1024, .f32⟩ : BufTy).Contents (Elt Ideal)) (x9 : (⟨S256, .f32⟩ : BufTy).Contents (Elt Ideal)) (x10 : (⟨S1x256, .f32⟩ : BufTy).Contents (Elt Ideal)) (x11 : (⟨S1, .f32⟩ : BufTy).Contents (Elt Ideal))
    (f : Fin 32768 → Fin 1024 → EReal) (hf : ∀ (T : Fin 32768) (d : Fin 1024), val_main_v18 (F := Ideal) x0 x2 x3 x4 x5 x6 x7 (ix2 T d) = f T d)
    (h8 : ∀ (k : Fin 1024) (j : Fin 256), x8 (ix2 j k) = W.wf1 k j) (h9 : ∀ j : Fin 256, x9 (ix1 j) = W.bf1 j)
    (h10 : ∀ k : Fin 256, x10 (ix2 (0 : Fin 1) k) = W.wf2 k) (h11 : x11 (ix1 (0 : Fin 1)) = W.bf2)
    (T : Fin 32768) :
    val_main_v35 (F := Ideal) x0 x2 x3 x4 x5 x6 x7 x8 x9 x10 x11 (ix2 T (0 : Fin 1)) = Spec.att W (f T) := by
  rw [val_main_v35_apply, val_main_v34_apply, val_main_cst_0_apply, val_main_v33_apply, val_main_v32_apply,
    val_main_cst_apply, val_main_v31_apply, val_main_v30_apply, val_main_v29_apply, val_main_v26_apply,
    val_main_v28_apply, val_main_v27_apply]
  simp only [val_main_v25_apply, lidx26, ridx26, bidx28, v24_row W x0 x2 x3 x4 x5 x6 x7 x8 x9 f hf h8 h9, h10, h11,
    Ideal.hostDivf_def, Ideal.hostUnary_exp_def, Ideal.hostNegf_def, Ideal.negf_def, Ideal.addf_def, Ideal.mulf_def, Ideal.maximumf_def, Ideal.ofBits_def]
  exact sig_words _

/-- The gated features, given the features `f` (what `val_main_v18` is, row by row). -/
theorem gated_apply (W : Spec.Wts) (x0 : (⟨S32768x1024, .f32⟩ : BufTy).Contents (Elt Ideal)) (x2 : (⟨S512x1024, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal)) (x6 : (⟨S1024x512, .f32⟩ : BufTy).Contents (Elt Ideal)) (x7 : (⟨S1024, .f32⟩ : BufTy).Contents (Elt Ideal)) (x8 : (⟨S256x1024, .f32⟩ : BufTy).Contents (Elt Ideal)) (x9 : (⟨S256, .f32⟩ : BufTy).Contents (Elt Ideal)) (x10 : (⟨S1x256, .f32⟩ : BufTy).Contents (Elt Ideal)) (x11 : (⟨S1, .f32⟩ : BufTy).Contents (Elt Ideal))
    (f : Fin 32768 → Fin 1024 → EReal) (hf : ∀ (T : Fin 32768) (d : Fin 1024), val_main_v18 (F := Ideal) x0 x2 x3 x4 x5 x6 x7 (ix2 T d) = f T d)
    (h8 : ∀ (k : Fin 1024) (j : Fin 256), x8 (ix2 j k) = W.wf1 k j) (h9 : ∀ j : Fin 256, x9 (ix1 j) = W.bf1 j)
    (h10 : ∀ k : Fin 256, x10 (ix2 (0 : Fin 1) k) = W.wf2 k) (h11 : x11 (ix1 (0 : Fin 1)) = W.bf2)
    (T : Fin 32768) (d : Fin 1024) :
    val_main_v37 (F := Ideal) x0 x2 x3 x4 x5 x6 x7 x8 x9 x10 x11 (ix2 T d) = Spec.gated W (f T) d := by
  rw [val_main_v37_apply, val_main_v36_apply, bidx36, v35_row W x0 x2 x3 x4 x5 x6 x7 x8 x9 x10 x11 f hf h8 h9 h10 h11, hf]
  rfl

/-- The class activations, given the features. -/
theorem tcam_apply (W : Spec.Wts) (x0 : (⟨S32768x1024, .f32⟩ : BufTy).Contents (Elt Ideal)) (x2 : (⟨S512x1024, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal)) (x6 : (⟨S1024x512, .f32⟩ : BufTy).Contents (Elt Ideal)) (x7 : (⟨S1024, .f32⟩ : BufTy).Contents (Elt Ideal)) (x8 : (⟨S256x1024, .f32⟩ : BufTy).Contents (Elt Ideal)) (x9 : (⟨S256, .f32⟩ : BufTy).Contents (Elt Ideal)) (x10 : (⟨S1x256, .f32⟩ : BufTy).Contents (Elt Ideal)) (x11 : (⟨S1, .f32⟩ : BufTy).Contents (Elt Ideal)) (x12 : (⟨S20x1024, .f32⟩ : BufTy).Contents (Elt Ideal)) (x13 : (⟨S20, .f32⟩ : BufTy).Contents (Elt Ideal))
    (f : Fin 32768 → Fin 1024 → EReal) (hf : ∀ (T : Fin 32768) (d : Fin 1024), val_main_v18 (F := Ideal) x0 x2 x3 x4 x5 x6 x7 (ix2 T d) = f T d)
    (h8 : ∀ (k : Fin 1024) (j : Fin 256), x8 (ix2 j k) = W.wf1 k j) (h9 : ∀ j : Fin 256, x9 (ix1 j) = W.bf1 j)
    (h10 : ∀ k : Fin 256, x10 (ix2 (0 : Fin 1) k) = W.wf2 k) (h11 : x11 (ix1 (0 : Fin 1)) = W.bf2)
    (h12 : ∀ (k : Fin 1024) (c : Fin 20), x12 (ix2 c k) = W.wc1 k c) (h13 : ∀ c : Fin 20, x13 (ix1 c) = W.bc1 c)
    (T : Fin 32768) (c : Fin 20) :
    val_main_v42 (F := Ideal) x0 x2 x3 x4 x5 x6 x7 x8 x9 x10 x11 x12 x13 (ix2 T c) = Spec.tcam W (f T) c := by
  rw [val_main_v42_apply, val_main_v39_apply, val_main_v41_apply, val_main_v40_apply]
  simp only [val_main_v38_apply, lidx39, ridx39, bidx41,
    gated_apply W x0 x2 x3 x4 x5 x6 x7 x8 x9 x10 x11 f hf h8 h9 h10 h11, h12, h13, Ideal.addf_def, Ideal.mulf_def, Ideal.maximumf_def, Ideal.ofBits_def]
  rfl

/-- The first [20] result: the logistic of each class activation's sum over all rows, given the activations `A`. -/
theorem x_apply (x0 : (⟨S32768x1024, .f32⟩ : BufTy).Contents (Elt Ideal)) (x2 : (⟨S512x1024, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal)) (x6 : (⟨S1024x512, .f32⟩ : BufTy).Contents (Elt Ideal)) (x7 : (⟨S1024, .f32⟩ : BufTy).Contents (Elt Ideal)) (x8 : (⟨S256x1024, .f32⟩ : BufTy).Contents (Elt Ideal)) (x9 : (⟨S256, .f32⟩ : BufTy).Contents (Elt Ideal)) (x10 : (⟨S1x256, .f32⟩ : BufTy).Contents (Elt Ideal)) (x11 : (⟨S1, .f32⟩ : BufTy).Contents (Elt Ideal)) (x12 : (⟨S20x1024, .f32⟩ : BufTy).Contents (Elt Ideal)) (x13 : (⟨S20, .f32⟩ : BufTy).Contents (Elt Ideal))
    (A : Fin 32768 → Fin 20 → EReal) (hA : ∀ (T : Fin 32768) (c : Fin 20), val_main_v42 (F := Ideal) x0 x2 x3 x4 x5 x6 x7 x8 x9 x10 x11 x12 x13 (ix2 T c) = A T c)
    (c : Fin 20) :
    val_main_v49 (F := Ideal) x0 x2 x3 x4 x5 x6 x7 x8 x9 x10 x11 x12 x13 (ix1 c) = Spec.colSig A c := by
  rw [val_main_v49_apply, val_main_v48_apply, val_main_cst_3_apply, val_main_v47_apply, val_main_v46_apply,
    val_main_cst_2_apply, val_main_v45_apply, val_main_v44_apply, val_main_v43_apply, val_main_cst_1_apply]
  simp only [ridx43, hA, Ideal.hostDivf_def, Ideal.hostUnary_exp_def, Ideal.hostNegf_def, Ideal.negf_def,
    Ideal.addf_def, Ideal.ofBits_def, Ideal.ofBits_zero_f32, zero_add]
  exact sig_words _

end Cert.ReferenceIdeal.Stages

end
-- ==== Proof.RefStageB.lean ====
/-
  The reference's second stage read at one element: the class activations gathered at the three labels and their
  maximum, the first erasure, the second gate, the re-gated features, the second class activations and the logistic
  of their column sums. The labels are non-negative (the precondition): a non-negative label is not wrapped, and the
  gather clamps it into the twenty classes.
-/
import proofs.«424737_j11321533792616_2_alg».proof.Proof.RefRead
import proofs.«424737_j11321533792616_2_alg».proof.Proof.Spec
import proofs.«424737_j11321533792616_2_alg».proof.Proof.LibRows
import proofs.«424737_j11321533792616_2_alg».proof.Proof.Results
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

noncomputable section

namespace Cert.ReferenceIdeal.Stages

open Idealize.ShloMosaic Idealize.ShloMosaic.ValueIdx Cert.ReferenceIdeal Cert.ReferenceIdeal.ReadP Cert.LibRows

/-! ## Words and the logistic -/

/-- A non-negative label is not wrapped: read signed it is not below zero, so the selection keeps the label itself. -/
private theorem wrap_nonneg (a : BitVec 32) (ha : 0 ≤ a.toInt) :
    Scalar.select (IntOp.cmpi .slt a 0#32) (IntOp.addi a 20#32) a = a := by
  have h0 : (0#32 : BitVec 32).toInt = 0 := by decide
  have hs : a.slt 0#32 = false := by
    unfold BitVec.slt; rw [h0]; exact decide_eq_false (by omega)
  unfold Scalar.select IntOp.cmpi
  simp only [hs]
  rfl

/-- The word of `1.0` is the real one. -/
private theorem one_word : Ideal.ofBits .f32 0x3F800000#32 = (1 : EReal) := by
  simp [Ideal.ofBits, Ideal.ieee, -EReal.coe_mul]
  norm_num

/-- The word of `-∞` is the bottom element. -/
private theorem bot_word : Ideal.ofBits .f32 0xFF800000#32 = (⊥ : EReal) := by
  simp [Ideal.ofBits, Ideal.ieee]

/-- The reference's logistic, spelt as one over one plus the exponential of the negation, is the logistic. -/
private theorem logistic_ops (s : EReal) :
    Ideal.div (Ideal.ofBits .f32 0x3F800000#32) (Ideal.ofBits .f32 0x3F800000#32 + Ideal.exp (-s)) = Spec.sig s := by
  rw [one_word]; rfl

/-! ## The gather of the class activations at the three labels

At result index (T, j) the gather reads operand row T (the offset axis) and the column given by the j-th start index,
read signed and clamped into the twenty columns. The operand index is computed one axis at a time. -/

/-- On the row axis: no start index, no batching; the offset coordinate is the result's row. -/
private theorem gather_axis0 {w : Nat} (idx : IVec S3x1 w) (T : Fin 32768) (j : Fin 3) :
    (gather_S32768x20_S3x1_S32768x3_0_1_n_n_1_1_327681.operandIdx (ix2 T j) idx 0).val = T.val := by
  have hb : (0 : Fin S32768x20.rank) ∉ gather_S32768x20_S3x1_S32768x3_0_1_n_n_1_1_327681.operandBatchingDims := by decide
  have hm : (0 : Fin S32768x20.rank) ∉ gather_S32768x20_S3x1_S32768x3_0_1_n_n_1_1_327681.startIndexMap := by decide
  have hk : (0 : Fin S32768x20.rank) ∈ gather_S32768x20_S3x1_S32768x3_0_1_n_n_1_1_327681.sKept := by decide
  show gather_S32768x20_S3x1_S32768x3_0_1_n_n_1_1_327681.start (ix2 T j) idx 0
      + gather_S32768x20_S3x1_S32768x3_0_1_n_n_1_1_327681.batchCoord (ix2 T j) 0
      + gather_S32768x20_S3x1_S32768x3_0_1_n_n_1_1_327681.offCoord (ix2 T j) 0 = T.val
  rw [GatherDims.batchCoord_eq_zero _ _ _ hb, Nat.add_zero]
  have hs : gather_S32768x20_S3x1_S32768x3_0_1_n_n_1_1_327681.start (ix2 T j) idx 0 = 0 := by
    unfold GatherDims.start; rw [dif_neg hm]
  rw [hs, Nat.zero_add]
  unfold GatherDims.offCoord
  rw [dif_pos hk]
  rfl

/-- On the column axis: the clamped start index of the result's column `j`; the axis is collapsed and not batching. -/
private theorem gather_axis1 {w : Nat} (idx : IVec S3x1 w) (T : Fin 32768) (j : Fin 3) :
    (gather_S32768x20_S3x1_S32768x3_0_1_n_n_1_1_327681.operandIdx (ix2 T j) idx 1).val
      = min (idx (ix2 j (0 : Fin 1))).toInt.toNat 19 := by
  have hb : (1 : Fin S32768x20.rank) ∉ gather_S32768x20_S3x1_S32768x3_0_1_n_n_1_1_327681.operandBatchingDims := by decide
  have hk : (1 : Fin S32768x20.rank) ∉ gather_S32768x20_S3x1_S32768x3_0_1_n_n_1_1_327681.sKept := by decide
  have hm : (1 : Fin S32768x20.rank) ∈ gather_S32768x20_S3x1_S32768x3_0_1_n_n_1_1_327681.startIndexMap := by decide
  show gather_S32768x20_S3x1_S32768x3_0_1_n_n_1_1_327681.start (ix2 T j) idx 1
      + gather_S32768x20_S3x1_S32768x3_0_1_n_n_1_1_327681.batchCoord (ix2 T j) 1
      + gather_S32768x20_S3x1_S32768x3_0_1_n_n_1_1_327681.offCoord (ix2 T j) 1 = _
  rw [GatherDims.batchCoord_eq_zero _ _ _ hb, GatherDims.offCoord_eq_zero _ _ _ hk, Nat.add_zero]
  unfold GatherDims.start
  rw [dif_pos hm]
  have hsi : gather_S32768x20_S3x1_S32768x3_0_1_n_n_1_1_327681.siIdx (ix2 T j)
      ⟨gather_S32768x20_S3x1_S32768x3_0_1_n_n_1_1_327681.startIndexMap.idxOf 1, List.idxOf_lt_length_iff.2 hm⟩
        = ix2 j (0 : Fin 1) := by
    funext b
    apply Fin.ext
    match b with
    | ⟨0, _⟩ => rfl
    | ⟨1, _⟩ => rfl
  rw [hsi]
  rfl

/-- The gather at (T, j): row T of the operand at the j-th start index, read signed and clamped into the twenty columns. -/
private theorem gather_row {α : Type} {w : Nat} (x : S32768x20.Idx → α) (idx : IVec S3x1 w) (T : Fin 32768) (j : Fin 3) :
    Host.gather gather_S32768x20_S3x1_S32768x3_0_1_n_n_1_1_327681 x idx (ix2 T j)
      = x (ix2 T (⟨min (idx (ix2 j (0 : Fin 1))).toInt.toNat 19, by omega⟩ : Fin 20)) := by
  unfold Host.gather
  refine congrArg x (funext fun a => Fin.ext ?_)
  match a with
  | ⟨0, _⟩ => exact gather_axis0 idx T j
  | ⟨1, _⟩ => exact gather_axis1 idx T j

/-! ## The maximum over the three gathered columns -/

/-- Row `T` of the reduced array with column `k` put back is (T, k). -/
private theorem lift_row (h : S32768x3.Reduces [1] S32768) (T : Fin 32768) (k : Fin (S32768x3.size 1)) :
    h.lift (ix1 T) k = ix2 T (⟨k.val, k.isLt⟩ : Fin 3) := by
  funext c; apply Fin.ext
  match c with
  | ⟨0, _⟩ => rfl
  | ⟨1, _⟩ => rfl

/-- From the bottom element, the reduce with a maximum body over the three columns is, at row `T`, their nested maximum. -/
private theorem reduce_max_row (x : FVec Ideal S32768x3 .f32) (init : FVec Ideal S_ .f32)
    (hinit : ∀ i, init i = (⊥ : EReal)) (T : Fin 32768) :
    Host.reduce (FloatOps.maximumf (F := Ideal) (φ := .f32)) x init Facts₀.reducesTo_S32768x3_S32768_d1 Facts₀.h_S_ (ix1 T)
      = max (max (x (ix2 T 0)) (x (ix2 T 1))) (x (ix2 T 2)) := by
  have h : S32768x3.Reduces [1] S32768 := by decide
  rw [Host.reduce_eq_fold_single (FloatOps.maximumf (F := Ideal) (φ := .f32)) x _ Facts₀.reducesTo_S32768x3_S32768_d1 h Facts₀.h_S_, hinit]
  have hf : (x ∘ h.lift (ix1 T)) = fun k : Fin 3 => x (ix2 T k) := funext fun k => congrArg x (lift_row h T k)
  refine Eq.trans (congrArg (fun f => Finset.fold max (⊥ : EReal) f (Finset.univ : Finset (Fin 3))) hf) ?_
  exact fold_max_three _

/-- The maximum over the three labels of row `T`'s class activations `A T` (what `val_main_v42` is). -/
theorem sel1_apply (x0 : (⟨S32768x1024, .f32⟩ : BufTy).Contents (Elt Ideal)) (x1 : (⟨S3, .i32⟩ : BufTy).Contents (Elt Ideal)) (x2 : (⟨S512x1024, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal)) (x6 : (⟨S1024x512, .f32⟩ : BufTy).Contents (Elt Ideal)) (x7 : (⟨S1024, .f32⟩ : BufTy).Contents (Elt Ideal)) (x8 : (⟨S256x1024, .f32⟩ : BufTy).Contents (Elt Ideal)) (x9 : (⟨S256, .f32⟩ : BufTy).Contents (Elt Ideal)) (x10 : (⟨S1x256, .f32⟩ : BufTy).Contents (Elt Ideal)) (x11 : (⟨S1, .f32⟩ : BufTy).Contents (Elt Ideal)) (x12 : (⟨S20x1024, .f32⟩ : BufTy).Contents (Elt Ideal)) (x13 : (⟨S20, .f32⟩ : BufTy).Contents (Elt Ideal))
    (hlab : ∀ j : Fin 3, 0 ≤ (x1 (ix1 j)).toInt)
    (A : Fin 32768 → Fin 20 → EReal) (hA : ∀ (T : Fin 32768) (c : Fin 20), val_main_v42 (F := Ideal) x0 x2 x3 x4 x5 x6 x7 x8 x9 x10 x11 x12 x13 (ix2 T c) = A T c)
    (T : Fin 32768) :
    val_main_v57 (F := Ideal) x0 x1 x2 x3 x4 x5 x6 x7 x8 x9 x10 x11 x12 x13 (ix1 T) = max (max (A T (Spec.lab x1 0)) (A T (Spec.lab x1 1))) (A T (Spec.lab x1 2)) := by
  -- a non-negative label passes the wrap unchanged
  have hlabel : ∀ j : Fin 3, val_main_v55 (F := Ideal) x1 (ix2 j (0 : Fin 1)) = x1 (ix1 j) := by
    intro j
    rw [val_main_v55_apply, show idx_main_v55 (ix2 j (0 : Fin 1)) = ix1 j from funext fun a => Fin.ext (by match a with | ⟨0, _⟩ => rfl),
      val_main_v54_apply, val_main_v51_apply, val_main_v53_apply, val_main_v50_apply, val_main_v52_apply,
      val_main_c_apply, val_main_c_4_apply]
    exact wrap_nonneg _ (hlab j)
  -- the gathered column j of row T is the class activation at the j-th label
  have hg : ∀ j : Fin 3, val_main_v56 (F := Ideal) x0 x1 x2 x3 x4 x5 x6 x7 x8 x9 x10 x11 x12 x13 (ix2 T j) = A T (Spec.lab x1 j) := by
    intro j
    unfold val_main_v56
    rw [gather_row, hA]
    refine congrArg (A T) (Fin.ext ?_)
    show min (val_main_v55 (F := Ideal) x1 (ix2 j (0 : Fin 1))).toInt.toNat 19 = min (x1 (ix1 j)).toInt.toNat 19
    rw [hlabel]
  unfold val_main_v57
  refine (reduce_max_row _ _ (fun i => ?_) T).trans ?_
  · rw [val_main_cst_5_apply]; exact bot_word
  · rw [hg 0, hg 1, hg 2]

/-- The once-erased features, given the features `f` and the selected maximum `s`. -/
theorem ef_apply (x0 : (⟨S32768x1024, .f32⟩ : BufTy).Contents (Elt Ideal)) (x1 : (⟨S3, .i32⟩ : BufTy).Contents (Elt Ideal)) (x2 : (⟨S512x1024, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal)) (x6 : (⟨S1024x512, .f32⟩ : BufTy).Contents (Elt Ideal)) (x7 : (⟨S1024, .f32⟩ : BufTy).Contents (Elt Ideal)) (x8 : (⟨S256x1024, .f32⟩ : BufTy).Contents (Elt Ideal)) (x9 : (⟨S256, .f32⟩ : BufTy).Contents (Elt Ideal)) (x10 : (⟨S1x256, .f32⟩ : BufTy).Contents (Elt Ideal)) (x11 : (⟨S1, .f32⟩ : BufTy).Contents (Elt Ideal)) (x12 : (⟨S20x1024, .f32⟩ : BufTy).Contents (Elt Ideal)) (x13 : (⟨S20, .f32⟩ : BufTy).Contents (Elt Ideal))
    (f : Fin 32768 → Fin 1024 → EReal) (hf : ∀ (T : Fin 32768) (d : Fin 1024), val_main_v18 (F := Ideal) x0 x2 x3 x4 x5 x6 x7 (ix2 T d) = f T d)
    (s : Fin 32768 → EReal) (hs : ∀ T : Fin 32768, val_main_v57 (F := Ideal) x0 x1 x2 x3 x4 x5 x6 x7 x8 x9 x10 x11 x12 x13 (ix1 T) = s T)
    (T : Fin 32768) (d : Fin 1024) :
    val_main_v70 (F := Ideal) x0 x1 x2 x3 x4 x5 x6 x7 x8 x9 x10 x11 x12 x13 (ix2 T d) = f T d * Spec.mask Spec.thr1 (s T) := by
  have hi : idx_main_v67 (idx_main_v69 (ix2 T d)) = ix1 T := funext fun a => Fin.ext (by match a with | ⟨0, _⟩ => rfl)
  rw [val_main_v70_apply, hf, val_main_v69_apply, val_main_v68_apply, val_main_v67_apply, hi, val_main_v66_apply,
    val_main_v65_apply, val_main_v63_apply, val_main_v61_apply, val_main_v59_apply, val_main_v58_apply, hs,
    val_main_v62_apply, val_main_v60_apply, val_main_v64_apply, val_main_call4_v0_apply, val_main_call4_v1_apply,
    val_main_cst_6_apply, val_main_cst_7_apply, val_main_cst_8_apply, val_main_cst_9_apply, val_main_cst_10_apply]
  simp only [Ideal.mulf_def, Ideal.addf_def, Ideal.hostDivf_def, Ideal.hostNegf_def, Ideal.negf_def,
    Ideal.hostUnary_exp_def, Ideal.ofBits_def]
  rw [logistic_ops]
  rfl

/-- The second gate, given the once-erased features `e` (what `val_main_v70` is). -/
theorem eatt_apply (W : Spec.Wts) (x0 : (⟨S32768x1024, .f32⟩ : BufTy).Contents (Elt Ideal)) (x1 : (⟨S3, .i32⟩ : BufTy).Contents (Elt Ideal)) (x2 : (⟨S512x1024, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal)) (x6 : (⟨S1024x512, .f32⟩ : BufTy).Contents (Elt Ideal)) (x7 : (⟨S1024, .f32⟩ : BufTy).Contents (Elt Ideal)) (x8 : (⟨S256x1024, .f32⟩ : BufTy).Contents (Elt Ideal)) (x9 : (⟨S256, .f32⟩ : BufTy).Contents (Elt Ideal)) (x10 : (⟨S1x256, .f32⟩ : BufTy).Contents (Elt Ideal)) (x11 : (⟨S1, .f32⟩ : BufTy).Contents (Elt Ideal)) (x12 : (⟨S20x1024, .f32⟩ : BufTy).Contents (Elt Ideal)) (x13 : (⟨S20, .f32⟩ : BufTy).Contents (Elt Ideal)) (x14 : (⟨S256x1024, .f32⟩ : BufTy).Contents (Elt Ideal)) (x15 : (⟨S1x256, .f32⟩ : BufTy).Contents (Elt Ideal))
    (e : Fin 32768 → Fin 1024 → EReal) (he : ∀ (T : Fin 32768) (d : Fin 1024), val_main_v70 (F := Ideal) x0 x1 x2 x3 x4 x5 x6 x7 x8 x9 x10 x11 x12 x13 (ix2 T d) = e T d)
    (h14 : ∀ (k : Fin 1024) (j : Fin 256), x14 (ix2 j k) = W.wf3 k j) (h15 : ∀ k : Fin 256, x15 (ix2 (0 : Fin 1) k) = W.wf4 k)
    (T : Fin 32768) (u : Fin 1) :
    val_main_v81 (F := Ideal) x0 x1 x2 x3 x4 x5 x6 x7 x8 x9 x10 x11 x12 x13 x14 x15 (ix2 T u) = Spec.eatt W (e T) := by
  obtain rfl : u = 0 := Subsingleton.elim _ _
  -- the hidden layer of the gate: the rectified product of the row with the first gate matrix
  have h73 : ∀ k : Fin 256, val_main_v73 (F := Ideal) x0 x1 x2 x3 x4 x5 x6 x7 x8 x9 x10 x11 x12 x13 x14 (ix2 T k) = Spec.eattH W (e T) k := by
    intro k
    rw [val_main_v73_apply, val_main_v72_apply, val_main_call5_v0_apply, val_main_call5_cst_apply]
    simp only [Ideal.maximumf_def, Ideal.ofBits_def]
    unfold Spec.eattH Spec.relu Spec.lin
    refine congrArg (fun v => max v Spec.zero) (Finset.sum_congr rfl fun k' _ => ?_)
    rw [show lidx_main_v72 (ix2 T k) k' = ix2 T k' from funext fun a => Fin.ext (by match a with | ⟨0, _⟩ => rfl | ⟨1, _⟩ => rfl),
      he, val_main_v71_apply,
      show idx_main_v71 (ridx_main_v72 (ix2 T k) k') = ix2 k k' from funext fun a => Fin.ext (by match a with | ⟨0, _⟩ => rfl | ⟨1, _⟩ => rfl),
      h14]
  rw [val_main_v81_apply, val_main_v79_apply, val_main_v77_apply, val_main_v76_apply, val_main_v75_apply,
    val_main_v80_apply, val_main_v78_apply, val_main_cst_11_apply, val_main_cst_12_apply]
  simp only [Ideal.addf_def, Ideal.hostDivf_def, Ideal.hostNegf_def, Ideal.negf_def, Ideal.hostUnary_exp_def,
    Ideal.ofBits_def]
  rw [logistic_ops]
  unfold Spec.eatt
  refine congrArg Spec.sig (Finset.sum_congr rfl fun k _ => ?_)
  rw [show lidx_main_v75 (ix2 T (0 : Fin 1)) k = ix2 T k from funext fun a => Fin.ext (by match a with | ⟨0, _⟩ => rfl | ⟨1, _⟩ => rfl),
    h73, val_main_v74_apply,
    show idx_main_v74 (ridx_main_v75 (ix2 T (0 : Fin 1)) k) = ix2 (0 : Fin 1) k from funext fun a => Fin.ext (by match a with | ⟨0, _⟩ => rfl | ⟨1, _⟩ => rfl),
    h15]

/-- The second class activations, given the once-erased features. -/
theorem etcam_apply (W : Spec.Wts) (x0 : (⟨S32768x1024, .f32⟩ : BufTy).Contents (Elt Ideal)) (x1 : (⟨S3, .i32⟩ : BufTy).Contents (Elt Ideal)) (x2 : (⟨S512x1024, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal)) (x6 : (⟨S1024x512, .f32⟩ : BufTy).Contents (Elt Ideal)) (x7 : (⟨S1024, .f32⟩ : BufTy).Contents (Elt Ideal)) (x8 : (⟨S256x1024, .f32⟩ : BufTy).Contents (Elt Ideal)) (x9 : (⟨S256, .f32⟩ : BufTy).Contents (Elt Ideal)) (x10 : (⟨S1x256, .f32⟩ : BufTy).Contents (Elt Ideal)) (x11 : (⟨S1, .f32⟩ : BufTy).Contents (Elt Ideal)) (x12 : (⟨S20x1024, .f32⟩ : BufTy).Contents (Elt Ideal)) (x13 : (⟨S20, .f32⟩ : BufTy).Contents (Elt Ideal)) (x14 : (⟨S256x1024, .f32⟩ : BufTy).Contents (Elt Ideal)) (x15 : (⟨S1x256, .f32⟩ : BufTy).Contents (Elt Ideal)) (x16 : (⟨S20x1024, .f32⟩ : BufTy).Contents (Elt Ideal))
    (e : Fin 32768 → Fin 1024 → EReal) (he : ∀ (T : Fin 32768) (d : Fin 1024), val_main_v70 (F := Ideal) x0 x1 x2 x3 x4 x5 x6 x7 x8 x9 x10 x11 x12 x13 (ix2 T d) = e T d)
    (h14 : ∀ (k : Fin 1024) (j : Fin 256), x14 (ix2 j k) = W.wf3 k j) (h15 : ∀ k : Fin 256, x15 (ix2 (0 : Fin 1) k) = W.wf4 k)
    (h16 : ∀ (k : Fin 1024) (c : Fin 20), x16 (ix2 c k) = W.wc2 k c)
    (T : Fin 32768) (c : Fin 20) :
    val_main_v85 (F := Ideal) x0 x1 x2 x3 x4 x5 x6 x7 x8 x9 x10 x11 x12 x13 x14 x15 x16 (ix2 T c) = Spec.etcam W (e T) c := by
  rw [val_main_v85_apply]
  unfold Spec.etcam Spec.lin Spec.egated
  refine Finset.sum_congr rfl fun k _ => ?_
  rw [show lidx_main_v85 (ix2 T c) k = ix2 T k from funext fun a => Fin.ext (by match a with | ⟨0, _⟩ => rfl | ⟨1, _⟩ => rfl),
    val_main_v83_apply, val_main_v82_apply,
    show idx_main_v82 (ix2 T k) = ix2 T (0 : Fin 1) from funext fun a => Fin.ext (by match a with | ⟨0, _⟩ => rfl | ⟨1, _⟩ => rfl),
    eatt_apply W x0 x1 x2 x3 x4 x5 x6 x7 x8 x9 x10 x11 x12 x13 x14 x15 e he h14 h15 T 0, he, val_main_v84_apply,
    show idx_main_v84 (ridx_main_v85 (ix2 T c) k) = ix2 c k from funext fun a => Fin.ext (by match a with | ⟨0, _⟩ => rfl | ⟨1, _⟩ => rfl),
    h16, Ideal.mulf_def]

/-- The second [20] result, given the second class activations `A`. -/
theorem ex_apply (x0 : (⟨S32768x1024, .f32⟩ : BufTy).Contents (Elt Ideal)) (x1 : (⟨S3, .i32⟩ : BufTy).Contents (Elt Ideal)) (x2 : (⟨S512x1024, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal)) (x6 : (⟨S1024x512, .f32⟩ : BufTy).Contents (Elt Ideal)) (x7 : (⟨S1024, .f32⟩ : BufTy).Contents (Elt Ideal)) (x8 : (⟨S256x1024, .f32⟩ : BufTy).Contents (Elt Ideal)) (x9 : (⟨S256, .f32⟩ : BufTy).Contents (Elt Ideal)) (x10 : (⟨S1x256, .f32⟩ : BufTy).Contents (Elt Ideal)) (x11 : (⟨S1, .f32⟩ : BufTy).Contents (Elt Ideal)) (x12 : (⟨S20x1024, .f32⟩ : BufTy).Contents (Elt Ideal)) (x13 : (⟨S20, .f32⟩ : BufTy).Contents (Elt Ideal)) (x14 : (⟨S256x1024, .f32⟩ : BufTy).Contents (Elt Ideal)) (x15 : (⟨S1x256, .f32⟩ : BufTy).Contents (Elt Ideal)) (x16 : (⟨S20x1024, .f32⟩ : BufTy).Contents (Elt Ideal))
    (A : Fin 32768 → Fin 20 → EReal) (hA : ∀ (T : Fin 32768) (c : Fin 20), val_main_v85 (F := Ideal) x0 x1 x2 x3 x4 x5 x6 x7 x8 x9 x10 x11 x12 x13 x14 x15 x16 (ix2 T c) = A T c)
    (c : Fin 20) :
    val_main_v92 (F := Ideal) x0 x1 x2 x3 x4 x5 x6 x7 x8 x9 x10 x11 x12 x13 x14 x15 x16 (ix1 c) = Spec.colSig A c := by
  rw [val_main_v92_apply, val_main_v90_apply, val_main_v88_apply, val_main_v87_apply, val_main_v86_apply,
    val_main_v91_apply, val_main_v89_apply, val_main_cst_13_apply, val_main_cst_14_apply, val_main_cst_15_apply]
  simp only [Ideal.addf_def, Ideal.hostDivf_def, Ideal.hostNegf_def, Ideal.negf_def, Ideal.hostUnary_exp_def,
    Ideal.ofBits_def]
  rw [logistic_ops, Ideal.ofBits_zero_f32, zero_add]
  unfold Spec.colSig
  refine congrArg Spec.sig (Finset.sum_congr rfl fun T _ => ?_)
  rw [show idx_main_v86 (ix1 c) T = ix2 T c from funext fun a => Fin.ext (by match a with | ⟨0, _⟩ => rfl | ⟨1, _⟩ => rfl), hA]

end Cert.ReferenceIdeal.Stages

end
-- ==== Proof.RefStageC.lean ====
/-
  The reference's third stage read at one element: the second class activations gathered at the three labels and
  their maximum, the second erasure, the third gate, the third class activations and the logistic of their column
  sums. As in the second stage the labels are non-negative, so the gather reads the clamped label's column.
-/
import proofs.«424737_j11321533792616_2_alg».proof.Proof.RefRead
import proofs.«424737_j11321533792616_2_alg».proof.Proof.Spec
import proofs.«424737_j11321533792616_2_alg».proof.Proof.LibRows
import proofs.«424737_j11321533792616_2_alg».proof.Proof.Results
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

noncomputable section

namespace Cert.ReferenceIdeal.Stages

open Idealize.ShloMosaic Idealize.ShloMosaic.ValueIdx Cert.ReferenceIdeal Cert.ReferenceIdeal.ReadP Cert.LibRows

/-! ## Readings over literal shapes used below -/

namespace LibC

/-- A non-negative label is not wrapped: the select on "label < 0" returns the label. -/
theorem wrap_nonneg (a : BitVec 32) (h : 0 ≤ a.toInt) :
    Scalar.select (IntOp.cmpi .slt a 0#32) (IntOp.addi a 20#32) a = a := by
  have h0 : (0#32 : BitVec 32).toInt = 0 := by decide
  have hs : a.slt 0#32 = false := by
    simp only [BitVec.slt, h0, decide_eq_false_iff_not, not_lt]; exact h
  have hc : IntOp.cmpi .slt a 0#32 = 0#1 := by
    unfold IntOp.cmpi
    show BitVec.ofBool (a.slt 0#32) = 0#1
    rw [hs]; rfl
  rw [hc]; exact select_zero _ _

/-- The reduced index `T` with column `k` put back is (T, k). -/
theorem lift_ix2_axis1 {m n : Nat} (h : (⟨2, ![m, n]⟩ : Shape).Reduces [1] (⟨1, ![m]⟩ : Shape)) (T : Fin m)
    (k : Fin ((⟨2, ![m, n]⟩ : Shape).size 1)) : h.lift (ix1 T) k = ix2 T (⟨k.val, k.isLt⟩ : Fin n) := by
  funext c; apply Fin.ext
  fin_cases c <;> rfl

/-- From the bottom element the host's reduce with a maximum body over the three columns, at row `T`. -/
theorem hostReduce_max_three {m : Nat} (x : FVec Ideal ⟨2, ![m, 3]⟩ .f32)
    (h' : (⟨2, ![m, 3]⟩ : Shape).ReducesTo [1] (⟨1, ![m]⟩ : Shape))
    (h : (⟨2, ![m, 3]⟩ : Shape).Reduces [1] (⟨1, ![m]⟩ : Shape)) (hu : 0 < (⟨0, ![]⟩ : Shape).numel) (T : Fin m) :
    Host.reduce FloatOps.maximumf x (constant (F := Ideal) (⟨0, ![]⟩ : Shape) .f32 0xFF800000#32) h' hu (ix1 T)
      = (Finset.univ : Finset (Fin 3)).fold max ⊥ (fun k => x (ix2 T k)) := by
  rw [Host.reduce_eq_fold_single FloatOps.maximumf x _ h' h hu]
  have hb : (constant (F := Ideal) (⟨0, ![]⟩ : Shape) .f32 0xFF800000#32) (Shape.Idx.first hu) = (⊥ : EReal) := by
    show Ideal.ofBits .f32 0xFF800000#32 = ⊥
    simp [Ideal.ofBits, Ideal.ieee]
  rw [hb]
  have hf : (x ∘ h.lift (ix1 T)) = fun k : Fin 3 => x (ix2 T k) := funext fun k => congrArg x (lift_ix2_axis1 h T k)
  exact congrArg (fun f => Finset.fold max (⊥ : EReal) f (Finset.univ : Finset (Fin 3))) hf

/-- A gather of columns: operand [M, N], start indices an [n, 1] column of column numbers, result [M, n]; row axis an
    offset axis kept whole, column axis collapsed and start-indexed. Result (T, j) reads row T at the j-th start index,
    read signed and clamped into the columns. -/
theorem gather_cols {α : Type} {M N n w : Nat} (d : GatherDims ⟨2, ![M, N]⟩ ⟨2, ![n, 1]⟩ ⟨2, ![M, n]⟩)
    (hoff : d.offsetDims = [0]) (hcoll : d.collapsedSliceDims = [1]) (hob : d.operandBatchingDims = [])
    (hsim : d.startIndexMap = [1]) (hivd : d.indexVectorDim = 1)
    (x : (⟨2, ![M, N]⟩ : Shape).Idx → α) (idx : IVec ⟨2, ![n, 1]⟩ w) (T : Fin M) (j : Fin n) (hN : 0 < N) :
    Host.gather d x idx (ix2 T j) = x (ix2 T (⟨min (idx (ix2 j (0 : Fin 1))).toInt.toNat (N - 1), by omega⟩ : Fin N)) := by
  unfold Host.gather
  congr 1
  funext a
  apply Fin.ext
  have hb : ∀ a : Fin 2, a ∉ d.operandBatchingDims := fun a => by rw [hob]; exact List.not_mem_nil
  match a with
  | ⟨0, _⟩ =>
    have hk : (0 : Fin 2) ∈ d.sKept := by rw [GatherDims.mem_sKept, hcoll, hob]; exact ⟨by simp, List.not_mem_nil⟩
    have hm : (0 : Fin 2) ∉ d.startIndexMap := by rw [hsim]; simp
    show d.start (ix2 T j) idx 0 + d.batchCoord (ix2 T j) 0 + d.offCoord (ix2 T j) 0 = T.val
    rw [GatherDims.batchCoord_eq_zero _ _ _ (hb 0)]
    unfold GatherDims.start
    rw [dif_neg hm]
    unfold GatherDims.offCoord
    rw [dif_pos hk]
    have hz : ∀ z ∈ d.offsetDims, z = (0 : Fin 2) := by rw [hoff]; simp
    rw [hz _ (List.getElem_mem _)]
    show 0 + 0 + T.val = T.val
    omega
  | ⟨1, _⟩ =>
    have hk : (1 : Fin 2) ∉ d.sKept := by rw [GatherDims.mem_sKept, hcoll]; simp
    have hm : (1 : Fin 2) ∈ d.startIndexMap := by rw [hsim]; exact List.mem_singleton.mpr rfl
    have hsl : d.sliceSizes 1 = 1 := d.slice_collapsed 1 (by rw [hcoll]; exact List.mem_singleton.mpr rfl)
    show d.start (ix2 T j) idx 1 + d.batchCoord (ix2 T j) 1 + d.offCoord (ix2 T j) 1 = min (idx (ix2 j (0 : Fin 1))).toInt.toNat (N - 1)
    rw [GatherDims.batchCoord_eq_zero _ _ _ (hb 1), GatherDims.offCoord_eq_zero _ _ _ hk]
    unfold GatherDims.start
    rw [dif_pos hm, hsl]
    show min _ (N - 1) + 0 + 0 = _
    simp only [Nat.add_zero]
    congr 3
    congr 1
    funext b
    match b with
    | ⟨0, _⟩ =>
      -- the result's second axis is its one batch axis; it reads the start indices' first axis
      unfold GatherDims.siIdx
      rw [dif_neg (by rw [hivd]; simp)]
      unfold GatherDims.siCoord
      apply Fin.ext
      simp only [Fin.val_cast]
      have hz : ∀ z ∈ d.batchDims, z = (1 : Fin 2) := by
        intro z hz
        rw [GatherDims.batchDims, hoff] at hz
        have hz' : z ∉ [(0 : Fin 2)] := by simpa [Shape.kept, List.mem_filter, List.mem_finRange] using hz
        fin_cases z
        · exact absurd (List.mem_singleton.mpr rfl) hz'
        · rfl
      rw [hz _ (List.getElem_mem _)]
    | ⟨1, _⟩ =>
      unfold GatherDims.siIdx
      rw [dif_pos (by rw [hivd])]
      apply Fin.ext
      show List.idxOf (1 : Fin 2) d.startIndexMap = 0
      rw [hsim]; simp

/-- The word of `1.0` is the real one. -/
theorem one_word : Ideal.ofBits .f32 0x3F800000#32 = (1 : EReal) := IdealRules.sign_bit.ideal_onePat .f32

end LibC

open LibC

/-! ## The stage, one operation at a time -/

/-- The maximum over the three labels of row `T`'s second class activations `A T` (what `val_main_v85` is). -/
theorem sel2_apply (x0 : (⟨S32768x1024, .f32⟩ : BufTy).Contents (Elt Ideal)) (x1 : (⟨S3, .i32⟩ : BufTy).Contents (Elt Ideal)) (x2 : (⟨S512x1024, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal)) (x6 : (⟨S1024x512, .f32⟩ : BufTy).Contents (Elt Ideal)) (x7 : (⟨S1024, .f32⟩ : BufTy).Contents (Elt Ideal)) (x8 : (⟨S256x1024, .f32⟩ : BufTy).Contents (Elt Ideal)) (x9 : (⟨S256, .f32⟩ : BufTy).Contents (Elt Ideal)) (x10 : (⟨S1x256, .f32⟩ : BufTy).Contents (Elt Ideal)) (x11 : (⟨S1, .f32⟩ : BufTy).Contents (Elt Ideal)) (x12 : (⟨S20x1024, .f32⟩ : BufTy).Contents (Elt Ideal)) (x13 : (⟨S20, .f32⟩ : BufTy).Contents (Elt Ideal)) (x14 : (⟨S256x1024, .f32⟩ : BufTy).Contents (Elt Ideal)) (x15 : (⟨S1x256, .f32⟩ : BufTy).Contents (Elt Ideal)) (x16 : (⟨S20x1024, .f32⟩ : BufTy).Contents (Elt Ideal))
    (hlab : ∀ j : Fin 3, 0 ≤ (x1 (ix1 j)).toInt)
    (A : Fin 32768 → Fin 20 → EReal) (hA : ∀ (T : Fin 32768) (c : Fin 20), val_main_v85 (F := Ideal) x0 x1 x2 x3 x4 x5 x6 x7 x8 x9 x10 x11 x12 x13 x14 x15 x16 (ix2 T c) = A T c)
    (T : Fin 32768) :
    val_main_v100 (F := Ideal) x0 x1 x2 x3 x4 x5 x6 x7 x8 x9 x10 x11 x12 x13 x14 x15 x16 (ix1 T) = max (max (A T (Spec.lab x1 0)) (A T (Spec.lab x1 1))) (A T (Spec.lab x1 2)) := by
  -- the three start indices are the labels themselves: a non-negative label is not wrapped
  have hv98 : ∀ j : Fin 3, val_main_v98 (F := Ideal) x1 (ix2 j (0 : Fin 1)) = x1 (ix1 j) := by
    intro j
    have hi : idx_main_v98 (ix2 j (0 : Fin 1)) = ix1 j := funext fun a => Fin.ext (by match a with | ⟨0, _⟩ => rfl)
    rw [val_main_v98_apply, val_main_v97_apply, val_main_v94_apply, val_main_v96_apply, val_main_v93_apply, val_main_v95_apply,
      val_main_c_16_apply, val_main_c_17_apply, hi]
    exact wrap_nonneg _ (hlab j)
  -- the gathered array at (T, j) is row T at the j-th label's column
  have hg : ∀ j : Fin 3, val_main_v99 (F := Ideal) x0 x1 x2 x3 x4 x5 x6 x7 x8 x9 x10 x11 x12 x13 x14 x15 x16 (ix2 T j) = A T (Spec.lab x1 j) := by
    intro j
    unfold val_main_v99
    refine (gather_cols gather_S32768x20_S3x1_S32768x3_0_1_n_n_1_1_327681 rfl rfl rfl rfl rfl _ _ T j (by decide)).trans ?_
    rw [hA]
    refine congrArg (A T) (Fin.ext ?_)
    show min (val_main_v98 (F := Ideal) x1 (ix2 j (0 : Fin 1))).toInt.toNat (20 - 1) = min (x1 (ix1 j)).toInt.toNat 19
    rw [hv98]
  unfold val_main_v100 val_main_cst_18
  refine (hostReduce_max_three _ _ (by decide) _ T).trans ?_
  rw [fold_max_three]
  simp only [hg]

/-- The twice-erased features, given the once-erased features `e` and the selected maximum `s`. -/
theorem ef2_apply (x0 : (⟨S32768x1024, .f32⟩ : BufTy).Contents (Elt Ideal)) (x1 : (⟨S3, .i32⟩ : BufTy).Contents (Elt Ideal)) (x2 : (⟨S512x1024, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal)) (x6 : (⟨S1024x512, .f32⟩ : BufTy).Contents (Elt Ideal)) (x7 : (⟨S1024, .f32⟩ : BufTy).Contents (Elt Ideal)) (x8 : (⟨S256x1024, .f32⟩ : BufTy).Contents (Elt Ideal)) (x9 : (⟨S256, .f32⟩ : BufTy).Contents (Elt Ideal)) (x10 : (⟨S1x256, .f32⟩ : BufTy).Contents (Elt Ideal)) (x11 : (⟨S1, .f32⟩ : BufTy).Contents (Elt Ideal)) (x12 : (⟨S20x1024, .f32⟩ : BufTy).Contents (Elt Ideal)) (x13 : (⟨S20, .f32⟩ : BufTy).Contents (Elt Ideal)) (x14 : (⟨S256x1024, .f32⟩ : BufTy).Contents (Elt Ideal)) (x15 : (⟨S1x256, .f32⟩ : BufTy).Contents (Elt Ideal)) (x16 : (⟨S20x1024, .f32⟩ : BufTy).Contents (Elt Ideal))
    (e : Fin 32768 → Fin 1024 → EReal) (he : ∀ (T : Fin 32768) (d : Fin 1024), val_main_v70 (F := Ideal) x0 x1 x2 x3 x4 x5 x6 x7 x8 x9 x10 x11 x12 x13 (ix2 T d) = e T d)
    (s : Fin 32768 → EReal) (hs : ∀ T : Fin 32768, val_main_v100 (F := Ideal) x0 x1 x2 x3 x4 x5 x6 x7 x8 x9 x10 x11 x12 x13 x14 x15 x16 (ix1 T) = s T)
    (T : Fin 32768) (d : Fin 1024) :
    val_main_v113 (F := Ideal) x0 x1 x2 x3 x4 x5 x6 x7 x8 x9 x10 x11 x12 x13 x14 x15 x16 (ix2 T d) = e T d * Spec.mask Spec.thr2 (s T) := by
  have hi : idx_main_v110 (idx_main_v112 (ix2 T d)) = ix1 T := funext fun a => Fin.ext (by match a with | ⟨0, _⟩ => rfl)
  rw [val_main_v113_apply, val_main_v112_apply, val_main_v111_apply, val_main_v110_apply, val_main_v109_apply, val_main_v108_apply,
    val_main_v107_apply, val_main_v106_apply, val_main_v105_apply, val_main_v104_apply, val_main_v103_apply, val_main_v102_apply,
    val_main_v101_apply, val_main_call6_v0_apply, val_main_call6_v1_apply, val_main_cst_19_apply, val_main_cst_20_apply,
    val_main_cst_21_apply, val_main_cst_22_apply, val_main_cst_23_apply, hi, he, hs]
  simp only [Ideal.mulf_def, Ideal.hostDivf_def, Ideal.addf_def, Ideal.hostUnary_exp_def, Ideal.hostNegf_def, Ideal.negf_def,
    Ideal.ofBits_def]
  unfold Spec.mask Spec.sig Ideal.logistic
  rw [← one_word]

/-- The third gate, given the twice-erased features `e2` (what `val_main_v113` is). -/
theorem e2att_apply (W : Spec.Wts) (x0 : (⟨S32768x1024, .f32⟩ : BufTy).Contents (Elt Ideal)) (x1 : (⟨S3, .i32⟩ : BufTy).Contents (Elt Ideal)) (x2 : (⟨S512x1024, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal)) (x6 : (⟨S1024x512, .f32⟩ : BufTy).Contents (Elt Ideal)) (x7 : (⟨S1024, .f32⟩ : BufTy).Contents (Elt Ideal)) (x8 : (⟨S256x1024, .f32⟩ : BufTy).Contents (Elt Ideal)) (x9 : (⟨S256, .f32⟩ : BufTy).Contents (Elt Ideal)) (x10 : (⟨S1x256, .f32⟩ : BufTy).Contents (Elt Ideal)) (x11 : (⟨S1, .f32⟩ : BufTy).Contents (Elt Ideal)) (x12 : (⟨S20x1024, .f32⟩ : BufTy).Contents (Elt Ideal)) (x13 : (⟨S20, .f32⟩ : BufTy).Contents (Elt Ideal)) (x14 : (⟨S256x1024, .f32⟩ : BufTy).Contents (Elt Ideal)) (x15 : (⟨S1x256, .f32⟩ : BufTy).Contents (Elt Ideal)) (x16 : (⟨S20x1024, .f32⟩ : BufTy).Contents (Elt Ideal)) (x17 : (⟨S256x1024, .f32⟩ : BufTy).Contents (Elt Ideal)) (x18 : (⟨S1x256, .f32⟩ : BufTy).Contents (Elt Ideal))
    (e2 : Fin 32768 → Fin 1024 → EReal) (he2 : ∀ (T : Fin 32768) (d : Fin 1024), val_main_v113 (F := Ideal) x0 x1 x2 x3 x4 x5 x6 x7 x8 x9 x10 x11 x12 x13 x14 x15 x16 (ix2 T d) = e2 T d)
    (h17 : ∀ (k : Fin 1024) (j : Fin 256), x17 (ix2 j k) = W.wf5 k j) (h18 : ∀ k : Fin 256, x18 (ix2 (0 : Fin 1) k) = W.wf6 k)
    (T : Fin 32768) (u : Fin 1) :
    val_main_v124 (F := Ideal) x0 x1 x2 x3 x4 x5 x6 x7 x8 x9 x10 x11 x12 x13 x14 x15 x16 x17 x18 (ix2 T u) = Spec.e2att W (e2 T) := by
  obtain rfl : u = 0 := Subsingleton.elim _ _
  rw [val_main_v124_apply, val_main_v123_apply, val_main_v122_apply, val_main_v121_apply, val_main_v120_apply, val_main_v119_apply,
    val_main_v118_apply, val_main_cst_24_apply, val_main_cst_25_apply]
  have hsum : ∑ k : Fin 256, val_main_v116 (F := Ideal) x0 x1 x2 x3 x4 x5 x6 x7 x8 x9 x10 x11 x12 x13 x14 x15 x16 x17 (lidx_main_v118 (ix2 T (0 : Fin 1)) k)
        * val_main_v117 (F := Ideal) x18 (ridx_main_v118 (ix2 T (0 : Fin 1)) k)
      = ∑ k : Fin 256, Spec.e2attH W (e2 T) k * W.wf6 k := by
    refine Finset.sum_congr rfl fun k _ => ?_
    have el : lidx_main_v118 (ix2 T (0 : Fin 1)) k = ix2 T k :=
      funext fun a => Fin.ext (by match a with | ⟨0, _⟩ => rfl | ⟨1, _⟩ => rfl)
    have er : idx_main_v117 (ridx_main_v118 (ix2 T (0 : Fin 1)) k) = ix2 (0 : Fin 1) k :=
      funext fun a => Fin.ext (by match a with | ⟨0, _⟩ => rfl | ⟨1, _⟩ => rfl)
    rw [val_main_v117_apply, el, er, h18, val_main_v116_apply, val_main_v115_apply, val_main_call7_v0_apply, val_main_call7_cst_apply]
    simp only [Ideal.maximumf_def, Ideal.ofBits_def]
    unfold Spec.e2attH Spec.relu Spec.lin
    refine congrArg (fun v => max v Spec.zero * W.wf6 k) (Finset.sum_congr rfl fun d _ => ?_)
    have el' : lidx_main_v115 (ix2 T k) d = ix2 T d :=
      funext fun a => Fin.ext (by match a with | ⟨0, _⟩ => rfl | ⟨1, _⟩ => rfl)
    have er' : idx_main_v114 (ridx_main_v115 (ix2 T k) d) = ix2 k d :=
      funext fun a => Fin.ext (by match a with | ⟨0, _⟩ => rfl | ⟨1, _⟩ => rfl)
    rw [val_main_v114_apply, el', er', he2, h17]
  rw [hsum]
  simp only [Ideal.hostDivf_def, Ideal.addf_def, Ideal.hostUnary_exp_def, Ideal.hostNegf_def, Ideal.negf_def, Ideal.ofBits_def, one_word]
  rfl

/-- The third class activations, given the twice-erased features. -/
theorem e2tcam_apply (W : Spec.Wts) (x0 : (⟨S32768x1024, .f32⟩ : BufTy).Contents (Elt Ideal)) (x1 : (⟨S3, .i32⟩ : BufTy).Contents (Elt Ideal)) (x2 : (⟨S512x1024, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal)) (x6 : (⟨S1024x512, .f32⟩ : BufTy).Contents (Elt Ideal)) (x7 : (⟨S1024, .f32⟩ : BufTy).Contents (Elt Ideal)) (x8 : (⟨S256x1024, .f32⟩ : BufTy).Contents (Elt Ideal)) (x9 : (⟨S256, .f32⟩ : BufTy).Contents (Elt Ideal)) (x10 : (⟨S1x256, .f32⟩ : BufTy).Contents (Elt Ideal)) (x11 : (⟨S1, .f32⟩ : BufTy).Contents (Elt Ideal)) (x12 : (⟨S20x1024, .f32⟩ : BufTy).Contents (Elt Ideal)) (x13 : (⟨S20, .f32⟩ : BufTy).Contents (Elt Ideal)) (x14 : (⟨S256x1024, .f32⟩ : BufTy).Contents (Elt Ideal)) (x15 : (⟨S1x256, .f32⟩ : BufTy).Contents (Elt Ideal)) (x16 : (⟨S20x1024, .f32⟩ : BufTy).Contents (Elt Ideal)) (x17 : (⟨S256x1024, .f32⟩ : BufTy).Contents (Elt Ideal)) (x18 : (⟨S1x256, .f32⟩ : BufTy).Contents (Elt Ideal)) (x19 : (⟨S20x1024, .f32⟩ : BufTy).Contents (Elt Ideal))
    (e2 : Fin 32768 → Fin 1024 → EReal) (he2 : ∀ (T : Fin 32768) (d : Fin 1024), val_main_v113 (F := Ideal) x0 x1 x2 x3 x4 x5 x6 x7 x8 x9 x10 x11 x12 x13 x14 x15 x16 (ix2 T d) = e2 T d)
    (h17 : ∀ (k : Fin 1024) (j : Fin 256), x17 (ix2 j k) = W.wf5 k j) (h18 : ∀ k : Fin 256, x18 (ix2 (0 : Fin 1) k) = W.wf6 k)
    (h19 : ∀ (k : Fin 1024) (c : Fin 20), x19 (ix2 c k) = W.wc3 k c)
    (T : Fin 32768) (c : Fin 20) :
    val_main_v128 (F := Ideal) x0 x1 x2 x3 x4 x5 x6 x7 x8 x9 x10 x11 x12 x13 x14 x15 x16 x17 x18 x19 (ix2 T c) = Spec.e2tcam W (e2 T) c := by
  rw [val_main_v128_apply]
  unfold Spec.e2tcam Spec.lin Spec.e2gated
  refine Finset.sum_congr rfl fun k _ => ?_
  have el : lidx_main_v128 (ix2 T c) k = ix2 T k :=
    funext fun a => Fin.ext (by match a with | ⟨0, _⟩ => rfl | ⟨1, _⟩ => rfl)
  have er : idx_main_v127 (ridx_main_v128 (ix2 T c) k) = ix2 c k :=
    funext fun a => Fin.ext (by match a with | ⟨0, _⟩ => rfl | ⟨1, _⟩ => rfl)
  have eb : idx_main_v125 (ix2 T k) = ix2 T (0 : Fin 1) :=
    funext fun a => Fin.ext (by match a with | ⟨0, _⟩ => rfl | ⟨1, _⟩ => rfl)
  rw [val_main_v127_apply, el, er, h19, val_main_v126_apply, val_main_v125_apply, eb, he2,
    e2att_apply W x0 x1 x2 x3 x4 x5 x6 x7 x8 x9 x10 x11 x12 x13 x14 x15 x16 x17 x18 e2 he2 h17 h18 T 0]
  rfl

/-- The third [20] result, given the third class activations `A`. -/
theorem e2x_apply (x0 : (⟨S32768x1024, .f32⟩ : BufTy).Contents (Elt Ideal)) (x1 : (⟨S3, .i32⟩ : BufTy).Contents (Elt Ideal)) (x2 : (⟨S512x1024, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal)) (x6 : (⟨S1024x512, .f32⟩ : BufTy).Contents (Elt Ideal)) (x7 : (⟨S1024, .f32⟩ : BufTy).Contents (Elt Ideal)) (x8 : (⟨S256x1024, .f32⟩ : BufTy).Contents (Elt Ideal)) (x9 : (⟨S256, .f32⟩ : BufTy).Contents (Elt Ideal)) (x10 : (⟨S1x256, .f32⟩ : BufTy).Contents (Elt Ideal)) (x11 : (⟨S1, .f32⟩ : BufTy).Contents (Elt Ideal)) (x12 : (⟨S20x1024, .f32⟩ : BufTy).Contents (Elt Ideal)) (x13 : (⟨S20, .f32⟩ : BufTy).Contents (Elt Ideal)) (x14 : (⟨S256x1024, .f32⟩ : BufTy).Contents (Elt Ideal)) (x15 : (⟨S1x256, .f32⟩ : BufTy).Contents (Elt Ideal)) (x16 : (⟨S20x1024, .f32⟩ : BufTy).Contents (Elt Ideal)) (x17 : (⟨S256x1024, .f32⟩ : BufTy).Contents (Elt Ideal)) (x18 : (⟨S1x256, .f32⟩ : BufTy).Contents (Elt Ideal)) (x19 : (⟨S20x1024, .f32⟩ : BufTy).Contents (Elt Ideal))
    (A : Fin 32768 → Fin 20 → EReal) (hA : ∀ (T : Fin 32768) (c : Fin 20), val_main_v128 (F := Ideal) x0 x1 x2 x3 x4 x5 x6 x7 x8 x9 x10 x11 x12 x13 x14 x15 x16 x17 x18 x19 (ix2 T c) = A T c)
    (c : Fin 20) :
    val_main_v135 (F := Ideal) x0 x1 x2 x3 x4 x5 x6 x7 x8 x9 x10 x11 x12 x13 x14 x15 x16 x17 x18 x19 (ix1 c) = Spec.colSig A c := by
  rw [val_main_v135_apply, val_main_v134_apply, val_main_v133_apply, val_main_v132_apply, val_main_v131_apply, val_main_v130_apply,
    val_main_v129_apply, val_main_cst_26_apply, val_main_cst_27_apply, val_main_cst_28_apply]
  have hsum : ∑ k : Fin 32768, val_main_v128 (F := Ideal) x0 x1 x2 x3 x4 x5 x6 x7 x8 x9 x10 x11 x12 x13 x14 x15 x16 x17 x18 x19 (idx_main_v129 (ix1 c) k) = ∑ T : Fin 32768, A T c := by
    refine Finset.sum_congr rfl fun k _ => ?_
    have ei : idx_main_v129 (ix1 c) k = ix2 k c :=
      funext fun a => Fin.ext (by match a with | ⟨0, _⟩ => rfl | ⟨1, _⟩ => rfl)
    rw [ei, hA]
  rw [hsum]
  simp only [Ideal.hostDivf_def, Ideal.addf_def, Ideal.hostUnary_exp_def, Ideal.hostNegf_def, Ideal.negf_def, Ideal.ofBits_def,
    one_word, Ideal.ofBits_zero_f32, zero_add]
  rfl

end Cert.ReferenceIdeal.Stages

end
-- ==== Proof.RefRun.lean ====
/-
  The reference's nine results as functions of its arguments: each is the specification's result function of the weights
  the arguments hold and of the input's rows. The three stages are chained: the features give the gate, the gated row and
  the class activations; their maximum over the labels' columns gives the first erasure; and so on. The labels are
  non-negative (the precondition), so the gathered columns are the clamped labels' columns — which is how the
  specification's chosen class rows are defined (`Spec.WA`: row `lab j` of a class matrix, entry `lab j` of the bias).
-/
import proofs.«424737_j11321533792616_2_alg».proof.Proof.RefStageA
import proofs.«424737_j11321533792616_2_alg».proof.Proof.RefStageB
import proofs.«424737_j11321533792616_2_alg».proof.Proof.RefStageC
import proofs.«424737_j11321533792616_2_alg».proof.Proof.Results

noncomputable section

namespace Cert.ReferenceIdeal.Stages

open Idealize.ShloMosaic Idealize.ShloMosaic.ValueIdx Cert.ReferenceIdeal Cert.ReferenceIdeal.ReadP Cert.LibRows

variable (x0 : (⟨S32768x1024, .f32⟩ : BufTy).Contents (Elt Ideal)) (x1 : (⟨S3, .i32⟩ : BufTy).Contents (Elt Ideal)) (x2 : (⟨S512x1024, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal)) (x6 : (⟨S1024x512, .f32⟩ : BufTy).Contents (Elt Ideal)) (x7 : (⟨S1024, .f32⟩ : BufTy).Contents (Elt Ideal)) (x8 : (⟨S256x1024, .f32⟩ : BufTy).Contents (Elt Ideal)) (x9 : (⟨S256, .f32⟩ : BufTy).Contents (Elt Ideal)) (x10 : (⟨S1x256, .f32⟩ : BufTy).Contents (Elt Ideal)) (x11 : (⟨S1, .f32⟩ : BufTy).Contents (Elt Ideal)) (x12 : (⟨S20x1024, .f32⟩ : BufTy).Contents (Elt Ideal)) (x13 : (⟨S20, .f32⟩ : BufTy).Contents (Elt Ideal)) (x14 : (⟨S256x1024, .f32⟩ : BufTy).Contents (Elt Ideal)) (x15 : (⟨S1x256, .f32⟩ : BufTy).Contents (Elt Ideal)) (x16 : (⟨S20x1024, .f32⟩ : BufTy).Contents (Elt Ideal)) (x17 : (⟨S256x1024, .f32⟩ : BufTy).Contents (Elt Ideal)) (x18 : (⟨S1x256, .f32⟩ : BufTy).Contents (Elt Ideal)) (x19 : (⟨S20x1024, .f32⟩ : BufTy).Contents (Elt Ideal))

local notation "𝐖" => Spec.WA x1 x2 x3 x4 x5 x6 x7 x8 x9 x10 x11 x12 x13 x14 x15 x16 x17 x18 x19
local notation "𝐗" => Spec.rows x0

/-! ## The selected maxima

Column `lab j` of `g·Wc₁ + bc₁` is the product of `g` with row `lab j` of the class matrix plus entry `lab j` of the
bias, which is how the specification's chosen rows are read off the arguments; so the maximum over the three labels'
columns is the specification's selected maximum. -/

private theorem sel1_eq (f : Fin 1024 → EReal) :
    max (max (Spec.tcam 𝐖 f (Spec.lab x1 0)) (Spec.tcam 𝐖 f (Spec.lab x1 1))) (Spec.tcam 𝐖 f (Spec.lab x1 2))
      = Spec.sel1 𝐖 (Spec.gated 𝐖 f) := rfl

private theorem sel2_eq (e : Fin 1024 → EReal) :
    max (max (Spec.etcam 𝐖 e (Spec.lab x1 0)) (Spec.etcam 𝐖 e (Spec.lab x1 1))) (Spec.etcam 𝐖 e (Spec.lab x1 2))
      = Spec.sel2 𝐖 (Spec.egated 𝐖 e) := rfl

/-! ## The chain, row by row

Each stage's array at row `T` is the specification's function of the previous stage's row `T`; the weights are the
ones the arguments hold, so every weight hypothesis is a definitional unfolding. -/

/-- The features of row `T`. -/
private theorem row_feat (T : Fin 32768) (d : Fin 1024) :
    val_main_v18 (F := Ideal) x0 x2 x3 x4 x5 x6 x7 (ix2 T d) = Spec.F 𝐖 𝐗 T d :=
  feat_apply 𝐖 x0 x2 x3 x4 x5 x6 x7 (fun _ _ => rfl) (fun _ => rfl) (fun _ _ => rfl) (fun _ => rfl) (fun _ _ => rfl) (fun _ => rfl) T d

/-- The class activations of row `T`. -/
private theorem row_tcam (T : Fin 32768) (c : Fin 20) :
    val_main_v42 (F := Ideal) x0 x2 x3 x4 x5 x6 x7 x8 x9 x10 x11 x12 x13 (ix2 T c) = Spec.tcam 𝐖 (Spec.F 𝐖 𝐗 T) c :=
  tcam_apply 𝐖 x0 x2 x3 x4 x5 x6 x7 x8 x9 x10 x11 x12 x13 (Spec.F 𝐖 𝐗) (row_feat x0 x1 x2 x3 x4 x5 x6 x7 x8 x9 x10 x11 x12 x13 x14 x15 x16 x17 x18 x19)
    (fun _ _ => rfl) (fun _ => rfl) (fun _ => rfl) rfl (fun _ _ => rfl) (fun _ => rfl) T c

/-- The selected maximum of row `T`'s class activations. -/
private theorem row_sel1 (hlab : ∀ j : Fin 3, 0 ≤ (x1 (ix1 j)).toInt) (T : Fin 32768) :
    val_main_v57 (F := Ideal) x0 x1 x2 x3 x4 x5 x6 x7 x8 x9 x10 x11 x12 x13 (ix1 T) = Spec.sel1 𝐖 (Spec.gated 𝐖 (Spec.F 𝐖 𝐗 T)) :=
  (sel1_apply x0 x1 x2 x3 x4 x5 x6 x7 x8 x9 x10 x11 x12 x13 hlab (fun T c => Spec.tcam 𝐖 (Spec.F 𝐖 𝐗 T) c) (row_tcam x0 x1 x2 x3 x4 x5 x6 x7 x8 x9 x10 x11 x12 x13 x14 x15 x16 x17 x18 x19) T).trans
    (sel1_eq x1 x2 x3 x4 x5 x6 x7 x8 x9 x10 x11 x12 x13 x14 x15 x16 x17 x18 x19 (Spec.F 𝐖 𝐗 T))

/-- The once-erased features of row `T`. -/
private theorem row_ef (hlab : ∀ j : Fin 3, 0 ≤ (x1 (ix1 j)).toInt) (T : Fin 32768) (d : Fin 1024) :
    val_main_v70 (F := Ideal) x0 x1 x2 x3 x4 x5 x6 x7 x8 x9 x10 x11 x12 x13 (ix2 T d) = Spec.E 𝐖 𝐗 T d :=
  ef_apply x0 x1 x2 x3 x4 x5 x6 x7 x8 x9 x10 x11 x12 x13 (Spec.F 𝐖 𝐗) (row_feat x0 x1 x2 x3 x4 x5 x6 x7 x8 x9 x10 x11 x12 x13 x14 x15 x16 x17 x18 x19)
    (fun T => Spec.sel1 𝐖 (Spec.gated 𝐖 (Spec.F 𝐖 𝐗 T))) (row_sel1 x0 x1 x2 x3 x4 x5 x6 x7 x8 x9 x10 x11 x12 x13 x14 x15 x16 x17 x18 x19 hlab) T d

/-- The second class activations of row `T`. -/
private theorem row_etcam (hlab : ∀ j : Fin 3, 0 ≤ (x1 (ix1 j)).toInt) (T : Fin 32768) (c : Fin 20) :
    val_main_v85 (F := Ideal) x0 x1 x2 x3 x4 x5 x6 x7 x8 x9 x10 x11 x12 x13 x14 x15 x16 (ix2 T c) = Spec.etcam 𝐖 (Spec.E 𝐖 𝐗 T) c :=
  etcam_apply 𝐖 x0 x1 x2 x3 x4 x5 x6 x7 x8 x9 x10 x11 x12 x13 x14 x15 x16 (Spec.E 𝐖 𝐗) (row_ef x0 x1 x2 x3 x4 x5 x6 x7 x8 x9 x10 x11 x12 x13 x14 x15 x16 x17 x18 x19 hlab)
    (fun _ _ => rfl) (fun _ => rfl) (fun _ _ => rfl) T c

/-- The selected maximum of row `T`'s second class activations. -/
private theorem row_sel2 (hlab : ∀ j : Fin 3, 0 ≤ (x1 (ix1 j)).toInt) (T : Fin 32768) :
    val_main_v100 (F := Ideal) x0 x1 x2 x3 x4 x5 x6 x7 x8 x9 x10 x11 x12 x13 x14 x15 x16 (ix1 T) = Spec.sel2 𝐖 (Spec.egated 𝐖 (Spec.E 𝐖 𝐗 T)) :=
  (sel2_apply x0 x1 x2 x3 x4 x5 x6 x7 x8 x9 x10 x11 x12 x13 x14 x15 x16 hlab (fun T c => Spec.etcam 𝐖 (Spec.E 𝐖 𝐗 T) c) (row_etcam x0 x1 x2 x3 x4 x5 x6 x7 x8 x9 x10 x11 x12 x13 x14 x15 x16 x17 x18 x19 hlab) T).trans
    (sel2_eq x1 x2 x3 x4 x5 x6 x7 x8 x9 x10 x11 x12 x13 x14 x15 x16 x17 x18 x19 (Spec.E 𝐖 𝐗 T))

/-- The twice-erased features of row `T`. -/
private theorem row_ef2 (hlab : ∀ j : Fin 3, 0 ≤ (x1 (ix1 j)).toInt) (T : Fin 32768) (d : Fin 1024) :
    val_main_v113 (F := Ideal) x0 x1 x2 x3 x4 x5 x6 x7 x8 x9 x10 x11 x12 x13 x14 x15 x16 (ix2 T d) = Spec.E2 𝐖 𝐗 T d :=
  ef2_apply x0 x1 x2 x3 x4 x5 x6 x7 x8 x9 x10 x11 x12 x13 x14 x15 x16 (Spec.E 𝐖 𝐗) (row_ef x0 x1 x2 x3 x4 x5 x6 x7 x8 x9 x10 x11 x12 x13 x14 x15 x16 x17 x18 x19 hlab)
    (fun T => Spec.sel2 𝐖 (Spec.egated 𝐖 (Spec.E 𝐖 𝐗 T))) (row_sel2 x0 x1 x2 x3 x4 x5 x6 x7 x8 x9 x10 x11 x12 x13 x14 x15 x16 x17 x18 x19 hlab) T d

/-- The third class activations of row `T`. -/
private theorem row_e2tcam (hlab : ∀ j : Fin 3, 0 ≤ (x1 (ix1 j)).toInt) (T : Fin 32768) (c : Fin 20) :
    val_main_v128 (F := Ideal) x0 x1 x2 x3 x4 x5 x6 x7 x8 x9 x10 x11 x12 x13 x14 x15 x16 x17 x18 x19 (ix2 T c) = Spec.e2tcam 𝐖 (Spec.E2 𝐖 𝐗 T) c :=
  e2tcam_apply 𝐖 x0 x1 x2 x3 x4 x5 x6 x7 x8 x9 x10 x11 x12 x13 x14 x15 x16 x17 x18 x19 (Spec.E2 𝐖 𝐗) (row_ef2 x0 x1 x2 x3 x4 x5 x6 x7 x8 x9 x10 x11 x12 x13 x14 x15 x16 x17 x18 x19 hlab)
    (fun _ _ => rfl) (fun _ => rfl) (fun _ _ => rfl) T c

/-! ## The nine results -/

/-- The features. -/
theorem res_v18 : val_main_v18 (F := Ideal) x0 x2 x3 x4 x5 x6 x7 = Spec.resFeat (Spec.WA x1 x2 x3 x4 x5 x6 x7 x8 x9 x10 x11 x12 x13 x14 x15 x16 x17 x18 x19) x0 := by
  funext i
  obtain ⟨T, d, rfl⟩ : ∃ (T : Fin 32768) (d : Fin 1024), i = ix2 T d := ⟨i 0, i 1, eq_ix2 i⟩
  exact row_feat x0 x1 x2 x3 x4 x5 x6 x7 x8 x9 x10 x11 x12 x13 x14 x15 x16 x17 x18 x19 T d

/-- The class activations. -/
theorem res_v42 : val_main_v42 (F := Ideal) x0 x2 x3 x4 x5 x6 x7 x8 x9 x10 x11 x12 x13 = Spec.resTcam (Spec.WA x1 x2 x3 x4 x5 x6 x7 x8 x9 x10 x11 x12 x13 x14 x15 x16 x17 x18 x19) x0 := by
  funext i
  obtain ⟨T, c, rfl⟩ : ∃ (T : Fin 32768) (c : Fin 20), i = ix2 T c := ⟨i 0, i 1, eq_ix2 i⟩
  exact row_tcam x0 x1 x2 x3 x4 x5 x6 x7 x8 x9 x10 x11 x12 x13 x14 x15 x16 x17 x18 x19 T c

/-- The logistic of their column sums. -/
theorem res_v49 : val_main_v49 (F := Ideal) x0 x2 x3 x4 x5 x6 x7 x8 x9 x10 x11 x12 x13 = Spec.resX (Spec.WA x1 x2 x3 x4 x5 x6 x7 x8 x9 x10 x11 x12 x13 x14 x15 x16 x17 x18 x19) x0 := by
  funext i
  obtain ⟨c, rfl⟩ : ∃ c : Fin 20, i = ix1 c := ⟨i 0, eq_ix1 i⟩
  exact x_apply x0 x2 x3 x4 x5 x6 x7 x8 x9 x10 x11 x12 x13 (fun T c => Spec.tcam 𝐖 (Spec.F 𝐖 𝐗 T) c) (row_tcam x0 x1 x2 x3 x4 x5 x6 x7 x8 x9 x10 x11 x12 x13 x14 x15 x16 x17 x18 x19) c

/-- After the first erasure: the gate. -/
theorem res_v81 (hlab : ∀ j : Fin 3, 0 ≤ (x1 (ix1 j)).toInt) :
    val_main_v81 (F := Ideal) x0 x1 x2 x3 x4 x5 x6 x7 x8 x9 x10 x11 x12 x13 x14 x15 = Spec.resEAtt (Spec.WA x1 x2 x3 x4 x5 x6 x7 x8 x9 x10 x11 x12 x13 x14 x15 x16 x17 x18 x19) x0 := by
  funext i
  obtain ⟨T, u, rfl⟩ : ∃ (T : Fin 32768) (u : Fin 1), i = ix2 T u := ⟨i 0, i 1, eq_ix2 i⟩
  exact eatt_apply 𝐖 x0 x1 x2 x3 x4 x5 x6 x7 x8 x9 x10 x11 x12 x13 x14 x15 (Spec.E 𝐖 𝐗) (row_ef x0 x1 x2 x3 x4 x5 x6 x7 x8 x9 x10 x11 x12 x13 x14 x15 x16 x17 x18 x19 hlab) (fun _ _ => rfl) (fun _ => rfl) T u

/-- After the first erasure: the class activations. -/
theorem res_v85 (hlab : ∀ j : Fin 3, 0 ≤ (x1 (ix1 j)).toInt) :
    val_main_v85 (F := Ideal) x0 x1 x2 x3 x4 x5 x6 x7 x8 x9 x10 x11 x12 x13 x14 x15 x16 = Spec.resETcam (Spec.WA x1 x2 x3 x4 x5 x6 x7 x8 x9 x10 x11 x12 x13 x14 x15 x16 x17 x18 x19) x0 := by
  funext i
  obtain ⟨T, c, rfl⟩ : ∃ (T : Fin 32768) (c : Fin 20), i = ix2 T c := ⟨i 0, i 1, eq_ix2 i⟩
  exact row_etcam x0 x1 x2 x3 x4 x5 x6 x7 x8 x9 x10 x11 x12 x13 x14 x15 x16 x17 x18 x19 hlab T c

/-- After the first erasure: the logistic of the column sums. -/
theorem res_v92 (hlab : ∀ j : Fin 3, 0 ≤ (x1 (ix1 j)).toInt) :
    val_main_v92 (F := Ideal) x0 x1 x2 x3 x4 x5 x6 x7 x8 x9 x10 x11 x12 x13 x14 x15 x16 = Spec.resEX (Spec.WA x1 x2 x3 x4 x5 x6 x7 x8 x9 x10 x11 x12 x13 x14 x15 x16 x17 x18 x19) x0 := by
  funext i
  obtain ⟨c, rfl⟩ : ∃ c : Fin 20, i = ix1 c := ⟨i 0, eq_ix1 i⟩
  exact ex_apply x0 x1 x2 x3 x4 x5 x6 x7 x8 x9 x10 x11 x12 x13 x14 x15 x16 (fun T c => Spec.etcam 𝐖 (Spec.E 𝐖 𝐗 T) c) (row_etcam x0 x1 x2 x3 x4 x5 x6 x7 x8 x9 x10 x11 x12 x13 x14 x15 x16 x17 x18 x19 hlab) c

/-- After the second erasure: the gate. -/
theorem res_v124 (hlab : ∀ j : Fin 3, 0 ≤ (x1 (ix1 j)).toInt) :
    val_main_v124 (F := Ideal) x0 x1 x2 x3 x4 x5 x6 x7 x8 x9 x10 x11 x12 x13 x14 x15 x16 x17 x18 = Spec.resE2Att (Spec.WA x1 x2 x3 x4 x5 x6 x7 x8 x9 x10 x11 x12 x13 x14 x15 x16 x17 x18 x19) x0 := by
  funext i
  obtain ⟨T, u, rfl⟩ : ∃ (T : Fin 32768) (u : Fin 1), i = ix2 T u := ⟨i 0, i 1, eq_ix2 i⟩
  exact e2att_apply 𝐖 x0 x1 x2 x3 x4 x5 x6 x7 x8 x9 x10 x11 x12 x13 x14 x15 x16 x17 x18 (Spec.E2 𝐖 𝐗) (row_ef2 x0 x1 x2 x3 x4 x5 x6 x7 x8 x9 x10 x11 x12 x13 x14 x15 x16 x17 x18 x19 hlab) (fun _ _ => rfl) (fun _ => rfl) T u

/-- After the second erasure: the class activations. -/
theorem res_v128 (hlab : ∀ j : Fin 3, 0 ≤ (x1 (ix1 j)).toInt) :
    val_main_v128 (F := Ideal) x0 x1 x2 x3 x4 x5 x6 x7 x8 x9 x10 x11 x12 x13 x14 x15 x16 x17 x18 x19 = Spec.resE2Tcam (Spec.WA x1 x2 x3 x4 x5 x6 x7 x8 x9 x10 x11 x12 x13 x14 x15 x16 x17 x18 x19) x0 := by
  funext i
  obtain ⟨T, c, rfl⟩ : ∃ (T : Fin 32768) (c : Fin 20), i = ix2 T c := ⟨i 0, i 1, eq_ix2 i⟩
  exact row_e2tcam x0 x1 x2 x3 x4 x5 x6 x7 x8 x9 x10 x11 x12 x13 x14 x15 x16 x17 x18 x19 hlab T c

/-- After the second erasure: the logistic of the column sums. -/
theorem res_v135 (hlab : ∀ j : Fin 3, 0 ≤ (x1 (ix1 j)).toInt) :
    val_main_v135 (F := Ideal) x0 x1 x2 x3 x4 x5 x6 x7 x8 x9 x10 x11 x12 x13 x14 x15 x16 x17 x18 x19 = Spec.resE2X (Spec.WA x1 x2 x3 x4 x5 x6 x7 x8 x9 x10 x11 x12 x13 x14 x15 x16 x17 x18 x19) x0 := by
  funext i
  obtain ⟨c, rfl⟩ : ∃ c : Fin 20, i = ix1 c := ⟨i 0, eq_ix1 i⟩
  exact e2x_apply x0 x1 x2 x3 x4 x5 x6 x7 x8 x9 x10 x11 x12 x13 x14 x15 x16 x17 x18 x19 (fun T c => Spec.e2tcam 𝐖 (Spec.E2 𝐖 𝐗 T) c) (row_e2tcam x0 x1 x2 x3 x4 x5 x6 x7 x8 x9 x10 x11 x12 x13 x14 x15 x16 x17 x18 x19 hlab) c

end Cert.ReferenceIdeal.Stages

end
-- ==== Proof.RefHandRunSeq.lean ====
/-
  The reference's run as a fold, list after list. @main is the straight line of the eight lists of its operations (its
  three printed parts are the first three lists, the next three and the last two), so every weakly fair execution of it
  terminates with each TensorCore buffer at the lists' results folded, one list after the other, over the launch memory.
-/
import proofs.«424737_j11321533792616_2_alg».proof.Proof.RefHandRunOps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The contents after two lines run one after the other: the second line's results folded over the first's. -/
theorem after_append {τ' : Topo} {sig' : RefSig} {Val : EltTy → Type} (l₁ l₂ : List (HloOp τ' sig' Val))
    (V : Valuation τ' sig' Val) : after (l₁ ++ l₂) V = after l₂ (after l₁ V) := by
  induction l₁ generalizing V with
  | nil => rfl
  | cons op l ih => exact ih (op.result V)

set_option maxRecDepth 8192 in
set_option maxHeartbeats 4000000 in
/-- @main's first printed part is the line of the first three lists. -/
theorem main_part0_eq (c : Dev nD) : main_part0 (F := F) c = seq (opsA ++ opsB ++ opsC1) := rfl
set_option maxRecDepth 8192 in
set_option maxHeartbeats 4000000 in
/-- Its second part, of the next three. -/
theorem main_part1_eq (c : Dev nD) : main_part1 (F := F) c = seq (opsC2 ++ opsD ++ opsE1) := rfl
set_option maxRecDepth 8192 in
set_option maxHeartbeats 4000000 in
/-- Its third part, of the last two. -/
theorem main_part2_eq (c : Dev nD) : main_part2 (F := F) c = seq (opsE2 ++ opsF) := rfl

/-- @main is the straight line of its operations: its parts one after the other. -/
theorem main_eq (c : Dev nD) : main (F := F) c = seq ((opsA ++ opsB ++ opsC1) ++ ((opsC2 ++ opsD ++ opsE1) ++ (opsE2 ++ opsF))) := by
  rw [seq_append (opsA ++ opsB ++ opsC1), seq_append (opsC2 ++ opsD ++ opsE1)]
  unfold main
  rw [main_part0_eq, main_part1_eq, main_part2_eq]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only: list by list. -/
theorem all_sub : (((opsA ++ opsB ++ opsC1) ++ ((opsC2 ++ opsD ++ opsE1) ++ (opsE2 ++ opsF))) : List (HloOp τ sig (Elt F))).Forall fun op => op.bufs ⊆ tcRefs τ sig := by
  simp only [List.forall_append]
  exact ⟨⟨⟨opsA_sub, opsB_sub⟩, opsC1_sub⟩, ⟨⟨opsC2_sub, opsD_sub⟩, opsE1_sub⟩, opsE2_sub, opsF_sub⟩

/-- Every operation determines its result: list by list. -/
theorem all_fresh : ∀ op ∈ (((opsA ++ opsB ++ opsC1) ++ ((opsC2 ++ opsD ++ opsE1) ++ (opsE2 ++ opsF))) : List (HloOp τ sig (Elt F))), op.fresh = ∅ :=
  List.forall_iff_forall_mem.mp (by
    simp only [List.forall_append]
    exact ⟨⟨⟨opsA_fresh, opsB_fresh⟩, opsC1_fresh⟩, ⟨⟨opsC2_fresh, opsD_fresh⟩, opsE1_fresh⟩, opsE2_fresh, opsF_fresh⟩)

/-- On every device, from any memory with zero counters: every weakly fair execution of @main terminates, and each
    TensorCore buffer ends at the eight lists' results folded, list after list, over the device's launch contents. -/
theorem run_after (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b)
        = after opsF (after opsE2 (after opsE1 (after opsD (after opsC2 (after opsC1 (after opsB (after opsA
            (launchContents m d)))))))) (Proc.devRef .tc b) :=
  (θ_run defs _ _).mono (fun _ h d b => (h d b).trans (by simp only [after_append]))
    (run_seq scopedRefs_eq scopedSems_eq defs main (fun _ => (opsA ++ opsB ++ opsC1) ++ ((opsC2 ++ opsD ++ opsE1) ++ (opsE2 ++ opsF))) main_eq (fun _ => all_sub) m ρ
      (fun _ => all_fresh))

end Cert.ReferenceIdeal.HandRun

end
-- ==== Proof.RefHandRunK1.lean ====
/-
  The first stretch of the reference (operations 0–24): over any contents `v` of the device's buffers, with the seven
  arguments it reads named by the hypotheses, it leaves the residual embedding's buffer %18 at its stage of them.
-/
import proofs.«424737_j11321533792616_2_alg».proof.Proof.RefHandRunOps
import proofs.«424737_j11321533792616_2_alg».proof.Proof.RefRead

noncomputable section

namespace Cert.ReferenceIdeal.HandRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- After the first list the embedding's buffer holds its stage of the arguments. -/
theorem k1_v18 (v : Valuation τ sig (Elt F)) (x0 : (⟨S32768x1024, .f32⟩ : BufTy).Contents (Elt F)) (x2 : (⟨S512x1024, .f32⟩ : BufTy).Contents (Elt F)) (x3 : (⟨S512, .f32⟩ : BufTy).Contents (Elt F)) (x4 : (⟨S512x512, .f32⟩ : BufTy).Contents (Elt F)) (x5 : (⟨S512, .f32⟩ : BufTy).Contents (Elt F)) (x6 : (⟨S1024x512, .f32⟩ : BufTy).Contents (Elt F)) (x7 : (⟨S1024, .f32⟩ : BufTy).Contents (Elt F))
    (ha0 : v (Proc.devRef .tc main_arg0) = x0) (ha2 : v (Proc.devRef .tc main_arg2) = x2) (ha3 : v (Proc.devRef .tc main_arg3) = x3) (ha4 : v (Proc.devRef .tc main_arg4) = x4) (ha5 : v (Proc.devRef .tc main_arg5) = x5) (ha6 : v (Proc.devRef .tc main_arg6) = x6) (ha7 : v (Proc.devRef .tc main_arg7) = x7) :
    after (opsA (F := F)) v (Proc.devRef .tc main_v18) = val_main_v18 (F := F) x0 x2 x3 x4 x5 x6 x7 := by
  subst ha0 ha2 ha3 ha4 ha5 ha6 ha7
  after_results_simp
  rfl

end Cert.ReferenceIdeal.HandRun

end
-- ==== Proof.RefHandRunK2.lean ====
/-
  The second stretch (operations 25–62): over any contents `v` that hold the embedding's stage at %18 and the six
  arguments the stretch reads, it leaves the class activations %42 and the first [20] result %49 at their stages.
-/
import proofs.«424737_j11321533792616_2_alg».proof.Proof.RefHandRunOps
import proofs.«424737_j11321533792616_2_alg».proof.Proof.RefRead

noncomputable section

namespace Cert.ReferenceIdeal.HandRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxHeartbeats 4000000 in
/-- After the second list the class activations hold their stage. -/
theorem k2_v42 (v : Valuation τ sig (Elt F)) (x0 : (⟨S32768x1024, .f32⟩ : BufTy).Contents (Elt F)) (x2 : (⟨S512x1024, .f32⟩ : BufTy).Contents (Elt F)) (x3 : (⟨S512, .f32⟩ : BufTy).Contents (Elt F)) (x4 : (⟨S512x512, .f32⟩ : BufTy).Contents (Elt F)) (x5 : (⟨S512, .f32⟩ : BufTy).Contents (Elt F)) (x6 : (⟨S1024x512, .f32⟩ : BufTy).Contents (Elt F)) (x7 : (⟨S1024, .f32⟩ : BufTy).Contents (Elt F)) (x8 : (⟨S256x1024, .f32⟩ : BufTy).Contents (Elt F)) (x9 : (⟨S256, .f32⟩ : BufTy).Contents (Elt F)) (x10 : (⟨S1x256, .f32⟩ : BufTy).Contents (Elt F)) (x11 : (⟨S1, .f32⟩ : BufTy).Contents (Elt F)) (x12 : (⟨S20x1024, .f32⟩ : BufTy).Contents (Elt F)) (x13 : (⟨S20, .f32⟩ : BufTy).Contents (Elt F))
    (hv18 : v (Proc.devRef .tc main_v18) = val_main_v18 (F := F) x0 x2 x3 x4 x5 x6 x7)
    (ha8 : v (Proc.devRef .tc main_arg8) = x8) (ha9 : v (Proc.devRef .tc main_arg9) = x9) (ha10 : v (Proc.devRef .tc main_arg10) = x10) (ha11 : v (Proc.devRef .tc main_arg11) = x11) (ha12 : v (Proc.devRef .tc main_arg12) = x12) (ha13 : v (Proc.devRef .tc main_arg13) = x13) :
    after (opsB (F := F)) v (Proc.devRef .tc main_v42) = val_main_v42 (F := F) x0 x2 x3 x4 x5 x6 x7 x8 x9 x10 x11 x12 x13 := by
  subst ha8 ha9 ha10 ha11 ha12 ha13
  after_results
  rw [hv18]
  rfl

set_option maxHeartbeats 4000000 in
/-- After the second list the first [20] result holds its stage. -/
theorem k2_v49 (v : Valuation τ sig (Elt F)) (x0 : (⟨S32768x1024, .f32⟩ : BufTy).Contents (Elt F)) (x2 : (⟨S512x1024, .f32⟩ : BufTy).Contents (Elt F)) (x3 : (⟨S512, .f32⟩ : BufTy).Contents (Elt F)) (x4 : (⟨S512x512, .f32⟩ : BufTy).Contents (Elt F)) (x5 : (⟨S512, .f32⟩ : BufTy).Contents (Elt F)) (x6 : (⟨S1024x512, .f32⟩ : BufTy).Contents (Elt F)) (x7 : (⟨S1024, .f32⟩ : BufTy).Contents (Elt F)) (x8 : (⟨S256x1024, .f32⟩ : BufTy).Contents (Elt F)) (x9 : (⟨S256, .f32⟩ : BufTy).Contents (Elt F)) (x10 : (⟨S1x256, .f32⟩ : BufTy).Contents (Elt F)) (x11 : (⟨S1, .f32⟩ : BufTy).Contents (Elt F)) (x12 : (⟨S20x1024, .f32⟩ : BufTy).Contents (Elt F)) (x13 : (⟨S20, .f32⟩ : BufTy).Contents (Elt F))
    (hv18 : v (Proc.devRef .tc main_v18) = val_main_v18 (F := F) x0 x2 x3 x4 x5 x6 x7)
    (ha8 : v (Proc.devRef .tc main_arg8) = x8) (ha9 : v (Proc.devRef .tc main_arg9) = x9) (ha10 : v (Proc.devRef .tc main_arg10) = x10) (ha11 : v (Proc.devRef .tc main_arg11) = x11) (ha12 : v (Proc.devRef .tc main_arg12) = x12) (ha13 : v (Proc.devRef .tc main_arg13) = x13) :
    after (opsB (F := F)) v (Proc.devRef .tc main_v49) = val_main_v49 (F := F) x0 x2 x3 x4 x5 x6 x7 x8 x9 x10 x11 x12 x13 := by
  subst ha8 ha9 ha10 ha11 ha12 ha13
  after_results
  rw [hv18]
  rfl

end Cert.ReferenceIdeal.HandRun

end
-- ==== Proof.RefHandRunK3.lean ====
/-
  The third stretch (operations 63–93, in two lists: @main's first printed part ends inside it): over any contents `v`
  that hold the stages at %18 and %42 and the labels (argument 1), it leaves the once-erased features %70 at their stage.
-/
import proofs.«424737_j11321533792616_2_alg».proof.Proof.RefHandRunOps
import proofs.«424737_j11321533792616_2_alg».proof.Proof.RefRead

noncomputable section

namespace Cert.ReferenceIdeal.HandRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- After the third stretch the once-erased features hold their stage. -/
theorem k3_v70 (v : Valuation τ sig (Elt F)) (x0 : (⟨S32768x1024, .f32⟩ : BufTy).Contents (Elt F)) (x1 : (⟨S3, .i32⟩ : BufTy).Contents (Elt F)) (x2 : (⟨S512x1024, .f32⟩ : BufTy).Contents (Elt F)) (x3 : (⟨S512, .f32⟩ : BufTy).Contents (Elt F)) (x4 : (⟨S512x512, .f32⟩ : BufTy).Contents (Elt F)) (x5 : (⟨S512, .f32⟩ : BufTy).Contents (Elt F)) (x6 : (⟨S1024x512, .f32⟩ : BufTy).Contents (Elt F)) (x7 : (⟨S1024, .f32⟩ : BufTy).Contents (Elt F)) (x8 : (⟨S256x1024, .f32⟩ : BufTy).Contents (Elt F)) (x9 : (⟨S256, .f32⟩ : BufTy).Contents (Elt F)) (x10 : (⟨S1x256, .f32⟩ : BufTy).Contents (Elt F)) (x11 : (⟨S1, .f32⟩ : BufTy).Contents (Elt F)) (x12 : (⟨S20x1024, .f32⟩ : BufTy).Contents (Elt F)) (x13 : (⟨S20, .f32⟩ : BufTy).Contents (Elt F))
    (ha1 : v (Proc.devRef .tc main_arg1) = x1)
    (hv18 : v (Proc.devRef .tc main_v18) = val_main_v18 (F := F) x0 x2 x3 x4 x5 x6 x7)
    (hv42 : v (Proc.devRef .tc main_v42) = val_main_v42 (F := F) x0 x2 x3 x4 x5 x6 x7 x8 x9 x10 x11 x12 x13) :
    after (opsC2 (F := F)) (after (opsC1 (F := F)) v) (Proc.devRef .tc main_v70) = val_main_v70 (F := F) x0 x1 x2 x3 x4 x5 x6 x7 x8 x9 x10 x11 x12 x13 := by
  subst ha1
  after_results_simp
  rw [hv18, hv42]
  simp only [TRef.ofBuf, TRef.toBuf, cast_eq]
  rfl

end Cert.ReferenceIdeal.HandRun

end
-- ==== Proof.RefHandRunK4.lean ====
/-
  The fourth stretch (operations 94–122): over any contents `v` that hold the once-erased features' stage at %70 and the
  three arguments the stretch reads, it leaves the second gate %81, the class activations %85 and the [20] result %92 at
  their stages.
-/
import proofs.«424737_j11321533792616_2_alg».proof.Proof.RefHandRunOps
import proofs.«424737_j11321533792616_2_alg».proof.Proof.RefRead

noncomputable section

namespace Cert.ReferenceIdeal.HandRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- After the fourth list the second gate holds its stage. -/
theorem k4_v81 (v : Valuation τ sig (Elt F)) (x0 : (⟨S32768x1024, .f32⟩ : BufTy).Contents (Elt F)) (x1 : (⟨S3, .i32⟩ : BufTy).Contents (Elt F)) (x2 : (⟨S512x1024, .f32⟩ : BufTy).Contents (Elt F)) (x3 : (⟨S512, .f32⟩ : BufTy).Contents (Elt F)) (x4 : (⟨S512x512, .f32⟩ : BufTy).Contents (Elt F)) (x5 : (⟨S512, .f32⟩ : BufTy).Contents (Elt F)) (x6 : (⟨S1024x512, .f32⟩ : BufTy).Contents (Elt F)) (x7 : (⟨S1024, .f32⟩ : BufTy).Contents (Elt F)) (x8 : (⟨S256x1024, .f32⟩ : BufTy).Contents (Elt F)) (x9 : (⟨S256, .f32⟩ : BufTy).Contents (Elt F)) (x10 : (⟨S1x256, .f32⟩ : BufTy).Contents (Elt F)) (x11 : (⟨S1, .f32⟩ : BufTy).Contents (Elt F)) (x12 : (⟨S20x1024, .f32⟩ : BufTy).Contents (Elt F)) (x13 : (⟨S20, .f32⟩ : BufTy).Contents (Elt F)) (x14 : (⟨S256x1024, .f32⟩ : BufTy).Contents (Elt F)) (x15 : (⟨S1x256, .f32⟩ : BufTy).Contents (Elt F))
    (hv70 : v (Proc.devRef .tc main_v70) = val_main_v70 (F := F) x0 x1 x2 x3 x4 x5 x6 x7 x8 x9 x10 x11 x12 x13)
    (ha14 : v (Proc.devRef .tc main_arg14) = x14) (ha15 : v (Proc.devRef .tc main_arg15) = x15) :
    after (opsD (F := F)) v (Proc.devRef .tc main_v81) = val_main_v81 (F := F) x0 x1 x2 x3 x4 x5 x6 x7 x8 x9 x10 x11 x12 x13 x14 x15 := by
  subst ha14 ha15
  after_results_simp
  rw [hv70]
  rfl

/-- After the fourth list the second class activations hold their stage. -/
theorem k4_v85 (v : Valuation τ sig (Elt F)) (x0 : (⟨S32768x1024, .f32⟩ : BufTy).Contents (Elt F)) (x1 : (⟨S3, .i32⟩ : BufTy).Contents (Elt F)) (x2 : (⟨S512x1024, .f32⟩ : BufTy).Contents (Elt F)) (x3 : (⟨S512, .f32⟩ : BufTy).Contents (Elt F)) (x4 : (⟨S512x512, .f32⟩ : BufTy).Contents (Elt F)) (x5 : (⟨S512, .f32⟩ : BufTy).Contents (Elt F)) (x6 : (⟨S1024x512, .f32⟩ : BufTy).Contents (Elt F)) (x7 : (⟨S1024, .f32⟩ : BufTy).Contents (Elt F)) (x8 : (⟨S256x1024, .f32⟩ : BufTy).Contents (Elt F)) (x9 : (⟨S256, .f32⟩ : BufTy).Contents (Elt F)) (x10 : (⟨S1x256, .f32⟩ : BufTy).Contents (Elt F)) (x11 : (⟨S1, .f32⟩ : BufTy).Contents (Elt F)) (x12 : (⟨S20x1024, .f32⟩ : BufTy).Contents (Elt F)) (x13 : (⟨S20, .f32⟩ : BufTy).Contents (Elt F)) (x14 : (⟨S256x1024, .f32⟩ : BufTy).Contents (Elt F)) (x15 : (⟨S1x256, .f32⟩ : BufTy).Contents (Elt F)) (x16 : (⟨S20x1024, .f32⟩ : BufTy).Contents (Elt F))
    (hv70 : v (Proc.devRef .tc main_v70) = val_main_v70 (F := F) x0 x1 x2 x3 x4 x5 x6 x7 x8 x9 x10 x11 x12 x13)
    (ha14 : v (Proc.devRef .tc main_arg14) = x14) (ha15 : v (Proc.devRef .tc main_arg15) = x15) (ha16 : v (Proc.devRef .tc main_arg16) = x16) :
    after (opsD (F := F)) v (Proc.devRef .tc main_v85) = val_main_v85 (F := F) x0 x1 x2 x3 x4 x5 x6 x7 x8 x9 x10 x11 x12 x13 x14 x15 x16 := by
  subst ha14 ha15 ha16
  after_results_simp
  rw [hv70]
  rfl

/-- After the fourth list the second [20] result holds its stage. -/
theorem k4_v92 (v : Valuation τ sig (Elt F)) (x0 : (⟨S32768x1024, .f32⟩ : BufTy).Contents (Elt F)) (x1 : (⟨S3, .i32⟩ : BufTy).Contents (Elt F)) (x2 : (⟨S512x1024, .f32⟩ : BufTy).Contents (Elt F)) (x3 : (⟨S512, .f32⟩ : BufTy).Contents (Elt F)) (x4 : (⟨S512x512, .f32⟩ : BufTy).Contents (Elt F)) (x5 : (⟨S512, .f32⟩ : BufTy).Contents (Elt F)) (x6 : (⟨S1024x512, .f32⟩ : BufTy).Contents (Elt F)) (x7 : (⟨S1024, .f32⟩ : BufTy).Contents (Elt F)) (x8 : (⟨S256x1024, .f32⟩ : BufTy).Contents (Elt F)) (x9 : (⟨S256, .f32⟩ : BufTy).Contents (Elt F)) (x10 : (⟨S1x256, .f32⟩ : BufTy).Contents (Elt F)) (x11 : (⟨S1, .f32⟩ : BufTy).Contents (Elt F)) (x12 : (⟨S20x1024, .f32⟩ : BufTy).Contents (Elt F)) (x13 : (⟨S20, .f32⟩ : BufTy).Contents (Elt F)) (x14 : (⟨S256x1024, .f32⟩ : BufTy).Contents (Elt F)) (x15 : (⟨S1x256, .f32⟩ : BufTy).Contents (Elt F)) (x16 : (⟨S20x1024, .f32⟩ : BufTy).Contents (Elt F))
    (hv70 : v (Proc.devRef .tc main_v70) = val_main_v70 (F := F) x0 x1 x2 x3 x4 x5 x6 x7 x8 x9 x10 x11 x12 x13)
    (ha14 : v (Proc.devRef .tc main_arg14) = x14) (ha15 : v (Proc.devRef .tc main_arg15) = x15) (ha16 : v (Proc.devRef .tc main_arg16) = x16) :
    after (opsD (F := F)) v (Proc.devRef .tc main_v92) = val_main_v92 (F := F) x0 x1 x2 x3 x4 x5 x6 x7 x8 x9 x10 x11 x12 x13 x14 x15 x16 := by
  subst ha14 ha15 ha16
  after_results_simp
  rw [hv70]
  rfl

end Cert.ReferenceIdeal.HandRun

end
-- ==== Proof.RefHandRunK5.lean ====
/-
  The fifth stretch (operations 123–153, in two lists: @main's second printed part ends inside it): over any contents
  `v` that hold the stages at %70 and %85 and the labels (argument 1), it leaves the twice-erased features %113 at their
  stage.
-/
import proofs.«424737_j11321533792616_2_alg».proof.Proof.RefHandRunOps
import proofs.«424737_j11321533792616_2_alg».proof.Proof.RefRead

noncomputable section

namespace Cert.ReferenceIdeal.HandRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

-- the two earlier stages enter as names only: the closing comparison never opens them
attribute [local irreducible] val_main_v70 val_main_v85 in
/-- After the fifth stretch the twice-erased features hold their stage. -/
theorem k5_v113 (v : Valuation τ sig (Elt F)) (x0 : (⟨S32768x1024, .f32⟩ : BufTy).Contents (Elt F)) (x1 : (⟨S3, .i32⟩ : BufTy).Contents (Elt F)) (x2 : (⟨S512x1024, .f32⟩ : BufTy).Contents (Elt F)) (x3 : (⟨S512, .f32⟩ : BufTy).Contents (Elt F)) (x4 : (⟨S512x512, .f32⟩ : BufTy).Contents (Elt F)) (x5 : (⟨S512, .f32⟩ : BufTy).Contents (Elt F)) (x6 : (⟨S1024x512, .f32⟩ : BufTy).Contents (Elt F)) (x7 : (⟨S1024, .f32⟩ : BufTy).Contents (Elt F)) (x8 : (⟨S256x1024, .f32⟩ : BufTy).Contents (Elt F)) (x9 : (⟨S256, .f32⟩ : BufTy).Contents (Elt F)) (x10 : (⟨S1x256, .f32⟩ : BufTy).Contents (Elt F)) (x11 : (⟨S1, .f32⟩ : BufTy).Contents (Elt F)) (x12 : (⟨S20x1024, .f32⟩ : BufTy).Contents (Elt F)) (x13 : (⟨S20, .f32⟩ : BufTy).Contents (Elt F)) (x14 : (⟨S256x1024, .f32⟩ : BufTy).Contents (Elt F)) (x15 : (⟨S1x256, .f32⟩ : BufTy).Contents (Elt F)) (x16 : (⟨S20x1024, .f32⟩ : BufTy).Contents (Elt F))
    (ha1 : v (Proc.devRef .tc main_arg1) = x1)
    (hv70 : v (Proc.devRef .tc main_v70) = val_main_v70 (F := F) x0 x1 x2 x3 x4 x5 x6 x7 x8 x9 x10 x11 x12 x13)
    (hv85 : v (Proc.devRef .tc main_v85) = val_main_v85 (F := F) x0 x1 x2 x3 x4 x5 x6 x7 x8 x9 x10 x11 x12 x13 x14 x15 x16) :
    after (opsE2 (F := F)) (after (opsE1 (F := F)) v) (Proc.devRef .tc main_v113) = val_main_v113 (F := F) x0 x1 x2 x3 x4 x5 x6 x7 x8 x9 x10 x11 x12 x13 x14 x15 x16 := by
  subst ha1
  -- each operation's result at its own buffer is its function of what the buffers it reads hold
  after_results_simp
  rw [hv70, hv85]
  -- the called function's typed references carry casts along a reflexive type equation
  simp only [TRef.ofBuf, TRef.toBuf, cast_eq]
  rfl

end Cert.ReferenceIdeal.HandRun

end
-- ==== Proof.RefHandRunK6.lean ====
/-
  The last stretch (operations 154–182): over any contents `v` that hold the twice-erased features' stage at %113 and the
  three arguments the stretch reads, it leaves the third gate %124, the class activations %128 and the [20] result %135 at
  their stages.
-/
import proofs.«424737_j11321533792616_2_alg».proof.Proof.RefHandRunOps
import proofs.«424737_j11321533792616_2_alg».proof.Proof.RefRead

noncomputable section

namespace Cert.ReferenceIdeal.HandRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- After the last list the third gate holds its stage. -/
theorem k6_v124 (v : Valuation τ sig (Elt F)) (x0 : (⟨S32768x1024, .f32⟩ : BufTy).Contents (Elt F)) (x1 : (⟨S3, .i32⟩ : BufTy).Contents (Elt F)) (x2 : (⟨S512x1024, .f32⟩ : BufTy).Contents (Elt F)) (x3 : (⟨S512, .f32⟩ : BufTy).Contents (Elt F)) (x4 : (⟨S512x512, .f32⟩ : BufTy).Contents (Elt F)) (x5 : (⟨S512, .f32⟩ : BufTy).Contents (Elt F)) (x6 : (⟨S1024x512, .f32⟩ : BufTy).Contents (Elt F)) (x7 : (⟨S1024, .f32⟩ : BufTy).Contents (Elt F)) (x8 : (⟨S256x1024, .f32⟩ : BufTy).Contents (Elt F)) (x9 : (⟨S256, .f32⟩ : BufTy).Contents (Elt F)) (x10 : (⟨S1x256, .f32⟩ : BufTy).Contents (Elt F)) (x11 : (⟨S1, .f32⟩ : BufTy).Contents (Elt F)) (x12 : (⟨S20x1024, .f32⟩ : BufTy).Contents (Elt F)) (x13 : (⟨S20, .f32⟩ : BufTy).Contents (Elt F)) (x14 : (⟨S256x1024, .f32⟩ : BufTy).Contents (Elt F)) (x15 : (⟨S1x256, .f32⟩ : BufTy).Contents (Elt F)) (x16 : (⟨S20x1024, .f32⟩ : BufTy).Contents (Elt F)) (x17 : (⟨S256x1024, .f32⟩ : BufTy).Contents (Elt F)) (x18 : (⟨S1x256, .f32⟩ : BufTy).Contents (Elt F))
    (hv113 : v (Proc.devRef .tc main_v113) = val_main_v113 (F := F) x0 x1 x2 x3 x4 x5 x6 x7 x8 x9 x10 x11 x12 x13 x14 x15 x16)
    (ha17 : v (Proc.devRef .tc main_arg17) = x17) (ha18 : v (Proc.devRef .tc main_arg18) = x18) :
    after (opsF (F := F)) v (Proc.devRef .tc main_v124) = val_main_v124 (F := F) x0 x1 x2 x3 x4 x5 x6 x7 x8 x9 x10 x11 x12 x13 x14 x15 x16 x17 x18 := by
  subst ha17 ha18
  after_results_simp
  rw [hv113]
  rfl

/-- After the last list the third class activations hold their stage. -/
theorem k6_v128 (v : Valuation τ sig (Elt F)) (x0 : (⟨S32768x1024, .f32⟩ : BufTy).Contents (Elt F)) (x1 : (⟨S3, .i32⟩ : BufTy).Contents (Elt F)) (x2 : (⟨S512x1024, .f32⟩ : BufTy).Contents (Elt F)) (x3 : (⟨S512, .f32⟩ : BufTy).Contents (Elt F)) (x4 : (⟨S512x512, .f32⟩ : BufTy).Contents (Elt F)) (x5 : (⟨S512, .f32⟩ : BufTy).Contents (Elt F)) (x6 : (⟨S1024x512, .f32⟩ : BufTy).Contents (Elt F)) (x7 : (⟨S1024, .f32⟩ : BufTy).Contents (Elt F)) (x8 : (⟨S256x1024, .f32⟩ : BufTy).Contents (Elt F)) (x9 : (⟨S256, .f32⟩ : BufTy).Contents (Elt F)) (x10 : (⟨S1x256, .f32⟩ : BufTy).Contents (Elt F)) (x11 : (⟨S1, .f32⟩ : BufTy).Contents (Elt F)) (x12 : (⟨S20x1024, .f32⟩ : BufTy).Contents (Elt F)) (x13 : (⟨S20, .f32⟩ : BufTy).Contents (Elt F)) (x14 : (⟨S256x1024, .f32⟩ : BufTy).Contents (Elt F)) (x15 : (⟨S1x256, .f32⟩ : BufTy).Contents (Elt F)) (x16 : (⟨S20x1024, .f32⟩ : BufTy).Contents (Elt F)) (x17 : (⟨S256x1024, .f32⟩ : BufTy).Contents (Elt F)) (x18 : (⟨S1x256, .f32⟩ : BufTy).Contents (Elt F)) (x19 : (⟨S20x1024, .f32⟩ : BufTy).Contents (Elt F))
    (hv113 : v (Proc.devRef .tc main_v113) = val_main_v113 (F := F) x0 x1 x2 x3 x4 x5 x6 x7 x8 x9 x10 x11 x12 x13 x14 x15 x16)
    (ha17 : v (Proc.devRef .tc main_arg17) = x17) (ha18 : v (Proc.devRef .tc main_arg18) = x18) (ha19 : v (Proc.devRef .tc main_arg19) = x19) :
    after (opsF (F := F)) v (Proc.devRef .tc main_v128) = val_main_v128 (F := F) x0 x1 x2 x3 x4 x5 x6 x7 x8 x9 x10 x11 x12 x13 x14 x15 x16 x17 x18 x19 := by
  subst ha17 ha18 ha19
  after_results_simp
  rw [hv113]
  rfl

/-- After the last list the third [20] result holds its stage. -/
theorem k6_v135 (v : Valuation τ sig (Elt F)) (x0 : (⟨S32768x1024, .f32⟩ : BufTy).Contents (Elt F)) (x1 : (⟨S3, .i32⟩ : BufTy).Contents (Elt F)) (x2 : (⟨S512x1024, .f32⟩ : BufTy).Contents (Elt F)) (x3 : (⟨S512, .f32⟩ : BufTy).Contents (Elt F)) (x4 : (⟨S512x512, .f32⟩ : BufTy).Contents (Elt F)) (x5 : (⟨S512, .f32⟩ : BufTy).Contents (Elt F)) (x6 : (⟨S1024x512, .f32⟩ : BufTy).Contents (Elt F)) (x7 : (⟨S1024, .f32⟩ : BufTy).Contents (Elt F)) (x8 : (⟨S256x1024, .f32⟩ : BufTy).Contents (Elt F)) (x9 : (⟨S256, .f32⟩ : BufTy).Contents (Elt F)) (x10 : (⟨S1x256, .f32⟩ : BufTy).Contents (Elt F)) (x11 : (⟨S1, .f32⟩ : BufTy).Contents (Elt F)) (x12 : (⟨S20x1024, .f32⟩ : BufTy).Contents (Elt F)) (x13 : (⟨S20, .f32⟩ : BufTy).Contents (Elt F)) (x14 : (⟨S256x1024, .f32⟩ : BufTy).Contents (Elt F)) (x15 : (⟨S1x256, .f32⟩ : BufTy).Contents (Elt F)) (x16 : (⟨S20x1024, .f32⟩ : BufTy).Contents (Elt F)) (x17 : (⟨S256x1024, .f32⟩ : BufTy).Contents (Elt F)) (x18 : (⟨S1x256, .f32⟩ : BufTy).Contents (Elt F)) (x19 : (⟨S20x1024, .f32⟩ : BufTy).Contents (Elt F))
    (hv113 : v (Proc.devRef .tc main_v113) = val_main_v113 (F := F) x0 x1 x2 x3 x4 x5 x6 x7 x8 x9 x10 x11 x12 x13 x14 x15 x16)
    (ha17 : v (Proc.devRef .tc main_arg17) = x17) (ha18 : v (Proc.devRef .tc main_arg18) = x18) (ha19 : v (Proc.devRef .tc main_arg19) = x19) :
    after (opsF (F := F)) v (Proc.devRef .tc main_v135) = val_main_v135 (F := F) x0 x1 x2 x3 x4 x5 x6 x7 x8 x9 x10 x11 x12 x13 x14 x15 x16 x17 x18 x19 := by
  subst ha17 ha18 ha19
  after_results_simp
  rw [hv113]
  rfl

end Cert.ReferenceIdeal.HandRun

end
-- ==== Proof.RefHandRun.lean ====
/-
  The reference's run, read: every weakly fair execution of its @main terminates with each of the nine results at its
  stage — the value the operation computes, as a function of the arguments — and the twenty arguments unchanged. The
  program is a straight line of 183 host operations; its run is the fold of their results over the launch memory, taken
  here chunk by chunk: after each chunk the buffers later chunks read hold their stages.
-/
import proofs.«424737_j11321533792616_2_alg».proof.Proof.RefRead
import Idealize.ShloMosaic.Lib.StableHlo.Run
import proofs.«424737_j11321533792616_2_alg».proof.Proof.RefHandRunSeq
import proofs.«424737_j11321533792616_2_alg».proof.Proof.RefHandRunK1
import proofs.«424737_j11321533792616_2_alg».proof.Proof.RefHandRunK2
import proofs.«424737_j11321533792616_2_alg».proof.Proof.RefHandRunK3
import proofs.«424737_j11321533792616_2_alg».proof.Proof.RefHandRunK4
import proofs.«424737_j11321533792616_2_alg».proof.Proof.RefHandRunK5
import proofs.«424737_j11321533792616_2_alg».proof.Proof.RefHandRunK6

noncomputable section

namespace Cert.ReferenceIdeal.HandRun

open Cert.ReferenceIdeal Cert.ReferenceIdeal.Gen Cert.ReferenceIdeal.ReadP
open Idealize.ShloMosaic Idealize.ShloMosaic.TcCoe Idealize.SL.Sem Idealize.ShloMosaic.StableHlo

variable {F : FTy → Type} [FloatOps F]

/-! ## The contents after each stretch of operations -/

/-- The device's buffer contents after the first list, from contents `V0`. -/
def V1 (V0 : Valuation τ sig (Elt F)) : Valuation τ sig (Elt F) := after opsA V0
/-- After the second list. -/
def V2 (V0 : Valuation τ sig (Elt F)) : Valuation τ sig (Elt F) := after opsB (V1 V0)
/-- After the third stretch (two lists). -/
def V3 (V0 : Valuation τ sig (Elt F)) : Valuation τ sig (Elt F) := after opsC2 (after opsC1 (V2 V0))
/-- After the fourth list. -/
def V4 (V0 : Valuation τ sig (Elt F)) : Valuation τ sig (Elt F) := after opsD (V3 V0)
/-- After the fifth stretch (two lists). -/
def V5 (V0 : Valuation τ sig (Elt F)) : Valuation τ sig (Elt F) := after opsE2 (after opsE1 (V4 V0))
/-- After the last list: the contents @main ends with. -/
def V6 (V0 : Valuation τ sig (Elt F)) : Valuation τ sig (Elt F) := after opsF (V5 V0)

theorem not_mem_left {α : Type} {a : α} {l₁ l₂ : List α} (h : a ∉ l₁ ++ l₂) : a ∉ l₁ :=
  fun hm => h (List.mem_append_left _ hm)
theorem not_mem_right {α : Type} {a : α} {l₁ l₂ : List α} (h : a ∉ l₁ ++ l₂) : a ∉ l₂ :=
  fun hm => h (List.mem_append_right _ hm)

/-! ## Buffers a stretch does not write -/

theorem V1_keep (V0 : Valuation τ sig (Elt F)) (r : Ref sig .tc) (hA : r ∉ opsA_W) :
    V1 V0 (Proc.devRef .tc r) = V0 (Proc.devRef .tc r) := keepA V0 r hA
theorem V2_keep (V0 : Valuation τ sig (Elt F)) (r : Ref sig .tc) (hB : r ∉ opsB_W) :
    V2 V0 (Proc.devRef .tc r) = V1 V0 (Proc.devRef .tc r) := keepB (V1 V0) r hB
theorem V3_keep (V0 : Valuation τ sig (Elt F)) (r : Ref sig .tc) (hC : r ∉ opsC1_W ++ opsC2_W) :
    V3 V0 (Proc.devRef .tc r) = V2 V0 (Proc.devRef .tc r) :=
  (keepC2 (after opsC1 (V2 V0)) r (not_mem_right hC)).trans (keepC1 (V2 V0) r (not_mem_left hC))
theorem V4_keep (V0 : Valuation τ sig (Elt F)) (r : Ref sig .tc) (hD : r ∉ opsD_W) :
    V4 V0 (Proc.devRef .tc r) = V3 V0 (Proc.devRef .tc r) := keepD (V3 V0) r hD
theorem V5_keep (V0 : Valuation τ sig (Elt F)) (r : Ref sig .tc) (hE : r ∉ opsE1_W ++ opsE2_W) :
    V5 V0 (Proc.devRef .tc r) = V4 V0 (Proc.devRef .tc r) :=
  (keepE2 (after opsE1 (V4 V0)) r (not_mem_right hE)).trans (keepE1 (V4 V0) r (not_mem_left hE))
theorem V6_keep (V0 : Valuation τ sig (Elt F)) (r : Ref sig .tc) (hF : r ∉ opsF_W) :
    V6 V0 (Proc.devRef .tc r) = V5 V0 (Proc.devRef .tc r) := keepF (V5 V0) r hF

/-- A buffer none of the first three stretches writes is, after them, as it was. -/
theorem V3_of_unwritten (V0 : Valuation τ sig (Elt F)) (r : Ref sig .tc)
    (h : r ∉ opsA_W ++ (opsB_W ++ (opsC1_W ++ opsC2_W))) : V3 V0 (Proc.devRef .tc r) = V0 (Proc.devRef .tc r) :=
  (V3_keep V0 r (not_mem_right (not_mem_right h))).trans
    ((V2_keep V0 r (not_mem_left (not_mem_right h))).trans (V1_keep V0 r (not_mem_left h)))
/-- … none of the first four … -/
theorem V4_of_unwritten (V0 : Valuation τ sig (Elt F)) (r : Ref sig .tc)
    (h : r ∉ opsD_W ++ (opsA_W ++ (opsB_W ++ (opsC1_W ++ opsC2_W)))) : V4 V0 (Proc.devRef .tc r) = V0 (Proc.devRef .tc r) :=
  (V4_keep V0 r (not_mem_left h)).trans (V3_of_unwritten V0 r (not_mem_right h))
/-- … none of the first five … -/
theorem V5_of_unwritten (V0 : Valuation τ sig (Elt F)) (r : Ref sig .tc)
    (h : r ∉ (opsE1_W ++ opsE2_W) ++ (opsD_W ++ (opsA_W ++ (opsB_W ++ (opsC1_W ++ opsC2_W))))) :
    V5 V0 (Proc.devRef .tc r) = V0 (Proc.devRef .tc r) :=
  (V5_keep V0 r (not_mem_left h)).trans (V4_of_unwritten V0 r (not_mem_right h))
/-- A buffer no operation writes ends as it was launched. -/
theorem V6_of_unwritten (V0 : Valuation τ sig (Elt F)) (r : Ref sig .tc)
    (h : r ∉ opsF_W ++ ((opsE1_W ++ opsE2_W) ++ (opsD_W ++ (opsA_W ++ (opsB_W ++ (opsC1_W ++ opsC2_W)))))) :
    V6 V0 (Proc.devRef .tc r) = V0 (Proc.devRef .tc r) :=
  (V6_keep V0 r (not_mem_left h)).trans (V5_of_unwritten V0 r (not_mem_right h))

/-- A buffer the stretches after the FIRST do not write ends as the first left it. -/
theorem V6_of_V1 (V0 : Valuation τ sig (Elt F)) (r : Ref sig .tc)
    (h : r ∉ opsF_W ++ ((opsE1_W ++ opsE2_W) ++ (opsD_W ++ ((opsC1_W ++ opsC2_W) ++ opsB_W)))) :
    V6 V0 (Proc.devRef .tc r) = V1 V0 (Proc.devRef .tc r) :=
  (V6_keep V0 r (not_mem_left h)).trans <| (V5_keep V0 r (not_mem_left (not_mem_right h))).trans <|
    (V4_keep V0 r (not_mem_left (not_mem_right (not_mem_right h)))).trans <|
    (V3_keep V0 r (not_mem_left (not_mem_right (not_mem_right (not_mem_right h))))).trans
      (V2_keep V0 r (not_mem_right (not_mem_right (not_mem_right (not_mem_right h)))))
/-- A buffer the stretches after the SECOND do not write ends as the second left it. -/
theorem V6_of_V2 (V0 : Valuation τ sig (Elt F)) (r : Ref sig .tc)
    (h : r ∉ opsF_W ++ ((opsE1_W ++ opsE2_W) ++ (opsD_W ++ (opsC1_W ++ opsC2_W)))) :
    V6 V0 (Proc.devRef .tc r) = V2 V0 (Proc.devRef .tc r) :=
  (V6_keep V0 r (not_mem_left h)).trans <| (V5_keep V0 r (not_mem_left (not_mem_right h))).trans <|
    (V4_keep V0 r (not_mem_left (not_mem_right (not_mem_right h)))).trans
      (V3_keep V0 r (not_mem_right (not_mem_right (not_mem_right h))))
/-- A buffer the stretches after the FOURTH do not write ends as the fourth left it. -/
theorem V6_of_V4 (V0 : Valuation τ sig (Elt F)) (r : Ref sig .tc) (h : r ∉ opsF_W ++ (opsE1_W ++ opsE2_W)) :
    V6 V0 (Proc.devRef .tc r) = V4 V0 (Proc.devRef .tc r) :=
  (V6_keep V0 r (not_mem_left h)).trans (V5_keep V0 r (not_mem_right h))

/-! ## The stages, stretch by stretch -/

/-- The contents `V0` hold the arguments' values `x0 … x19` at the arguments' buffers. -/
structure Launched (V0 : Valuation τ sig (Elt F))
    (x0 : (⟨S32768x1024, .f32⟩ : BufTy).Contents (Elt F)) (x1 : (⟨S3, .i32⟩ : BufTy).Contents (Elt F))
    (x2 : (⟨S512x1024, .f32⟩ : BufTy).Contents (Elt F)) (x3 : (⟨S512, .f32⟩ : BufTy).Contents (Elt F))
    (x4 : (⟨S512x512, .f32⟩ : BufTy).Contents (Elt F)) (x5 : (⟨S512, .f32⟩ : BufTy).Contents (Elt F))
    (x6 : (⟨S1024x512, .f32⟩ : BufTy).Contents (Elt F)) (x7 : (⟨S1024, .f32⟩ : BufTy).Contents (Elt F))
    (x8 : (⟨S256x1024, .f32⟩ : BufTy).Contents (Elt F)) (x9 : (⟨S256, .f32⟩ : BufTy).Contents (Elt F))
    (x10 : (⟨S1x256, .f32⟩ : BufTy).Contents (Elt F)) (x11 : (⟨S1, .f32⟩ : BufTy).Contents (Elt F))
    (x12 : (⟨S20x1024, .f32⟩ : BufTy).Contents (Elt F)) (x13 : (⟨S20, .f32⟩ : BufTy).Contents (Elt F))
    (x14 : (⟨S256x1024, .f32⟩ : BufTy).Contents (Elt F)) (x15 : (⟨S1x256, .f32⟩ : BufTy).Contents (Elt F))
    (x16 : (⟨S20x1024, .f32⟩ : BufTy).Contents (Elt F)) (x17 : (⟨S256x1024, .f32⟩ : BufTy).Contents (Elt F))
    (x18 : (⟨S1x256, .f32⟩ : BufTy).Contents (Elt F)) (x19 : (⟨S20x1024, .f32⟩ : BufTy).Contents (Elt F)) : Prop where
  a0 : V0 (Proc.devRef .tc main_arg0) = x0
  a1 : V0 (Proc.devRef .tc main_arg1) = x1
  a2 : V0 (Proc.devRef .tc main_arg2) = x2
  a3 : V0 (Proc.devRef .tc main_arg3) = x3
  a4 : V0 (Proc.devRef .tc main_arg4) = x4
  a5 : V0 (Proc.devRef .tc main_arg5) = x5
  a6 : V0 (Proc.devRef .tc main_arg6) = x6
  a7 : V0 (Proc.devRef .tc main_arg7) = x7
  a8 : V0 (Proc.devRef .tc main_arg8) = x8
  a9 : V0 (Proc.devRef .tc main_arg9) = x9
  a10 : V0 (Proc.devRef .tc main_arg10) = x10
  a11 : V0 (Proc.devRef .tc main_arg11) = x11
  a12 : V0 (Proc.devRef .tc main_arg12) = x12
  a13 : V0 (Proc.devRef .tc main_arg13) = x13
  a14 : V0 (Proc.devRef .tc main_arg14) = x14
  a15 : V0 (Proc.devRef .tc main_arg15) = x15
  a16 : V0 (Proc.devRef .tc main_arg16) = x16
  a17 : V0 (Proc.devRef .tc main_arg17) = x17
  a18 : V0 (Proc.devRef .tc main_arg18) = x18
  a19 : V0 (Proc.devRef .tc main_arg19) = x19

section Stages

variable {V0 : Valuation τ sig (Elt F)}
  {x0 : (⟨S32768x1024, .f32⟩ : BufTy).Contents (Elt F)} {x1 : (⟨S3, .i32⟩ : BufTy).Contents (Elt F)}
  {x2 : (⟨S512x1024, .f32⟩ : BufTy).Contents (Elt F)} {x3 : (⟨S512, .f32⟩ : BufTy).Contents (Elt F)}
  {x4 : (⟨S512x512, .f32⟩ : BufTy).Contents (Elt F)} {x5 : (⟨S512, .f32⟩ : BufTy).Contents (Elt F)}
  {x6 : (⟨S1024x512, .f32⟩ : BufTy).Contents (Elt F)} {x7 : (⟨S1024, .f32⟩ : BufTy).Contents (Elt F)}
  {x8 : (⟨S256x1024, .f32⟩ : BufTy).Contents (Elt F)} {x9 : (⟨S256, .f32⟩ : BufTy).Contents (Elt F)}
  {x10 : (⟨S1x256, .f32⟩ : BufTy).Contents (Elt F)} {x11 : (⟨S1, .f32⟩ : BufTy).Contents (Elt F)}
  {x12 : (⟨S20x1024, .f32⟩ : BufTy).Contents (Elt F)} {x13 : (⟨S20, .f32⟩ : BufTy).Contents (Elt F)}
  {x14 : (⟨S256x1024, .f32⟩ : BufTy).Contents (Elt F)} {x15 : (⟨S1x256, .f32⟩ : BufTy).Contents (Elt F)}
  {x16 : (⟨S20x1024, .f32⟩ : BufTy).Contents (Elt F)} {x17 : (⟨S256x1024, .f32⟩ : BufTy).Contents (Elt F)}
  {x18 : (⟨S1x256, .f32⟩ : BufTy).Contents (Elt F)} {x19 : (⟨S20x1024, .f32⟩ : BufTy).Contents (Elt F)}
  (hL : Launched V0 x0 x1 x2 x3 x4 x5 x6 x7 x8 x9 x10 x11 x12 x13 x14 x15 x16 x17 x18 x19)
include hL

/-- The first stretch leaves the embedding at its stage. -/
theorem s18_V1 : V1 V0 (Proc.devRef .tc main_v18) = val_main_v18 (F := F) x0 x2 x3 x4 x5 x6 x7 :=
  k1_v18 V0 x0 x2 x3 x4 x5 x6 x7 hL.a0 hL.a2 hL.a3 hL.a4 hL.a5 hL.a6 hL.a7

/-- The second stretch leaves the class activations at their stage: it finds the embedding where the first left it,
    and the arguments it reads as launched (the first stretch writes none of them). -/
theorem s42_V2 : V2 V0 (Proc.devRef .tc main_v42) = val_main_v42 (F := F) x0 x2 x3 x4 x5 x6 x7 x8 x9 x10 x11 x12 x13 :=
  k2_v42 (V1 V0) x0 x2 x3 x4 x5 x6 x7 x8 x9 x10 x11 x12 x13 (s18_V1 hL)
    ((V1_keep V0 main_arg8 (by decide)).trans hL.a8) ((V1_keep V0 main_arg9 (by decide)).trans hL.a9)
    ((V1_keep V0 main_arg10 (by decide)).trans hL.a10) ((V1_keep V0 main_arg11 (by decide)).trans hL.a11)
    ((V1_keep V0 main_arg12 (by decide)).trans hL.a12) ((V1_keep V0 main_arg13 (by decide)).trans hL.a13)
/-- … and the first [20] result at its stage. -/
theorem s49_V2 : V2 V0 (Proc.devRef .tc main_v49) = val_main_v49 (F := F) x0 x2 x3 x4 x5 x6 x7 x8 x9 x10 x11 x12 x13 :=
  k2_v49 (V1 V0) x0 x2 x3 x4 x5 x6 x7 x8 x9 x10 x11 x12 x13 (s18_V1 hL)
    ((V1_keep V0 main_arg8 (by decide)).trans hL.a8) ((V1_keep V0 main_arg9 (by decide)).trans hL.a9)
    ((V1_keep V0 main_arg10 (by decide)).trans hL.a10) ((V1_keep V0 main_arg11 (by decide)).trans hL.a11)
    ((V1_keep V0 main_arg12 (by decide)).trans hL.a12) ((V1_keep V0 main_arg13 (by decide)).trans hL.a13)

/-- The third stretch leaves the once-erased features at their stage. -/
theorem s70_V3 : V3 V0 (Proc.devRef .tc main_v70) = val_main_v70 (F := F) x0 x1 x2 x3 x4 x5 x6 x7 x8 x9 x10 x11 x12 x13 :=
  k3_v70 (V2 V0) x0 x1 x2 x3 x4 x5 x6 x7 x8 x9 x10 x11 x12 x13
    ((V2_keep V0 main_arg1 (by decide)).trans ((V1_keep V0 main_arg1 (by decide)).trans hL.a1))
    ((V2_keep V0 main_v18 (by decide)).trans (s18_V1 hL)) (s42_V2 hL)

/-- The fourth stretch leaves the second gate at its stage, -/
theorem s81_V4 : V4 V0 (Proc.devRef .tc main_v81)
    = val_main_v81 (F := F) x0 x1 x2 x3 x4 x5 x6 x7 x8 x9 x10 x11 x12 x13 x14 x15 :=
  k4_v81 (V3 V0) x0 x1 x2 x3 x4 x5 x6 x7 x8 x9 x10 x11 x12 x13 x14 x15 (s70_V3 hL)
    ((V3_of_unwritten V0 main_arg14 (by decide)).trans hL.a14) ((V3_of_unwritten V0 main_arg15 (by decide)).trans hL.a15)
/-- the second class activations at theirs, -/
theorem s85_V4 : V4 V0 (Proc.devRef .tc main_v85)
    = val_main_v85 (F := F) x0 x1 x2 x3 x4 x5 x6 x7 x8 x9 x10 x11 x12 x13 x14 x15 x16 :=
  k4_v85 (V3 V0) x0 x1 x2 x3 x4 x5 x6 x7 x8 x9 x10 x11 x12 x13 x14 x15 x16 (s70_V3 hL)
    ((V3_of_unwritten V0 main_arg14 (by decide)).trans hL.a14) ((V3_of_unwritten V0 main_arg15 (by decide)).trans hL.a15)
    ((V3_of_unwritten V0 main_arg16 (by decide)).trans hL.a16)
/-- and the second [20] result at its. -/
theorem s92_V4 : V4 V0 (Proc.devRef .tc main_v92)
    = val_main_v92 (F := F) x0 x1 x2 x3 x4 x5 x6 x7 x8 x9 x10 x11 x12 x13 x14 x15 x16 :=
  k4_v92 (V3 V0) x0 x1 x2 x3 x4 x5 x6 x7 x8 x9 x10 x11 x12 x13 x14 x15 x16 (s70_V3 hL)
    ((V3_of_unwritten V0 main_arg14 (by decide)).trans hL.a14) ((V3_of_unwritten V0 main_arg15 (by decide)).trans hL.a15)
    ((V3_of_unwritten V0 main_arg16 (by decide)).trans hL.a16)

/-- The fifth stretch leaves the twice-erased features at their stage. -/
theorem s113_V5 : V5 V0 (Proc.devRef .tc main_v113)
    = val_main_v113 (F := F) x0 x1 x2 x3 x4 x5 x6 x7 x8 x9 x10 x11 x12 x13 x14 x15 x16 :=
  k5_v113 (V4 V0) x0 x1 x2 x3 x4 x5 x6 x7 x8 x9 x10 x11 x12 x13 x14 x15 x16
    ((V4_of_unwritten V0 main_arg1 (by decide)).trans hL.a1)
    ((V4_keep V0 main_v70 (by decide)).trans (s70_V3 hL)) (s85_V4 hL)

/-- The last stretch leaves the third gate at its stage, -/
theorem s124_V6 : V6 V0 (Proc.devRef .tc main_v124)
    = val_main_v124 (F := F) x0 x1 x2 x3 x4 x5 x6 x7 x8 x9 x10 x11 x12 x13 x14 x15 x16 x17 x18 :=
  k6_v124 (V5 V0) x0 x1 x2 x3 x4 x5 x6 x7 x8 x9 x10 x11 x12 x13 x14 x15 x16 x17 x18 (s113_V5 hL)
    ((V5_of_unwritten V0 main_arg17 (by decide)).trans hL.a17) ((V5_of_unwritten V0 main_arg18 (by decide)).trans hL.a18)
/-- the third class activations at theirs, -/
theorem s128_V6 : V6 V0 (Proc.devRef .tc main_v128)
    = val_main_v128 (F := F) x0 x1 x2 x3 x4 x5 x6 x7 x8 x9 x10 x11 x12 x13 x14 x15 x16 x17 x18 x19 :=
  k6_v128 (V5 V0) x0 x1 x2 x3 x4 x5 x6 x7 x8 x9 x10 x11 x12 x13 x14 x15 x16 x17 x18 x19 (s113_V5 hL)
    ((V5_of_unwritten V0 main_arg17 (by decide)).trans hL.a17) ((V5_of_unwritten V0 main_arg18 (by decide)).trans hL.a18)
    ((V5_of_unwritten V0 main_arg19 (by decide)).trans hL.a19)
/-- and the third [20] result at its. -/
theorem s135_V6 : V6 V0 (Proc.devRef .tc main_v135)
    = val_main_v135 (F := F) x0 x1 x2 x3 x4 x5 x6 x7 x8 x9 x10 x11 x12 x13 x14 x15 x16 x17 x18 x19 :=
  k6_v135 (V5 V0) x0 x1 x2 x3 x4 x5 x6 x7 x8 x9 x10 x11 x12 x13 x14 x15 x16 x17 x18 x19 (s113_V5 hL)
    ((V5_of_unwritten V0 main_arg17 (by decide)).trans hL.a17) ((V5_of_unwritten V0 main_arg18 (by decide)).trans hL.a18)
    ((V5_of_unwritten V0 main_arg19 (by decide)).trans hL.a19)

end Stages

/-- On every device, from any memory with zero counters: every weakly fair execution of @main terminates with each
    result at its stage of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v49) = val_main_v49 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v18) = val_main_v18 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v42) = val_main_v42 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v92) = val_main_v92 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_v85) = val_main_v85 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_v81) = val_main_v81 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_v135) = val_main_v135 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_v128) = val_main_v128 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_v124) = val_main_v124 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun r h c => by
    have hL : Launched (F := F) (launchContents m c)
        (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7))
        (m ((c.tc : Thread nD τ).loc main_arg8)) (m ((c.tc : Thread nD τ).loc main_arg9))
        (m ((c.tc : Thread nD τ).loc main_arg10)) (m ((c.tc : Thread nD τ).loc main_arg11))
        (m ((c.tc : Thread nD τ).loc main_arg12)) (m ((c.tc : Thread nD τ).loc main_arg13))
        (m ((c.tc : Thread nD τ).loc main_arg14)) (m ((c.tc : Thread nD τ).loc main_arg15))
        (m ((c.tc : Thread nD τ).loc main_arg16)) (m ((c.tc : Thread nD τ).loc main_arg17))
        (m ((c.tc : Thread nD τ).loc main_arg18)) (m ((c.tc : Thread nD τ).loc main_arg19)) :=
      ⟨rfl, rfl, rfl, rfl, rfl, rfl, rfl, rfl, rfl, rfl, rfl, rfl, rfl, rfl, rfl, rfl, rfl, rfl, rfl, rfl⟩
    exact ⟨(h c main_v49).trans ((V6_of_V2 (launchContents m c) main_v49 (by decide)).trans (s49_V2 hL)),
      (h c main_v18).trans ((V6_of_V1 (launchContents m c) main_v18 (by decide)).trans (s18_V1 hL)),
      (h c main_v42).trans ((V6_of_V2 (launchContents m c) main_v42 (by decide)).trans (s42_V2 hL)),
      (h c main_v92).trans ((V6_of_V4 (launchContents m c) main_v92 (by decide)).trans (s92_V4 hL)),
      (h c main_v85).trans ((V6_of_V4 (launchContents m c) main_v85 (by decide)).trans (s85_V4 hL)),
      (h c main_v81).trans ((V6_of_V4 (launchContents m c) main_v81 (by decide)).trans (s81_V4 hL)),
      (h c main_v135).trans (s135_V6 hL),
      (h c main_v128).trans (s128_V6 hL),
      (h c main_v124).trans (s124_V6 hL),
      (h c main_arg0).trans (V6_of_unwritten (launchContents m c) main_arg0 (by decide)),
      (h c main_arg1).trans (V6_of_unwritten (launchContents m c) main_arg1 (by decide)),
      (h c main_arg2).trans (V6_of_unwritten (launchContents m c) main_arg2 (by decide)),
      (h c main_arg3).trans (V6_of_unwritten (launchContents m c) main_arg3 (by decide)),
      (h c main_arg4).trans (V6_of_unwritten (launchContents m c) main_arg4 (by decide)),
      (h c main_arg5).trans (V6_of_unwritten (launchContents m c) main_arg5 (by decide)),
      (h c main_arg6).trans (V6_of_unwritten (launchContents m c) main_arg6 (by decide)),
      (h c main_arg7).trans (V6_of_unwritten (launchContents m c) main_arg7 (by decide)),
      (h c main_arg8).trans (V6_of_unwritten (launchContents m c) main_arg8 (by decide)),
      (h c main_arg9).trans (V6_of_unwritten (launchContents m c) main_arg9 (by decide)),
      (h c main_arg10).trans (V6_of_unwritten (launchContents m c) main_arg10 (by decide)),
      (h c main_arg11).trans (V6_of_unwritten (launchContents m c) main_arg11 (by decide)),
      (h c main_arg12).trans (V6_of_unwritten (launchContents m c) main_arg12 (by decide)),
      (h c main_arg13).trans (V6_of_unwritten (launchContents m c) main_arg13 (by decide)),
      (h c main_arg14).trans (V6_of_unwritten (launchContents m c) main_arg14 (by decide)),
      (h c main_arg15).trans (V6_of_unwritten (launchContents m c) main_arg15 (by decide)),
      (h c main_arg16).trans (V6_of_unwritten (launchContents m c) main_arg16 (by decide)),
      (h c main_arg17).trans (V6_of_unwritten (launchContents m c) main_arg17 (by decide)),
      (h c main_arg18).trans (V6_of_unwritten (launchContents m c) main_arg18 (by decide)),
      (h c main_arg19).trans (V6_of_unwritten (launchContents m c) main_arg19 (by decide))⟩)
    (run_after m ρ)

end Cert.ReferenceIdeal.HandRun

end
-- ==== Proof.Pre.lean ====
/-
  What the precondition says of the labels: the printed predicate is a conjunction whose last conjunct is "every label is
  at least zero" (a signed comparison with the zero word, all three lanes and-ed together), so where the predicate is all
  ones each label, read as a signed integer, is non-negative.
-/
import proofs.«424737_j11321533792616_2_alg».proof.Pre_finite_inputs
import proofs.«424737_j11321533792616_2_alg».proof.Proof.Gen.Pre_finite_inputs
import Idealize.ShloMosaic.Lib.ReduceAll
import Idealize.ShloMosaic.Lib.StableHlo.Predicate
import Idealize.ShloMosaic.Lib.ValueIdx

noncomputable section

namespace Cert.PreRead

open Idealize.ShloMosaic Idealize.ShloMosaic.ValueIdx Cert.Pre_finite_inputs

/-- Under the precondition every label is non-negative as a signed integer. -/
theorem labels_nonneg {F : FTy → Type} [FloatOps F] [Cert.Pre_finite_inputs.Facts]
    (a0 : FVec F S32768x1024 .f32) (a1 : IVec S3 32) (a2 : FVec F S512x1024 .f32) (a3 : FVec F S512 .f32) (a4 : FVec F S512x512 .f32) (a5 : FVec F S512 .f32) (a6 : FVec F S1024x512 .f32) (a7 : FVec F S1024 .f32) (a8 : FVec F S256x1024 .f32) (a9 : FVec F S256 .f32) (a10 : FVec F S1x256 .f32) (a11 : FVec F S1 .f32) (a12 : FVec F S20x1024 .f32) (a13 : FVec F S20 .f32) (a14 : FVec F S256x1024 .f32) (a15 : FVec F S1x256 .f32) (a16 : FVec F S20x1024 .f32) (a17 : FVec F S256x1024 .f32) (a18 : FVec F S1x256 .f32) (a19 : FVec F S20x1024 .f32)
    (h : Cert.Pre_finite_inputs.fn (F := F) a0 a1 a2 a3 a4 a5 a6 a7 a8 a9 a10 a11 a12 a13 a14 a15 a16 a17 a18 a19 = fun _ => 1#1) (j : Fin 3) :
    0 ≤ (a1 (ix1 j)).toInt := by
  -- the predicate at its one index is a word equal to one
  have h0 := congrFun h ix0
  -- it is a chain of conjunctions whose last conjunct is the and-reduction of "label ≥ 0" over the labels' axis
  have hlast : Host.reduce IntOp.andi
      (cmpi .sge a1 (broadcastInDim S3 ![] Facts.bcast_S_S3 (constantI S_ 32 0#32)))
      (constantI S_ 1 1#1) Facts.reducesTo_S3_S_d0 Facts.h_S_ ix0 = 1#1 :=
    (IntOp.andi_eq_one.1 h0).2
  -- the result has one index, so every lane of the comparison is one
  haveI : Subsingleton S_.Idx := ⟨fun a b => funext fun d => d.elim0⟩
  have hel : IntOp.cmpi .sge (a1 (ix1 j)) (0#32) = 1#1 :=
    Host.reduce_andi_all _ _ _ _ _ hlast (ix1 j)
  -- a signed "≥" that holds orders the signed values; the zero word reads as zero
  have hle : (0#32 : BitVec 32).toInt ≤ (a1 (ix1 j)).toInt := IntOp.cmpi_sge.1 hel
  simpa using hle

end Cert.PreRead

end
-- ==== Proof.lean ====
/-
  The claim: a fused three-stage temporal-attention head over 32768 rows, each row processed independently — a residual
  three-layer embedding, a sigmoid gate and twenty class activations, then twice "erase the rows whose strongest
  labelled class is confident, and gate and classify again" — computed by one tiled kernel (tiles of 256 rows; the weight
  matrices pre-transposed; the three labelled class columns recomputed from gathered weight rows; the three column sums
  accumulated per tile and finished after the region) against the plain array program.

  On the extended reals both programs compute, row by row, the same chain of functions (Proof/Spec.lean): a change of float
  format is the identity, a matrix product is its plain sum in either program, the kernel's per-label dot product with row
  `label` of a class matrix is column `label` of the product with the whole matrix, and a sum over all rows regroups freely
  into the sum over tiles of the sums over each tile's rows (sums of extended reals are a commutative monoid: no finiteness
  is needed, and the float part of the precondition is never opened). The one place the two differ is a NEGATIVE label:
  the array program's indexing wraps it (column `label + 20`) while the kernel clips it to class 0; above 19 both clamp to
  the last class. So the statement carries the conjunct "labels ≥ 0", and that conjunct is all the proof uses of the
  precondition.

  The three frames: the two kernel programs' are the generated frame certificates; the reference's is its run (every
  weakly fair execution terminates with each buffer at the fold of the operations' results) with the results dropped.
-/
import proofs.«424737_j11321533792616_2_alg».proof.Defs
import proofs.«424737_j11321533792616_2_alg».proof.Proof.Gen.Kernel
import proofs.«424737_j11321533792616_2_alg».proof.Proof.Gen.KernelIdeal
import proofs.«424737_j11321533792616_2_alg».proof.Proof.Gen.ReferenceIdeal
import proofs.«424737_j11321533792616_2_alg».proof.Proof.Gen.Pre_finite_inputs
import proofs.«424737_j11321533792616_2_alg».proof.Proof.KernelFrame
import proofs.«424737_j11321533792616_2_alg».proof.Proof.KRun
import proofs.«424737_j11321533792616_2_alg».proof.Proof.RefRun
import proofs.«424737_j11321533792616_2_alg».proof.Proof.RefHandRun
import proofs.«424737_j11321533792616_2_alg».proof.Proof.Pre
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.GenP.frame m ρ

theorem frame_ki : Cert.frame_KernelIdeal := fun m ρ _ => Cert.KernelIdeal.GenP.frame m ρ

/-- The reference's frame: its run, the nine results dropped. -/
theorem frame_ri : Cert.frame_ReferenceIdeal := fun m ρ _ =>
  (θ_run Cert.ReferenceIdeal.defs _ _).mono (fun _ h c => (h c).2.2.2.2.2.2.2.2.2)
    (Cert.ReferenceIdeal.HandRun.run (F := Ideal) m ρ)

/-- The ideal pass rewrote nothing: the idealized kernel is the kernel's own text read on the extended reals. -/
theorem preserves : Cert.preserves_Kernel_KernelIdeal := trivial

/-- Both idealized programs end with the specification's nine result functions of the arguments, and the arguments
    agree; the reference's side needs the labels non-negative, which the precondition says. -/
theorem algebraic : Cert.algebraic_KernelIdeal_ReferenceIdeal := by
  intro m ρ m' ρ' hpre hagree
  refine ⟨_, _, _, _, _, _, _, _, _, Cert.KernelIdeal.Hand.run m ρ, ?_⟩
  refine (θ_run Cert.ReferenceIdeal.defs _ _).mono (fun _ h c => ?_) (Cert.ReferenceIdeal.HandRun.run (F := Ideal) m' ρ')
  obtain ⟨g0, g1, g2, g3, g4, g5, g6, g7, g8, g9, g10, g11, g12, g13, g14, g15, g16, g17, g18, g19⟩ := hagree c
  have hlab : ∀ j : Fin 3, 0 ≤ ((m' ((c.tc : Thread Cert.ReferenceIdeal.nD Cert.ReferenceIdeal.τ).loc Cert.ReferenceIdeal.main_arg1)) (ix1 j)).toInt := by
    intro j
    rw [g1]
    exact Cert.PreRead.labels_nonneg (F := Ideal) _ _ _ _ _ _ _ _ _ _ _ _ _ _ _ _ _ _ _ _ (hpre c) j
  have hW : Cert.KernelIdeal.Hand.WAm m c = Spec.WA (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) := by
    unfold Cert.KernelIdeal.Hand.WAm
    rw [g1, g2, g3, g4, g5, g6, g7, g8, g9, g10, g11, g12, g13, g14, g15, g16, g17, g18, g19]
  obtain ⟨r0, r1, r2, r3, r4, r5, r6, r7, r8, kept⟩ := h c
  refine ⟨?_, ?_, ?_, ?_, ?_, ?_, ?_, ?_, ?_, kept⟩
  · exact r0.trans ((Cert.ReferenceIdeal.Stages.res_v49 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19))).trans (by rw [hW, g0]))
  · exact r1.trans ((Cert.ReferenceIdeal.Stages.res_v18 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19))).trans (by rw [hW, g0]))
  · exact r2.trans ((Cert.ReferenceIdeal.Stages.res_v42 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19))).trans (by rw [hW, g0]))
  · exact r3.trans ((Cert.ReferenceIdeal.Stages.res_v92 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) hlab).trans (by rw [hW, g0]))
  · exact r4.trans ((Cert.ReferenceIdeal.Stages.res_v85 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) hlab).trans (by rw [hW, g0]))
  · exact r5.trans ((Cert.ReferenceIdeal.Stages.res_v81 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) hlab).trans (by rw [hW, g0]))
  · exact r6.trans ((Cert.ReferenceIdeal.Stages.res_v135 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) hlab).trans (by rw [hW, g0]))
  · exact r7.trans ((Cert.ReferenceIdeal.Stages.res_v128 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) hlab).trans (by rw [hW, g0]))
  · exact r8.trans ((Cert.ReferenceIdeal.Stages.res_v124 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) hlab).trans (by rw [hW, g0]))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
